-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v108)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v108) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x8192 : Shape := ⟨2, ![64, 8192]⟩
abbrev S64x262144 : Shape := ⟨2, ![64, 262144]⟩
abbrev S2x4096x4096 : Shape := ⟨3, ![2, 4096, 4096]⟩
abbrev S330x128 : Shape := ⟨2, ![330, 128]⟩
abbrev S128 : Shape := ⟨1, ![128]⟩
abbrev S330x64 : Shape := ⟨2, ![330, 64]⟩
abbrev S64 : Shape := ⟨1, ![64]⟩
abbrev S_ : Shape := ⟨0, ![]⟩

class Facts : Prop where
  bcast_S_S64x8192 : S_.BroadcastsInDim S64x8192 (![] : Fin 0 → Fin S64x8192.rank)
  reducesTo_S64x8192_S_d0_1 : S64x8192.ReducesTo [0, 1] S_
  h_S_ : 0 < S_.numel
  bcast_S_S64x262144 : S_.BroadcastsInDim S64x262144 (![] : Fin 0 → Fin S64x262144.rank)
  reducesTo_S64x262144_S_d0_1 : S64x262144.ReducesTo [0, 1] S_
  bcast_S_S2x4096x4096 : S_.BroadcastsInDim S2x4096x4096 (![] : Fin 0 → Fin S2x4096x4096.rank)
  reducesTo_S2x4096x4096_S_d0_1_2 : S2x4096x4096.ReducesTo [0, 1, 2] S_
  bcast_S_S330x128 : S_.BroadcastsInDim S330x128 (![] : Fin 0 → Fin S330x128.rank)
  reducesTo_S330x128_S_d0_1 : S330x128.ReducesTo [0, 1] S_
  bcast_S_S128 : S_.BroadcastsInDim S128 (![] : Fin 0 → Fin S128.rank)
  reducesTo_S128_S_d0 : S128.ReducesTo [0] S_
  bcast_S_S330x64 : S_.BroadcastsInDim S330x64 (![] : Fin 0 → Fin S330x64.rank)
  reducesTo_S330x64_S_d0_1 : S330x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S128 .f32) (main_arg5 : FVec F S330x64 .f32) (main_arg6 : FVec F S64 .f32) (main_v13 : IVec S_ 1) (main_v16 : IVec S330x128 1) : IVec S_ 1 :=
  let main_c_5 : IVec S_ 1 := constantI S_ 1 1#1
  let main_v17 : IVec S_ 1 := (fun x v => Host.reduce IntOp.andi x v reducesTo_S330x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S330x64 .f32 := Host.absf main_arg5
  let main_cst_8 : FVec F S_ .f32 := constant S_ .f32 0x7F800000#32
  let main_v25 : FVec F S330x64 .f32 := broadcastInDim S330x64 ![] bcast_S_S330x64 main_cst_8
  let main_v26 : IVec S330x64 1 := cmpf .olt main_v24 main_v25
  let main_c_9 : IVec S_ 1 := constantI S_ 1 1#1
  let main_v27 : IVec S_ 1 := (fun x v => Host.reduce IntOp.andi x v reducesTo_S330x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S64x8192 .f32) (main_arg1 : FVec F S64x262144 .f32) (main_arg2 : FVec F S2x4096x4096 .f32) (main_arg3 : FVec F S330x128 .f32) (main_arg4 : FVec F S128 .f32) (main_arg5 : FVec F S330x64 .f32) (main_arg6 : FVec F S64 .f32) : IVec S_ 1 :=
  let main_v0 : FVec F S64x8192 .f32 := Host.absf main_arg0
  let main_cst : FVec F S_ .f32 := constant S_ .f32 0x7F800000#32
  let main_v1 : FVec F S64x8192 .f32 := broadcastInDim S64x8192 ![] bcast_S_S64x8192 main_cst
  let main_v2 : IVec S64x8192 1 := cmpf .olt main_v0 main_v1
  let main_c : IVec S_ 1 := constantI S_ 1 1#1
  let main_v3 : IVec S_ 1 := (fun x v => Host.reduce IntOp.andi x v reducesTo_S64x8192_S_d0_1 h_S_) main_v2 main_c
  let main_v4 : FVec F S64x262144 .f32 := Host.absf main_arg1
  let main_cst_0 : FVec F S_ .f32 := constant S_ .f32 0x7F800000#32
  let main_v5 : FVec F S64x262144 .f32 := broadcastInDim S64x262144 ![] bcast_S_S64x262144 main_cst_0
  let main_v6 : IVec S64x262144 1 := cmpf .olt main_v4 main_v5
  let main_c_1 : IVec S_ 1 := constantI S_ 1 1#1
  let main_v7 : IVec S_ 1 := (fun x v => Host.reduce IntOp.andi x v reducesTo_S64x262144_S_d0_1 h_S_) main_v6 main_c_1
  let main_v8 : IVec S_ 1 := andi main_v3 main_v7
  let main_v9 : FVec F S2x4096x4096 .f32 := Host.absf main_arg2
  let main_cst_2 : FVec F S_ .f32 := constant S_ .f32 0x7F800000#32
  let main_v10 : FVec F S2x4096x4096 .f32 := broadcastInDim S2x4096x4096 ![] bcast_S_S2x4096x4096 main_cst_2
  let main_v11 : IVec S2x4096x4096 1 := cmpf .olt main_v9 main_v10
  let main_c_3 : IVec S_ 1 := constantI S_ 1 1#1
  let main_v12 : IVec S_ 1 := (fun x v => Host.reduce IntOp.andi x v reducesTo_S2x4096x4096_S_d0_1_2 h_S_) main_v11 main_c_3
  let main_v13 : IVec S_ 1 := andi main_v8 main_v12
  let main_v14 : FVec F S330x128 .f32 := Host.absf main_arg3
  let main_cst_4 : FVec F S_ .f32 := constant S_ .f32 0x7F800000#32
  let main_v15 : FVec F S330x128 .f32 := broadcastInDim S330x128 ![] bcast_S_S330x128 main_cst_4
  let main_v16 : IVec S330x128 1 := cmpf .olt main_v14 main_v15
  fn_part1 (F := F) main_arg4 main_arg5 main_arg6 main_v13 main_v16
-- ==== Kernel.lean ====
abbrev S64x8192 : Shape := ⟨2, ![64, 8192]⟩
abbrev S64x262144 : Shape := ⟨2, ![64, 262144]⟩
abbrev S2x4096x4096 : Shape := ⟨3, ![2, 4096, 4096]⟩
abbrev S330x128 : Shape := ⟨2, ![330, 128]⟩
abbrev S128 : Shape := ⟨1, ![128]⟩
abbrev S330x64 : Shape := ⟨2, ![330, 64]⟩
abbrev S64 : Shape := ⟨1, ![64]⟩
abbrev S1x4096x4096 : Shape := ⟨3, ![1, 4096, 4096]⟩
abbrev S4096x4096 : Shape := ⟨2, ![4096, 4096]⟩
abbrev S64x4096x2 : Shape := ⟨3, ![64, 4096, 2]⟩
abbrev S64x4096x64 : Shape := ⟨3, ![64, 4096, 64]⟩
abbrev S64x4096x66 : Shape := ⟨3, ![64, 4096, 66]⟩
abbrev S4096x64x66 : Shape := ⟨3, ![4096, 64, 66]⟩
abbrev S4096x4224 : Shape := ⟨2, ![4096, 4224]⟩
abbrev S1024x256 : Shape := ⟨2, ![1024, 256]⟩
abbrev S256x1408 : Shape := ⟨2, ![256, 1408]⟩
abbrev S1024x1408 : Shape := ⟨2, ![1024, 1408]⟩
abbrev S66x5x128 : Shape := ⟨3, ![66, 5, 128]⟩
abbrev S_ : Shape := ⟨0, ![]⟩
abbrev S262144x128 : Shape := ⟨2, ![262144, 128]⟩
abbrev S262144x66 : Shape := ⟨2, ![262144, 66]⟩
abbrev S66x1x128 : Shape := ⟨3, ![66, 1, 128]⟩
abbrev S66x128 : Shape := ⟨2, ![66, 128]⟩
abbrev S1x128 : Shape := ⟨2, ![1, 128]⟩
abbrev S4096x64x128 : Shape := ⟨3, ![4096, 64, 128]⟩
abbrev S64x4096x128 : Shape := ⟨3, ![64, 4096, 128]⟩
abbrev S64x524288 : Shape := ⟨2, ![64, 524288]⟩
abbrev S66x5x64 : Shape := ⟨3, ![66, 5, 64]⟩
abbrev S262144x64 : Shape := ⟨2, ![262144, 64]⟩
abbrev S66x1x64 : Shape := ⟨3, ![66, 1, 64]⟩
abbrev S66x64 : Shape := ⟨2, ![66, 64]⟩
abbrev S1x64 : Shape := ⟨2, ![1, 64]⟩
abbrev S4096x64x64 : Shape := ⟨3, ![4096, 64, 64]⟩

abbrev nBuf : Space → Nat
  | .hbm => 125
  | .vmem => 64
  | .smem => 0
  | _ => 0

abbrev bufTy : (tb : Table) → Fin (tcTables nBuf tb) → BufTy
  | .hbm, ⟨0, _⟩ => ⟨S64x8192, .f32⟩
  | .hbm, ⟨1, _⟩ => ⟨S64x262144, .f32⟩
  | .hbm, ⟨2, _⟩ => ⟨S2x4096x4096, .f32⟩
  | .hbm, ⟨3, _⟩ => ⟨S330x128, .f32⟩
  | .hbm, ⟨4, _⟩ => ⟨S128, .f32⟩
  | .hbm, ⟨5, _⟩ => ⟨S330x64, .f32⟩
  | .hbm, ⟨6, _⟩ => ⟨S64, .f32⟩
  | .hbm, ⟨7, _⟩ => ⟨S2x4096x4096, .bf16⟩
  | .hbm, ⟨8, _⟩ => ⟨S1x4096x4096, .bf16⟩
  | .hbm, ⟨9, _⟩ => ⟨S4096x4096, .bf16⟩
  | .hbm, ⟨10, _⟩ => ⟨S1x4096x4096, .bf16⟩
  | .hbm, ⟨11, _⟩ => ⟨S4096x4096, .bf16⟩
  | .hbm, ⟨12, _⟩ => ⟨S64x4096x2, .f32⟩
  | .hbm, ⟨13, _⟩ => ⟨S64x4096x64, .f32⟩
  | .hbm, ⟨14, _⟩ => ⟨S64x4096x66, .f32⟩
  | .hbm, ⟨15, _⟩ => ⟨S4096x64x66, .f32⟩
  | .hbm, ⟨16, _⟩ => ⟨S4096x4224, .f32⟩
  | .hbm, ⟨17, _⟩ => ⟨S4096x4224, .bf16⟩
  | .hbm, ⟨18, _⟩ => ⟨S4096x4224, .f32⟩
  | .hbm, ⟨19, _⟩ => ⟨S4096x4224, .bf16⟩
  | .hbm, ⟨20, _⟩ => ⟨S4096x4224, .f32⟩
  | .hbm, ⟨21, _⟩ => ⟨S4096x4224, .f32⟩
  | .hbm, ⟨22, _⟩ => ⟨S4096x4224, .bf16⟩
  | .hbm, ⟨23, _⟩ => ⟨S4096x4224, .f32⟩
  | .hbm, ⟨24, _⟩ => ⟨S66x5x128, .f32⟩
  | .hbm, ⟨25, _⟩ => ⟨S_, .f32⟩
  | .hbm, ⟨26, _⟩ => ⟨S262144x128, .f32⟩
  | .hbm, ⟨27, _⟩ => ⟨S262144x66, .f32⟩
  | .hbm, ⟨28, _⟩ => ⟨S66x1x128, .f32⟩
  | .hbm, ⟨29, _⟩ => ⟨S66x128, .f32⟩
  | .hbm, ⟨30, _⟩ => ⟨S262144x128, .f32⟩
  | .hbm, ⟨31, _⟩ => ⟨S262144x128, .f32⟩
  | .hbm, ⟨32, _⟩ => ⟨S262144x66, .f32⟩
  | .hbm, ⟨33, _⟩ => ⟨S66x1x128, .f32⟩
  | .hbm, ⟨34, _⟩ => ⟨S66x128, .f32⟩
  | .hbm, ⟨35, _⟩ => ⟨S262144x128, .f32⟩
  | .hbm, ⟨36, _⟩ => ⟨S262144x128, .f32⟩
  | .hbm, ⟨37, _⟩ => ⟨S262144x66, .f32⟩
  | .hbm, ⟨38, _⟩ => ⟨S66x1x128, .f32⟩
  | .hbm, ⟨39, _⟩ => ⟨S66x128, .f32⟩
  | .hbm, ⟨40, _⟩ => ⟨S262144x128, .f32⟩
  | .hbm, ⟨41, _⟩ => ⟨S262144x128, .f32⟩
  | .hbm, ⟨42, _⟩ => ⟨S262144x66, .f32⟩
  | .hbm, ⟨43, _⟩ => ⟨S66x1x128, .f32⟩
  | .hbm, ⟨44, _⟩ => ⟨S66x128, .f32⟩
  | .hbm, ⟨45, _⟩ => ⟨S262144x128, .f32⟩
  | .hbm, ⟨46, _⟩ => ⟨S262144x128, .f32⟩
  | .hbm, ⟨47, _⟩ => ⟨S262144x66, .f32⟩
  | .hbm, ⟨48, _⟩ => ⟨S66x1x128, .f32⟩
  | .hbm, ⟨49, _⟩ => ⟨S66x128, .f32⟩
  | .hbm, ⟨50, _⟩ => ⟨S262144x128, .f32⟩
  | .hbm, ⟨51, _⟩ => ⟨S262144x128, .f32⟩
  | .hbm, ⟨52, _⟩ => ⟨S1x128, .f32⟩
  | .hbm, ⟨53, _⟩ => ⟨S262144x128, .f32⟩
  | .hbm, ⟨54, _⟩ => ⟨S262144x128, .f32⟩
  | .hbm, ⟨55, _⟩ => ⟨S4096x64x128, .f32⟩
  | .hbm, ⟨56, _⟩ => ⟨S64x4096x128, .f32⟩
  | .hbm, ⟨57, _⟩ => ⟨S64x524288, .f32⟩
  | .hbm, ⟨58, _⟩ => ⟨S64x524288, .f32⟩
  | .hbm, ⟨59, _⟩ => ⟨S64x524288, .f32⟩
  | .hbm, ⟨60, _⟩ => ⟨S_, .f32⟩
  | .hbm, ⟨61, _⟩ => ⟨S64x524288, .f32⟩
  | .hbm, ⟨62, _⟩ => ⟨S64x524288, .f32⟩
  | .hbm, ⟨63, _⟩ => ⟨S_, .f32⟩
  | .hbm, ⟨64, _⟩ => ⟨S64x524288, .f32⟩
  | .hbm, ⟨65, _⟩ => ⟨S64x524288, .f32⟩
  | .hbm, ⟨66, _⟩ => ⟨S64x4096x128, .f32⟩
  | .hbm, ⟨67, _⟩ => ⟨S64x4096x64, .f32⟩
  | .hbm, ⟨68, _⟩ => ⟨S64x262144, .f32⟩
  | .hbm, ⟨69, _⟩ => ⟨S64x4096x64, .f32⟩
  | .hbm, ⟨70, _⟩ => ⟨S64x262144, .f32⟩
  | .hbm, ⟨71, _⟩ => ⟨S64x262144, .f32⟩
  | .hbm, ⟨72, _⟩ => ⟨S64x4096x2, .f32⟩
  | .hbm, ⟨73, _⟩ => ⟨S64x4096x64, .f32⟩
  | .hbm, ⟨74, _⟩ => ⟨S64x4096x66, .f32⟩
  | .hbm, ⟨75, _⟩ => ⟨S4096x64x66, .f32⟩
  | .hbm, ⟨76, _⟩ => ⟨S4096x4224, .f32⟩
  | .hbm, ⟨77, _⟩ => ⟨S4096x4224, .bf16⟩
  | .hbm, ⟨78, _⟩ => ⟨S4096x4224, .f32⟩
  | .hbm, ⟨79, _⟩ => ⟨S4096x4224, .bf16⟩
  | .hbm, ⟨80, _⟩ => ⟨S4096x4224, .f32⟩
  | .hbm, ⟨81, _⟩ => ⟨S4096x4224, .f32⟩
  | .hbm, ⟨82, _⟩ => ⟨S4096x4224, .bf16⟩
  | .hbm, ⟨83, _⟩ => ⟨S4096x4224, .f32⟩
  | .hbm, ⟨84, _⟩ => ⟨S66x5x64, .f32⟩
  | .hbm, ⟨85, _⟩ => ⟨S_, .f32⟩
  | .hbm, ⟨86, _⟩ => ⟨S262144x64, .f32⟩
  | .hbm, ⟨87, _⟩ => ⟨S262144x66, .f32⟩
  | .hbm, ⟨88, _⟩ => ⟨S66x1x64, .f32⟩
  | .hbm, ⟨89, _⟩ => ⟨S66x64, .f32⟩
  | .hbm, ⟨90, _⟩ => ⟨S262144x64, .f32⟩
  | .hbm, ⟨91, _⟩ => ⟨S262144x64, .f32⟩
  | .hbm, ⟨92, _⟩ => ⟨S262144x66, .f32⟩
  | .hbm, ⟨93, _⟩ => ⟨S66x1x64, .f32⟩
  | .hbm, ⟨94, _⟩ => ⟨S66x64, .f32⟩
  | .hbm, ⟨95, _⟩ => ⟨S262144x64, .f32⟩
  | .hbm, ⟨96, _⟩ => ⟨S262144x64, .f32⟩
  | .hbm, ⟨97, _⟩ => ⟨S262144x66, .f32⟩
  | .hbm, ⟨98, _⟩ => ⟨S66x1x64, .f32⟩
  | .hbm, ⟨99, _⟩ => ⟨S66x64, .f32⟩
  | .hbm, ⟨100, _⟩ => ⟨S262144x64, .f32⟩
  | .hbm, ⟨101, _⟩ => ⟨S262144x64, .f32⟩
  | .hbm, ⟨102, _⟩ => ⟨S262144x66, .f32⟩
  | .hbm, ⟨103, _⟩ => ⟨S66x1x64, .f32⟩
  | .hbm, ⟨104, _⟩ => ⟨S66x64, .f32⟩
  | .hbm, ⟨105, _⟩ => ⟨S262144x64, .f32⟩
  | .hbm, ⟨106, _⟩ => ⟨S262144x64, .f32⟩
  | .hbm, ⟨107, _⟩ => ⟨S262144x66, .f32⟩
  | .hbm, ⟨108, _⟩ => ⟨S66x1x64, .f32⟩
  | .hbm, ⟨109, _⟩ => ⟨S66x64, .f32⟩
  | .hbm, ⟨110, _⟩ => ⟨S262144x64, .f32⟩
  | .hbm, ⟨111, _⟩ => ⟨S262144x64, .f32⟩
  | .hbm, ⟨112, _⟩ => ⟨S1x64, .f32⟩
  | .hbm, ⟨113, _⟩ => ⟨S262144x64, .f32⟩
  | .hbm, ⟨114, _⟩ => ⟨S262144x64, .f32⟩
  | .hbm, ⟨115, _⟩ => ⟨S4096x64x64, .f32⟩
  | .hbm, ⟨116, _⟩ => ⟨S64x4096x64, .f32⟩
  | .hbm, ⟨117, _⟩ => ⟨S64x262144, .f32⟩
  | .hbm, ⟨118, _⟩ => ⟨S64x262144, .f32⟩
  | .hbm, ⟨119, _⟩ => ⟨S64x262144, .f32⟩
  | .hbm, ⟨120, _⟩ => ⟨S_, .f32⟩
  | .hbm, ⟨121, _⟩ => ⟨S64x262144, .f32⟩
  | .hbm, ⟨122, _⟩ => ⟨S64x262144, .f32⟩
  | .hbm, ⟨123, _⟩ => ⟨S64x262144, .f32⟩
  | .hbm, ⟨124, _⟩ => ⟨S64x262144, .f32⟩
  | .local _ .vmem, ⟨0, _⟩ => ⟨S1024x256, .bf16⟩
  | .local _ .vmem, ⟨1, _⟩ => ⟨S1024x256, .bf16⟩
  | .local _ .vmem, ⟨2, _⟩ => ⟨S256x1408, .bf16⟩
  | .local _ .vmem, ⟨3, _⟩ => ⟨S256x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .bf16⟩
  | .local _ .vmem, ⟨7, _⟩ => ⟨S1024x1408, .bf16⟩
  | .local _ .vmem, ⟨8, _⟩ => ⟨S1024x256, .bf16⟩
  | .local _ .vmem, ⟨9, _⟩ => ⟨S1024x256, .bf16⟩
  | .local _ .vmem, ⟨10, _⟩ => ⟨S256x1408, .bf16⟩
  | .local _ .vmem, ⟨11, _⟩ => ⟨S256x1408, .bf16⟩
  | .local _ .vmem, ⟨12, _⟩ => ⟨S1024x1408, .f32⟩
  | .local _ .vmem, ⟨13, _⟩ => ⟨S1024x1408, .f32⟩
  | .local _ .vmem, ⟨14, _⟩ => ⟨S1024x1408, .f32⟩
  | .local _ .vmem, ⟨15, _⟩ => ⟨S1024x1408, .f32⟩
  | .local _ .vmem, ⟨16, _⟩ => ⟨S1024x256, .bf16⟩
  | .local _ .vmem, ⟨17, _⟩ => ⟨S1024x256, .bf16⟩
  | .local _ .vmem, ⟨18, _⟩ => ⟨S256x1408, .bf16⟩
  | .local _ .vmem, ⟨19, _⟩ => ⟨S256x1408, .bf16⟩
  | .local _ .vmem, ⟨20, _⟩ => ⟨S1024x1408, .f32⟩
  | .local _ .vmem, ⟨21, _⟩ => ⟨S1024x1408, .f32⟩
  | .local _ .vmem, ⟨22, _⟩ => ⟨S1024x1408, .bf16⟩
  | .local _ .vmem, ⟨23, _⟩ => ⟨S1024x1408, .bf16⟩
  | .local _ .vmem, ⟨24, _⟩ => ⟨S1024x256, .bf16⟩
  | .local _ .vmem, ⟨25, _⟩ => ⟨S1024x256, .bf16⟩
  | .local _ .vmem, ⟨26, _⟩ => ⟨S256x1408, .bf16⟩
  | .local _ .vmem, ⟨27, _⟩ => ⟨S256x1408, .bf16⟩
  | .local _ .vmem, ⟨28, _⟩ => ⟨S1024x1408, .f32⟩
  | .local _ .vmem, ⟨29, _⟩ => ⟨S1024x1408, .f32⟩
  | .local _ .vmem, ⟨30, _⟩ => ⟨S1024x1408, .f32⟩
  | .local _ .vmem, ⟨31, _⟩ => ⟨S1024x1408, .f32⟩
  | .local _ .vmem, ⟨32, _⟩ => ⟨S1024x256, .bf16⟩
  | .local _ .vmem, ⟨33, _⟩ => ⟨S1024x256, .bf16⟩
  | .local _ .vmem, ⟨34, _⟩ => ⟨S256x1408, .bf16⟩
  | .local _ .vmem, ⟨35, _⟩ => ⟨S256x1408, .bf16⟩
  | .local _ .vmem, ⟨36, _⟩ => ⟨S1024x1408, .f32⟩
  | .local _ .vmem, ⟨37, _⟩ => ⟨S1024x1408, .f32⟩
  | .local _ .vmem, ⟨38, _⟩ => ⟨S1024x1408, .bf16⟩
  | .local _ .vmem, ⟨39, _⟩ => ⟨S1024x1408, .bf16⟩
  | .local _ .vmem, ⟨40, _⟩ => ⟨S1024x256, .bf16⟩
  | .local _ .vmem, ⟨41, _⟩ => ⟨S1024x256, .bf16⟩
  | .local _ .vmem, ⟨42, _⟩ => ⟨S256x1408, .bf16⟩
  | .local _ .vmem, ⟨43, _⟩ => ⟨S256x1408, .bf16⟩
  | .local _ .vmem, ⟨44, _⟩ => ⟨S1024x1408, .f32⟩
  | .local _ .vmem, ⟨45, _⟩ => ⟨S1024x1408, .f32⟩
  | .local _ .vmem, ⟨46, _⟩ => ⟨S1024x1408, .f32⟩
  | .local _ .vmem, ⟨47, _⟩ => ⟨S1024x1408, .f32⟩
  | .local _ .vmem, ⟨48, _⟩ => ⟨S1024x256, .bf16⟩
  | .local _ .vmem, ⟨49, _⟩ => ⟨S1024x256, .bf16⟩
  | .local _ .vmem, ⟨50, _⟩ => ⟨S256x1408, .bf16⟩
  | .local _ .vmem, ⟨51, _⟩ => ⟨S256x1408, .bf16⟩
  | .local _ .vmem, ⟨52, _⟩ => ⟨S1024x1408, .f32⟩
  | .local _ .vmem, ⟨53, _⟩ => ⟨S1024x1408, .f32⟩
  | .local _ .vmem, ⟨54, _⟩ => ⟨S1024x1408, .bf16⟩
  | .local _ .vmem, ⟨55, _⟩ => ⟨S1024x1408, .bf16⟩
  | .local _ .vmem, ⟨56, _⟩ => ⟨S1024x256, .bf16⟩
  | .local _ .vmem, ⟨57, _⟩ => ⟨S1024x256, .bf16⟩
  | .local _ .vmem, ⟨58, _⟩ => ⟨S256x1408, .bf16⟩
  | .local _ .vmem, ⟨59, _⟩ => ⟨S256x1408, .bf16⟩
  | .local _ .vmem, ⟨60, _⟩ => ⟨S1024x1408, .f32⟩
  | .local _ .vmem, ⟨61, _⟩ => ⟨S1024x1408, .f32⟩
  | .local _ .vmem, ⟨62, _⟩ => ⟨S1024x1408, .f32⟩
  | .local _ .vmem, ⟨63, _⟩ => ⟨S1024x1408, .f32⟩
  | _, _ => ⟨S64x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_cst_0 : Ref sig .tc := ⟨.hbm, 60, rfl⟩
abbrev main_v50 : Ref sig .tc := ⟨.hbm, 61, rfl⟩
abbrev main_v51 : Ref sig .tc := ⟨.hbm, 62, rfl⟩
abbrev main_cst_1 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66_0 : Ref sig .tc := ⟨.hbm, 78, rfl⟩
abbrev main_v66_1 : Ref sig .tc := ⟨.hbm, 79, rfl⟩
abbrev main_v67 : Ref sig .tc := ⟨.hbm, 80, rfl⟩
abbrev main_v68_0 : Ref sig .tc := ⟨.hbm, 81, rfl⟩
abbrev main_v68_1 : Ref sig .tc := ⟨.hbm, 82, rfl⟩
abbrev main_v69 : Ref sig .tc := ⟨.hbm, 83, rfl⟩
abbrev main_v70 : Ref sig .tc := ⟨.hbm, 84, rfl⟩
abbrev main_cst_2 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_cst_3 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg3_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc4_stg3_0 : Ref sig .tc := ⟨.vmem, 38, rfl⟩
abbrev cc4_stg3_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg1_1 : Ref sig .tc := ⟨.vmem, 43, rfl⟩
abbrev cc5_stg2_0 : Ref sig .tc := ⟨.vmem, 44, rfl⟩
abbrev cc5_stg2_1 : Ref sig .tc := ⟨.vmem, 45, rfl⟩
abbrev cc5_stg3_0 : Ref sig .tc := ⟨.vmem, 46, rfl⟩
abbrev cc5_stg3_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg1_1 : Ref sig .tc := ⟨.vmem, 51, rfl⟩
abbrev cc6_stg2_0 : Ref sig .tc := ⟨.vmem, 52, rfl⟩
abbrev cc6_stg2_1 : Ref sig .tc := ⟨.vmem, 53, rfl⟩
abbrev cc6_stg3_0 : Ref sig .tc := ⟨.vmem, 54, rfl⟩
abbrev cc6_stg3_1 : Ref sig .tc := ⟨.vmem, 55, rfl⟩
abbrev cc7_stg0_0 : Ref sig .tc := ⟨.vmem, 56, rfl⟩
abbrev cc7_stg0_1 : Ref sig .tc := ⟨.vmem, 57, rfl⟩
abbrev cc7_stg1_0 : Ref sig .tc := ⟨.vmem, 58, rfl⟩
abbrev cc7_stg1_1 : Ref sig .tc := ⟨.vmem, 59, rfl⟩
abbrev cc7_stg2_0 : Ref sig .tc := ⟨.vmem, 60, rfl⟩
abbrev cc7_stg2_1 : Ref sig .tc := ⟨.vmem, 61, rfl⟩
abbrev cc7_stg3_0 : Ref sig .tc := ⟨.vmem, 62, rfl⟩
abbrev cc7_stg3_1 : Ref sig .tc := ⟨.vmem, 63, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc4_sem3_0 : DmaSem sig := 38
abbrev cc4_sem3_1 : DmaSem sig := 39
abbrev cc5_sem0_0 : DmaSem sig := 40
abbrev cc5_sem0_1 : DmaSem sig := 41
abbrev cc5_sem1_0 : DmaSem sig := 42
abbrev cc5_sem1_1 : DmaSem sig := 43
abbrev cc5_sem2_0 : DmaSem sig := 44
abbrev cc5_sem2_1 : DmaSem sig := 45
abbrev cc5_sem3_0 : DmaSem sig := 46
abbrev cc5_sem3_1 : DmaSem sig := 47
abbrev cc6_sem0_0 : DmaSem sig := 48
abbrev cc6_sem0_1 : DmaSem sig := 49
abbrev cc6_sem1_0 : DmaSem sig := 50
abbrev cc6_sem1_1 : DmaSem sig := 51
abbrev cc6_sem2_0 : DmaSem sig := 52
abbrev cc6_sem2_1 : DmaSem sig := 53
abbrev cc6_sem3_0 : DmaSem sig := 54
abbrev cc6_sem3_1 : DmaSem sig := 55
abbrev cc7_sem0_0 : DmaSem sig := 56
abbrev cc7_sem0_1 : DmaSem sig := 57
abbrev cc7_sem1_0 : DmaSem sig := 58
abbrev cc7_sem1_1 : DmaSem sig := 59
abbrev cc7_sem2_0 : DmaSem sig := 60
abbrev cc7_sem2_1 : DmaSem sig := 61
abbrev cc7_sem3_0 : DmaSem sig := 62
abbrev cc7_sem3_1 : DmaSem sig := 63

abbrev nD : Nat := 1
abbrev τ : Topo := Topo.v7x

variable {F : FTy → Type} [FloatOps F]

abbrev grid0 : Pipeline.Grid := ⟨3, ![4, 3, 16], ![false, false, false]⟩

def k0_cond2 (i : grid0.Coords) : BitVec 1 :=
  let arg2 : BitVec 32 := BitVec.ofNat 32 (i 2).val
  let c15_i32 : BitVec 32 := 15#32
  let v12 : BitVec 1 := Scalar.cmpi .eq arg2 c15_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![4, 3, 16], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S256x1408 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1408 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x1408 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![4, 3, 16], ![false, false, false]⟩

def k2_cond2 (i : grid2.Coords) : BitVec 1 :=
  let arg2 : BitVec 32 := BitVec.ofNat 32 (i 2).val
  let c15_i32 : BitVec 32 := 15#32
  let v12 : BitVec 1 := Scalar.cmpi .eq arg2 c15_i32
  let v13 : BitVec 32 := Scalar.extui v12
  let c0_i32_8 : BitVec 32 := 0#32
  let v14 : BitVec 1 := Scalar.cmpi .ne v13 c0_i32_8
  v14

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S256x1408 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1408 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S1024x1408 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨3, ![4, 3, 16], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S256x1408 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x1408 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S1024x1408 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev grid4 : Pipeline.Grid := ⟨3, ![4, 3, 16], ![false, false, false]⟩

def k4_cond2 (i : grid4.Coords) : BitVec 1 :=
  let arg2 : BitVec 32 := BitVec.ofNat 32 (i 2).val
  let c15_i32 : BitVec 32 := 15#32
  let v12 : BitVec 1 := Scalar.cmpi .eq arg2 c15_i32
  let v13 : BitVec 32 := Scalar.extui v12
  let c0_i32_8 : BitVec 32 := 0#32
  let v14 : BitVec 1 := Scalar.cmpi .ne v13 c0_i32_8
  v14

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc4_transform_3 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x256 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S256x1408 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x1408 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev stage4_3 : Fin 2 → Memref sig .tc .vmem S1024x1408 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true, false]

abbrev grid5 : Pipeline.Grid := ⟨3, ![4, 3, 16], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc5_transform_3 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S1024x256 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S256x1408 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1024x1408 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev stage5_3 : Fin 2 → Memref sig .tc .vmem S1024x1408 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true, false]

abbrev grid6 : Pipeline.Grid := ⟨3, ![4, 3, 16], ![false, false, false]⟩

def k6_cond2 (i : grid6.Coords) : BitVec 1 :=
  let arg2 : BitVec 32 := BitVec.ofNat 32 (i 2).val
  let c15_i32 : BitVec 32 := 15#32
  let v12 : BitVec 1 := Scalar.cmpi .eq arg2 c15_i32
  let v13 : BitVec 32 := Scalar.extui v12
  let c0_i32_8 : BitVec 32 := 0#32
  let v14 : BitVec 1 := Scalar.cmpi .ne v13 c0_i32_8
  v14

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc6_transform_3 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S1024x256 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 2 → Memref sig .tc .vmem S256x1408 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S1024x1408 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev stage6_3 : Fin 2 → Memref sig .tc .vmem S1024x1408 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true, false]

abbrev grid7 : Pipeline.Grid := ⟨3, ![4, 3, 16], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc7_transform_3 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S1024x256 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 2 → Memref sig .tc .vmem S256x1408 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S1024x1408 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev stage7_3 : Fin 2 → Memref sig .tc .vmem S1024x1408 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, true, false]

class Facts₀ : Prop where
  bitsLt_bf16_f32 : FTy.bits .bf16 < FTy.bits .f32
  slices_S2x4096x4096_S1x4096x4096_0_0_0 : S2x4096x4096.Slices ![0, 0, 0] S1x4096x4096
  shapeCasts_S1x4096x4096_S4096x4096 : S1x4096x4096.ShapeCasts S4096x4096
  slices_S2x4096x4096_S1x4096x4096_1_0_0 : S2x4096x4096.Slices ![1, 0, 0] S1x4096x4096
  shapeCasts_S64x8192_S64x4096x2 : S64x8192.ShapeCasts S64x4096x2
  shapeCasts_S64x262144_S64x4096x64 : S64x262144.ShapeCasts S64x4096x64
  concatenates_S64x4096x2_S64x4096x64_S64x4096x66_d2 : Shape.Concatenates [S64x4096x2, S64x4096x64] S64x4096x66 2
  transposes_S64x4096x66_S4096x64x66_1_0_2 : S64x4096x66.Transposes [1, 0, 2] S4096x64x66
  shapeCasts_S4096x64x66_S4096x4224 : S4096x64x66.ShapeCasts S4096x4224
  inb_S1024x1408_S1024x1408_0_0 : ∀ a, (![0, 0] : Fin 2 → Nat) a + S1024x1408.size a ≤ S1024x1408.size a
  h_S1024x1408 : 0 < S1024x1408.numel
  shapeCasts_S1024x1408_S1024x1408 : S1024x1408.ShapeCasts S1024x1408
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x1408_S256x1408_0_0 : ∀ a, (![0, 0] : Fin 2 → Nat) a + S256x1408.size a ≤ S256x1408.size a
  h_S256x1408 : 0 < S256x1408.numel
  shapeCasts_S256x1408_S256x1408 : S256x1408.ShapeCasts S256x1408
  packedbf16_S1024x1408_S1024x1408_0_0 : (Rect.unit (s := S1024x1408) ![0, 0] S1024x1408.size inb_S1024x1408_S1024x1408_0_0).PackedRows (EltTy.packing .bf16)
  shapeCasts_S330x128_S66x5x128 : S330x128.ShapeCasts S66x5x128
  bcast_S_S262144x128 : S_.BroadcastsInDim S262144x128 (![] : Fin 0 → Fin S262144x128.rank)
  shapeCasts_S4096x4224_S262144x66 : S4096x4224.ShapeCasts S262144x66
  slices_S66x5x128_S66x1x128_0_0_0 : S66x5x128.Slices ![0, 0, 0] S66x1x128
  shapeCasts_S66x1x128_S66x128 : S66x1x128.ShapeCasts S66x128
  slices_S66x5x128_S66x1x128_0_1_0 : S66x5x128.Slices ![0, 1, 0] S66x1x128
  slices_S66x5x128_S66x1x128_0_2_0 : S66x5x128.Slices ![0, 2, 0] S66x1x128
  slices_S66x5x128_S66x1x128_0_3_0 : S66x5x128.Slices ![0, 3, 0] S66x1x128
  slices_S66x5x128_S66x1x128_0_4_0 : S66x5x128.Slices ![0, 4, 0] S66x1x128
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  shapeCasts_S262144x128_S4096x64x128 : S262144x128.ShapeCasts S4096x64x128
  transposes_S4096x64x128_S64x4096x128_1_0_2 : S4096x64x128.Transposes [1, 0, 2] S64x4096x128
  shapeCasts_S64x4096x128_S64x524288 : S64x4096x128.ShapeCasts S64x524288
  bcast_S_S64x524288 : S_.BroadcastsInDim S64x524288 (![] : Fin 0 → Fin S64x524288.rank)
  shapeCasts_S64x524288_S64x4096x128 : S64x524288.ShapeCasts S64x4096x128
  slices_S64x4096x128_S64x4096x64_0_0_0 : S64x4096x128.Slices ![0, 0, 0] S64x4096x64
  shapeCasts_S64x4096x64_S64x262144 : S64x4096x64.ShapeCasts S64x262144
  slices_S64x4096x128_S64x4096x64_0_0_64 : S64x4096x128.Slices ![0, 0, 64] S64x4096x64
  shapeCasts_S330x64_S66x5x64 : S330x64.ShapeCasts S66x5x64
  bcast_S_S262144x64 : S_.BroadcastsInDim S262144x64 (![] : Fin 0 → Fin S262144x64.rank)
  slices_S66x5x64_S66x1x64_0_0_0 : S66x5x64.Slices ![0, 0, 0] S66x1x64
  shapeCasts_S66x1x64_S66x64 : S66x1x64.ShapeCasts S66x64
  slices_S66x5x64_S66x1x64_0_1_0 : S66x5x64.Slices ![0, 1, 0] S66x1x64
  slices_S66x5x64_S66x1x64_0_2_0 : S66x5x64.Slices ![0, 2, 0] S66x1x64
  slices_S66x5x64_S66x1x64_0_3_0 : S66x5x64.Slices ![0, 3, 0] S66x1x64
  slices_S66x5x64_S66x1x64_0_4_0 : S66x5x64.Slices ![0, 4, 0] S66x1x64
  bcast_S64_S1x64_1 : S64.BroadcastsInDim S1x64 (![1] : Fin 1 → Fin S1x64.rank)
  bcast_S1x64_S262144x64_0_1 : S1x64.BroadcastsInDim S262144x64 (![0, 1] : Fin 2 → Fin S262144x64.rank)
  shapeCasts_S262144x64_S4096x64x64 : S262144x64.ShapeCasts S4096x64x64
  transposes_S4096x64x64_S64x4096x64_1_0_2 : S4096x64x64.Transposes [1, 0, 2] S64x4096x64
  bcast_S_S64x262144 : S_.BroadcastsInDim S64x262144 (![] : Fin 0 → Fin S64x262144.rank)
  dot_S1024x256_S256x1408_S1024x1408_1_0_0_1_n_n_wf : DotDims.WF S1024x256 S256x1408 S1024x1408 [1] [0] [0] [1] [] []
  dot_S262144x66_S66x128_S262144x128_1_0_0_1_n_n_wf : DotDims.WF S262144x66 S66x128 S262144x128 [1] [0] [0] [1] [] []
  dot_S262144x66_S66x64_S262144x64_1_0_0_1_n_n_wf : DotDims.WF S262144x66 S66x64 S262144x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S4096x4096.size a
  hwx0_0 : ∀ i : grid0.Coords, EltTy.bits .bf16 = 32 ∨ (Rect.block (s := S4096x4096) S1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1408.size a ≤ S4096x4224.size a
  hwx0_1 : ∀ i : grid0.Coords, EltTy.bits .bf16 = 32 ∨ (Rect.block (s := S4096x4224) S256x1408.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1408.size a ≤ S4096x4224.size a
  hwx0_2 : ∀ i : grid0.Coords, EltTy.bits .f32 = 32 ∨ (Rect.block (s := S4096x4224) S1024x1408.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1408.size a ≤ S4096x4224.size a
  hwx0_3 : ∀ i : grid0.Coords, EltTy.bits .bf16 = 32 ∨ (Rect.block (s := S4096x4224) S1024x1408.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S4096x4096.size a
  hwx1_0 : ∀ i : grid1.Coords, EltTy.bits .bf16 = 32 ∨ (Rect.block (s := S4096x4096) S1024x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x1408.size a ≤ S4096x4224.size a
  hwx1_1 : ∀ i : grid1.Coords, EltTy.bits .bf16 = 32 ∨ (Rect.block (s := S4096x4224) S256x1408.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1408.size a ≤ S4096x4224.size a
  hwx1_2 : ∀ i : grid1.Coords, EltTy.bits .f32 = 32 ∨ (Rect.block (s := S4096x4224) S1024x1408.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1408.size a ≤ S4096x4224.size a
  hwx1_3 : ∀ i : grid1.Coords, EltTy.bits .f32 = 32 ∨ (Rect.block (s := S4096x4224) S1024x1408.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x256.size a ≤ S4096x4096.size a
  hwx2_0 : ∀ i : grid2.Coords, EltTy.bits .bf16 = 32 ∨ (Rect.block (s := S4096x4096) S1024x256.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x1408.size a ≤ S4096x4224.size a
  hwx2_1 : ∀ i : grid2.Coords, EltTy.bits .bf16 = 32 ∨ (Rect.block (s := S4096x4224) S256x1408.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1408.size a ≤ S4096x4224.size a
  hwx2_2 : ∀ i : grid2.Coords, EltTy.bits .f32 = 32 ∨ (Rect.block (s := S4096x4224) S1024x1408.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1408.size a ≤ S4096x4224.size a
  hwx2_3 : ∀ i : grid2.Coords, EltTy.bits .bf16 = 32 ∨ (Rect.block (s := S4096x4224) S1024x1408.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x256.size a ≤ S4096x4096.size a
  hwx3_0 : ∀ i : grid3.Coords, EltTy.bits .bf16 = 32 ∨ (Rect.block (s := S4096x4096) S1024x256.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S256x1408.size a ≤ S4096x4224.size a
  hwx3_1 : ∀ i : grid3.Coords, EltTy.bits .bf16 = 32 ∨ (Rect.block (s := S4096x4224) S256x1408.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x1408.size a ≤ S4096x4224.size a
  hwx3_2 : ∀ i : grid3.Coords, EltTy.bits .f32 = 32 ∨ (Rect.block (s := S4096x4224) S1024x1408.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x1408.size a ≤ S4096x4224.size a
  hwx3_3 : ∀ i : grid3.Coords, EltTy.bits .f32 = 32 ∨ (Rect.block (s := S4096x4224) S1024x1408.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x256.size a ≤ S4096x4096.size a
  hwx4_0 : ∀ i : grid4.Coords, EltTy.bits .bf16 = 32 ∨ (Rect.block (s := S4096x4096) S1024x256.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S256x1408.size a ≤ S4096x4224.size a
  hwx4_1 : ∀ i : grid4.Coords, EltTy.bits .bf16 = 32 ∨ (Rect.block (s := S4096x4224) S256x1408.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x1408.size a ≤ S4096x4224.size a
  hwx4_2 : ∀ i : grid4.Coords, EltTy.bits .f32 = 32 ∨ (Rect.block (s := S4096x4224) S1024x1408.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x1408.size a ≤ S4096x4224.size a
  hwx4_3 : ∀ i : grid4.Coords, EltTy.bits .bf16 = 32 ∨ (Rect.block (s := S4096x4224) S1024x1408.size (cc4_transform_3 i) (hinb4_3 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x256.size a ≤ S4096x4096.size a
  hwx5_0 : ∀ i : grid5.Coords, EltTy.bits .bf16 = 32 ∨ (Rect.block (s := S4096x4096) S1024x256.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S256x1408.size a ≤ S4096x4224.size a
  hwx5_1 : ∀ i : grid5.Coords, EltTy.bits .bf16 = 32 ∨ (Rect.block (s := S4096x4224) S256x1408.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1024x1408.size a ≤ S4096x4224.size a
  hwx5_2 : ∀ i : grid5.Coords, EltTy.bits .f32 = 32 ∨ (Rect.block (s := S4096x4224) S1024x1408.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1024x1408.size a ≤ S4096x4224.size a
  hwx5_3 : ∀ i : grid5.Coords, EltTy.bits .f32 = 32 ∨ (Rect.block (s := S4096x4224) S1024x1408.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1024x256.size a ≤ S4096x4096.size a
  hwx6_0 : ∀ i : grid6.Coords, EltTy.bits .bf16 = 32 ∨ (Rect.block (s := S4096x4096) S1024x256.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S256x1408.size a ≤ S4096x4224.size a
  hwx6_1 : ∀ i : grid6.Coords, EltTy.bits .bf16 = 32 ∨ (Rect.block (s := S4096x4224) S256x1408.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1024x1408.size a ≤ S4096x4224.size a
  hwx6_2 : ∀ i : grid6.Coords, EltTy.bits .f32 = 32 ∨ (Rect.block (s := S4096x4224) S1024x1408.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S1024x1408.size a ≤ S4096x4224.size a
  hwx6_3 : ∀ i : grid6.Coords, EltTy.bits .bf16 = 32 ∨ (Rect.block (s := S4096x4224) S1024x1408.size (cc6_transform_3 i) (hinb6_3 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1024x256.size a ≤ S4096x4096.size a
  hwx7_0 : ∀ i : grid7.Coords, EltTy.bits .bf16 = 32 ∨ (Rect.block (s := S4096x4096) S1024x256.size (cc7_transform_0 i) (hinb7_0 i)).WholeWords (EltTy.packing .bf16)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S256x1408.size a ≤ S4096x4224.size a
  hwx7_1 : ∀ i : grid7.Coords, EltTy.bits .bf16 = 32 ∨ (Rect.block (s := S4096x4224) S256x1408.size (cc7_transform_1 i) (hinb7_1 i)).WholeWords (EltTy.packing .bf16)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S1024x1408.size a ≤ S4096x4224.size a
  hwx7_2 : ∀ i : grid7.Coords, EltTy.bits .f32 = 32 ∨ (Rect.block (s := S4096x4224) S1024x1408.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S1024x1408.size a ≤ S4096x4224.size a
  hwx7_3 : ∀ i : grid7.Coords, EltTy.bits .f32 = 32 ∨ (Rect.block (s := S4096x4224) S1024x1408.size (cc7_transform_3 i) (hinb7_3 i)).WholeWords (EltTy.packing .f32)

variable [Facts₀]

def dot_S1024x256_S256x1408_S1024x1408_1_0_0_1_n_n : DotDims S1024x256 S256x1408 S1024x1408 where
  lhsContracting := [1]
  rhsContracting := [0]
  lhsNonContracting := [0]
  rhsNonContracting := [1]
  lhsBatch := []
  rhsBatch := []
  wf := dot_S1024x256_S256x1408_S1024x1408_1_0_0_1_n_n_wf
def dot_S262144x66_S66x128_S262144x128_1_0_0_1_n_n : DotDims S262144x66 S66x128 S262144x128 where
  lhsContracting := [1]
  rhsContracting := [0]
  lhsNonContracting := [0]
  rhsNonContracting := [1]
  lhsBatch := []
  rhsBatch := []
  wf := dot_S262144x66_S66x128_S262144x128_1_0_0_1_n_n_wf
def dot_S262144x66_S66x64_S262144x64_1_0_0_1_n_n : DotDims S262144x66 S66x64 S262144x64 where
  lhsContracting := [1]
  rhsContracting := [0]
  lhsNonContracting := [0]
  rhsNonContracting := [1]
  lhsBatch := []
  rhsBatch := []
  wf := dot_S262144x66_S66x64_S262144x64_1_0_0_1_n_n_wf

abbrev win0_0 : Pipeline.Window sig grid0 :=
  Pipeline.Window.ofSpec (Memref.whole main_v2) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S256x1408.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11_0) S1024x1408.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11_1) S1024x1408.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v2) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11_1) S256x1408.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1024x1408.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1024x1408.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v4) S1024x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11_1) S256x1408.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v13_0) S1024x1408.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v13_1) S1024x1408.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v4) S1024x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v13_1) S256x1408.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11_0) S1024x1408.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v14) S1024x1408.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v2) S1024x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v65) S256x1408.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v66_0) S1024x1408.size cc4_transform_2 reads4_2 true false 2 stage4_2 sem4_2
    hrank4 hreads4_2 hinb4_2 nbuf4_2 (Memref.isWhole_whole _) hwx4_2 hstage4_2

abbrev win4_3 : Pipeline.Window sig grid4 :=
  Pipeline.Window.ofSpec (Memref.whole main_v66_1) S1024x1408.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v2) S1024x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v66_1) S256x1408.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v64) S1024x1408.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v67) S1024x1408.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v4) S1024x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v66_1) S256x1408.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v68_0) S1024x1408.size cc6_transform_2 reads6_2 true false 2 stage6_2 sem6_2
    hrank6 hreads6_2 hinb6_2 nbuf6_2 (Memref.isWhole_whole _) hwx6_2 hstage6_2

abbrev win6_3 : Pipeline.Window sig grid6 :=
  Pipeline.Window.ofSpec (Memref.whole main_v68_1) S1024x1408.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev idle6 : Fin 4 → grid6.Coords → Bool := fun | 0 => fun _ => false | 1 => fun _ => false | 2 => fun _ => false | 3 => fun i => !(k6_cond2 i == 1#1) | ⟨_ + 4, h⟩ => absurd h (Nat.not_lt.2 (Nat.le_add_left _ _))

abbrev win7_0 : Pipeline.Window sig grid7 :=
  Pipeline.Window.ofSpec (Memref.whole main_v4) S1024x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v68_1) S256x1408.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v66_0) S1024x1408.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v69) S1024x1408.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S64x8192 : Shape := ⟨2, ![64, 8192]⟩
abbrev S64x262144 : Shape := ⟨2, ![64, 262144]⟩
abbrev S2x4096x4096 : Shape := ⟨3, ![2, 4096, 4096]⟩
abbrev S330x128 : Shape := ⟨2, ![330, 128]⟩
abbrev S128 : Shape := ⟨1, ![128]⟩
abbrev S330x64 : Shape := ⟨2, ![330, 64]⟩
abbrev S64 : Shape := ⟨1, ![64]⟩
abbrev S64x4096x2 : Shape := ⟨3, ![64, 4096, 2]⟩
abbrev S64x4096x64 : Shape := ⟨3, ![64, 4096, 64]⟩
abbrev S64x4096x66 : Shape := ⟨3, ![64, 4096, 66]⟩
abbrev S4096x66x64 : Shape := ⟨3, ![4096, 66, 64]⟩
abbrev S4096x4224 : Shape := ⟨2, ![4096, 4224]⟩
abbrev S1x4096x4096 : Shape := ⟨3, ![1, 4096, 4096]⟩
abbrev S4096x4096 : Shape := ⟨2, ![4096, 4096]⟩
abbrev S_ : Shape := ⟨0, ![]⟩
abbrev S1x4096x4224 : Shape := ⟨3, ![1, 4096, 4224]⟩
abbrev S5x4096x4224 : Shape := ⟨3, ![5, 4096, 4224]⟩
abbrev S5x4096x66x64 : Shape := ⟨4, ![5, 4096, 66, 64]⟩
abbrev S64x4096x66x5 : Shape := ⟨4, ![64, 4096, 66, 5]⟩
abbrev S262144x330 : Shape := ⟨2, ![262144, 330]⟩
abbrev S262144x128 : Shape := ⟨2, ![262144, 128]⟩
abbrev S1x128 : Shape := ⟨2, ![1, 128]⟩
abbrev S64x524288 : Shape := ⟨2, ![64, 524288]⟩
abbrev S64x4096x128 : Shape := ⟨3, ![64, 4096, 128]⟩
abbrev S262144x64 : Shape := ⟨2, ![262144, 64]⟩
abbrev S1x64 : Shape := ⟨2, ![1, 64]⟩

abbrev nBuf : Space → Nat
  | .hbm => 98
  | .vmem => 0
  | .smem => 0
  | _ => 0

abbrev bufTy : (tb : Table) → Fin (tcTables nBuf tb) → BufTy
  | .hbm, ⟨0, _⟩ => ⟨S64x8192, .f32⟩
  | .hbm, ⟨1, _⟩ => ⟨S64x262144, .f32⟩
  | .hbm, ⟨2, _⟩ => ⟨S2x4096x4096, .f32⟩
  | .hbm, ⟨3, _⟩ => ⟨S330x128, .f32⟩
  | .hbm, ⟨4, _⟩ => ⟨S128, .f32⟩
  | .hbm, ⟨5, _⟩ => ⟨S330x64, .f32⟩
  | .hbm, ⟨6, _⟩ => ⟨S64, .f32⟩
  | .hbm, ⟨7, _⟩ => ⟨S64x4096x2, .f32⟩
  | .hbm, ⟨8, _⟩ => ⟨S64x4096x64, .f32⟩
  | .hbm, ⟨9, _⟩ => ⟨S64x4096x66, .f32⟩
  | .hbm, ⟨10, _⟩ => ⟨S4096x66x64, .f32⟩
  | .hbm, ⟨11, _⟩ => ⟨S4096x4224, .f32⟩
  | .hbm, ⟨12, _⟩ => ⟨S1x4096x4096, .f32⟩
  | .hbm, ⟨13, _⟩ => ⟨S4096x4096, .f32⟩
  | .hbm, ⟨14, _⟩ => ⟨S4096x4224, .f32⟩
  | .hbm, ⟨15, _⟩ => ⟨S4096x4224, .f32⟩
  | .hbm, ⟨16, _⟩ => ⟨S_, .f32⟩
  | .hbm, ⟨17, _⟩ => ⟨S4096x4224, .f32⟩
  | .hbm, ⟨18, _⟩ => ⟨S4096x4224, .f32⟩
  | .hbm, ⟨19, _⟩ => ⟨S4096x4224, .f32⟩
  | .hbm, ⟨20, _⟩ => ⟨S1x4096x4096, .f32⟩
  | .hbm, ⟨21, _⟩ => ⟨S4096x4096, .f32⟩
  | .hbm, ⟨22, _⟩ => ⟨S4096x4224, .f32⟩
  | .hbm, ⟨23, _⟩ => ⟨S4096x4224, .f32⟩
  | .hbm, ⟨24, _⟩ => ⟨S_, .f32⟩
  | .hbm, ⟨25, _⟩ => ⟨S4096x4224, .f32⟩
  | .hbm, ⟨26, _⟩ => ⟨S4096x4224, .f32⟩
  | .hbm, ⟨27, _⟩ => ⟨S4096x4224, .f32⟩
  | .hbm, ⟨28, _⟩ => ⟨S1x4096x4224, .f32⟩
  | .hbm, ⟨29, _⟩ => ⟨S1x4096x4224, .f32⟩
  | .hbm, ⟨30, _⟩ => ⟨S1x4096x4224, .f32⟩
  | .hbm, ⟨31, _⟩ => ⟨S1x4096x4224, .f32⟩
  | .hbm, ⟨32, _⟩ => ⟨S1x4096x4224, .f32⟩
  | .hbm, ⟨33, _⟩ => ⟨S5x4096x4224, .f32⟩
  | .hbm, ⟨34, _⟩ => ⟨S5x4096x66x64, .f32⟩
  | .hbm, ⟨35, _⟩ => ⟨S64x4096x66x5, .f32⟩
  | .hbm, ⟨36, _⟩ => ⟨S262144x330, .f32⟩
  | .hbm, ⟨37, _⟩ => ⟨S262144x128, .f32⟩
  | .hbm, ⟨38, _⟩ => ⟨S1x128, .f32⟩
  | .hbm, ⟨39, _⟩ => ⟨S262144x128, .f32⟩
  | .hbm, ⟨40, _⟩ => ⟨S262144x128, .f32⟩
  | .hbm, ⟨41, _⟩ => ⟨S64x524288, .f32⟩
  | .hbm, ⟨42, _⟩ => ⟨S64x524288, .f32⟩
  | .hbm, ⟨43, _⟩ => ⟨S64x524288, .f32⟩
  | .hbm, ⟨44, _⟩ => ⟨S_, .f32⟩
  | .hbm, ⟨45, _⟩ => ⟨S64x524288, .f32⟩
  | .hbm, ⟨46, _⟩ => ⟨S64x524288, .f32⟩
  | .hbm, ⟨47, _⟩ => ⟨S_, .f32⟩
  | .hbm, ⟨48, _⟩ => ⟨S64x524288, .f32⟩
  | .hbm, ⟨49, _⟩ => ⟨S64x524288, .f32⟩
  | .hbm, ⟨50, _⟩ => ⟨S64x4096x128, .f32⟩
  | .hbm, ⟨51, _⟩ => ⟨S64x4096x64, .f32⟩
  | .hbm, ⟨52, _⟩ => ⟨S64x262144, .f32⟩
  | .hbm, ⟨53, _⟩ => ⟨S64x4096x64, .f32⟩
  | .hbm, ⟨54, _⟩ => ⟨S64x262144, .f32⟩
  | .hbm, ⟨55, _⟩ => ⟨S64x262144, .f32⟩
  | .hbm, ⟨56, _⟩ => ⟨S64x4096x2, .f32⟩
  | .hbm, ⟨57, _⟩ => ⟨S64x4096x64, .f32⟩
  | .hbm, ⟨58, _⟩ => ⟨S64x4096x66, .f32⟩
  | .hbm, ⟨59, _⟩ => ⟨S4096x66x64, .f32⟩
  | .hbm, ⟨60, _⟩ => ⟨S4096x4224, .f32⟩
  | .hbm, ⟨61, _⟩ => ⟨S1x4096x4096, .f32⟩
  | .hbm, ⟨62, _⟩ => ⟨S4096x4096, .f32⟩
  | .hbm, ⟨63, _⟩ => ⟨S4096x4224, .f32⟩
  | .hbm, ⟨64, _⟩ => ⟨S4096x4224, .f32⟩
  | .hbm, ⟨65, _⟩ => ⟨S_, .f32⟩
  | .hbm, ⟨66, _⟩ => ⟨S4096x4224, .f32⟩
  | .hbm, ⟨67, _⟩ => ⟨S4096x4224, .f32⟩
  | .hbm, ⟨68, _⟩ => ⟨S4096x4224, .f32⟩
  | .hbm, ⟨69, _⟩ => ⟨S1x4096x4096, .f32⟩
  | .hbm, ⟨70, _⟩ => ⟨S4096x4096, .f32⟩
  | .hbm, ⟨71, _⟩ => ⟨S4096x4224, .f32⟩
  | .hbm, ⟨72, _⟩ => ⟨S4096x4224, .f32⟩
  | .hbm, ⟨73, _⟩ => ⟨S_, .f32⟩
  | .hbm, ⟨74, _⟩ => ⟨S4096x4224, .f32⟩
  | .hbm, ⟨75, _⟩ => ⟨S4096x4224, .f32⟩
  | .hbm, ⟨76, _⟩ => ⟨S4096x4224, .f32⟩
  | .hbm, ⟨77, _⟩ => ⟨S1x4096x4224, .f32⟩
  | .hbm, ⟨78, _⟩ => ⟨S1x4096x4224, .f32⟩
  | .hbm, ⟨79, _⟩ => ⟨S1x4096x4224, .f32⟩
  | .hbm, ⟨80, _⟩ => ⟨S1x4096x4224, .f32⟩
  | .hbm, ⟨81, _⟩ => ⟨S1x4096x4224, .f32⟩
  | .hbm, ⟨82, _⟩ => ⟨S5x4096x4224, .f32⟩
  | .hbm, ⟨83, _⟩ => ⟨S5x4096x66x64, .f32⟩
  | .hbm, ⟨84, _⟩ => ⟨S64x4096x66x5, .f32⟩
  | .hbm, ⟨85, _⟩ => ⟨S262144x330, .f32⟩
  | .hbm, ⟨86, _⟩ => ⟨S262144x64, .f32⟩
  | .hbm, ⟨87, _⟩ => ⟨S1x64, .f32⟩
  | .hbm, ⟨88, _⟩ => ⟨S262144x64, .f32⟩
  | .hbm, ⟨89, _⟩ => ⟨S262144x64, .f32⟩
  | .hbm, ⟨90, _⟩ => ⟨S64x262144, .f32⟩
  | .hbm, ⟨91, _⟩ => ⟨S64x262144, .f32⟩
  | .hbm, ⟨92, _⟩ => ⟨S64x262144, .f32⟩
  | .hbm, ⟨93, _⟩ => ⟨S_, .f32⟩
  | .hbm, ⟨94, _⟩ => ⟨S64x262144, .f32⟩
  | .hbm, ⟨95, _⟩ => ⟨S64x262144, .f32⟩
  | .hbm, ⟨96, _⟩ => ⟨S64x262144, .f32⟩
  | .hbm, ⟨97, _⟩ => ⟨S64x262144, .f32⟩
  | _, _ => ⟨S64x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_1 : Ref sig .tc := ⟨.hbm, 44, rfl⟩
abbrev main_v35 : Ref sig .tc := ⟨.hbm, 45, rfl⟩
abbrev main_v36 : Ref sig .tc := ⟨.hbm, 46, rfl⟩
abbrev main_cst_2 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_cst_3 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_cst_4 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_cst_5 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩

abbrev nD : Nat := 1
abbrev τ : Topo := Topo.v7x

variable {F : FTy → Type} [FloatOps F]

class Facts₀ : Prop where
  shapeCasts_S64x8192_S64x4096x2 : S64x8192.ShapeCasts S64x4096x2
  shapeCasts_S64x262144_S64x4096x64 : S64x262144.ShapeCasts S64x4096x64
  concatenates_S64x4096x2_S64x4096x64_S64x4096x66_d2 : Shape.Concatenates [S64x4096x2, S64x4096x64] S64x4096x66 2
  transposes_S64x4096x66_S4096x66x64_1_2_0 : S64x4096x66.Transposes [1, 2, 0] S4096x66x64
  shapeCasts_S4096x66x64_S4096x4224 : S4096x66x64.ShapeCasts S4096x4224
  slices_S2x4096x4096_S1x4096x4096_0_0_0 : S2x4096x4096.Slices ![0, 0, 0] S1x4096x4096
  shapeCasts_S1x4096x4096_S4096x4096 : S1x4096x4096.ShapeCasts S4096x4096
  bcast_S_S4096x4224 : S_.BroadcastsInDim S4096x4224 (![] : Fin 0 → Fin S4096x4224.rank)
  slices_S2x4096x4096_S1x4096x4096_1_0_0 : S2x4096x4096.Slices ![1, 0, 0] S1x4096x4096
  bcast_S4096x4224_S1x4096x4224_1_2 : S4096x4224.BroadcastsInDim S1x4096x4224 (![1, 2] : Fin 2 → Fin S1x4096x4224.rank)
  concatenates_S1x4096x4224_S1x4096x4224_S1x4096x4224_S1x4096x4224_S1x4096x4224_S5x4096x4224_d0 : Shape.Concatenates [S1x4096x4224, S1x4096x4224, S1x4096x4224, S1x4096x4224, S1x4096x4224] S5x4096x4224 0
  shapeCasts_S5x4096x4224_S5x4096x66x64 : S5x4096x4224.ShapeCasts S5x4096x66x64
  transposes_S5x4096x66x64_S64x4096x66x5_3_1_2_0 : S5x4096x66x64.Transposes [3, 1, 2, 0] S64x4096x66x5
  shapeCasts_S64x4096x66x5_S262144x330 : S64x4096x66x5.ShapeCasts S262144x330
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  shapeCasts_S262144x128_S64x524288 : S262144x128.ShapeCasts S64x524288
  bcast_S_S64x524288 : S_.BroadcastsInDim S64x524288 (![] : Fin 0 → Fin S64x524288.rank)
  shapeCasts_S64x524288_S64x4096x128 : S64x524288.ShapeCasts S64x4096x128
  slices_S64x4096x128_S64x4096x64_0_0_0 : S64x4096x128.Slices ![0, 0, 0] S64x4096x64
  shapeCasts_S64x4096x64_S64x262144 : S64x4096x64.ShapeCasts S64x262144
  slices_S64x4096x128_S64x4096x64_0_0_64 : S64x4096x128.Slices ![0, 0, 64] S64x4096x64
  bcast_S64_S1x64_1 : S64.BroadcastsInDim S1x64 (![1] : Fin 1 → Fin S1x64.rank)
  bcast_S1x64_S262144x64_0_1 : S1x64.BroadcastsInDim S262144x64 (![0, 1] : Fin 2 → Fin S262144x64.rank)
  shapeCasts_S262144x64_S64x262144 : S262144x64.ShapeCasts S64x262144
  bcast_S_S64x262144 : S_.BroadcastsInDim S64x262144 (![] : Fin 0 → Fin S64x262144.rank)
  dot_S4096x4096_S4096x4224_S4096x4224_1_0_0_1_n_n_wf : DotDims.WF S4096x4096 S4096x4224 S4096x4224 [1] [0] [0] [1] [] []
  dot_S262144x330_S330x128_S262144x128_1_0_0_1_n_n_wf : DotDims.WF S262144x330 S330x128 S262144x128 [1] [0] [0] [1] [] []
  dot_S262144x330_S330x64_S262144x64_1_0_0_1_n_n_wf : DotDims.WF S262144x330 S330x64 S262144x64 [1] [0] [0] [1] [] []

variable [Facts₀]

def dot_S4096x4096_S4096x4224_S4096x4224_1_0_0_1_n_n : DotDims S4096x4096 S4096x4224 S4096x4224 where
  lhsContracting := [1]
  rhsContracting := [0]
  lhsNonContracting := [0]
  rhsNonContracting := [1]
  lhsBatch := []
  rhsBatch := []
  wf := dot_S4096x4096_S4096x4224_S4096x4224_1_0_0_1_n_n_wf
def dot_S262144x330_S330x128_S262144x128_1_0_0_1_n_n : DotDims S262144x330 S330x128 S262144x128 where
  lhsContracting := [1]
  rhsContracting := [0]
  lhsNonContracting := [0]
  rhsNonContracting := [1]
  lhsBatch := []
  rhsBatch := []
  wf := dot_S262144x330_S330x128_S262144x128_1_0_0_1_n_n_wf
def dot_S262144x330_S330x64_S262144x64_1_0_0_1_n_n : DotDims S262144x330 S330x64 S262144x64 where
  lhsContracting := [1]
  rhsContracting := [0]
  lhsNonContracting := [0]
  rhsNonContracting := [1]
  lhsBatch := []
  rhsBatch := []
  wf := dot_S262144x330_S330x64_S262144x64_1_0_0_1_n_n_wf

class Facts : Prop extends Facts₀ where

variable [Facts]
-- ==== Proof.LibAfterFrame.lean ====
/-
  What a line of single-result operations leaves alone, and two lines run in a row.

  `after ops V` folds the operations' results over a valuation of the buffers: each step rewrites the buffers its
  operation writes and leaves the rest. Two general facts about the fold. Over two lists laid end to end it is the fold
  over the second list started from the fold over the first. And when each operation of a list writes exactly one
  reference, the references named in order by a second list, every reference outside that second list holds after the
  fold what it held before; the same bookkeeping shows every operation of the list determines what it writes.
-/
import Idealize.ShloMosaic.Lib.StableHlo.Run

namespace Idealize.ShloMosaic.StableHlo

variable {nD : Nat} {τ : Topo} {sig : RefSig} {Val : EltTy → Type}

/-- The fold over two lists laid end to end is the fold over the second, started from the fold over the first. -/
theorem after_concat : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_concat l₁ l₂]

/-- The operations `ops` write, one each and in order, the references `Ws`, and each determines what it writes. -/
abbrev WritesInOrder (ops : List (HloOp τ sig Val)) (Ws : List (Ref sig .tc)) : Prop :=
  List.Forall₂ (fun op y => op.writes = {Proc.devRef (τ := τ) .tc y} ∧ op.fresh = ∅) ops Ws

/-- Two such lists laid end to end write the two reference lists laid end to end. -/
theorem WritesInOrder.append {l₁ l₂ : List (HloOp τ sig Val)} {W₁ W₂ : List (Ref sig .tc)}
    (h₁ : WritesInOrder l₁ W₁) (h₂ : WritesInOrder l₂ W₂) : WritesInOrder (l₁ ++ l₂) (W₁ ++ W₂) :=
  List.rel_append h₁ h₂

/-- Every operation of such a list determines what it writes. -/
theorem WritesInOrder.fresh {ops : List (HloOp τ sig Val)} {Ws : List (Ref sig .tc)} (h : WritesInOrder ops Ws) :
    ∀ op ∈ ops, op.fresh = ∅ := by
  induction h with
  | nil => intro _ hm; exact nomatch hm
  | cons hw _ ih =>
    intro op hm
    rcases List.mem_cons.mp hm with rfl | hm
    · exact hw.2
    · exact ih op hm

/-- A reference that is none of those a list of single-result operations writes holds after the fold what it held
    before: each step leaves every buffer but its own result's alone. -/
theorem WritesInOrder.after_eq {ops : List (HloOp τ sig Val)} {Ws : List (Ref sig .tc)} (h : WritesInOrder ops Ws)
    (V : Valuation τ sig Val) {r : Ref sig .tc} (hr : r ∉ Ws) :
    after ops V (Proc.devRef .tc r) = V (Proc.devRef .tc r) := by
  induction h generalizing V with
  | nil => rfl
  | cons hw _ ih =>
    rw [after_cons, ih _ (fun hm => hr (List.mem_cons_of_mem _ hm))]
    exact HloOp.result_of_not_mem _ _ (by
      rw [hw.1, Finset.mem_singleton]
      exact devRef_ne_of_ne (fun e => hr (e ▸ List.mem_cons_self)))

end Idealize.ShloMosaic.StableHlo
-- ==== Proof.RefChunks.lean ====
/-
  The reference's 91 host operations in three stretches, cut before each of the two five-piece concatenations: the
  first stretch ends with the five diffusion orders of the first convolution given a leading unit axis, the second
  starts by stacking them and ends with the second convolution's five orders likewise, the third stacks those and
  ends with the new state. Each stretch comes with the list of buffers it writes, one per operation and in order.
-/
import proofs.«405468_j48026324304060_3_alg».proof.Proof.RefOps
import proofs.«405468_j48026324304060_3_alg».proof.Proof.LibAfterFrame

noncomputable section

namespace Cert.ReferenceIdeal.RunP

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

/-- Operations 1 to 26: through the first convolution's five orders, each with a leading unit axis. -/
abbrev L1 : List (HloOp τ sig (Elt F)) :=
  [ reshape main_arg0 main_v0 rfl shapeCasts_S64x8192_S64x4096x2,
    reshape main_arg1 main_v1 rfl shapeCasts_S64x262144_S64x4096x64,
    binary main_v0 main_v1 main_v2 ((fun a b => concatenate S64x4096x66 2 [⟨S64x4096x2, a⟩, ⟨S64x4096x64, b⟩] concatenates_S64x4096x2_S64x4096x64_S64x4096x66_d2) : (⟨S64x4096x2, .f32⟩ : BufTy).Contents (Elt F) → (⟨S64x4096x64, .f32⟩ : BufTy).Contents (Elt F) → (⟨S64x4096x66, .f32⟩ : BufTy).Contents (Elt F)),
    unary main_v2 main_v3 ((transpose S4096x66x64 [1, 2, 0] · transposes_S64x4096x66_S4096x66x64_1_2_0) : (⟨S64x4096x66, .f32⟩ : BufTy).Contents (Elt F) → (⟨S4096x66x64, .f32⟩ : BufTy).Contents (Elt F)),
    reshape main_v3 main_v4 rfl shapeCasts_S4096x66x64_S4096x4224,
    unary main_arg2 main_v5 ((extractStridedSlice S1x4096x4096 ![0, 0, 0] · slices_S2x4096x4096_S1x4096x4096_0_0_0) : (⟨S2x4096x4096, .f32⟩ : BufTy).Contents (Elt F) → (⟨S1x4096x4096, .f32⟩ : BufTy).Contents (Elt F)),
    reshape main_v5 main_v6 rfl shapeCasts_S1x4096x4096_S4096x4096,
    binary main_v6 main_v4 main_v7 ((fun l r => Host.dotGeneral dot_S4096x4096_S4096x4224_S4096x4224_1_0_0_1_n_n none l r) : (⟨S4096x4096, .f32⟩ : BufTy).Contents (Elt F) → (⟨S4096x4224, .f32⟩ : BufTy).Contents (Elt F) → (⟨S4096x4224, .f32⟩ : BufTy).Contents (Elt F)),
    binary main_v6 main_v7 main_v8 ((fun l r => Host.dotGeneral dot_S4096x4096_S4096x4224_S4096x4224_1_0_0_1_n_n none l r) : (⟨S4096x4096, .f32⟩ : BufTy).Contents (Elt F) → (⟨S4096x4224, .f32⟩ : BufTy).Contents (Elt F) → (⟨S4096x4224, .f32⟩ : BufTy).Contents (Elt F)),
    nullary main_cst (constant S_ .f32 0x40000000#32),
    unary main_cst main_v9 (broadcastInDim S4096x4224 ![] bcast_S_S4096x4224 : (⟨S_, .f32⟩ : BufTy).Contents (Elt F) → (⟨S4096x4224, .f32⟩ : BufTy).Contents (Elt F)),
    binary main_v9 main_v8 main_v10 (mulf : (⟨S4096x4224, .f32⟩ : BufTy).Contents (Elt F) → (⟨S4096x4224, .f32⟩ : BufTy).Contents (Elt F) → (⟨S4096x4224, .f32⟩ : BufTy).Contents (Elt F)),
    binary main_v10 main_v4 main_v11 (subf : (⟨S4096x4224, .f32⟩ : BufTy).Contents (Elt F) → (⟨S4096x4224, .f32⟩ : BufTy).Contents (Elt F) → (⟨S4096x4224, .f32⟩ : BufTy).Contents (Elt F)),
    unary main_arg2 main_v12 ((extractStridedSlice S1x4096x4096 ![1, 0, 0] · slices_S2x4096x4096_S1x4096x4096_1_0_0) : (⟨S2x4096x4096, .f32⟩ : BufTy).Contents (Elt F) → (⟨S1x4096x4096, .f32⟩ : BufTy).Contents (Elt F)),
    reshape main_v12 main_v13 rfl shapeCasts_S1x4096x4096_S4096x4096,
    binary main_v13 main_v7 main_v14 ((fun l r => Host.dotGeneral dot_S4096x4096_S4096x4224_S4096x4224_1_0_0_1_n_n none l r) : (⟨S4096x4096, .f32⟩ : BufTy).Contents (Elt F) → (⟨S4096x4224, .f32⟩ : BufTy).Contents (Elt F) → (⟨S4096x4224, .f32⟩ : BufTy).Contents (Elt F)),
    binary main_v13 main_v14 main_v15 ((fun l r => Host.dotGeneral dot_S4096x4096_S4096x4224_S4096x4224_1_0_0_1_n_n none l r) : (⟨S4096x4096, .f32⟩ : BufTy).Contents (Elt F) → (⟨S4096x4224, .f32⟩ : BufTy).Contents (Elt F) → (⟨S4096x4224, .f32⟩ : BufTy).Contents (Elt F)),
    nullary main_cst_0 (constant S_ .f32 0x40000000#32),
    unary main_cst_0 main_v16 (broadcastInDim S4096x4224 ![] bcast_S_S4096x4224 : (⟨S_, .f32⟩ : BufTy).Contents (Elt F) → (⟨S4096x4224, .f32⟩ : BufTy).Contents (Elt F)),
    binary main_v16 main_v15 main_v17 (mulf : (⟨S4096x4224, .f32⟩ : BufTy).Contents (Elt F) → (⟨S4096x4224, .f32⟩ : BufTy).Contents (Elt F) → (⟨S4096x4224, .f32⟩ : BufTy).Contents (Elt F)),
    binary main_v17 main_v7 main_v18 (subf : (⟨S4096x4224, .f32⟩ : BufTy).Contents (Elt F) → (⟨S4096x4224, .f32⟩ : BufTy).Contents (Elt F) → (⟨S4096x4224, .f32⟩ : BufTy).Contents (Elt F)),
    unary main_v4 main_v19 (broadcastInDim S1x4096x4224 ![1, 2] bcast_S4096x4224_S1x4096x4224_1_2 : (⟨S4096x4224, .f32⟩ : BufTy).Contents (Elt F) → (⟨S1x4096x4224, .f32⟩ : BufTy).Contents (Elt F)),
    unary main_v7 main_v20 (broadcastInDim S1x4096x4224 ![1, 2] bcast_S4096x4224_S1x4096x4224_1_2 : (⟨S4096x4224, .f32⟩ : BufTy).Contents (Elt F) → (⟨S1x4096x4224, .f32⟩ : BufTy).Contents (Elt F)),
    unary main_v11 main_v21 (broadcastInDim S1x4096x4224 ![1, 2] bcast_S4096x4224_S1x4096x4224_1_2 : (⟨S4096x4224, .f32⟩ : BufTy).Contents (Elt F) → (⟨S1x4096x4224, .f32⟩ : BufTy).Contents (Elt F)),
    unary main_v14 main_v22 (broadcastInDim S1x4096x4224 ![1, 2] bcast_S4096x4224_S1x4096x4224_1_2 : (⟨S4096x4224, .f32⟩ : BufTy).Contents (Elt F) → (⟨S1x4096x4224, .f32⟩ : BufTy).Contents (Elt F)),
    unary main_v18 main_v23 (broadcastInDim S1x4096x4224 ![1, 2] bcast_S4096x4224_S1x4096x4224_1_2 : (⟨S4096x4224, .f32⟩ : BufTy).Contents (Elt F) → (⟨S1x4096x4224, .f32⟩ : BufTy).Contents (Elt F)) ]

/-- Operations 27 to 75: the first stacking and projection, the gates, the second features and their five orders. -/
abbrev L2 : List (HloOp τ sig (Elt F)) :=
  [ nary ![main_v19, main_v20, main_v21, main_v22, main_v23] main_v24 (fun u => concatenate S5x4096x4224 0 [⟨S1x4096x4224, u 0⟩, ⟨S1x4096x4224, u 1⟩, ⟨S1x4096x4224, u 2⟩, ⟨S1x4096x4224, u 3⟩, ⟨S1x4096x4224, u 4⟩] concatenates_S1x4096x4224_S1x4096x4224_S1x4096x4224_S1x4096x4224_S1x4096x4224_S5x4096x4224_d0),
    reshape main_v24 main_v25 rfl shapeCasts_S5x4096x4224_S5x4096x66x64,
    unary main_v25 main_v26 ((transpose S64x4096x66x5 [3, 1, 2, 0] · transposes_S5x4096x66x64_S64x4096x66x5_3_1_2_0) : (⟨S5x4096x66x64, .f32⟩ : BufTy).Contents (Elt F) → (⟨S64x4096x66x5, .f32⟩ : BufTy).Contents (Elt F)),
    reshape main_v26 main_v27 rfl shapeCasts_S64x4096x66x5_S262144x330,
    binary main_v27 main_arg3 main_v28 ((fun l r => Host.dotGeneral dot_S262144x330_S330x128_S262144x128_1_0_0_1_n_n none l r) : (⟨S262144x330, .f32⟩ : BufTy).Contents (Elt F) → (⟨S330x128, .f32⟩ : BufTy).Contents (Elt F) → (⟨S262144x128, .f32⟩ : BufTy).Contents (Elt F)),
    unary main_arg4 main_v29 (broadcastInDim S1x128 ![1] bcast_S128_S1x128_1 : (⟨S128, .f32⟩ : BufTy).Contents (Elt F) → (⟨S1x128, .f32⟩ : BufTy).Contents (Elt F)),
    unary main_v29 main_v30 (broadcastInDim S262144x128 ![0, 1] bcast_S1x128_S262144x128_0_1 : (⟨S1x128, .f32⟩ : BufTy).Contents (Elt F) → (⟨S262144x128, .f32⟩ : BufTy).Contents (Elt F)),
    binary main_v28 main_v30 main_v31 (addf : (⟨S262144x128, .f32⟩ : BufTy).Contents (Elt F) → (⟨S262144x128, .f32⟩ : BufTy).Contents (Elt F) → (⟨S262144x128, .f32⟩ : BufTy).Contents (Elt F)),
    reshape main_v31 main_v32 rfl shapeCasts_S262144x128_S64x524288,
    unary main_v32 main_v33 (Host.negf : (⟨S64x524288, .f32⟩ : BufTy).Contents (Elt F) → (⟨S64x524288, .f32⟩ : BufTy).Contents (Elt F)),
    unary main_v33 main_v34 (Host.exp : (⟨S64x524288, .f32⟩ : BufTy).Contents (Elt F) → (⟨S64x524288, .f32⟩ : BufTy).Contents (Elt F)),
    nullary main_cst_1 (constant S_ .f32 0x3F800000#32),
    unary main_cst_1 main_v35 (broadcastInDim S64x524288 ![] bcast_S_S64x524288 : (⟨S_, .f32⟩ : BufTy).Contents (Elt F) → (⟨S64x524288, .f32⟩ : BufTy).Contents (Elt F)),
    binary main_v35 main_v34 main_v36 (addf : (⟨S64x524288, .f32⟩ : BufTy).Contents (Elt F) → (⟨S64x524288, .f32⟩ : BufTy).Contents (Elt F) → (⟨S64x524288, .f32⟩ : BufTy).Contents (Elt F)),
    nullary main_cst_2 (constant S_ .f32 0x3F800000#32),
    unary main_cst_2 main_v37 (broadcastInDim S64x524288 ![] bcast_S_S64x524288 : (⟨S_, .f32⟩ : BufTy).Contents (Elt F) → (⟨S64x524288, .f32⟩ : BufTy).Contents (Elt F)),
    binary main_v37 main_v36 main_v38 (Host.divf : (⟨S64x524288, .f32⟩ : BufTy).Contents (Elt F) → (⟨S64x524288, .f32⟩ : BufTy).Contents (Elt F) → (⟨S64x524288, .f32⟩ : BufTy).Contents (Elt F)),
    reshape main_v38 main_v39 rfl shapeCasts_S64x524288_S64x4096x128,
    unary main_v39 main_v40 ((extractStridedSlice S64x4096x64 ![0, 0, 0] · slices_S64x4096x128_S64x4096x64_0_0_0) : (⟨S64x4096x128, .f32⟩ : BufTy).Contents (Elt F) → (⟨S64x4096x64, .f32⟩ : BufTy).Contents (Elt F)),
    reshape main_v40 main_v41 rfl shapeCasts_S64x4096x64_S64x262144,
    unary main_v39 main_v42 ((extractStridedSlice S64x4096x64 ![0, 0, 64] · slices_S64x4096x128_S64x4096x64_0_0_64) : (⟨S64x4096x128, .f32⟩ : BufTy).Contents (Elt F) → (⟨S64x4096x64, .f32⟩ : BufTy).Contents (Elt F)),
    reshape main_v42 main_v43 rfl shapeCasts_S64x4096x64_S64x262144,
    binary main_v41 main_arg1 main_v44 (mulf : (⟨S64x262144, .f32⟩ : BufTy).Contents (Elt F) → (⟨S64x262144, .f32⟩ : BufTy).Contents (Elt F) → (⟨S64x262144, .f32⟩ : BufTy).Contents (Elt F)),
    reshape main_arg0 main_v45 rfl shapeCasts_S64x8192_S64x4096x2,
    reshape main_v44 main_v46 rfl shapeCasts_S64x262144_S64x4096x64,
    binary main_v45 main_v46 main_v47 ((fun a b => concatenate S64x4096x66 2 [⟨S64x4096x2, a⟩, ⟨S64x4096x64, b⟩] concatenates_S64x4096x2_S64x4096x64_S64x4096x66_d2) : (⟨S64x4096x2, .f32⟩ : BufTy).Contents (Elt F) → (⟨S64x4096x64, .f32⟩ : BufTy).Contents (Elt F) → (⟨S64x4096x66, .f32⟩ : BufTy).Contents (Elt F)),
    unary main_v47 main_v48 ((transpose S4096x66x64 [1, 2, 0] · transposes_S64x4096x66_S4096x66x64_1_2_0) : (⟨S64x4096x66, .f32⟩ : BufTy).Contents (Elt F) → (⟨S4096x66x64, .f32⟩ : BufTy).Contents (Elt F)),
    reshape main_v48 main_v49 rfl shapeCasts_S4096x66x64_S4096x4224,
    unary main_arg2 main_v50 ((extractStridedSlice S1x4096x4096 ![0, 0, 0] · slices_S2x4096x4096_S1x4096x4096_0_0_0) : (⟨S2x4096x4096, .f32⟩ : BufTy).Contents (Elt F) → (⟨S1x4096x4096, .f32⟩ : BufTy).Contents (Elt F)),
    reshape main_v50 main_v51 rfl shapeCasts_S1x4096x4096_S4096x4096,
    binary main_v51 main_v49 main_v52 ((fun l r => Host.dotGeneral dot_S4096x4096_S4096x4224_S4096x4224_1_0_0_1_n_n none l r) : (⟨S4096x4096, .f32⟩ : BufTy).Contents (Elt F) → (⟨S4096x4224, .f32⟩ : BufTy).Contents (Elt F) → (⟨S4096x4224, .f32⟩ : BufTy).Contents (Elt F)),
    binary main_v51 main_v52 main_v53 ((fun l r => Host.dotGeneral dot_S4096x4096_S4096x4224_S4096x4224_1_0_0_1_n_n none l r) : (⟨S4096x4096, .f32⟩ : BufTy).Contents (Elt F) → (⟨S4096x4224, .f32⟩ : BufTy).Contents (Elt F) → (⟨S4096x4224, .f32⟩ : BufTy).Contents (Elt F)),
    nullary main_cst_3 (constant S_ .f32 0x40000000#32),
    unary main_cst_3 main_v54 (broadcastInDim S4096x4224 ![] bcast_S_S4096x4224 : (⟨S_, .f32⟩ : BufTy).Contents (Elt F) → (⟨S4096x4224, .f32⟩ : BufTy).Contents (Elt F)),
    binary main_v54 main_v53 main_v55 (mulf : (⟨S4096x4224, .f32⟩ : BufTy).Contents (Elt F) → (⟨S4096x4224, .f32⟩ : BufTy).Contents (Elt F) → (⟨S4096x4224, .f32⟩ : BufTy).Contents (Elt F)),
    binary main_v55 main_v49 main_v56 (subf : (⟨S4096x4224, .f32⟩ : BufTy).Contents (Elt F) → (⟨S4096x4224, .f32⟩ : BufTy).Contents (Elt F) → (⟨S4096x4224, .f32⟩ : BufTy).Contents (Elt F)),
    unary main_arg2 main_v57 ((extractStridedSlice S1x4096x4096 ![1, 0, 0] · slices_S2x4096x4096_S1x4096x4096_1_0_0) : (⟨S2x4096x4096, .f32⟩ : BufTy).Contents (Elt F) → (⟨S1x4096x4096, .f32⟩ : BufTy).Contents (Elt F)),
    reshape main_v57 main_v58 rfl shapeCasts_S1x4096x4096_S4096x4096,
    binary main_v58 main_v52 main_v59 ((fun l r => Host.dotGeneral dot_S4096x4096_S4096x4224_S4096x4224_1_0_0_1_n_n none l r) : (⟨S4096x4096, .f32⟩ : BufTy).Contents (Elt F) → (⟨S4096x4224, .f32⟩ : BufTy).Contents (Elt F) → (⟨S4096x4224, .f32⟩ : BufTy).Contents (Elt F)),
    binary main_v58 main_v59 main_v60 ((fun l r => Host.dotGeneral dot_S4096x4096_S4096x4224_S4096x4224_1_0_0_1_n_n none l r) : (⟨S4096x4096, .f32⟩ : BufTy).Contents (Elt F) → (⟨S4096x4224, .f32⟩ : BufTy).Contents (Elt F) → (⟨S4096x4224, .f32⟩ : BufTy).Contents (Elt F)),
    nullary main_cst_4 (constant S_ .f32 0x40000000#32),
    unary main_cst_4 main_v61 (broadcastInDim S4096x4224 ![] bcast_S_S4096x4224 : (⟨S_, .f32⟩ : BufTy).Contents (Elt F) → (⟨S4096x4224, .f32⟩ : BufTy).Contents (Elt F)),
    binary main_v61 main_v60 main_v62 (mulf : (⟨S4096x4224, .f32⟩ : BufTy).Contents (Elt F) → (⟨S4096x4224, .f32⟩ : BufTy).Contents (Elt F) → (⟨S4096x4224, .f32⟩ : BufTy).Contents (Elt F)),
    binary main_v62 main_v52 main_v63 (subf : (⟨S4096x4224, .f32⟩ : BufTy).Contents (Elt F) → (⟨S4096x4224, .f32⟩ : BufTy).Contents (Elt F) → (⟨S4096x4224, .f32⟩ : BufTy).Contents (Elt F)),
    unary main_v49 main_v64 (broadcastInDim S1x4096x4224 ![1, 2] bcast_S4096x4224_S1x4096x4224_1_2 : (⟨S4096x4224, .f32⟩ : BufTy).Contents (Elt F) → (⟨S1x4096x4224, .f32⟩ : BufTy).Contents (Elt F)),
    unary main_v52 main_v65 (broadcastInDim S1x4096x4224 ![1, 2] bcast_S4096x4224_S1x4096x4224_1_2 : (⟨S4096x4224, .f32⟩ : BufTy).Contents (Elt F) → (⟨S1x4096x4224, .f32⟩ : BufTy).Contents (Elt F)),
    unary main_v56 main_v66 (broadcastInDim S1x4096x4224 ![1, 2] bcast_S4096x4224_S1x4096x4224_1_2 : (⟨S4096x4224, .f32⟩ : BufTy).Contents (Elt F) → (⟨S1x4096x4224, .f32⟩ : BufTy).Contents (Elt F)),
    unary main_v59 main_v67 (broadcastInDim S1x4096x4224 ![1, 2] bcast_S4096x4224_S1x4096x4224_1_2 : (⟨S4096x4224, .f32⟩ : BufTy).Contents (Elt F) → (⟨S1x4096x4224, .f32⟩ : BufTy).Contents (Elt F)),
    unary main_v63 main_v68 (broadcastInDim S1x4096x4224 ![1, 2] bcast_S4096x4224_S1x4096x4224_1_2 : (⟨S4096x4224, .f32⟩ : BufTy).Contents (Elt F) → (⟨S1x4096x4224, .f32⟩ : BufTy).Contents (Elt F)) ]

/-- Operations 76 to 91: the second stacking and projection, and the new state. -/
abbrev L3 : List (HloOp τ sig (Elt F)) :=
  [ nary ![main_v64, main_v65, main_v66, main_v67, main_v68] main_v69 (fun u => concatenate S5x4096x4224 0 [⟨S1x4096x4224, u 0⟩, ⟨S1x4096x4224, u 1⟩, ⟨S1x4096x4224, u 2⟩, ⟨S1x4096x4224, u 3⟩, ⟨S1x4096x4224, u 4⟩] concatenates_S1x4096x4224_S1x4096x4224_S1x4096x4224_S1x4096x4224_S1x4096x4224_S5x4096x4224_d0),
    reshape main_v69 main_v70 rfl shapeCasts_S5x4096x4224_S5x4096x66x64,
    unary main_v70 main_v71 ((transpose S64x4096x66x5 [3, 1, 2, 0] · transposes_S5x4096x66x64_S64x4096x66x5_3_1_2_0) : (⟨S5x4096x66x64, .f32⟩ : BufTy).Contents (Elt F) → (⟨S64x4096x66x5, .f32⟩ : BufTy).Contents (Elt F)),
    reshape main_v71 main_v72 rfl shapeCasts_S64x4096x66x5_S262144x330,
    binary main_v72 main_arg5 main_v73 ((fun l r => Host.dotGeneral dot_S262144x330_S330x64_S262144x64_1_0_0_1_n_n none l r) : (⟨S262144x330, .f32⟩ : BufTy).Contents (Elt F) → (⟨S330x64, .f32⟩ : BufTy).Contents (Elt F) → (⟨S262144x64, .f32⟩ : BufTy).Contents (Elt F)),
    unary main_arg6 main_v74 (broadcastInDim S1x64 ![1] bcast_S64_S1x64_1 : (⟨S64, .f32⟩ : BufTy).Contents (Elt F) → (⟨S1x64, .f32⟩ : BufTy).Contents (Elt F)),
    unary main_v74 main_v75 (broadcastInDim S262144x64 ![0, 1] bcast_S1x64_S262144x64_0_1 : (⟨S1x64, .f32⟩ : BufTy).Contents (Elt F) → (⟨S262144x64, .f32⟩ : BufTy).Contents (Elt F)),
    binary main_v73 main_v75 main_v76 (addf : (⟨S262144x64, .f32⟩ : BufTy).Contents (Elt F) → (⟨S262144x64, .f32⟩ : BufTy).Contents (Elt F) → (⟨S262144x64, .f32⟩ : BufTy).Contents (Elt F)),
    reshape main_v76 main_v77 rfl shapeCasts_S262144x64_S64x262144,
    unary main_v77 main_v78 (Host.tanh : (⟨S64x262144, .f32⟩ : BufTy).Contents (Elt F) → (⟨S64x262144, .f32⟩ : BufTy).Contents (Elt F)),
    binary main_v43 main_arg1 main_v79 (mulf : (⟨S64x262144, .f32⟩ : BufTy).Contents (Elt F) → (⟨S64x262144, .f32⟩ : BufTy).Contents (Elt F) → (⟨S64x262144, .f32⟩ : BufTy).Contents (Elt F)),
    nullary main_cst_5 (constant S_ .f32 0x3F800000#32),
    unary main_cst_5 main_v80 (broadcastInDim S64x262144 ![] bcast_S_S64x262144 : (⟨S_, .f32⟩ : BufTy).Contents (Elt F) → (⟨S64x262144, .f32⟩ : BufTy).Contents (Elt F)),
    binary main_v80 main_v43 main_v81 (subf : (⟨S64x262144, .f32⟩ : BufTy).Contents (Elt F) → (⟨S64x262144, .f32⟩ : BufTy).Contents (Elt F) → (⟨S64x262144, .f32⟩ : BufTy).Contents (Elt F)),
    binary main_v81 main_v78 main_v82 (mulf : (⟨S64x262144, .f32⟩ : BufTy).Contents (Elt F) → (⟨S64x262144, .f32⟩ : BufTy).Contents (Elt F) → (⟨S64x262144, .f32⟩ : BufTy).Contents (Elt F)),
    binary main_v79 main_v82 main_v83 (addf : (⟨S64x262144, .f32⟩ : BufTy).Contents (Elt F) → (⟨S64x262144, .f32⟩ : BufTy).Contents (Elt F) → (⟨S64x262144, .f32⟩ : BufTy).Contents (Elt F)) ]

set_option maxRecDepth 8192 in
/-- The three stretches laid end to end are @main's operations. -/
theorem ops_eq : (ops : List (HloOp τ sig (Elt F))) = L1 ++ (L2 ++ L3) := rfl

/-- The buffers each stretch writes. -/
abbrev W1 : List (Ref sig .tc) := [main_v0, main_v1, main_v2, main_v3, main_v4, main_v5, main_v6, main_v7, main_v8, main_cst, main_v9, main_v10, main_v11, main_v12, main_v13, main_v14, main_v15, main_cst_0, main_v16, main_v17, main_v18, main_v19, main_v20, main_v21, main_v22, main_v23]
abbrev W2 : List (Ref sig .tc) := [main_v24, main_v25, main_v26, main_v27, main_v28, main_v29, main_v30, main_v31, main_v32, main_v33, main_v34, main_cst_1, main_v35, main_v36, main_cst_2, main_v37, main_v38, main_v39, main_v40, main_v41, main_v42, main_v43, main_v44, main_v45, main_v46, main_v47, main_v48, main_v49, main_v50, main_v51, main_v52, main_v53, main_cst_3, main_v54, main_v55, main_v56, main_v57, main_v58, main_v59, main_v60, main_cst_4, main_v61, main_v62, main_v63, main_v64, main_v65, main_v66, main_v67, main_v68]
abbrev W3 : List (Ref sig .tc) := [main_v69, main_v70, main_v71, main_v72, main_v73, main_v74, main_v75, main_v76, main_v77, main_v78, main_v79, main_cst_5, main_v80, main_v81, main_v82, main_v83]

theorem writes1 : WritesInOrder (L1 (F := F)) W1 := by
  repeat' (first | exact List.Forall₂.nil | refine List.Forall₂.cons ⟨rfl, rfl⟩ ?_)
theorem writes2 : WritesInOrder (L2 (F := F)) W2 := by
  repeat' (first | exact List.Forall₂.nil | refine List.Forall₂.cons ⟨rfl, rfl⟩ ?_)
theorem writes3 : WritesInOrder (L3 (F := F)) W3 := by
  repeat' (first | exact List.Forall₂.nil | refine List.Forall₂.cons ⟨rfl, rfl⟩ ?_)

end Cert.ReferenceIdeal.RunP

end
-- ==== Proof.RefRun1.lean ====
/-
  The first stretch of the reference's host operations: from the arguments, the five diffusion orders of the first
  convolution's features, each given a leading unit axis.

  The features are each node's two input features followed by its 64 state features, laid [4096, 66·64]. Order 0 is the
  features; order 1 the first support applied to them; order 2 twice the first support applied to order 1, less order 0;
  order 3 the second support applied to order 1; order 4 twice the second support applied to order 3, less order 1. What
  the stretch leaves in each of the five buffers is that order's stage function of the arguments' contents at the
  stretch's start: the operations' composed term is the stage function's own definition, unfolded.
-/
import proofs.«405468_j48026324304060_3_alg».proof.Proof.RefChunks
import proofs.«405468_j48026324304060_3_alg».proof.Proof.RefReadP
import proofs.«405468_j48026324304060_3_alg».proof.Proof.LibAfterFrame
import Idealize.ShloMosaic.Lib.StableHlo.Run

noncomputable section

namespace Cert.ReferenceIdeal.RunP

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable (V : Valuation τ sig (Elt Ideal))

/-- Order 0 with a leading unit axis: the features themselves. -/
theorem chunk1_v19 : StableHlo.after (L1 (F := Ideal)) V (Proc.devRef .tc main_v19)
    = val_main_v19 (F := Ideal) (V (Proc.devRef .tc main_arg0)) (V (Proc.devRef .tc main_arg1)) := by
  after_results_simp
  first | rfl | fail "rfl (v19)"

/-- Order 1: the first support applied to the features. -/
theorem chunk1_v20 : StableHlo.after (L1 (F := Ideal)) V (Proc.devRef .tc main_v20)
    = val_main_v20 (F := Ideal) (V (Proc.devRef .tc main_arg0)) (V (Proc.devRef .tc main_arg1)) (V (Proc.devRef .tc main_arg2)) := by
  after_results_simp
  first | rfl | fail "rfl (v20)"

/-- Order 2: twice the first support applied to order 1, less order 0. -/
theorem chunk1_v21 : StableHlo.after (L1 (F := Ideal)) V (Proc.devRef .tc main_v21)
    = val_main_v21 (F := Ideal) (V (Proc.devRef .tc main_arg0)) (V (Proc.devRef .tc main_arg1)) (V (Proc.devRef .tc main_arg2)) := by
  after_results_simp
  first | rfl | fail "rfl (v21)"

/-- Order 3: the second support applied to order 1. -/
theorem chunk1_v22 : StableHlo.after (L1 (F := Ideal)) V (Proc.devRef .tc main_v22)
    = val_main_v22 (F := Ideal) (V (Proc.devRef .tc main_arg0)) (V (Proc.devRef .tc main_arg1)) (V (Proc.devRef .tc main_arg2)) := by
  after_results_simp
  first | rfl | fail "rfl (v22)"

/-- Order 4: twice the second support applied to order 3, less order 1. -/
theorem chunk1_v23 : StableHlo.after (L1 (F := Ideal)) V (Proc.devRef .tc main_v23)
    = val_main_v23 (F := Ideal) (V (Proc.devRef .tc main_arg0)) (V (Proc.devRef .tc main_arg1)) (V (Proc.devRef .tc main_arg2)) := by
  after_results_simp
  first | rfl | fail "rfl (v23)"

/-- The five orders after the first stretch, together. -/
theorem chunk1 :
    StableHlo.after (L1 (F := Ideal)) V (Proc.devRef .tc main_v19)
        = val_main_v19 (F := Ideal) (V (Proc.devRef .tc main_arg0)) (V (Proc.devRef .tc main_arg1))
    ∧ StableHlo.after (L1 (F := Ideal)) V (Proc.devRef .tc main_v20)
        = val_main_v20 (F := Ideal) (V (Proc.devRef .tc main_arg0)) (V (Proc.devRef .tc main_arg1)) (V (Proc.devRef .tc main_arg2))
    ∧ StableHlo.after (L1 (F := Ideal)) V (Proc.devRef .tc main_v21)
        = val_main_v21 (F := Ideal) (V (Proc.devRef .tc main_arg0)) (V (Proc.devRef .tc main_arg1)) (V (Proc.devRef .tc main_arg2))
    ∧ StableHlo.after (L1 (F := Ideal)) V (Proc.devRef .tc main_v22)
        = val_main_v22 (F := Ideal) (V (Proc.devRef .tc main_arg0)) (V (Proc.devRef .tc main_arg1)) (V (Proc.devRef .tc main_arg2))
    ∧ StableHlo.after (L1 (F := Ideal)) V (Proc.devRef .tc main_v23)
        = val_main_v23 (F := Ideal) (V (Proc.devRef .tc main_arg0)) (V (Proc.devRef .tc main_arg1)) (V (Proc.devRef .tc main_arg2)) :=
  ⟨chunk1_v19 V, chunk1_v20 V, chunk1_v21 V, chunk1_v22 V, chunk1_v23 V⟩

end Cert.ReferenceIdeal.RunP

end
-- ==== Proof.RefRun2.lean ====
/-
  The middle stretch of the reference's host operations, read as its stage functions.

  The stretch stacks the five orders of the first diffusion, projects each node's 330 stacked entries to 128 gate
  pre-activations, adds the bias and applies the logistic function `1 / (1 + exp (-x))`; the lower 64 gate entries of a
  node (the reset gate) multiply the state, the upper 64 (the update gate) are kept for the last stretch. The input
  features and the gated state, laid node-major, are the second features; two steps of each support matrix with the
  recurrence `T₂ = 2·S·T₁ − T₀` give the five orders of the second diffusion, each handed on with a leading unit axis.

  The stretch is cut once more, before the two-piece concatenation that forms the second features: the operands of a
  concatenation are read where the cut leaves them. The fold over the two parts in a row is the fold over the stretch.
-/
import proofs.«405468_j48026324304060_3_alg».proof.Proof.RefChunks
import proofs.«405468_j48026324304060_3_alg».proof.Proof.RefReadP
import proofs.«405468_j48026324304060_3_alg».proof.Proof.LibAfterFrame
import Idealize.ShloMosaic.Lib.StableHlo.Run

noncomputable section

namespace Cert.ReferenceIdeal.RunP

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

/-- The stretch up to the gated state: the stacking and projection, the gates, the gated state laid for stacking. -/
abbrev L2a : List (HloOp τ sig (Elt F)) :=
  [ nary ![main_v19, main_v20, main_v21, main_v22, main_v23] main_v24 (fun u => concatenate S5x4096x4224 0 [⟨S1x4096x4224, u 0⟩, ⟨S1x4096x4224, u 1⟩, ⟨S1x4096x4224, u 2⟩, ⟨S1x4096x4224, u 3⟩, ⟨S1x4096x4224, u 4⟩] concatenates_S1x4096x4224_S1x4096x4224_S1x4096x4224_S1x4096x4224_S1x4096x4224_S5x4096x4224_d0),
    reshape main_v24 main_v25 rfl shapeCasts_S5x4096x4224_S5x4096x66x64,
    unary main_v25 main_v26 ((transpose S64x4096x66x5 [3, 1, 2, 0] · transposes_S5x4096x66x64_S64x4096x66x5_3_1_2_0) : (⟨S5x4096x66x64, .f32⟩ : BufTy).Contents (Elt F) → (⟨S64x4096x66x5, .f32⟩ : BufTy).Contents (Elt F)),
    reshape main_v26 main_v27 rfl shapeCasts_S64x4096x66x5_S262144x330,
    binary main_v27 main_arg3 main_v28 ((fun l r => Host.dotGeneral dot_S262144x330_S330x128_S262144x128_1_0_0_1_n_n none l r) : (⟨S262144x330, .f32⟩ : BufTy).Contents (Elt F) → (⟨S330x128, .f32⟩ : BufTy).Contents (Elt F) → (⟨S262144x128, .f32⟩ : BufTy).Contents (Elt F)),
    unary main_arg4 main_v29 (broadcastInDim S1x128 ![1] bcast_S128_S1x128_1 : (⟨S128, .f32⟩ : BufTy).Contents (Elt F) → (⟨S1x128, .f32⟩ : BufTy).Contents (Elt F)),
    unary main_v29 main_v30 (broadcastInDim S262144x128 ![0, 1] bcast_S1x128_S262144x128_0_1 : (⟨S1x128, .f32⟩ : BufTy).Contents (Elt F) → (⟨S262144x128, .f32⟩ : BufTy).Contents (Elt F)),
    binary main_v28 main_v30 main_v31 (addf : (⟨S262144x128, .f32⟩ : BufTy).Contents (Elt F) → (⟨S262144x128, .f32⟩ : BufTy).Contents (Elt F) → (⟨S262144x128, .f32⟩ : BufTy).Contents (Elt F)),
    reshape main_v31 main_v32 rfl shapeCasts_S262144x128_S64x524288,
    unary main_v32 main_v33 (Host.negf : (⟨S64x524288, .f32⟩ : BufTy).Contents (Elt F) → (⟨S64x524288, .f32⟩ : BufTy).Contents (Elt F)),
    unary main_v33 main_v34 (Host.exp : (⟨S64x524288, .f32⟩ : BufTy).Contents (Elt F) → (⟨S64x524288, .f32⟩ : BufTy).Contents (Elt F)),
    nullary main_cst_1 (constant S_ .f32 0x3F800000#32),
    unary main_cst_1 main_v35 (broadcastInDim S64x524288 ![] bcast_S_S64x524288 : (⟨S_, .f32⟩ : BufTy).Contents (Elt F) → (⟨S64x524288, .f32⟩ : BufTy).Contents (Elt F)),
    binary main_v35 main_v34 main_v36 (addf : (⟨S64x524288, .f32⟩ : BufTy).Contents (Elt F) → (⟨S64x524288, .f32⟩ : BufTy).Contents (Elt F) → (⟨S64x524288, .f32⟩ : BufTy).Contents (Elt F)),
    nullary main_cst_2 (constant S_ .f32 0x3F800000#32),
    unary main_cst_2 main_v37 (broadcastInDim S64x524288 ![] bcast_S_S64x524288 : (⟨S_, .f32⟩ : BufTy).Contents (Elt F) → (⟨S64x524288, .f32⟩ : BufTy).Contents (Elt F)),
    binary main_v37 main_v36 main_v38 (Host.divf : (⟨S64x524288, .f32⟩ : BufTy).Contents (Elt F) → (⟨S64x524288, .f32⟩ : BufTy).Contents (Elt F) → (⟨S64x524288, .f32⟩ : BufTy).Contents (Elt F)),
    reshape main_v38 main_v39 rfl shapeCasts_S64x524288_S64x4096x128,
    unary main_v39 main_v40 ((extractStridedSlice S64x4096x64 ![0, 0, 0] · slices_S64x4096x128_S64x4096x64_0_0_0) : (⟨S64x4096x128, .f32⟩ : BufTy).Contents (Elt F) → (⟨S64x4096x64, .f32⟩ : BufTy).Contents (Elt F)),
    reshape main_v40 main_v41 rfl shapeCasts_S64x4096x64_S64x262144,
    unary main_v39 main_v42 ((extractStridedSlice S64x4096x64 ![0, 0, 64] · slices_S64x4096x128_S64x4096x64_0_0_64) : (⟨S64x4096x128, .f32⟩ : BufTy).Contents (Elt F) → (⟨S64x4096x64, .f32⟩ : BufTy).Contents (Elt F)),
    reshape main_v42 main_v43 rfl shapeCasts_S64x4096x64_S64x262144,
    binary main_v41 main_arg1 main_v44 (mulf : (⟨S64x262144, .f32⟩ : BufTy).Contents (Elt F) → (⟨S64x262144, .f32⟩ : BufTy).Contents (Elt F) → (⟨S64x262144, .f32⟩ : BufTy).Contents (Elt F)),
    reshape main_arg0 main_v45 rfl shapeCasts_S64x8192_S64x4096x2,
    reshape main_v44 main_v46 rfl shapeCasts_S64x262144_S64x4096x64 ]

/-- The rest of the stretch: the second features and their five orders. -/
abbrev L2b : List (HloOp τ sig (Elt F)) :=
  [ binary main_v45 main_v46 main_v47 ((fun a b => concatenate S64x4096x66 2 [⟨S64x4096x2, a⟩, ⟨S64x4096x64, b⟩] concatenates_S64x4096x2_S64x4096x64_S64x4096x66_d2) : (⟨S64x4096x2, .f32⟩ : BufTy).Contents (Elt F) → (⟨S64x4096x64, .f32⟩ : BufTy).Contents (Elt F) → (⟨S64x4096x66, .f32⟩ : BufTy).Contents (Elt F)),
    unary main_v47 main_v48 ((transpose S4096x66x64 [1, 2, 0] · transposes_S64x4096x66_S4096x66x64_1_2_0) : (⟨S64x4096x66, .f32⟩ : BufTy).Contents (Elt F) → (⟨S4096x66x64, .f32⟩ : BufTy).Contents (Elt F)),
    reshape main_v48 main_v49 rfl shapeCasts_S4096x66x64_S4096x4224,
    unary main_arg2 main_v50 ((extractStridedSlice S1x4096x4096 ![0, 0, 0] · slices_S2x4096x4096_S1x4096x4096_0_0_0) : (⟨S2x4096x4096, .f32⟩ : BufTy).Contents (Elt F) → (⟨S1x4096x4096, .f32⟩ : BufTy).Contents (Elt F)),
    reshape main_v50 main_v51 rfl shapeCasts_S1x4096x4096_S4096x4096,
    binary main_v51 main_v49 main_v52 ((fun l r => Host.dotGeneral dot_S4096x4096_S4096x4224_S4096x4224_1_0_0_1_n_n none l r) : (⟨S4096x4096, .f32⟩ : BufTy).Contents (Elt F) → (⟨S4096x4224, .f32⟩ : BufTy).Contents (Elt F) → (⟨S4096x4224, .f32⟩ : BufTy).Contents (Elt F)),
    binary main_v51 main_v52 main_v53 ((fun l r => Host.dotGeneral dot_S4096x4096_S4096x4224_S4096x4224_1_0_0_1_n_n none l r) : (⟨S4096x4096, .f32⟩ : BufTy).Contents (Elt F) → (⟨S4096x4224, .f32⟩ : BufTy).Contents (Elt F) → (⟨S4096x4224, .f32⟩ : BufTy).Contents (Elt F)),
    nullary main_cst_3 (constant S_ .f32 0x40000000#32),
    unary main_cst_3 main_v54 (broadcastInDim S4096x4224 ![] bcast_S_S4096x4224 : (⟨S_, .f32⟩ : BufTy).Contents (Elt F) → (⟨S4096x4224, .f32⟩ : BufTy).Contents (Elt F)),
    binary main_v54 main_v53 main_v55 (mulf : (⟨S4096x4224, .f32⟩ : BufTy).Contents (Elt F) → (⟨S4096x4224, .f32⟩ : BufTy).Contents (Elt F) → (⟨S4096x4224, .f32⟩ : BufTy).Contents (Elt F)),
    binary main_v55 main_v49 main_v56 (subf : (⟨S4096x4224, .f32⟩ : BufTy).Contents (Elt F) → (⟨S4096x4224, .f32⟩ : BufTy).Contents (Elt F) → (⟨S4096x4224, .f32⟩ : BufTy).Contents (Elt F)),
    unary main_arg2 main_v57 ((extractStridedSlice S1x4096x4096 ![1, 0, 0] · slices_S2x4096x4096_S1x4096x4096_1_0_0) : (⟨S2x4096x4096, .f32⟩ : BufTy).Contents (Elt F) → (⟨S1x4096x4096, .f32⟩ : BufTy).Contents (Elt F)),
    reshape main_v57 main_v58 rfl shapeCasts_S1x4096x4096_S4096x4096,
    binary main_v58 main_v52 main_v59 ((fun l r => Host.dotGeneral dot_S4096x4096_S4096x4224_S4096x4224_1_0_0_1_n_n none l r) : (⟨S4096x4096, .f32⟩ : BufTy).Contents (Elt F) → (⟨S4096x4224, .f32⟩ : BufTy).Contents (Elt F) → (⟨S4096x4224, .f32⟩ : BufTy).Contents (Elt F)),
    binary main_v58 main_v59 main_v60 ((fun l r => Host.dotGeneral dot_S4096x4096_S4096x4224_S4096x4224_1_0_0_1_n_n none l r) : (⟨S4096x4096, .f32⟩ : BufTy).Contents (Elt F) → (⟨S4096x4224, .f32⟩ : BufTy).Contents (Elt F) → (⟨S4096x4224, .f32⟩ : BufTy).Contents (Elt F)),
    nullary main_cst_4 (constant S_ .f32 0x40000000#32),
    unary main_cst_4 main_v61 (broadcastInDim S4096x4224 ![] bcast_S_S4096x4224 : (⟨S_, .f32⟩ : BufTy).Contents (Elt F) → (⟨S4096x4224, .f32⟩ : BufTy).Contents (Elt F)),
    binary main_v61 main_v60 main_v62 (mulf : (⟨S4096x4224, .f32⟩ : BufTy).Contents (Elt F) → (⟨S4096x4224, .f32⟩ : BufTy).Contents (Elt F) → (⟨S4096x4224, .f32⟩ : BufTy).Contents (Elt F)),
    binary main_v62 main_v52 main_v63 (subf : (⟨S4096x4224, .f32⟩ : BufTy).Contents (Elt F) → (⟨S4096x4224, .f32⟩ : BufTy).Contents (Elt F) → (⟨S4096x4224, .f32⟩ : BufTy).Contents (Elt F)),
    unary main_v49 main_v64 (broadcastInDim S1x4096x4224 ![1, 2] bcast_S4096x4224_S1x4096x4224_1_2 : (⟨S4096x4224, .f32⟩ : BufTy).Contents (Elt F) → (⟨S1x4096x4224, .f32⟩ : BufTy).Contents (Elt F)),
    unary main_v52 main_v65 (broadcastInDim S1x4096x4224 ![1, 2] bcast_S4096x4224_S1x4096x4224_1_2 : (⟨S4096x4224, .f32⟩ : BufTy).Contents (Elt F) → (⟨S1x4096x4224, .f32⟩ : BufTy).Contents (Elt F)),
    unary main_v56 main_v66 (broadcastInDim S1x4096x4224 ![1, 2] bcast_S4096x4224_S1x4096x4224_1_2 : (⟨S4096x4224, .f32⟩ : BufTy).Contents (Elt F) → (⟨S1x4096x4224, .f32⟩ : BufTy).Contents (Elt F)),
    unary main_v59 main_v67 (broadcastInDim S1x4096x4224 ![1, 2] bcast_S4096x4224_S1x4096x4224_1_2 : (⟨S4096x4224, .f32⟩ : BufTy).Contents (Elt F) → (⟨S1x4096x4224, .f32⟩ : BufTy).Contents (Elt F)),
    unary main_v63 main_v68 (broadcastInDim S1x4096x4224 ![1, 2] bcast_S4096x4224_S1x4096x4224_1_2 : (⟨S4096x4224, .f32⟩ : BufTy).Contents (Elt F) → (⟨S1x4096x4224, .f32⟩ : BufTy).Contents (Elt F)) ]

set_option maxRecDepth 8192 in
/-- The two parts laid end to end are the stretch. -/
theorem L2_eq : (L2 : List (HloOp τ sig (Elt F))) = L2a ++ L2b := rfl

/-- The update gate, laid [64, 262144]: the upper 64 of each node's 128 gate entries. -/
theorem gates_v43 (V : Valuation τ sig (Elt Ideal))
    (x0 : Vec Ideal S64x8192 .f32) (x1 : Vec Ideal S64x262144 .f32) (x2 : Vec Ideal S2x4096x4096 .f32)
    (x3 : Vec Ideal S330x128 .f32) (x4 : Vec Ideal S128 .f32)
    (h19 : V (Proc.devRef .tc main_v19) = val_main_v19 (F := Ideal) x0 x1)
    (h20 : V (Proc.devRef .tc main_v20) = val_main_v20 (F := Ideal) x0 x1 x2)
    (h21 : V (Proc.devRef .tc main_v21) = val_main_v21 (F := Ideal) x0 x1 x2)
    (h22 : V (Proc.devRef .tc main_v22) = val_main_v22 (F := Ideal) x0 x1 x2)
    (h23 : V (Proc.devRef .tc main_v23) = val_main_v23 (F := Ideal) x0 x1 x2)
    (ha0 : V (Proc.devRef .tc main_arg0) = x0) (ha1 : V (Proc.devRef .tc main_arg1) = x1)
    (ha2 : V (Proc.devRef .tc main_arg2) = x2) (ha3 : V (Proc.devRef .tc main_arg3) = x3)
    (ha4 : V (Proc.devRef .tc main_arg4) = x4) :
    StableHlo.after (L2a (F := Ideal)) V (Proc.devRef .tc main_v43) = val_main_v43 (F := Ideal) x0 x1 x2 x3 x4 := by
  first
    | after_results_simp
    | fail "the fold did not unfold (v43)"
  first
    | (simp only [Matrix.cons_val]
       rw [h19, h20, h21, h22, h23]
       simp only [ha0, ha1, ha2, ha3, ha4])
    | fail "the entry contents were not rewritten (v43)"
  unfold val_main_v43 val_main_v42 val_main_v39 val_main_v38 val_main_v37 val_main_cst_2 val_main_v36 val_main_v35
    val_main_cst_1 val_main_v34 val_main_v33 val_main_v32 val_main_v31 val_main_v30 val_main_v29 val_main_v28
    val_main_v27 val_main_v26 val_main_v25 val_main_v24
  first
    | rfl
    | fail "the two composed terms differ (v43)"

/-- The gated state (reset gate times state), laid [64, 4096, 64] for stacking under the input features. -/
theorem gates_v46 (V : Valuation τ sig (Elt Ideal))
    (x0 : Vec Ideal S64x8192 .f32) (x1 : Vec Ideal S64x262144 .f32) (x2 : Vec Ideal S2x4096x4096 .f32)
    (x3 : Vec Ideal S330x128 .f32) (x4 : Vec Ideal S128 .f32)
    (h19 : V (Proc.devRef .tc main_v19) = val_main_v19 (F := Ideal) x0 x1)
    (h20 : V (Proc.devRef .tc main_v20) = val_main_v20 (F := Ideal) x0 x1 x2)
    (h21 : V (Proc.devRef .tc main_v21) = val_main_v21 (F := Ideal) x0 x1 x2)
    (h22 : V (Proc.devRef .tc main_v22) = val_main_v22 (F := Ideal) x0 x1 x2)
    (h23 : V (Proc.devRef .tc main_v23) = val_main_v23 (F := Ideal) x0 x1 x2)
    (ha0 : V (Proc.devRef .tc main_arg0) = x0) (ha1 : V (Proc.devRef .tc main_arg1) = x1)
    (ha2 : V (Proc.devRef .tc main_arg2) = x2) (ha3 : V (Proc.devRef .tc main_arg3) = x3)
    (ha4 : V (Proc.devRef .tc main_arg4) = x4) :
    StableHlo.after (L2a (F := Ideal)) V (Proc.devRef .tc main_v46) = val_main_v46 (F := Ideal) x0 x1 x2 x3 x4 := by
  first
    | after_results_simp
    | fail "the fold did not unfold (v46)"
  first
    | (simp only [Matrix.cons_val]
       rw [h19, h20, h21, h22, h23]
       simp only [ha0, ha1, ha2, ha3, ha4])
    | fail "the entry contents were not rewritten (v46)"
  unfold val_main_v46 val_main_v44 val_main_v41 val_main_v40 val_main_v39 val_main_v38 val_main_v37 val_main_cst_2
    val_main_v36 val_main_v35 val_main_cst_1 val_main_v34 val_main_v33 val_main_v32 val_main_v31 val_main_v30
    val_main_v29 val_main_v28 val_main_v27 val_main_v26 val_main_v25 val_main_v24
  first
    | rfl
    | fail "the two composed terms differ (v46)"

/-- The input features laid [64, 4096, 2] for stacking: a reshape of the first argument. -/
theorem gates_v45 (V : Valuation τ sig (Elt Ideal))
    (x0 : Vec Ideal S64x8192 .f32) (x1 : Vec Ideal S64x262144 .f32) (x2 : Vec Ideal S2x4096x4096 .f32)
    (x3 : Vec Ideal S330x128 .f32) (x4 : Vec Ideal S128 .f32)
    (h19 : V (Proc.devRef .tc main_v19) = val_main_v19 (F := Ideal) x0 x1)
    (h20 : V (Proc.devRef .tc main_v20) = val_main_v20 (F := Ideal) x0 x1 x2)
    (h21 : V (Proc.devRef .tc main_v21) = val_main_v21 (F := Ideal) x0 x1 x2)
    (h22 : V (Proc.devRef .tc main_v22) = val_main_v22 (F := Ideal) x0 x1 x2)
    (h23 : V (Proc.devRef .tc main_v23) = val_main_v23 (F := Ideal) x0 x1 x2)
    (ha0 : V (Proc.devRef .tc main_arg0) = x0) (ha1 : V (Proc.devRef .tc main_arg1) = x1)
    (ha2 : V (Proc.devRef .tc main_arg2) = x2) (ha3 : V (Proc.devRef .tc main_arg3) = x3)
    (ha4 : V (Proc.devRef .tc main_arg4) = x4) :
    StableHlo.after (L2a (F := Ideal)) V (Proc.devRef .tc main_v45) = val_main_v45 (F := Ideal) x0 := by
  first
    | after_results_simp
    | fail "the fold did not unfold (v45)"
  simp only [ha0]
  unfold val_main_v45
  first
    | rfl
    | fail "the two composed terms differ (v45)"

/-- The first part leaves the support matrices' argument alone. -/
theorem gates_arg2 (V : Valuation τ sig (Elt Ideal)) :
    StableHlo.after (L2a (F := Ideal)) V (Proc.devRef .tc main_arg2) = V (Proc.devRef .tc main_arg2) := by
  first
    | after_results_simp
    | fail "the fold did not unfold (arg2)"

/-- The second part leaves the update gate alone. -/
theorem orders_v43 (W : Valuation τ sig (Elt Ideal)) :
    StableHlo.after (L2b (F := Ideal)) W (Proc.devRef .tc main_v43) = W (Proc.devRef .tc main_v43) := by
  first
    | after_results_simp
    | fail "the fold did not unfold (v43)"

/-- The second features, node-major, with a leading unit axis: order 0 of the second diffusion. -/
theorem orders_v64 (W : Valuation τ sig (Elt Ideal))
    (x0 : Vec Ideal S64x8192 .f32) (x1 : Vec Ideal S64x262144 .f32) (x2 : Vec Ideal S2x4096x4096 .f32)
    (x3 : Vec Ideal S330x128 .f32) (x4 : Vec Ideal S128 .f32)
    (hfix : W (Proc.devRef .tc main_v45) = val_main_v45 (F := Ideal) x0)
    (hmov : W (Proc.devRef .tc main_v46) = val_main_v46 (F := Ideal) x0 x1 x2 x3 x4)
    (hsup : W (Proc.devRef .tc main_arg2) = x2) :
    StableHlo.after (L2b (F := Ideal)) W (Proc.devRef .tc main_v64) = val_main_v64 (F := Ideal) x0 x1 x2 x3 x4 := by
  first
    | after_results_simp
    | fail "the fold did not unfold (v64)"
  first
    | (rw [hfix, hmov]
       try simp only [hsup])
    | fail "the entry contents were not rewritten (v64)"
  unfold val_main_v64 val_main_v49 val_main_v48 val_main_v47
  first
    | rfl
    | fail "the two composed terms differ (v64)"

/-- One step of the first support matrix on the second features: order 1. -/
theorem orders_v65 (W : Valuation τ sig (Elt Ideal))
    (x0 : Vec Ideal S64x8192 .f32) (x1 : Vec Ideal S64x262144 .f32) (x2 : Vec Ideal S2x4096x4096 .f32)
    (x3 : Vec Ideal S330x128 .f32) (x4 : Vec Ideal S128 .f32)
    (hfix : W (Proc.devRef .tc main_v45) = val_main_v45 (F := Ideal) x0)
    (hmov : W (Proc.devRef .tc main_v46) = val_main_v46 (F := Ideal) x0 x1 x2 x3 x4)
    (hsup : W (Proc.devRef .tc main_arg2) = x2) :
    StableHlo.after (L2b (F := Ideal)) W (Proc.devRef .tc main_v65) = val_main_v65 (F := Ideal) x0 x1 x2 x3 x4 := by
  first
    | after_results_simp
    | fail "the fold did not unfold (v65)"
  first
    | (rw [hfix, hmov]
       try simp only [hsup])
    | fail "the entry contents were not rewritten (v65)"
  unfold val_main_v65 val_main_v52 val_main_v51 val_main_v50 val_main_v49 val_main_v48 val_main_v47
  first
    | rfl
    | fail "the two composed terms differ (v65)"

/-- Twice a further step of the first support matrix, minus order 0: order 2. -/
theorem orders_v66 (W : Valuation τ sig (Elt Ideal))
    (x0 : Vec Ideal S64x8192 .f32) (x1 : Vec Ideal S64x262144 .f32) (x2 : Vec Ideal S2x4096x4096 .f32)
    (x3 : Vec Ideal S330x128 .f32) (x4 : Vec Ideal S128 .f32)
    (hfix : W (Proc.devRef .tc main_v45) = val_main_v45 (F := Ideal) x0)
    (hmov : W (Proc.devRef .tc main_v46) = val_main_v46 (F := Ideal) x0 x1 x2 x3 x4)
    (hsup : W (Proc.devRef .tc main_arg2) = x2) :
    StableHlo.after (L2b (F := Ideal)) W (Proc.devRef .tc main_v66) = val_main_v66 (F := Ideal) x0 x1 x2 x3 x4 := by
  first
    | after_results_simp
    | fail "the fold did not unfold (v66)"
  first
    | (rw [hfix, hmov]
       try simp only [hsup])
    | fail "the entry contents were not rewritten (v66)"
  unfold val_main_v66 val_main_v56 val_main_v55 val_main_v54 val_main_cst_3 val_main_v53 val_main_v52 val_main_v51
    val_main_v50 val_main_v49 val_main_v48 val_main_v47
  first
    | rfl
    | fail "the two composed terms differ (v66)"

/-- One step of the second support matrix on order 1: order 3. -/
theorem orders_v67 (W : Valuation τ sig (Elt Ideal))
    (x0 : Vec Ideal S64x8192 .f32) (x1 : Vec Ideal S64x262144 .f32) (x2 : Vec Ideal S2x4096x4096 .f32)
    (x3 : Vec Ideal S330x128 .f32) (x4 : Vec Ideal S128 .f32)
    (hfix : W (Proc.devRef .tc main_v45) = val_main_v45 (F := Ideal) x0)
    (hmov : W (Proc.devRef .tc main_v46) = val_main_v46 (F := Ideal) x0 x1 x2 x3 x4)
    (hsup : W (Proc.devRef .tc main_arg2) = x2) :
    StableHlo.after (L2b (F := Ideal)) W (Proc.devRef .tc main_v67) = val_main_v67 (F := Ideal) x0 x1 x2 x3 x4 := by
  first
    | after_results_simp
    | fail "the fold did not unfold (v67)"
  first
    | (rw [hfix, hmov]
       try simp only [hsup])
    | fail "the entry contents were not rewritten (v67)"
  unfold val_main_v67 val_main_v59 val_main_v58 val_main_v57 val_main_v52 val_main_v51 val_main_v50 val_main_v49
    val_main_v48 val_main_v47
  first
    | rfl
    | fail "the two composed terms differ (v67)"

/-- Twice a further step of the second support matrix, minus order 1: order 4. -/
theorem orders_v68 (W : Valuation τ sig (Elt Ideal))
    (x0 : Vec Ideal S64x8192 .f32) (x1 : Vec Ideal S64x262144 .f32) (x2 : Vec Ideal S2x4096x4096 .f32)
    (x3 : Vec Ideal S330x128 .f32) (x4 : Vec Ideal S128 .f32)
    (hfix : W (Proc.devRef .tc main_v45) = val_main_v45 (F := Ideal) x0)
    (hmov : W (Proc.devRef .tc main_v46) = val_main_v46 (F := Ideal) x0 x1 x2 x3 x4)
    (hsup : W (Proc.devRef .tc main_arg2) = x2) :
    StableHlo.after (L2b (F := Ideal)) W (Proc.devRef .tc main_v68) = val_main_v68 (F := Ideal) x0 x1 x2 x3 x4 := by
  first
    | after_results_simp
    | fail "the fold did not unfold (v68)"
  first
    | (rw [hfix, hmov]
       try simp only [hsup])
    | fail "the entry contents were not rewritten (v68)"
  unfold val_main_v68 val_main_v63 val_main_v62 val_main_v61 val_main_cst_4 val_main_v60 val_main_v59 val_main_v58
    val_main_v57 val_main_v52 val_main_v51 val_main_v50 val_main_v49 val_main_v48 val_main_v47
  first
    | rfl
    | fail "the two composed terms differ (v68)"

/-- THE MIDDLE STRETCH: from the five orders of the first diffusion (each with its leading unit axis) and the
    arguments, it leaves the update gate and the five orders of the second diffusion at their stage functions. -/
theorem chunk2 (V : Valuation τ sig (Elt Ideal))
    (x0 : Vec Ideal S64x8192 .f32) (x1 : Vec Ideal S64x262144 .f32) (x2 : Vec Ideal S2x4096x4096 .f32)
    (x3 : Vec Ideal S330x128 .f32) (x4 : Vec Ideal S128 .f32)
    (h19 : V (Proc.devRef .tc main_v19) = val_main_v19 (F := Ideal) x0 x1)
    (h20 : V (Proc.devRef .tc main_v20) = val_main_v20 (F := Ideal) x0 x1 x2)
    (h21 : V (Proc.devRef .tc main_v21) = val_main_v21 (F := Ideal) x0 x1 x2)
    (h22 : V (Proc.devRef .tc main_v22) = val_main_v22 (F := Ideal) x0 x1 x2)
    (h23 : V (Proc.devRef .tc main_v23) = val_main_v23 (F := Ideal) x0 x1 x2)
    (ha0 : V (Proc.devRef .tc main_arg0) = x0) (ha1 : V (Proc.devRef .tc main_arg1) = x1)
    (ha2 : V (Proc.devRef .tc main_arg2) = x2) (ha3 : V (Proc.devRef .tc main_arg3) = x3)
    (ha4 : V (Proc.devRef .tc main_arg4) = x4) :
    StableHlo.after (L2 (F := Ideal)) V (Proc.devRef .tc main_v43) = val_main_v43 (F := Ideal) x0 x1 x2 x3 x4
    ∧ StableHlo.after L2 V (Proc.devRef .tc main_v64) = val_main_v64 (F := Ideal) x0 x1 x2 x3 x4
    ∧ StableHlo.after L2 V (Proc.devRef .tc main_v65) = val_main_v65 (F := Ideal) x0 x1 x2 x3 x4
    ∧ StableHlo.after L2 V (Proc.devRef .tc main_v66) = val_main_v66 (F := Ideal) x0 x1 x2 x3 x4
    ∧ StableHlo.after L2 V (Proc.devRef .tc main_v67) = val_main_v67 (F := Ideal) x0 x1 x2 x3 x4
    ∧ StableHlo.after L2 V (Proc.devRef .tc main_v68) = val_main_v68 (F := Ideal) x0 x1 x2 x3 x4 := by
  have cut : StableHlo.after (L2 (F := Ideal)) V = StableHlo.after L2b (StableHlo.after L2a V) :=
    (congrArg (fun l => StableHlo.after l V) (L2_eq (F := Ideal))).trans (after_concat L2a L2b V)
  have hfix := gates_v45 V x0 x1 x2 x3 x4 h19 h20 h21 h22 h23 ha0 ha1 ha2 ha3 ha4
  have hmov := gates_v46 V x0 x1 x2 x3 x4 h19 h20 h21 h22 h23 ha0 ha1 ha2 ha3 ha4
  have hsup := (gates_arg2 V).trans ha2
  rw [cut]
  exact ⟨(orders_v43 _).trans (gates_v43 V x0 x1 x2 x3 x4 h19 h20 h21 h22 h23 ha0 ha1 ha2 ha3 ha4),
    orders_v64 _ x0 x1 x2 x3 x4 hfix hmov hsup, orders_v65 _ x0 x1 x2 x3 x4 hfix hmov hsup,
    orders_v66 _ x0 x1 x2 x3 x4 hfix hmov hsup, orders_v67 _ x0 x1 x2 x3 x4 hfix hmov hsup,
    orders_v68 _ x0 x1 x2 x3 x4 hfix hmov hsup⟩

end Cert.ReferenceIdeal.RunP

end
-- ==== Proof.RefRun3.lean ====
/-
  The last stretch of the reference's operations, composed: from the second convolution's five diffusion orders (each
  with a leading unit axis), the update gate, the old state, the second weights and the second bias, the new state.

  The stretch stacks the five orders along the leading axis, lays the stack out with one row per (batch member, node)
  and one column per (feature, order), multiplies by the 330-row weight matrix, adds the bias to every row, lays the
  result out by batch member and applies tanh: that is the candidate state `c`. With `u` the update gate and `h` the old
  state, the new state is `u * h + (1 − u) * c`, entry by entry. Each operation's result is the named stage function of
  the same operation applied to the stages before it, so the composed result is the last stage as it stands.
-/
import proofs.«405468_j48026324304060_3_alg».proof.Proof.RefReadP
import proofs.«405468_j48026324304060_3_alg».proof.Proof.LibAfterFrame
import proofs.«405468_j48026324304060_3_alg».proof.Proof.RefChunks
import Idealize.ShloMosaic.Lib.StableHlo.Run

noncomputable section

namespace Cert.ReferenceIdeal.RunP

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

/-- THE NEW STATE after the last stretch is the last stage function of the reference's arguments, given that the stretch
    finds the update gate, the five orders of the second convolution, the old state, the second weights and the second
    bias at their stage functions. -/
theorem chunk3 (V : Valuation τ sig (Elt Ideal)) (x0 : Vec Ideal S64x8192 .f32) (x1 : Vec Ideal S64x262144 .f32)
    (x2 : Vec Ideal S2x4096x4096 .f32) (x3 : Vec Ideal S330x128 .f32) (x4 : Vec Ideal S128 .f32)
    (x5 : Vec Ideal S330x64 .f32) (x6 : Vec Ideal S64 .f32)
    (h43 : V (Proc.devRef .tc main_v43) = val_main_v43 (F := Ideal) x0 x1 x2 x3 x4)
    (h64 : V (Proc.devRef .tc main_v64) = val_main_v64 (F := Ideal) x0 x1 x2 x3 x4)
    (h65 : V (Proc.devRef .tc main_v65) = val_main_v65 (F := Ideal) x0 x1 x2 x3 x4)
    (h66 : V (Proc.devRef .tc main_v66) = val_main_v66 (F := Ideal) x0 x1 x2 x3 x4)
    (h67 : V (Proc.devRef .tc main_v67) = val_main_v67 (F := Ideal) x0 x1 x2 x3 x4)
    (h68 : V (Proc.devRef .tc main_v68) = val_main_v68 (F := Ideal) x0 x1 x2 x3 x4)
    (ha1 : V (Proc.devRef .tc main_arg1) = x1) (ha5 : V (Proc.devRef .tc main_arg5) = x5)
    (ha6 : V (Proc.devRef .tc main_arg6) = x6) :
    StableHlo.after (L3 (F := Ideal)) V (Proc.devRef .tc main_v83) = val_main_v83 (F := Ideal) x0 x1 x2 x3 x4 x5 x6 := by
  dsimp only [L3]
  after_results_simp
  simp only [Matrix.cons_val]
  simp only [h43, ha1, ha5, ha6]
  rw [h64, h65, h66, h67, h68]
  unfold val_main_v83 val_main_v82 val_main_v81 val_main_v80 val_main_cst_5 val_main_v79 val_main_v78 val_main_v77
    val_main_v76 val_main_v75 val_main_v74 val_main_v73 val_main_v72 val_main_v71 val_main_v70 val_main_v69
  rfl

end Cert.ReferenceIdeal.RunP

end
-- ==== Proof.RefRun.lean ====
/-
  The reference program's run.

  @main is a straight line of 91 host operations, so every weakly fair execution ends with each buffer at the fold
  of the operations' results over the launch contents. The fold is taken in three stretches, cut before each of the
  two five-piece concatenations: the first leaves the first convolution's five diffusion orders, the second (given
  those) the update gate and the second convolution's five orders, the third (given those) the new state, each as
  the reference's own stage function of the arguments. No operation writes an argument array.
-/
import proofs.«405468_j48026324304060_3_alg».proof.Proof.RefChunks
import proofs.«405468_j48026324304060_3_alg».proof.Proof.RefReadP
import proofs.«405468_j48026324304060_3_alg».proof.Proof.RefRun1
import proofs.«405468_j48026324304060_3_alg».proof.Proof.RefRun2
import proofs.«405468_j48026324304060_3_alg».proof.Proof.RefRun3
import proofs.«405468_j48026324304060_3_alg».proof.Proof.LibAfterFrame
import Idealize.ShloMosaic.Lib.StableHlo.Run

noncomputable section

namespace Cert.ReferenceIdeal.RunP

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

/-- The result buffer after the whole line is the last stage function of the launch contents of the arguments. -/
theorem value (V : Valuation τ sig (Elt Ideal)) :
    after (ops (F := Ideal)) V (Proc.devRef .tc main_v83)
      = val_main_v83 (F := Ideal) (V (Proc.devRef .tc main_arg0)) (V (Proc.devRef .tc main_arg1)) (V (Proc.devRef .tc main_arg2))
          (V (Proc.devRef .tc main_arg3)) (V (Proc.devRef .tc main_arg4)) (V (Proc.devRef .tc main_arg5)) (V (Proc.devRef .tc main_arg6)) := by
  rw [ops_eq, after_concat, after_concat]
  have a1 : ∀ r : Ref sig .tc, r ∉ W1 → after (L1 (F := Ideal)) V (Proc.devRef .tc r) = V (Proc.devRef .tc r) :=
    fun r hr => writes1.after_eq V hr
  have a2 : ∀ r : Ref sig .tc, r ∉ W2 →
      after (L2 (F := Ideal)) (after L1 V) (Proc.devRef .tc r) = after (L1 (F := Ideal)) V (Proc.devRef .tc r) :=
    fun r hr => writes2.after_eq _ hr
  obtain ⟨h19, h20, h21, h22, h23⟩ := chunk1 V
  obtain ⟨h43, h64, h65, h66, h67, h68⟩ := chunk2 (after (L1 (F := Ideal)) V)
    (V (Proc.devRef .tc main_arg0)) (V (Proc.devRef .tc main_arg1)) (V (Proc.devRef .tc main_arg2))
    (V (Proc.devRef .tc main_arg3)) (V (Proc.devRef .tc main_arg4)) h19 h20 h21 h22 h23
    (a1 main_arg0 (by decide)) (a1 main_arg1 (by decide)) (a1 main_arg2 (by decide)) (a1 main_arg3 (by decide)) (a1 main_arg4 (by decide))
  exact chunk3 (after (L2 (F := Ideal)) (after L1 V))
    (V (Proc.devRef .tc main_arg0)) (V (Proc.devRef .tc main_arg1)) (V (Proc.devRef .tc main_arg2))
    (V (Proc.devRef .tc main_arg3)) (V (Proc.devRef .tc main_arg4)) (V (Proc.devRef .tc main_arg5)) (V (Proc.devRef .tc main_arg6))
    h43 h64 h65 h66 h67 h68
    ((a2 main_arg1 (by decide)).trans (a1 main_arg1 (by decide)))
    ((a2 main_arg5 (by decide)).trans (a1 main_arg5 (by decide)))
    ((a2 main_arg6 (by decide)).trans (a1 main_arg6 (by decide)))

/-- A buffer none of the three stretches writes ends as launched. -/
theorem kept (V : Valuation τ sig (Elt Ideal)) (r : Ref sig .tc) (h1 : r ∉ W1) (h2 : r ∉ W2) (h3 : r ∉ W3) :
    after (ops (F := Ideal)) V (Proc.devRef .tc r) = V (Proc.devRef .tc r) := by
  rw [ops_eq, after_concat, after_concat]
  exact (writes3.after_eq _ h3).trans ((writes2.after_eq _ h2).trans (writes1.after_eq _ h1))

/-- Every operation determines what it writes. -/
theorem fresh : ∀ op ∈ (ops : List (HloOp τ sig (Elt Ideal))), op.fresh = ∅ := by
  rw [ops_eq]
  intro op h
  rcases List.mem_append.mp h with h | h
  · exact writes1.fresh op h
  · rcases List.mem_append.mp h with h | h
    · exact writes2.fresh op h
    · exact writes3.fresh op h

/-- Every weakly fair execution of the reference terminates, nothing faulting, with the result buffer at the last
    stage function of the arguments and every argument array as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v83) = val_main_v83 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
      ⟨(h c main_v83).trans (value (launchContents m c)),
       (h c main_arg0).trans (kept (launchContents m c) main_arg0 (by decide) (by decide) (by decide)),
       (h c main_arg1).trans (kept (launchContents m c) main_arg1 (by decide) (by decide) (by decide)),
       (h c main_arg2).trans (kept (launchContents m c) main_arg2 (by decide) (by decide) (by decide)),
       (h c main_arg3).trans (kept (launchContents m c) main_arg3 (by decide) (by decide) (by decide)),
       (h c main_arg4).trans (kept (launchContents m c) main_arg4 (by decide) (by decide) (by decide)),
       (h c main_arg5).trans (kept (launchContents m c) main_arg5 (by decide) (by decide) (by decide)),
       (h c main_arg6).trans (kept (launchContents m c) main_arg6 (by decide) (by decide) (by decide))⟩)
    (run_seq scopedRefs_eq scopedSems_eq defs main (fun _ => ops) main_eq (fun _ => ops_sub) m ρ (fun _ => fresh))

end Cert.ReferenceIdeal.RunP

end
-- ==== Proof.KAccess.lean ====
/-
  The kernel program's buffers, boundary by boundary: which of the run's eleven segments wrote each array the two
  convolutions read, and that nothing in between touched it.

  The run's boundaries are numbered 0 (launch) to 11 (return); a host stretch rewrites the buffers its operations
  name and a kernel call rewrites its output arrays, every other buffer passing through. An array a call only READS
  leaves the call as it entered it. So each array a later segment reads is traced back to the boundary right after
  the segment that wrote it, and each argument array to the launch.
-/
import proofs.«405468_j48026324304060_3_alg».proof.Proof.Gen.KernelIdeal.Frame
import proofs.«405468_j48026324304060_3_alg».proof.Proof.LibAfterFrame
import Idealize.ShloMosaic.PureOps.Ideal
import Idealize.ShloMosaic.Lib.Pipeline.Value

set_option maxRecDepth 16384

noncomputable section

namespace Cert.KernelIdeal.Access

open Cert.KernelIdeal Cert.KernelIdeal.Gen
open Idealize.ShloMosaic Idealize.ShloMosaic.TcCoe
open Idealize.ShloMosaic.Pipeline (Dat)

/-! ## What the host stretches write -/

/-- The first stretch writes these eleven buffers, one per operation and in this order. -/
theorem writesFirst : StableHlo.WritesInOrder (hostOps0 (F := Ideal))
    [main_v0, main_v1, main_v2, main_v3, main_v4, main_v5, main_v6, main_v7, main_v8, main_v9, main_v10] := by
  repeat' (first | exact List.Forall₂.nil | refine List.Forall₂.cons ⟨rfl, rfl⟩ ?_)

/-- The middle stretch writes these 54 buffers. -/
theorem writesMiddle : StableHlo.WritesInOrder (hostOps4 (F := Ideal))
    [main_v15, main_cst, main_v16, main_v17, main_v18, main_v19, main_v20, main_v21, main_v22, main_v23, main_v24, main_v25,
     main_v26, main_v27, main_v28, main_v29, main_v30, main_v31, main_v32, main_v33, main_v34, main_v35, main_v36, main_v37,
     main_v38, main_v39, main_v40, main_v41, main_v42, main_v43, main_v44, main_v45, main_v46, main_v47, main_v48, main_v49,
     main_cst_0, main_v50, main_v51, main_cst_1, main_v52, main_v53, main_v54, main_v55, main_v56, main_v57, main_v58,
     main_v59, main_v60, main_v61, main_v62, main_v63, main_v64, main_v65] := by
  repeat' (first | exact List.Forall₂.nil | refine List.Forall₂.cons ⟨rfl, rfl⟩ ?_)

variable (m : (ℓ : Loc nD τ sig) → Buf (Elt Ideal) ℓ) (ρ : Dev nD → PrngReg) (c : Dev nD)

/-- A buffer the first stretch does not write is, after it, as launched. -/
theorem first_keeps (r : Ref sig .tc)
    (hr : r ∉ [main_v0, main_v1, main_v2, main_v3, main_v4, main_v5, main_v6, main_v7, main_v8, main_v9, main_v10]) :
    W1 m ρ c (Proc.devRef .tc r) = W0 m ρ c (Proc.devRef .tc r) := writesFirst.after_eq _ hr

/-- A buffer the middle stretch does not write passes through it. -/
theorem middle_keeps (r : Ref sig .tc)
    (hr : r ∉ [main_v15, main_cst, main_v16, main_v17, main_v18, main_v19, main_v20, main_v21, main_v22, main_v23, main_v24, main_v25,
     main_v26, main_v27, main_v28, main_v29, main_v30, main_v31, main_v32, main_v33, main_v34, main_v35, main_v36, main_v37,
     main_v38, main_v39, main_v40, main_v41, main_v42, main_v43, main_v44, main_v45, main_v46, main_v47, main_v48, main_v49,
     main_cst_0, main_v50, main_v51, main_cst_1, main_v52, main_v53, main_v54, main_v55, main_v56, main_v57, main_v58,
     main_v59, main_v60, main_v61, main_v62, main_v63, main_v64, main_v65]) :
    W6 m ρ c (Proc.devRef .tc r) = W5 m ρ c (Proc.devRef .tc r) := writesMiddle.after_eq _ hr

/-! ## An array a call only reads leaves it as it entered -/

theorem read0_0 : W2 m ρ c (Proc.devRef .tc main_v2) = W1 m ρ c (Proc.devRef .tc main_v2) :=
  (W2_arr m ρ c 0).trans ((dat0 (V1 m ρ) c).arrAt_in 0 rfl _)
theorem read1_0 : W3 m ρ c (Proc.devRef .tc main_v2) = W2 m ρ c (Proc.devRef .tc main_v2) :=
  (W3_arr m ρ c 0).trans ((dat1 (V2 m ρ) c).arrAt_in 0 rfl _)
theorem read1_1 : W3 m ρ c (Proc.devRef .tc main_v11_1) = W2 m ρ c (Proc.devRef .tc main_v11_1) :=
  (W3_arr m ρ c 1).trans ((dat1 (V2 m ρ) c).arrAt_in 1 rfl _)
theorem read1_2 : W3 m ρ c (Proc.devRef .tc main_v9) = W2 m ρ c (Proc.devRef .tc main_v9) :=
  (W3_arr m ρ c 2).trans ((dat1 (V2 m ρ) c).arrAt_in 2 rfl _)
theorem read2_0 : W4 m ρ c (Proc.devRef .tc main_v4) = W3 m ρ c (Proc.devRef .tc main_v4) :=
  (W4_arr m ρ c 0).trans ((dat2 (V3 m ρ) c).arrAt_in 0 rfl _)
theorem read3_2 : W5 m ρ c (Proc.devRef .tc main_v11_0) = W4 m ρ c (Proc.devRef .tc main_v11_0) :=
  (W5_arr m ρ c 2).trans ((dat3 (V4 m ρ) c).arrAt_in 2 rfl _)

/-! ## The first convolution's arrays, traced back -/

/-- The first support matrix at the second call is the first stretch's. -/
theorem sup0_at2 : W2 m ρ c (Proc.devRef .tc main_v2) = W1 m ρ c (Proc.devRef .tc main_v2) := read0_0 m ρ c
/-- The features at the second call are the first stretch's. -/
theorem feat_at2 : W2 m ρ c (Proc.devRef .tc main_v9) = W1 m ρ c (Proc.devRef .tc main_v9) :=
  W2_of_ne m ρ c main_v9 (by decide)
/-- The second support matrix at the third call is the first stretch's. -/
theorem sup1_at3 : W3 m ρ c (Proc.devRef .tc main_v4) = W1 m ρ c (Proc.devRef .tc main_v4) :=
  (W3_of_ne m ρ c main_v4 (by decide)).trans (W2_of_ne m ρ c main_v4 (by decide))
/-- The first order's bf16 copy at the third call is the first call's. -/
theorem ord1_at3 : W3 m ρ c (Proc.devRef .tc main_v11_1) = W2 m ρ c (Proc.devRef .tc main_v11_1) := read1_1 m ρ c
/-- The second support matrix at the fourth call. -/
theorem sup1_at4 : W4 m ρ c (Proc.devRef .tc main_v4) = W1 m ρ c (Proc.devRef .tc main_v4) :=
  (read2_0 m ρ c).trans (sup1_at3 m ρ c)
/-- The first order at the fourth call is the first call's. -/
theorem ord1_at4 : W4 m ρ c (Proc.devRef .tc main_v11_0) = W2 m ρ c (Proc.devRef .tc main_v11_0) :=
  (W4_of_ne m ρ c main_v11_0 (by decide)).trans (W3_of_ne m ρ c main_v11_0 (by decide))

/-- The five orders when the middle stretch starts. -/
theorem ord0_at5 : W5 m ρ c (Proc.devRef .tc main_v9) = W1 m ρ c (Proc.devRef .tc main_v9) :=
  (W5_of_ne m ρ c main_v9 (by decide)).trans ((W4_of_ne m ρ c main_v9 (by decide)).trans ((read1_2 m ρ c).trans (feat_at2 m ρ c)))
theorem ord1_at5 : W5 m ρ c (Proc.devRef .tc main_v11_0) = W2 m ρ c (Proc.devRef .tc main_v11_0) :=
  (read3_2 m ρ c).trans (ord1_at4 m ρ c)
theorem ord2_at5 : W5 m ρ c (Proc.devRef .tc main_v12) = W3 m ρ c (Proc.devRef .tc main_v12) :=
  (W5_of_ne m ρ c main_v12 (by decide)).trans (W4_of_ne m ρ c main_v12 (by decide))
theorem ord3_at5 : W5 m ρ c (Proc.devRef .tc main_v13_0) = W4 m ρ c (Proc.devRef .tc main_v13_0) :=
  W5_of_ne m ρ c main_v13_0 (by decide)

/-- An argument array no call reads or writes is, when the middle stretch starts, as launched. -/
theorem arg_at5 (r : Ref sig .tc) (h3 : ∀ w, Pipeline.arrRef spec3 w ≠ r) (h2 : ∀ w, Pipeline.arrRef spec2 w ≠ r)
    (h1 : ∀ w, Pipeline.arrRef spec1 w ≠ r) (h0 : ∀ w, Pipeline.arrRef spec0 w ≠ r)
    (hr : r ∉ [main_v0, main_v1, main_v2, main_v3, main_v4, main_v5, main_v6, main_v7, main_v8, main_v9, main_v10]) :
    W5 m ρ c (Proc.devRef .tc r) = W0 m ρ c (Proc.devRef .tc r) :=
  (W5_of_ne m ρ c r h3).trans ((W4_of_ne m ρ c r h2).trans ((W3_of_ne m ρ c r h1).trans ((W2_of_ne m ρ c r h0).trans
    (first_keeps m ρ c r hr))))

/-! ## The second convolution's arrays, traced back -/

theorem read4_0 : W7 m ρ c (Proc.devRef .tc main_v2) = W6 m ρ c (Proc.devRef .tc main_v2) :=
  (W7_arr m ρ c 0).trans ((dat4 (V6 m ρ) c).arrAt_in 0 rfl _)
theorem read5_0 : W8 m ρ c (Proc.devRef .tc main_v2) = W7 m ρ c (Proc.devRef .tc main_v2) :=
  (W8_arr m ρ c 0).trans ((dat5 (V7 m ρ) c).arrAt_in 0 rfl _)
theorem read5_1 : W8 m ρ c (Proc.devRef .tc main_v66_1) = W7 m ρ c (Proc.devRef .tc main_v66_1) :=
  (W8_arr m ρ c 1).trans ((dat5 (V7 m ρ) c).arrAt_in 1 rfl _)
theorem read5_2 : W8 m ρ c (Proc.devRef .tc main_v64) = W7 m ρ c (Proc.devRef .tc main_v64) :=
  (W8_arr m ρ c 2).trans ((dat5 (V7 m ρ) c).arrAt_in 2 rfl _)
theorem read6_0 : W9 m ρ c (Proc.devRef .tc main_v4) = W8 m ρ c (Proc.devRef .tc main_v4) :=
  (W9_arr m ρ c 0).trans ((dat6 (V8 m ρ) c).arrAt_in 0 rfl _)
theorem read7_2 : W10 m ρ c (Proc.devRef .tc main_v66_0) = W9 m ρ c (Proc.devRef .tc main_v66_0) :=
  (W10_arr m ρ c 2).trans ((dat7 (V9 m ρ) c).arrAt_in 2 rfl _)

/-- The two support matrices when the middle stretch starts are the first stretch's. -/
theorem sup0_at5 : W5 m ρ c (Proc.devRef .tc main_v2) = W1 m ρ c (Proc.devRef .tc main_v2) :=
  (W5_of_ne m ρ c main_v2 (by decide)).trans ((W4_of_ne m ρ c main_v2 (by decide)).trans ((read1_0 m ρ c).trans (read0_0 m ρ c)))
theorem sup1_at5 : W5 m ρ c (Proc.devRef .tc main_v4) = W1 m ρ c (Proc.devRef .tc main_v4) :=
  (W5_arr m ρ c 0).trans (((dat3 (V4 m ρ) c).arrAt_in 0 rfl _).trans (sup1_at4 m ρ c))
/-- and the middle stretch leaves them alone. -/
theorem sup0_at6 : W6 m ρ c (Proc.devRef .tc main_v2) = W1 m ρ c (Proc.devRef .tc main_v2) :=
  (middle_keeps m ρ c main_v2 (by decide)).trans (sup0_at5 m ρ c)
theorem sup1_at6 : W6 m ρ c (Proc.devRef .tc main_v4) = W1 m ρ c (Proc.devRef .tc main_v4) :=
  (middle_keeps m ρ c main_v4 (by decide)).trans (sup1_at5 m ρ c)

theorem sup0_at7 : W7 m ρ c (Proc.devRef .tc main_v2) = W1 m ρ c (Proc.devRef .tc main_v2) :=
  (read4_0 m ρ c).trans (sup0_at6 m ρ c)
theorem feat_at7 : W7 m ρ c (Proc.devRef .tc main_v64) = W6 m ρ c (Proc.devRef .tc main_v64) :=
  W7_of_ne m ρ c main_v64 (by decide)
theorem sup1_at8 : W8 m ρ c (Proc.devRef .tc main_v4) = W1 m ρ c (Proc.devRef .tc main_v4) :=
  (W8_of_ne m ρ c main_v4 (by decide)).trans ((W7_of_ne m ρ c main_v4 (by decide)).trans (sup1_at6 m ρ c))
theorem ord1_at8 : W8 m ρ c (Proc.devRef .tc main_v66_1) = W7 m ρ c (Proc.devRef .tc main_v66_1) := read5_1 m ρ c
theorem sup1_at9 : W9 m ρ c (Proc.devRef .tc main_v4) = W1 m ρ c (Proc.devRef .tc main_v4) :=
  (read6_0 m ρ c).trans (sup1_at8 m ρ c)
theorem ord1_at9 : W9 m ρ c (Proc.devRef .tc main_v66_0) = W7 m ρ c (Proc.devRef .tc main_v66_0) :=
  (W9_of_ne m ρ c main_v66_0 (by decide)).trans (W8_of_ne m ρ c main_v66_0 (by decide))

/-- The five orders of the second convolution when the last stretch starts. -/
theorem ord0_at10 : W10 m ρ c (Proc.devRef .tc main_v64) = W6 m ρ c (Proc.devRef .tc main_v64) :=
  (W10_of_ne m ρ c main_v64 (by decide)).trans ((W9_of_ne m ρ c main_v64 (by decide)).trans ((read5_2 m ρ c).trans (feat_at7 m ρ c)))
theorem ord1_at10 : W10 m ρ c (Proc.devRef .tc main_v66_0) = W7 m ρ c (Proc.devRef .tc main_v66_0) :=
  (read7_2 m ρ c).trans (ord1_at9 m ρ c)
theorem ord2_at10 : W10 m ρ c (Proc.devRef .tc main_v67) = W8 m ρ c (Proc.devRef .tc main_v67) :=
  (W10_of_ne m ρ c main_v67 (by decide)).trans (W9_of_ne m ρ c main_v67 (by decide))
theorem ord3_at10 : W10 m ρ c (Proc.devRef .tc main_v68_0) = W9 m ρ c (Proc.devRef .tc main_v68_0) :=
  W10_of_ne m ρ c main_v68_0 (by decide)

/-- A buffer no call of the second convolution reads or writes is, when the last stretch starts, what the middle
    stretch left. -/
theorem pass_at10 (r : Ref sig .tc) (h7 : ∀ w, Pipeline.arrRef spec7 w ≠ r) (h6 : ∀ w, Pipeline.arrRef spec6 w ≠ r)
    (h5 : ∀ w, Pipeline.arrRef spec5 w ≠ r) (h4 : ∀ w, Pipeline.arrRef spec4 w ≠ r) :
    W10 m ρ c (Proc.devRef .tc r) = W6 m ρ c (Proc.devRef .tc r) :=
  (W10_of_ne m ρ c r h7).trans ((W9_of_ne m ρ c r h6).trans ((W8_of_ne m ρ c r h5).trans (W7_of_ne m ρ c r h4)))

end Cert.KernelIdeal.Access

end
-- ==== Proof.Tails.lean ====
/-
  What surrounds the two diffusion convolutions of the recurrent cell, as functions of whole arrays.

  `feat inp st`: each node's two input features followed by its 64 state features, per batch member.
  `gate z`: the logistic function `1 / (1 + exp (−z))` of the first convolution's output `z : [64, 4096·128]`, laid out
  as [64, 4096, 128]; its first 64 output features per node are the reset gate `rOf z`, the last 64 the update gate
  `uOf z`, each laid out as [64, 4096·64]. The second convolution is fed `feat inp (rOf z * hx)`. The cell's new state is
  `out u hx z2 = u * hx + (1 − u) * tanh z2`.
  Both programs apply these same operations; only the convolutions between them are computed differently.
-/
import proofs.«405468_j48026324304060_3_alg».proof.Proof.Gen.KernelIdeal
import Idealize.ShloMosaic.PureOps.Ideal

noncomputable section

namespace Cert.KernelIdeal.Tails

open Cert.KernelIdeal Cert.KernelIdeal.Gen Idealize.ShloMosaic

/-- The features of every node: input features then state features. -/
def feat (inp : Vec Ideal S64x8192 .f32) (st : Vec Ideal S64x262144 .f32) : Vec Ideal S64x4096x66 .f32 :=
  concatenate S64x4096x66 2 [⟨S64x4096x2, shapeCast S64x4096x2 inp shapeCasts_S64x8192_S64x4096x2⟩,
    ⟨S64x4096x64, shapeCast S64x4096x64 st shapeCasts_S64x262144_S64x4096x64⟩] concatenates_S64x4096x2_S64x4096x64_S64x4096x66_d2

/-- The logistic function of the first convolution's output, per batch member, node and output feature. -/
def gate (z : Vec Ideal S64x524288 .f32) : Vec Ideal S64x4096x128 .f32 :=
  shapeCast S64x4096x128
    (Host.divf (broadcastInDim S64x524288 ![] bcast_S_S64x524288 (constant (F := Ideal) S_ .f32 0x3F800000#32))
      (addf (broadcastInDim S64x524288 ![] bcast_S_S64x524288 (constant (F := Ideal) S_ .f32 0x3F800000#32)) (Host.exp (Host.negf z))))
    shapeCasts_S64x524288_S64x4096x128

/-- The reset gate: output features 0..63. -/
def rOf (z : Vec Ideal S64x524288 .f32) : Vec Ideal S64x262144 .f32 :=
  shapeCast S64x262144 (extractStridedSlice S64x4096x64 ![0, 0, 0] (gate z) slices_S64x4096x128_S64x4096x64_0_0_0) shapeCasts_S64x4096x64_S64x262144

/-- The update gate: output features 64..127. -/
def uOf (z : Vec Ideal S64x524288 .f32) : Vec Ideal S64x262144 .f32 :=
  shapeCast S64x262144 (extractStridedSlice S64x4096x64 ![0, 0, 64] (gate z) slices_S64x4096x128_S64x4096x64_0_0_64) shapeCasts_S64x4096x64_S64x262144

/-- The second convolution's features: the state scaled by the reset gate. -/
def feat2 (inp : Vec Ideal S64x8192 .f32) (hx : Vec Ideal S64x262144 .f32) (z : Vec Ideal S64x524288 .f32) : Vec Ideal S64x4096x66 .f32 :=
  feat inp (mulf (F := Ideal) (φ := .f32) (rOf z) hx : FVec Ideal S64x262144 .f32)

/-- The new state: `u * hx + (1 − u) * tanh z2`. -/
def out (u hx z2 : Vec Ideal S64x262144 .f32) : Vec Ideal S64x262144 .f32 :=
  addf (F := Ideal) (φ := .f32) (mulf (F := Ideal) (φ := .f32) u hx)
    (mulf (F := Ideal) (φ := .f32) (subf (F := Ideal) (φ := .f32) (broadcastInDim S64x262144 ![] bcast_S_S64x262144 (constant (F := Ideal) S_ .f32 0x3F800000#32)) u)
      (Host.tanh (F := Ideal) (φ := .f32) z2))

end Cert.KernelIdeal.Tails

end
-- ==== Proof.DiffSpec.lean ====
/-
  The diffusion convolution of a graph recurrent cell, entry by entry over the extended reals.

  Each of 4096 nodes carries, for each of 64 batch members, 66 features: `x b n i`. Two 4096 × 4096 support
  matrices `S0`, `S1` act on the node axis. The five diffusion orders of the features are
    `T0 = x`, `T1 = S0·T0`, `T2 = 2·(S0·T1) − T0`, `T3 = S1·T1`, `T4 = 2·(S1·T3) − T1`
  (the recurrence of the second support starts from `T1`, not from `T0`), where `(S·y) n = ∑ k, S n k * y k`.
  The convolution's output feature `o` at node `n` of batch member `b` is the sum over the 66 features `i` and the
  five orders `m` of `T m n b i * W (5·i + m) o`, plus the bias `bias o`: the weight matrix's 330 rows are laid out
  feature-major, order-minor. Nothing is assumed finite.
-/
import Idealize.ShloMosaic.PureOps.Ideal
import Mathlib.Algebra.BigOperators.Fin

noncomputable section

namespace DiffConv

open Idealize.ShloMosaic

/-- The extended real the word of the float `2.0` denotes; never evaluated: both programs carry the same word. -/
abbrev two : EReal := Ideal.ofBits .f32 0x40000000#32

/-- Features of all nodes, batch members and feature slots. -/
abbrev Feat : Type := Fin 4096 → Fin 64 → Fin 66 → EReal

/-- A support matrix applied along the node axis. -/
def diffuse (S : Fin 4096 → Fin 4096 → EReal) (y : Feat) : Feat := fun n b i => ∑ k : Fin 4096, S n k * y k b i

/-- One step of the recurrence: `2·(S·y1) − y0`. -/
def step (S : Fin 4096 → Fin 4096 → EReal) (y1 y0 : Feat) : Feat := fun n b i => two * diffuse S y1 n b i - y0 n b i

variable (x : Fin 64 → Fin 4096 → Fin 66 → EReal) (S0 S1 : Fin 4096 → Fin 4096 → EReal)

def T0 : Feat := fun n b i => x b n i
def T1 : Feat := diffuse S0 (T0 x)
def T2 : Feat := step S0 (T1 x S0) (T0 x)
def T3 : Feat := diffuse S1 (T1 x S0)
def T4 : Feat := step S1 (T3 x S0 S1) (T1 x S0)

/-- The five orders by number. -/
def T : Fin 5 → Feat
  | 0 => T0 x
  | 1 => T1 x S0
  | 2 => T2 x S0
  | 3 => T3 x S0 S1
  | 4 => T4 x S0 S1

/-- Row `5·i + m` of the 330-row weight matrix. -/
abbrev wrow (i : Fin 66) (m : Fin 5) : Fin 330 := ⟨5 * i.val + m.val, by have := i.isLt; have := m.isLt; omega⟩

/-- The convolution's output at batch member `b`, node `n`, output feature `o`. -/
def conv {D : ℕ} (W : Fin 330 → Fin D → EReal) (bias : Fin D → EReal) (b : Fin 64) (n : Fin 4096) (o : Fin D) : EReal :=
  (∑ i : Fin 66, ∑ m : Fin 5, T x S0 S1 m n b i * W (wrow i m) o) + bias o

end DiffConv

end
-- ==== Proof.DiffAlg.lean ====
/-
  From four matrix products and two recurrence steps to the five diffusion orders, and from five per-order products
  to the convolution.

  The kernel program lays a node's features out batch-major: column `66·b + i` of a [4096, 4224] array is batch
  member `b`, feature `i`. A support matrix acts on rows, so it commutes with any arrangement of the columns: if
  the array `A` holds `y n b i` at `(n, 66·b + i)`, then `S·A` holds `(S·y) n b i` there. Feeding the four products
  the way the recurrence asks gives the orders `T 1 … T 4` at those columns (`orders`).

  The projection multiplies order `m`, re-laid as [4096·64, 66], by the 66 rows `5·i + m` of the weight matrix, and
  adds the five products to a zero accumulator one after the other, then the bias: the sum over `m` of the sums
  over `i`, which is the convolution's double sum with the two summations exchanged (`proj`). Sums are in a
  commutative monoid, so nothing is asked of the entries.
-/
import proofs.«405468_j48026324304060_3_alg».proof.Proof.DiffSpec
import Idealize.ShloMosaic.Lib.ValueIdx

noncomputable section

namespace DiffConv

open Idealize.ShloMosaic Idealize.ShloMosaic.ValueIdx

/-- Column of batch member `b`, feature `i`, in the batch-major layout. -/
abbrev col (b : Fin 64) (i : Fin 66) : Fin 4224 := ⟨b.val * 66 + i.val, by have := b.isLt; have := i.isLt; omega⟩

abbrev Mat : Type := (⟨2, ![4096, 4096]⟩ : Shape).Idx → EReal
abbrev Arr : Type := (⟨2, ![4096, 4224]⟩ : Shape).Idx → EReal

variable (x : Fin 64 → Fin 4096 → Fin 66 → EReal) (S0 S1 : Fin 4096 → Fin 4096 → EReal)

/-- The four products and two steps, fed as the recurrence asks, leave the five orders at the batch-major columns. -/
theorem orders (A2 A4 : Mat) (A9 A10 Y110 Y111 Y12 Y130 Y131 Y14 : Arr)
    (h2 : ∀ n k, A2 (ix2 n k) = S0 n k) (h4 : ∀ n k, A4 (ix2 n k) = S1 n k)
    (h9 : ∀ n b i, A9 (ix2 n (col b i)) = x b n i) (h10 : A10 = A9)
    (r0a : ∀ n a, Y110 (ix2 n a) = ∑ k : Fin 4096, A2 (ix2 n k) * A10 (ix2 k a))
    (r0b : ∀ n a, Y111 (ix2 n a) = ∑ k : Fin 4096, A2 (ix2 n k) * A10 (ix2 k a))
    (r1 : ∀ n a, Y12 (ix2 n a) = two * (∑ k : Fin 4096, A2 (ix2 n k) * Y111 (ix2 k a)) - A9 (ix2 n a))
    (r2a : ∀ n a, Y130 (ix2 n a) = ∑ k : Fin 4096, A4 (ix2 n k) * Y111 (ix2 k a))
    (r2b : ∀ n a, Y131 (ix2 n a) = ∑ k : Fin 4096, A4 (ix2 n k) * Y111 (ix2 k a))
    (r3 : ∀ n a, Y14 (ix2 n a) = two * (∑ k : Fin 4096, A4 (ix2 n k) * Y131 (ix2 k a)) - Y110 (ix2 n a)) :
    (∀ n b i, A9 (ix2 n (col b i)) = T x S0 S1 0 n b i) ∧ (∀ n b i, Y110 (ix2 n (col b i)) = T x S0 S1 1 n b i)
      ∧ (∀ n b i, Y12 (ix2 n (col b i)) = T x S0 S1 2 n b i) ∧ (∀ n b i, Y130 (ix2 n (col b i)) = T x S0 S1 3 n b i)
      ∧ (∀ n b i, Y14 (ix2 n (col b i)) = T x S0 S1 4 n b i) := by
  rw [h10] at r0a r0b
  have e0 : ∀ n b i, A9 (ix2 n (col b i)) = T0 x n b i := fun n b i => h9 n b i
  have e1 : ∀ n b i, Y110 (ix2 n (col b i)) = T1 x S0 n b i := fun n b i => by
    rw [r0a]
    show _ = ∑ k : Fin 4096, S0 n k * T0 x k b i
    exact Finset.sum_congr rfl fun k _ => by rw [h2, e0]
  have e1' : ∀ n b i, Y111 (ix2 n (col b i)) = T1 x S0 n b i := fun n b i => by
    rw [r0b]
    show _ = ∑ k : Fin 4096, S0 n k * T0 x k b i
    exact Finset.sum_congr rfl fun k _ => by rw [h2, e0]
  have e2 : ∀ n b i, Y12 (ix2 n (col b i)) = T2 x S0 n b i := fun n b i => by
    rw [r1, e0]
    show _ = two * (∑ k : Fin 4096, S0 n k * T1 x S0 k b i) - T0 x n b i
    congr 2
    exact Finset.sum_congr rfl fun k _ => by rw [h2, e1']
  have e3 : ∀ n b i, Y130 (ix2 n (col b i)) = T3 x S0 S1 n b i := fun n b i => by
    rw [r2a]
    show _ = ∑ k : Fin 4096, S1 n k * T1 x S0 k b i
    exact Finset.sum_congr rfl fun k _ => by rw [h4, e1']
  have e3' : ∀ n b i, Y131 (ix2 n (col b i)) = T3 x S0 S1 n b i := fun n b i => by
    rw [r2b]
    show _ = ∑ k : Fin 4096, S1 n k * T1 x S0 k b i
    exact Finset.sum_congr rfl fun k _ => by rw [h4, e1']
  have e4 : ∀ n b i, Y14 (ix2 n (col b i)) = T4 x S0 S1 n b i := fun n b i => by
    rw [r3, e1]
    show _ = two * (∑ k : Fin 4096, S1 n k * T3 x S0 S1 k b i) - T1 x S0 n b i
    congr 2
    exact Finset.sum_congr rfl fun k _ => by rw [h4, e3']
  exact ⟨e0, e1, e2, e3, e4⟩

/-- Five per-order products added from zero, then the bias, are the convolution. -/
theorem proj {D : ℕ} (W : Fin 330 → Fin D → EReal) (bias : Fin D → EReal) (X0 X1 X2 X3 X4 : Arr)
    (h0 : ∀ n b i, X0 (ix2 n (col b i)) = T x S0 S1 0 n b i) (h1 : ∀ n b i, X1 (ix2 n (col b i)) = T x S0 S1 1 n b i)
    (h2 : ∀ n b i, X2 (ix2 n (col b i)) = T x S0 S1 2 n b i) (h3 : ∀ n b i, X3 (ix2 n (col b i)) = T x S0 S1 3 n b i)
    (h4 : ∀ n b i, X4 (ix2 n (col b i)) = T x S0 S1 4 n b i) (b : Fin 64) (n : Fin 4096) (o : Fin D) :
    (((((0 + ∑ i : Fin 66, X0 (ix2 n (col b i)) * W (wrow i 0) o)
          + ∑ i : Fin 66, X1 (ix2 n (col b i)) * W (wrow i 1) o)
          + ∑ i : Fin 66, X2 (ix2 n (col b i)) * W (wrow i 2) o)
          + ∑ i : Fin 66, X3 (ix2 n (col b i)) * W (wrow i 3) o)
          + ∑ i : Fin 66, X4 (ix2 n (col b i)) * W (wrow i 4) o)
        + bias o
      = conv x S0 S1 W bias b n o := by
  unfold conv
  congr 1
  rw [Finset.sum_comm, Fin.sum_univ_five, zero_add]
  simp only [h0, h1, h2, h3, h4]

end DiffConv

end
-- ==== Proof.SumSplit.lean ====
/-
  Two ways of cutting a finite sum, in any commutative additive monoid (the extended reals are one: nothing here
  asks the summands to be finite).

  A sum over the numbers below `a * b` is the sum over `a` consecutive runs of length `b`: the number `b * s + r`
  is the `r`-th of run `s`. A matrix product whose contracted axis is walked run by run, each run's partial
  product added to the last, is therefore the whole product.

  A sum over the numbers below `c * 5` is the sum of its five residue classes modulo 5, class by class from a zero:
  the number `5 * i + m` is the `i`-th of class `m`. Five products, one per class, added one after the other to a
  zero accumulator are therefore one product over all `c * 5` numbers.
-/
import Mathlib.Algebra.BigOperators.Fin
import Mathlib.Data.Fintype.BigOperators
import Mathlib.Logic.Equiv.Fin.Basic

namespace DiffConv

variable {β : Type*} [AddCommMonoid β]

/-- Runs: `∑ s < a, ∑ r < b, f (b * s + r) = ∑ k < n, f k` when `a * b = n`. -/
theorem sum_runs {n : ℕ} (a b : ℕ) (h : a * b = n) (f : ℕ → β) :
    ∑ s ∈ Finset.range a, ∑ r : Fin b, f (b * s + r.val) = ∑ k : Fin n, f k.val := by
  subst h
  rw [← Fin.sum_univ_eq_sum_range (fun s => ∑ r : Fin b, f (b * s + r.val)) a,
    ← Fintype.sum_prod_type' (fun (s : Fin a) (r : Fin b) => f (b * s.val + r.val))]
  refine Fintype.sum_equiv finProdFinEquiv _ _ ?_
  rintro ⟨s, r⟩
  show f (b * s.val + r.val) = f (finProdFinEquiv (s, r)).val
  rw [finProdFinEquiv_apply_val, Nat.add_comm]

/-- Residue classes modulo 5, added class by class from zero. -/
theorem sum_five_classes {n : ℕ} (c : ℕ) (h : c * 5 = n) (f : ℕ → β) :
    ∑ q : Fin n, f q.val
      = ((((0 + ∑ i : Fin c, f (5 * i.val + 0)) + ∑ i : Fin c, f (5 * i.val + 1)) + ∑ i : Fin c, f (5 * i.val + 2))
          + ∑ i : Fin c, f (5 * i.val + 3)) + ∑ i : Fin c, f (5 * i.val + 4) := by
  subst h
  have e : ∑ q : Fin (c * 5), f q.val = ∑ m : Fin 5, ∑ i : Fin c, f (5 * i.val + m.val) := by
    rw [Finset.sum_comm, ← Fintype.sum_prod_type' (fun (i : Fin c) (m : Fin 5) => f (5 * i.val + m.val))]
    symm
    refine Fintype.sum_equiv finProdFinEquiv _ _ ?_
    rintro ⟨i, m⟩
    show f (5 * i.val + m.val) = f (finProdFinEquiv (i, m)).val
    rw [finProdFinEquiv_apply_val, Nat.add_comm]
  rw [e, Fin.sum_univ_five, zero_add]
  rfl

end DiffConv
-- ==== Proof.LibPlainMatmul.lean ====
/-
  A plain matrix product into a zero accumulator, read at one entry over the extended reals.

  For `a : [M, K]` and `b : [K, N]` under the dimension numbers "contract the left operand's axis 1 with the right
  operand's axis 0, no batch axis" (`DotDims.plain M K N`), the product accumulated into the zero splat is, at entry
  `(i, l)`, the sum over the contracted coordinate `k` of `a (i, k) * b (k, l)`: the contraction index of these
  dimension numbers has one axis of extent `K`, so the sum over it is re-indexed by its one coordinate, and the operand
  indices at `(i, l)` and `k` are `(i, k)` and `(k, l)`. Nothing is assumed of the entries (they may be infinite).
-/
import Idealize.ShloMosaic.PureOps.Ideal.Laws
import Idealize.ShloMosaic.Lib.ValueIdx

noncomputable section

namespace Idealize.ShloMosaic.PlainMatmul

open Idealize.ShloMosaic Idealize.ShloMosaic.ValueIdx

variable (M K N : Nat)

/-- The left operand is read on row `i` of the output entry, -/
theorem lhs_row (j : (⟨2, ![M, N]⟩ : Shape).Idx) (q : (DotDims.plain M K N).contr.Idx) :
    ((DotDims.plain M K N).lhsIdx j q 0).val = (j 0).val := rfl
/-- at the contracted coordinate; -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- the right operand at the contracted coordinate, -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- on column `l` of the output entry. -/
theorem rhs_col (j : (⟨2, ![M, N]⟩ : Shape).Idx) (q : (DotDims.plain M K N).contr.Idx) :
    ((DotDims.plain M K N).rhsIdx j q 1).val = (j 1).val := rfl

/-- THE PRODUCT AT AN ENTRY: `(a · b) (i, l) = ∑ k, a (i, k) * b (k, l)`, into the zero accumulator. -/
theorem matmul_zero_apply {φ₁ φ₂ : FTy} (prec : Option ContractPrecision)
    (a : FVec Ideal ⟨2, ![M, K]⟩ φ₁) (b : FVec Ideal ⟨2, ![K, N]⟩ φ₂) (i : Fin M) (l : Fin N) :
    FloatOps.matmul (DotDims.plain M K N) prec a b (constant (F := Ideal) ⟨2, ![M, N]⟩ .f32 0x00000000#32) (ix2 i l)
      = ∑ k : Fin K, a (ix2 i k) * b (ix2 k l) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i l) ((contrEquiv1 (DotDims.plain M K N) K rfl rfl).symm k) = ix2 i k :=
    funext fun c => Fin.ext (by
      match c with
      | ⟨0, _⟩ => exact lhs_row M K N _ _
      | ⟨1, _⟩ => exact (lhs_col M K N _ _).trans hk)
  have er : (DotDims.plain M K N).rhsIdx (ix2 i l) ((contrEquiv1 (DotDims.plain M K N) K rfl rfl).symm k) = ix2 k l :=
    funext fun c => Fin.ext (by
      match c with
      | ⟨0, _⟩ => exact (rhs_row M K N _ _).trans hk
      | ⟨1, _⟩ => exact rhs_col M K N _ _)
  rw [el, er]

end Idealize.ShloMosaic.PlainMatmul

end
-- ==== Proof.RegPlain0.lean ====
/-
  The matrix product a call of the plain product kernel leaves behind, read off its run.

  Whatever the buffers hold when the call is entered, it leaves in BOTH of its output arrays — the f32 one and the
  bf16 one — at entry `(n, a)` the sum over the 4096 contracted coordinates `k` of `left (n, k) * right (k, a)`,
  over the extended reals (where a change of float format is the identity).

  The call walks a 4 × 3 × 16 grid, point `t = 48·i + 16·j + k`. At a point it reads the 1024 × 256 block `(i, k)` of
  the left array and the 256 × 1408 block `(k, j)` of the right array and adds their product into the 1024 × 1408
  block `(i, j)` of the f32 output, which it first resets to zero when `k = 0`; when `k = 15` it also stores that
  block, format-changed, into the bf16 output, and both blocks are written back to their arrays. So a block's entry
  `(r, q)` gathers sixteen stretches of 256 summands — the whole sum over the contracted coordinate of entry
  `(1024·i + r, 1408·j + q)` of the product —, and the twelve blocks tile the arrays. Only regrouping of a finite sum
  in a commutative monoid is used: no entry is assumed finite.
-/
import proofs.«405468_j48026324304060_3_alg».proof.Proof.Gen.KernelIdeal.Frame
import proofs.«405468_j48026324304060_3_alg».proof.Proof.SumSplit
import proofs.«405468_j48026324304060_3_alg».proof.Proof.LibPlainMatmul
import Idealize.ShloMosaic.Lib.Pipeline.Value
import Idealize.ShloMosaic.PureOps.Ideal.Laws
import Idealize.ShloMosaic.Lib.ValueIdx
import Idealize.ShloMosaic.Lib.Tactic

noncomputable section

namespace Cert.KernelIdeal.RegPlain0

open Cert.KernelIdeal Cert.KernelIdeal.Gen Idealize.ShloMosaic Idealize.ShloMosaic.TcCoe Idealize.ShloMosaic.ValueIdx
open Idealize.ShloMosaic.Pipeline (Dat)

/-! ## What one grid point's body leaves in the two output blocks

At every grid point the body overwrites the whole f32 output block with "block so far + left block · right block";
at the first point of a run of sixteen the block so far is the zero splat it has just stored, and at the last point
the bf16 output block receives the format change of the f32 block just written. -/

section Pieces

variable {F : FTy → Type} [FloatOps F]

/-- The zero offsets of a whole-block access, as a constant function. -/
theorem hz : (![0, 0] : Fin 2 → Nat) = fun _ => 0 := funext fun a => by fin_cases a <;> rfl

/-- First point of a run: the f32 block is reset to the zero splat, read back, and the first product added. -/
theorem piece_A (c : Dev nD) (i : grid0.Coords) (ml : Memref sig .tc .vmem S1024x256 .bf16) (wl : ml.IsWhole)
    (mr : Memref sig .tc .vmem S256x1408 .bf16) (wr : mr.IsWhole) (mo : Memref sig .tc .vmem S1024x1408 .f32) (wo : mo.IsWhole)
    (mb : Memref sig .tc .vmem S1024x1408 .bf16) (wb : mb.IsWhole) (hfst : cond0_0 i) (hlst : ¬cond0_1 i)
    (xl : Vec F S1024x256 .bf16) (xr : Vec F S256x1408 .bf16) :
    out0_A_2 c i ml wl mr wr mo wo mb wb hfst hlst xl xr = k0_pay2 (k0_pay1 (F := F)) xl xr := by
  unfold out0_A_2
  rw [View.read_writes_eq_canon _ _ _ (cover0_A_2 c i ml wl mr wr mo wo mb wb hfst hlst xl xr)]
  unfold kernelRun0_A
  dsimp only
  sl_unfold_words
  rw [View.canon_cons_unit_zero (S := S1024x1408) hz, View.readCov_unit_zero (S := S1024x1408) _ hz]
  simp only [View.readAt_eq_ld, wl.read_unread, wr.read_unread, View.ld_unit_zero (S := S1024x256) hz,
    View.ld_unit_zero (S := S256x1408) hz]

/-- A middle point of a run: the f32 block so far plus this point's product. -/
theorem piece_B (c : Dev nD) (i : grid0.Coords) (ml : Memref sig .tc .vmem S1024x256 .bf16) (wl : ml.IsWhole)
    (mr : Memref sig .tc .vmem S256x1408 .bf16) (wr : mr.IsWhole) (mo : Memref sig .tc .vmem S1024x1408 .f32) (wo : mo.IsWhole)
    (mb : Memref sig .tc .vmem S1024x1408 .bf16) (wb : mb.IsWhole) (hfst : ¬cond0_0 i) (hlst : ¬cond0_1 i)
    (xl : Vec F S1024x256 .bf16) (xr : Vec F S256x1408 .bf16) (xo : Vec F S1024x1408 .f32) :
    out0_B_2 c i ml wl mr wr mo wo mb wb hfst hlst xl xr xo = k0_pay2 xo xl xr := by
  unfold out0_B_2
  rw [View.read_writes_eq_canon _ _ _ (cover0_B_2 c i ml wl mr wr mo wo mb wb hfst hlst xl xr xo)]
  unfold kernelRun0_B
  dsimp only
  sl_unfold_words
  rw [View.canon_unit_zero hz]
  simp only [View.readAt_eq_ld, wl.read_unread, wr.read_unread, wo.read_unread, View.ld_unit_zero (S := S1024x256) hz,
    View.ld_unit_zero (S := S256x1408) hz, View.ld_unit_zero (S := S1024x1408) hz]

/-- The last point of a run, f32 block: as at a middle point. -/
theorem piece_C (c : Dev nD) (i : grid0.Coords) (ml : Memref sig .tc .vmem S1024x256 .bf16) (wl : ml.IsWhole)
    (mr : Memref sig .tc .vmem S256x1408 .bf16) (wr : mr.IsWhole) (mo : Memref sig .tc .vmem S1024x1408 .f32) (wo : mo.IsWhole)
    (mb : Memref sig .tc .vmem S1024x1408 .bf16) (wb : mb.IsWhole) (hfst : ¬cond0_0 i) (hlst : cond0_1 i)
    (xl : Vec F S1024x256 .bf16) (xr : Vec F S256x1408 .bf16) (xo : Vec F S1024x1408 .f32) :
    out0_C_2 c i ml wl mr wr mo wo mb wb hfst hlst xl xr xo = k0_pay2 xo xl xr := by
  unfold out0_C_2
  rw [View.read_writes_eq_canon _ _ _ (cover0_C_2 c i ml wl mr wr mo wo mb wb hfst hlst xl xr xo)]
  unfold kernelRun0_C
  dsimp only
  sl_unfold_words
  rw [View.canon_unit_zero hz]
  simp only [View.readAt_eq_ld, wl.read_unread, wr.read_unread, wo.read_unread, View.ld_unit_zero (S := S1024x256) hz,
    View.ld_unit_zero (S := S256x1408) hz, View.ld_unit_zero (S := S1024x1408) hz]

/-- The last point of a run, bf16 block: the format change of the f32 block just written. -/
theorem piece_C_low (c : Dev nD) (i : grid0.Coords) (ml : Memref sig .tc .vmem S1024x256 .bf16) (wl : ml.IsWhole)
    (mr : Memref sig .tc .vmem S256x1408 .bf16) (wr : mr.IsWhole) (mo : Memref sig .tc .vmem S1024x1408 .f32) (wo : mo.IsWhole)
    (mb : Memref sig .tc .vmem S1024x1408 .bf16) (wb : mb.IsWhole) (hfst : ¬cond0_0 i) (hlst : cond0_1 i)
    (xl : Vec F S1024x256 .bf16) (xr : Vec F S256x1408 .bf16) (xo : Vec F S1024x1408 .f32) :
    out0_C_3 c i ml wl mr wr mo wo mb wb hfst hlst xl xr xo = k0_pay3 (k0_pay2 xo xl xr) := by
  unfold out0_C_3
  rw [View.read_writes_eq_canon _ _ _ (cover0_C_3 c i ml wl mr wr mo wo mb wb hfst hlst xl xr xo)]
  unfold kernelRun0_C
  dsimp only
  sl_unfold_words
  rw [View.canon_unit_zero hz, View.readCov_unit_zero (S := S1024x1408) _ hz]
  simp only [View.readAt_eq_ld, wl.read_unread, wr.read_unread, wo.read_unread, View.ld_unit_zero (S := S1024x256) hz,
    View.ld_unit_zero (S := S256x1408) hz, View.ld_unit_zero (S := S1024x1408) hz]

end Pieces

/-! ## One entry of the payloads, over the extended reals -/

section Entries

/-- The zero splat is `0` at every entry. -/
theorem zero_apply (r : Fin 1024) (q : Fin 1408) :
    (k0_pay1 (F := Ideal) : Vec Ideal S1024x1408 .f32) (ix2 r q) = 0 := by
  unfold k0_pay1
  exact Ideal.ofBits_zero_f32

/-- "Block so far + left block · right block" at entry `(r, q)`: the entry so far plus the sum over the 256
    contracted coordinates of this point. -/
theorem pay_apply (acc : Vec Ideal S1024x1408 .f32) (xl : Vec Ideal S1024x256 .bf16) (xr : Vec Ideal S256x1408 .bf16)
    (r : Fin 1024) (q : Fin 1408) :
    (k0_pay2 acc xl xr : Vec Ideal S1024x1408 .f32) (ix2 r q)
      = acc (ix2 r q) + ∑ kk : Fin 256, xl (ix2 r kk) * xr (ix2 kk q) := by
  unfold k0_pay2
  simp only [shapeCast_self]
  exact congrArg (fun z => acc (ix2 r q) + z) (PlainMatmul.matmul_zero_apply 1024 256 1408 none xl xr r q)

/-- The format change to the narrower float is the identity on extended reals. -/
theorem low_apply (v : Vec Ideal S1024x1408 .f32) (r : Fin 1024) (q : Fin 1408) :
    (k0_pay3 v : Vec Ideal S1024x1408 .bf16) (ix2 r q) = v (ix2 r q) := by
  unfold k0_pay3
  simp only [shapeCast_self]
  rfl

end Entries

/-! ## The blocks of the two input arrays

The grid is 4 × 3 × 16; point `t = 48·i + 16·j + k`. The left array is cut into 1024 × 256 blocks and the point reads
block `(i, k)`; the right array into 256 × 1408 blocks, block `(k, j)`; both outputs into 1024 × 1408 blocks, block
`(i, j)`, written back after `k = 15`. -/

section Blocks

variable (V : (c : Dev nD) → (b : Ref sig .tc) → Buf (Elt Ideal) ((c : Thread nD τ).loc b))

/-- the two input arrays as the region finds them, by their literal types -/
abbrev lhs (c : Dev nD) : Vec Ideal S4096x4096 .bf16 := V c (Pipeline.arrRef spec0 0)
abbrev rhs (c : Dev nD) : Vec Ideal S4096x4224 .bf16 := V c (Pipeline.arrRef spec0 1)

/-- the two input blocks of a point, by their literal types -/
abbrev lblk (c : Dev nD) (t : Fin cfg0.N) : Vec Ideal S1024x256 .bf16 := iblk0 V c 0 t
abbrev rblk (c : Dev nD) (t : Fin cfg0.N) : Vec Ideal S256x1408 .bf16 := iblk0 V c 1 t

/-- An entry of the left array at natural-number coordinates (taken modulo the extents, so that it is total). -/
def lhsAt (c : Dev nD) (R K : ℕ) : EReal :=
  lhs V c (ix2 (⟨R % 4096, Nat.mod_lt _ (by decide)⟩ : Fin 4096) (⟨K % 4096, Nat.mod_lt _ (by decide)⟩ : Fin 4096))
/-- An entry of the right array at natural-number coordinates. -/
def rhsAt (c : Dev nD) (K C : ℕ) : EReal :=
  rhs V c (ix2 (⟨K % 4096, Nat.mod_lt _ (by decide)⟩ : Fin 4096) (⟨C % 4224, Nat.mod_lt _ (by decide)⟩ : Fin 4224))
/-- The summand of the product's entry `(R, C)` at the contracted coordinate `K`. -/
def term (c : Dev nD) (R C K : ℕ) : EReal := lhsAt V c R K * rhsAt V c K C

/-- Inside the arrays the wrapped entries are the entries. -/
theorem term_inside (c : Dev nD) (n : Fin 4096) (a : Fin 4224) (k : Fin 4096) :
    term V c n.val a.val k.val = lhs V c (ix2 n k) * rhs V c (ix2 k a) := by
  unfold term lhsAt rhsAt
  have en : (⟨n.val % 4096, Nat.mod_lt _ (by decide)⟩ : Fin 4096) = n := Fin.ext (Nat.mod_eq_of_lt n.isLt)
  have ek : (⟨k.val % 4096, Nat.mod_lt _ (by decide)⟩ : Fin 4096) = k := Fin.ext (Nat.mod_eq_of_lt k.isLt)
  have ea : (⟨a.val % 4224, Nat.mod_lt _ (by decide)⟩ : Fin 4224) = a := Fin.ext (Nat.mod_eq_of_lt a.isLt)
  rw [en, ek, ea]

/-- The block index of the left window: block row `i`, -/
theorem idx_lhs_row : ∀ t : Fin cfg0.N, win0_0.index t (0 : Fin 2) = t.val / 48 :=
  (by decide +kernel : ∀ t : Fin grid0.N, _)
/-- block column `k`; -/
theorem idx_lhs_col : ∀ t : Fin cfg0.N, win0_0.index t (1 : Fin 2) = t.val % 16 :=
  (by decide +kernel : ∀ t : Fin grid0.N, _)
/-- of the right window: block row `k`, -/
theorem idx_rhs_row : ∀ t : Fin cfg0.N, win0_1.index t (0 : Fin 2) = t.val % 16 :=
  (by decide +kernel : ∀ t : Fin grid0.N, _)
/-- block column `j`. -/
theorem idx_rhs_col : ∀ t : Fin cfg0.N, win0_1.index t (1 : Fin 2) = t.val / 16 % 3 :=
  (by decide +kernel : ∀ t : Fin grid0.N, _)

/-- The left block of point `t` at `(r, kk)` is the left array at row `1024·i + r`, column `256·k + kk`. -/
theorem lblk_apply (c : Dev nD) (t : Fin cfg0.N) (r : Fin 1024) (kk : Fin 256) :
    lblk V c t (ix2 r kk) = lhsAt V c (1024 * (t.val / 48) + r.val) (256 * (t.val % 16) + kk.val) := by
  have hN : t.val < 192 := lt_of_lt_of_eq t.isLt N_0
  unfold lhsAt
  show V c (Pipeline.arrRef spec0 0) (((cfg0.win 0).blk t).view.emb (ix2 r kk)) = V c (Pipeline.arrRef spec0 0) (ix2 _ _)
  refine congrArg _ (funext fun a => Fin.ext ?_)
  match a with
  | ⟨0, _⟩ =>
    show win0_0.index t (0 : Fin 2) * 1024 + 1 * r.val = (1024 * (t.val / 48) + r.val) % 4096
    rw [idx_lhs_row t]; omega
  | ⟨1, _⟩ =>
    show win0_0.index t (1 : Fin 2) * 256 + 1 * kk.val = (256 * (t.val % 16) + kk.val) % 4096
    rw [idx_lhs_col t]; omega

/-- The right block of point `t` at `(kk, q)` is the right array at row `256·k + kk`, column `1408·j + q`. -/
theorem rblk_apply (c : Dev nD) (t : Fin cfg0.N) (kk : Fin 256) (q : Fin 1408) :
    rblk V c t (ix2 kk q) = rhsAt V c (256 * (t.val % 16) + kk.val) (1408 * (t.val / 16 % 3) + q.val) := by
  have hN : t.val < 192 := lt_of_lt_of_eq t.isLt N_0
  unfold rhsAt
  show V c (Pipeline.arrRef spec0 1) (((cfg0.win 1).blk t).view.emb (ix2 kk q)) = V c (Pipeline.arrRef spec0 1) (ix2 _ _)
  refine congrArg _ (funext fun a => Fin.ext ?_)
  match a with
  | ⟨0, _⟩ =>
    show win0_1.index t (0 : Fin 2) * 256 + 1 * kk.val = (256 * (t.val % 16) + kk.val) % 4096
    rw [idx_rhs_row t]; omega
  | ⟨1, _⟩ =>
    show win0_1.index t (1 : Fin 2) * 1408 + 1 * q.val = (1408 * (t.val / 16 % 3) + q.val) % 4224
    rw [idx_rhs_col t]; omega

end Blocks

/-! ## The accumulation over a run of sixteen points

The sixteen points `t = 16·m, …, 16·m + 15` share one output block. After the point at offset `k` in the run the
f32 block holds, at entry `(r, q)`, the sum of the first `k + 1` stretches of 256 summands of the product's entry
`(1024·i + r, 1408·j + q)`. -/

section Accumulate

variable (V : (c : Dev nD) → (b : Ref sig .tc) → Buf (Elt Ideal) ((c : Thread nD τ).loc b))

/-- The sum of the first `j + 1` stretches of 256 summands of the product's entry `(R, C)`. -/
def partialSum (c : Dev nD) (R C j : ℕ) : EReal :=
  ∑ s ∈ Finset.range (j + 1), ∑ kk : Fin 256, term V c R C (256 * s + kk.val)

/-- One point's block product at an entry is one stretch of 256 summands. -/
theorem stretch_apply (c : Dev nD) (t : Fin cfg0.N) (r : Fin 1024) (q : Fin 1408) :
    ∑ kk : Fin 256, lblk V c t (ix2 r kk) * rblk V c t (ix2 kk q)
      = ∑ kk : Fin 256, term V c (1024 * (t.val / 48) + r.val) (1408 * (t.val / 16 % 3) + q.val)
          (256 * (t.val % 16) + kk.val) :=
  Finset.sum_congr rfl fun kk _ => by rw [lblk_apply V c t r kk, rblk_apply V c t kk q]; rfl

/-- At the first point of a run the block holds the first stretch. -/
theorem first_apply (c : Dev nD) (n : ℕ) (hn : n < cfg0.N) (hfst : n % 16 = 0) (r : Fin 1024) (q : Fin 1408) :
    (outsAt0 V c n hn).1 (ix2 r q)
      = partialSum V c (1024 * (n / 48) + r.val) (1408 * (n / 16 % 3) + q.val) 0 := by
  have hlst : ¬n % 16 = 15 := by omega
  rw [outsAt0_A V c ⟨n, hn⟩ hfst hlst]
  dsimp only
  refine (congrFun (piece_A (F := Ideal) c (grid0.coords ⟨n, hn⟩) (ms0_0 ⟨n, hn⟩) (hs0_0 ⟨n, hn⟩) (ms0_1 ⟨n, hn⟩)
    (hs0_1 ⟨n, hn⟩) (ms0_2 ⟨n, hn⟩) (hs0_2 ⟨n, hn⟩) (ms0_3 ⟨n, hn⟩) (hs0_3 ⟨n, hn⟩) ((hcond0_0 ⟨n, hn⟩).mpr hfst)
    (fun h => hlst ((hcond0_1 ⟨n, hn⟩).mp h)) (lblk V c ⟨n, hn⟩) (rblk V c ⟨n, hn⟩)) (ix2 r q)).trans ?_
  rw [pay_apply (k0_pay1 (F := Ideal)) (lblk V c ⟨n, hn⟩) (rblk V c ⟨n, hn⟩) r q, zero_apply, zero_add,
    stretch_apply V c ⟨n, hn⟩ r q]
  unfold partialSum
  rw [Finset.sum_range_succ, Finset.sum_range_zero, zero_add]
  show ∑ kk : Fin 256, term V c _ _ (256 * (n % 16) + kk.val) = _
  rw [hfst]

/-- At every later point of a run the block gains that point's stretch. -/
theorem next_apply (c : Dev nD) (n : ℕ) (hn : n + 1 < cfg0.N) (hfst : ¬(n + 1) % 16 = 0) (r : Fin 1024) (q : Fin 1408) :
    (outsAt0 V c (n + 1) hn).1 (ix2 r q)
      = (outsAt0 V c n (Nat.lt_of_succ_lt hn)).1 (ix2 r q)
        + ∑ kk : Fin 256, term V c (1024 * ((n + 1) / 48) + r.val) (1408 * ((n + 1) / 16 % 3) + q.val)
            (256 * ((n + 1) % 16) + kk.val) := by
  by_cases hlst : (n + 1) % 16 = 15
  · rw [outsAt0_C V c ⟨n + 1, hn⟩ hfst hlst]
    dsimp only
    refine (congrFun (piece_C (F := Ideal) c (grid0.coords ⟨n + 1, hn⟩) (ms0_0 ⟨n + 1, hn⟩) (hs0_0 ⟨n + 1, hn⟩)
      (ms0_1 ⟨n + 1, hn⟩) (hs0_1 ⟨n + 1, hn⟩) (ms0_2 ⟨n + 1, hn⟩) (hs0_2 ⟨n + 1, hn⟩) (ms0_3 ⟨n + 1, hn⟩)
      (hs0_3 ⟨n + 1, hn⟩) (fun h => hfst ((hcond0_0 ⟨n + 1, hn⟩).mp h)) ((hcond0_1 ⟨n + 1, hn⟩).mpr hlst)
      (lblk V c ⟨n + 1, hn⟩) (rblk V c ⟨n + 1, hn⟩) (outsAt0 V c n (Nat.lt_of_succ_lt hn)).1) (ix2 r q)).trans ?_
    rw [pay_apply (outsAt0 V c n (Nat.lt_of_succ_lt hn)).1 (lblk V c ⟨n + 1, hn⟩) (rblk V c ⟨n + 1, hn⟩) r q,
      stretch_apply V c ⟨n + 1, hn⟩ r q]
  · rw [outsAt0_B V c ⟨n + 1, hn⟩ hfst hlst]
    dsimp only
    refine (congrFun (piece_B (F := Ideal) c (grid0.coords ⟨n + 1, hn⟩) (ms0_0 ⟨n + 1, hn⟩) (hs0_0 ⟨n + 1, hn⟩)
      (ms0_1 ⟨n + 1, hn⟩) (hs0_1 ⟨n + 1, hn⟩) (ms0_2 ⟨n + 1, hn⟩) (hs0_2 ⟨n + 1, hn⟩) (ms0_3 ⟨n + 1, hn⟩)
      (hs0_3 ⟨n + 1, hn⟩) (fun h => hfst ((hcond0_0 ⟨n + 1, hn⟩).mp h)) (fun h => hlst ((hcond0_1 ⟨n + 1, hn⟩).mp h))
      (lblk V c ⟨n + 1, hn⟩) (rblk V c ⟨n + 1, hn⟩) (outsAt0 V c n (Nat.lt_of_succ_lt hn)).1) (ix2 r q)).trans ?_
    rw [pay_apply (outsAt0 V c n (Nat.lt_of_succ_lt hn)).1 (lblk V c ⟨n + 1, hn⟩) (rblk V c ⟨n + 1, hn⟩) r q,
      stretch_apply V c ⟨n + 1, hn⟩ r q]

/-- THE RUNNING SUM: after point `n` the f32 block holds the partial sums up to the point's offset in its run. -/
theorem acc_apply (c : Dev nD) : ∀ (n : ℕ) (hn : n < cfg0.N) (r : Fin 1024) (q : Fin 1408),
    (outsAt0 V c n hn).1 (ix2 r q)
      = partialSum V c (1024 * (n / 48) + r.val) (1408 * (n / 16 % 3) + q.val) (n % 16)
  | 0, hn, r, q => first_apply V c 0 hn rfl r q
  | n + 1, hn, r, q => by
    by_cases hfst : (n + 1) % 16 = 0
    · rw [hfst]; exact first_apply V c (n + 1) hn hfst r q
    · have hN : n + 1 < 192 := lt_of_lt_of_eq hn N_0
      have erow : (n + 1) / 48 = n / 48 := by omega
      have ecol : (n + 1) / 16 % 3 = n / 16 % 3 := by omega
      have eoff : (n + 1) % 16 = n % 16 + 1 := by omega
      rw [next_apply V c n hn hfst r q, acc_apply c n (Nat.lt_of_succ_lt hn) r q, erow, ecol, eoff]
      unfold partialSum
      rw [Finset.sum_range_succ _ (n % 16 + 1)]

/-- At the last point of a run the bf16 block holds what the f32 block holds. -/
theorem low_eq (c : Dev nD) (n : ℕ) (hn : n + 1 < cfg0.N) (hlst : (n + 1) % 16 = 15) (r : Fin 1024) (q : Fin 1408) :
    (outsAt0 V c (n + 1) hn).2 (ix2 r q) = (outsAt0 V c (n + 1) hn).1 (ix2 r q) := by
  have hfst : ¬(n + 1) % 16 = 0 := by omega
  rw [outsAt0_C V c ⟨n + 1, hn⟩ hfst hlst]
  dsimp only
  refine (congrFun (piece_C_low (F := Ideal) c (grid0.coords ⟨n + 1, hn⟩) (ms0_0 ⟨n + 1, hn⟩) (hs0_0 ⟨n + 1, hn⟩)
    (ms0_1 ⟨n + 1, hn⟩) (hs0_1 ⟨n + 1, hn⟩) (ms0_2 ⟨n + 1, hn⟩) (hs0_2 ⟨n + 1, hn⟩) (ms0_3 ⟨n + 1, hn⟩)
    (hs0_3 ⟨n + 1, hn⟩) (fun h => hfst ((hcond0_0 ⟨n + 1, hn⟩).mp h)) ((hcond0_1 ⟨n + 1, hn⟩).mpr hlst)
    (lblk V c ⟨n + 1, hn⟩) (rblk V c ⟨n + 1, hn⟩) (outsAt0 V c n (Nat.lt_of_succ_lt hn)).1) (ix2 r q)).trans ?_
  refine (low_apply _ r q).trans ?_
  exact (congrFun (piece_C (F := Ideal) c (grid0.coords ⟨n + 1, hn⟩) (ms0_0 ⟨n + 1, hn⟩) (hs0_0 ⟨n + 1, hn⟩)
    (ms0_1 ⟨n + 1, hn⟩) (hs0_1 ⟨n + 1, hn⟩) (ms0_2 ⟨n + 1, hn⟩) (hs0_2 ⟨n + 1, hn⟩) (ms0_3 ⟨n + 1, hn⟩)
    (hs0_3 ⟨n + 1, hn⟩) (fun h => hfst ((hcond0_0 ⟨n + 1, hn⟩).mp h)) ((hcond0_1 ⟨n + 1, hn⟩).mpr hlst)
    (lblk V c ⟨n + 1, hn⟩) (rblk V c ⟨n + 1, hn⟩) (outsAt0 V c n (Nat.lt_of_succ_lt hn)).1) (ix2 r q)).symm

/-- Sixteen stretches of 256 are the whole sum over the 4096 contracted coordinates. -/
theorem full_sum (c : Dev nD) (R C : ℕ) : partialSum V c R C 15 = ∑ k : Fin 4096, term V c R C k.val := by
  show ∑ s ∈ Finset.range 16, ∑ kk : Fin 256, term V c R C (256 * s + kk.val) = _
  exact DiffConv.sum_runs 16 256 rfl (term V c R C)

end Accumulate

/-! ## From the blocks to the two output arrays

Every output block is written back once, after the last point of its run, holding the full sums; the blocks tile
the arrays, so both arrays end holding the product. -/

section Arrays

variable (V : (c : Dev nD) → (b : Ref sig .tc) → Buf (Elt Ideal) ((c : Thread nD τ).loc b))

/-- The product array: entry `(n, a)` is the sum over all 4096 contracted coordinates. -/
def prodArr (c : Dev nD) : Vec Ideal S4096x4224 .f32 :=
  fun i => ∑ k : Fin 4096, term V c (i 0).val (i 1).val k.val
/-- The same entries, as an array of the narrower float. -/
def prodArrLow (c : Dev nD) : Vec Ideal S4096x4224 .bf16 :=
  fun i => ∑ k : Fin 4096, term V c (i 0).val (i 1).val k.val

/-- The block index of the f32 output window: block row `i`, -/
theorem idx_out_row : ∀ t : Fin cfg0.N, win0_2.index t (0 : Fin 2) = t.val / 48 :=
  (by decide +kernel : ∀ t : Fin grid0.N, _)
/-- block column `j`; -/
theorem idx_out_col : ∀ t : Fin cfg0.N, win0_2.index t (1 : Fin 2) = t.val / 16 % 3 :=
  (by decide +kernel : ∀ t : Fin grid0.N, _)
/-- of the bf16 output window: block row `i`, -/
theorem idx_low_row : ∀ t : Fin cfg0.N, win0_3.index t (0 : Fin 2) = t.val / 48 :=
  (by decide +kernel : ∀ t : Fin grid0.N, _)
/-- block column `j`. -/
theorem idx_low_col : ∀ t : Fin cfg0.N, win0_3.index t (1 : Fin 2) = t.val / 16 % 3 :=
  (by decide +kernel : ∀ t : Fin grid0.N, _)

/-- What a write-back of the f32 window writes is its block of the product array. -/
theorem flushed_f32 (c : Dev nD) (t : Fin cfg0.N) (hf : (cfg0.win 2).flush t = true) :
    (dat0 V c).flushed 2 t = ((cfg0.win 2).blk t).view.read (Elt Ideal) (prodArr V c) := by
  have hlast : t.val % 16 = 15 := (flush0_2 t).mp hf
  have hN : t.val < 192 := lt_of_lt_of_eq t.isLt N_0
  show (cfg0.win 2).cut (grid0.coords t) ((dat0 V c).after 2 t) = _
  rw [after0_2]
  funext j
  obtain ⟨r, q, rfl⟩ : ∃ (r : Fin 1024) (q : Fin 1408), j = ix2 r q := ⟨j 0, j 1, eq_ix2 j⟩
  show (outsAt0 V c t.val t.isLt).1 (ix2 r q) = prodArr V c (((cfg0.win 2).blk t).view.emb (ix2 r q))
  rw [acc_apply V c t.val t.isLt r q, hlast, full_sum]
  have erow : win0_2.index t (0 : Fin 2) * 1024 + 1 * r.val = 1024 * (t.val / 48) + r.val := by
    rw [idx_out_row t]; omega
  have ecol : win0_2.index t (1 : Fin 2) * 1408 + 1 * q.val = 1408 * (t.val / 16 % 3) + q.val := by
    rw [idx_out_col t]; omega
  show _ = ∑ k : Fin 4096, term V c (win0_2.index t (0 : Fin 2) * 1024 + 1 * r.val)
    (win0_2.index t (1 : Fin 2) * 1408 + 1 * q.val) k.val
  rw [erow, ecol]

/-- What a write-back of the bf16 window writes is its block of the product array. -/
theorem flushed_low (c : Dev nD) (t : Fin cfg0.N) (hf : (cfg0.win 3).flush t = true) :
    (dat0 V c).flushed 3 t = ((cfg0.win 3).blk t).view.read (Elt Ideal) (prodArrLow V c) := by
  have hlast : t.val % 16 = 15 := (flush0_3 t).mp hf
  have hN : t.val < 192 := lt_of_lt_of_eq t.isLt N_0
  show (cfg0.win 3).cut (grid0.coords t) ((dat0 V c).after 3 t) = _
  rw [after0_3]
  funext j
  obtain ⟨r, q, rfl⟩ : ∃ (r : Fin 1024) (q : Fin 1408), j = ix2 r q := ⟨j 0, j 1, eq_ix2 j⟩
  show (outsAt0 V c t.val t.isLt).2 (ix2 r q) = prodArrLow V c (((cfg0.win 3).blk t).view.emb (ix2 r q))
  obtain ⟨n, hn⟩ := t
  obtain ⟨n, rfl⟩ : ∃ n', n = n' + 1 := ⟨n - 1, by dsimp only at hlast; omega⟩
  show (outsAt0 V c (n + 1) hn).2 (ix2 r q) = _
  rw [low_eq V c n hn hlast r q, acc_apply V c (n + 1) hn r q, hlast, full_sum]
  have erow : win0_3.index ⟨n + 1, hn⟩ (0 : Fin 2) * 1024 + 1 * r.val = 1024 * ((n + 1) / 48) + r.val := by
    rw [idx_low_row ⟨n + 1, hn⟩]; dsimp only; omega
  have ecol : win0_3.index ⟨n + 1, hn⟩ (1 : Fin 2) * 1408 + 1 * q.val = 1408 * ((n + 1) / 16 % 3) + q.val := by
    rw [idx_low_col ⟨n + 1, hn⟩]; dsimp only; omega
  show _ = ∑ k : Fin 4096, term V c (win0_3.index ⟨n + 1, hn⟩ (0 : Fin 2) * 1024 + 1 * r.val)
    (win0_3.index ⟨n + 1, hn⟩ (1 : Fin 2) * 1408 + 1 * q.val) k.val
  rw [erow, ecol]

/-- An index of the f32 array is in point `t`'s block iff each coordinate is in the block's range on its axis. -/
theorem mem_blk_f32 (t : Fin cfg0.N) (i : S4096x4224.Idx) :
    i ∈ ((cfg0.win 2).blk t).view.set ↔ ∀ a : Fin 2, win0_2.index t a * S1024x1408.size a ≤ (i a).val
      ∧ (i a).val < win0_2.index t a * S1024x1408.size a + S1024x1408.size a := by
  show i ∈ ((View.whole (Pipeline.arrRef spec0 2)).slice (win0_2.rect t)).set ↔ _
  rw [View.set_slice_whole, Rect.mem_set_unit]
  exact Iff.rfl

/-- The same for the bf16 array. -/
theorem mem_blk_low (t : Fin cfg0.N) (i : S4096x4224.Idx) :
    i ∈ ((cfg0.win 3).blk t).view.set ↔ ∀ a : Fin 2, win0_3.index t a * S1024x1408.size a ≤ (i a).val
      ∧ (i a).val < win0_3.index t a * S1024x1408.size a + S1024x1408.size a := by
  show i ∈ ((View.whole (Pipeline.arrRef spec0 3)).slice (win0_3.rect t)).set ↔ _
  rw [View.set_slice_whole, Rect.mem_set_unit]
  exact Iff.rfl

/-- Entry `(n, a)` lies in block `(n / 1024, a / 1408)`, written back after the last point of that block's run. -/
theorem cover_f32 (i : S4096x4224.Idx) :
    ∃ t : Fin cfg0.N, (cfg0.win 2).flush t = true ∧ i ∈ ((cfg0.win 2).blk t).view.set := by
  have hrow : (i 0).val < 4096 := (i 0).isLt
  have hcol : (i 1).val < 4224 := (i 1).isLt
  have hlt : 48 * ((i 0).val / 1024) + 16 * ((i 1).val / 1408) + 15 < cfg0.N := by
    rw [show cfg0.N = 192 from N_0]; omega
  refine ⟨⟨48 * ((i 0).val / 1024) + 16 * ((i 1).val / 1408) + 15, hlt⟩, (flush0_2 _).mpr (by dsimp only; omega), ?_⟩
  rw [mem_blk_f32]
  intro a
  match a with
  | ⟨0, _⟩ =>
    show win0_2.index ⟨_, hlt⟩ (0 : Fin 2) * 1024 ≤ (i 0).val ∧ (i 0).val < win0_2.index ⟨_, hlt⟩ (0 : Fin 2) * 1024 + 1024
    rw [idx_out_row ⟨_, hlt⟩]; dsimp only; omega
  | ⟨1, _⟩ =>
    show win0_2.index ⟨_, hlt⟩ (1 : Fin 2) * 1408 ≤ (i 1).val ∧ (i 1).val < win0_2.index ⟨_, hlt⟩ (1 : Fin 2) * 1408 + 1408
    rw [idx_out_col ⟨_, hlt⟩]; dsimp only; omega

/-- The same for the bf16 array. -/
theorem cover_low (i : S4096x4224.Idx) :
    ∃ t : Fin cfg0.N, (cfg0.win 3).flush t = true ∧ i ∈ ((cfg0.win 3).blk t).view.set := by
  have hrow : (i 0).val < 4096 := (i 0).isLt
  have hcol : (i 1).val < 4224 := (i 1).isLt
  have hlt : 48 * ((i 0).val / 1024) + 16 * ((i 1).val / 1408) + 15 < cfg0.N := by
    rw [show cfg0.N = 192 from N_0]; omega
  refine ⟨⟨48 * ((i 0).val / 1024) + 16 * ((i 1).val / 1408) + 15, hlt⟩, (flush0_3 _).mpr (by dsimp only; omega), ?_⟩
  rw [mem_blk_low]
  intro a
  match a with
  | ⟨0, _⟩ =>
    show win0_3.index ⟨_, hlt⟩ (0 : Fin 2) * 1024 ≤ (i 0).val ∧ (i 0).val < win0_3.index ⟨_, hlt⟩ (0 : Fin 2) * 1024 + 1024
    rw [idx_low_row ⟨_, hlt⟩]; dsimp only; omega
  | ⟨1, _⟩ =>
    show win0_3.index ⟨_, hlt⟩ (1 : Fin 2) * 1408 ≤ (i 1).val ∧ (i 1).val < win0_3.index ⟨_, hlt⟩ (1 : Fin 2) * 1408 + 1408
    rw [idx_low_col ⟨_, hlt⟩]; dsimp only; omega

/-- The f32 output array ends holding the product array, -/
theorem arr_f32 (c : Dev nD) : (dat0 V c).arrAt 2 cfg0.N = prodArr V c :=
  (dat0 V c).arrAt_eq_of_cover 2 (prodArr V c) (flushed_f32 V c) cover_f32
/-- and so does the bf16 one. -/
theorem arr_low (c : Dev nD) : (dat0 V c).arrAt 3 cfg0.N = prodArrLow V c :=
  (dat0 V c).arrAt_eq_of_cover 3 (prodArrLow V c) (flushed_low V c) cover_low

/-- THE f32 OUTPUT ARRAY after the region, entry by entry: the matrix product of the two input arrays. -/
theorem arr2_apply (c : Dev nD) (n : Fin 4096) (a : Fin 4224) :
    ((dat0 (F := Ideal) V c).arrAt 2 cfg0.N : Vec Ideal S4096x4224 .f32) (ix2 n a)
      = ∑ k : Fin 4096, lhs V c (ix2 n k) * rhs V c (ix2 k a) := by
  rw [arr_f32]
  show ∑ k : Fin 4096, term V c n.val a.val k.val = _
  exact Finset.sum_congr rfl fun k _ => term_inside V c n a k

/-- THE bf16 OUTPUT ARRAY after the region, entry by entry: the same product. -/
theorem arr3_apply (c : Dev nD) (n : Fin 4096) (a : Fin 4224) :
    ((dat0 (F := Ideal) V c).arrAt 3 cfg0.N : Vec Ideal S4096x4224 .bf16) (ix2 n a)
      = ∑ k : Fin 4096, lhs V c (ix2 n k) * rhs V c (ix2 k a) := by
  rw [arr_low]
  show ∑ k : Fin 4096, term V c n.val a.val k.val = _
  exact Finset.sum_congr rfl fun k _ => term_inside V c n a k

end Arrays

end Cert.KernelIdeal.RegPlain0

end
-- ==== Proof.RegComb1.lean ====
/-
  What one accumulate-and-combine call of the program leaves in its output array, entry by entry over the extended reals.

  The call walks a 4 × 3 × 16 grid of points; point `t` is block row `t / 48`, block column `t / 16 % 3`, reduction
  step `t % 16`. At each point the body adds to the output block the product of a 1024 × 256 block of the left array
  and a 256 × 1408 block of the right array; at step 0 the output block is first set to zero; at step 15 the block is
  replaced by `2 · block − C block` and written back. So entry `(n, a)` of the output array ends at
  `2 · (∑ k, L n k * R k a) − C n a`: the sixteen partial products are the sixteen runs of length 256 of the whole sum.
-/
import proofs.«405468_j48026324304060_3_alg».proof.Proof.Gen.KernelIdeal.Frame
import proofs.«405468_j48026324304060_3_alg».proof.Proof.DiffSpec
import proofs.«405468_j48026324304060_3_alg».proof.Proof.SumSplit
import proofs.«405468_j48026324304060_3_alg».proof.Proof.LibPlainMatmul
import Idealize.ShloMosaic.Lib.Pipeline.Value
import Idealize.ShloMosaic.PureOps.Ideal.Laws
import Idealize.ShloMosaic.Lib.ValueIdx
import Idealize.ShloMosaic.Lib.Tactic

set_option maxRecDepth 16384

noncomputable section

namespace Cert.KernelIdeal.RegComb1

open Cert.KernelIdeal Cert.KernelIdeal.Gen Idealize.ShloMosaic Idealize.ShloMosaic.TcCoe Idealize.ShloMosaic.ValueIdx
open Idealize.ShloMosaic.Tactic
open Idealize.ShloMosaic.Pipeline (Dat)

section Pieces

variable {F : FTy → Type} [FloatOps F]

/-- The zero offsets of a whole-block access, however spelt. -/
theorem offs_zero : (![0, 0] : Fin 2 → Nat) = fun _ => 0 := funext fun a => by fin_cases a <;> rfl

/-- An inner reduction step (neither the first nor the last): the one store leaves the block it found plus the
    product of the two input blocks. -/
theorem piece_B (c : Dev nD) (i : grid1.Coords) (ml : Memref sig .tc .vmem S1024x256 .bf16) (wl : ml.IsWhole)
    (mr : Memref sig .tc .vmem S256x1408 .bf16) (wr : mr.IsWhole) (mc : Memref sig .tc .vmem S1024x1408 .f32) (wc : mc.IsWhole)
    (mo : Memref sig .tc .vmem S1024x1408 .f32) (wo : mo.IsWhole) (hca : ¬cond1_0 i) (hcb : ¬cond1_1 i)
    (xl : Vec F S1024x256 .bf16) (xr : Vec F S256x1408 .bf16) (xc : Vec F S1024x1408 .f32) (xo : Vec F S1024x1408 .f32) :
    out1_B_3 c i ml wl mr wr mc wc mo wo hca hcb xl xr xc xo = k1_pay2 xo xl xr := by
  unfold out1_B_3
  rw [View.read_writes_eq_canon _ _ _ (cover1_B_3 c i ml wl mr wr mc wc mo wo hca hcb xl xr xc xo)]
  unfold kernelRun1_B
  dsimp only
  sl_unfold_words
  rw [View.canon_unit_zero offs_zero]
  simp only [View.readAt_eq_ld, wl.read_unread, wr.read_unread, wo.read_unread, View.ld_unit_zero (S := S1024x1408) offs_zero,
    View.ld_unit_zero (S := S1024x256) offs_zero, View.ld_unit_zero (S := S256x1408) offs_zero]

/-- The first reduction step: the block is set to zero, read back, and the product of the two input blocks added. -/
theorem piece_A (c : Dev nD) (i : grid1.Coords) (ml : Memref sig .tc .vmem S1024x256 .bf16) (wl : ml.IsWhole)
    (mr : Memref sig .tc .vmem S256x1408 .bf16) (wr : mr.IsWhole) (mc : Memref sig .tc .vmem S1024x1408 .f32) (wc : mc.IsWhole)
    (mo : Memref sig .tc .vmem S1024x1408 .f32) (wo : mo.IsWhole) (hca : cond1_0 i) (hcb : ¬cond1_1 i)
    (xl : Vec F S1024x256 .bf16) (xr : Vec F S256x1408 .bf16) (xc : Vec F S1024x1408 .f32) :
    out1_A_3 c i ml wl mr wr mc wc mo wo hca hcb xl xr xc = k1_pay2 k1_pay1 xl xr := by
  unfold out1_A_3
  rw [View.read_writes_eq_canon _ _ _ (cover1_A_3 c i ml wl mr wr mc wc mo wo hca hcb xl xr xc)]
  unfold kernelRun1_A
  dsimp only
  sl_unfold_words
  rw [View.canon_cons_unit_zero (S := S1024x1408) offs_zero, View.readCov_unit_zero (S := S1024x1408) _ offs_zero]
  simp only [View.readAt_eq_ld, wl.read_unread, wr.read_unread, View.ld_unit_zero (S := S1024x256) offs_zero,
    View.ld_unit_zero (S := S256x1408) offs_zero]

/-- The last reduction step: the product is added as before, the sum read back, and the block replaced by twice
    the sum minus the third input block. -/
theorem piece_C (c : Dev nD) (i : grid1.Coords) (ml : Memref sig .tc .vmem S1024x256 .bf16) (wl : ml.IsWhole)
    (mr : Memref sig .tc .vmem S256x1408 .bf16) (wr : mr.IsWhole) (mc : Memref sig .tc .vmem S1024x1408 .f32) (wc : mc.IsWhole)
    (mo : Memref sig .tc .vmem S1024x1408 .f32) (wo : mo.IsWhole) (hca : ¬cond1_0 i) (hcb : cond1_1 i)
    (xl : Vec F S1024x256 .bf16) (xr : Vec F S256x1408 .bf16) (xc : Vec F S1024x1408 .f32) (xo : Vec F S1024x1408 .f32) :
    out1_C_3 c i ml wl mr wr mc wc mo wo hca hcb xl xr xc xo = k1_pay3 (k1_pay2 xo xl xr) xc := by
  unfold out1_C_3
  rw [View.read_writes_eq_canon _ _ _ (cover1_C_3 c i ml wl mr wr mc wc mo wo hca hcb xl xr xc xo)]
  unfold kernelRun1_C
  dsimp only
  sl_unfold_words
  rw [View.canon_cons_unit_zero (S := S1024x1408) offs_zero, View.readCov_unit_zero (S := S1024x1408) _ offs_zero]
  simp only [View.readAt_eq_ld, wl.read_unread, wr.read_unread, wc.read_unread, wo.read_unread,
    View.ld_unit_zero (S := S1024x1408) offs_zero, View.ld_unit_zero (S := S1024x256) offs_zero,
    View.ld_unit_zero (S := S256x1408) offs_zero]

end Pieces

/-! ## The three payloads at an entry, over the extended reals -/

section Payloads

/-- The reset block is zero everywhere. -/
theorem reset_apply (r : Fin 1024) (q : Fin 1408) : (k1_pay1 (F := Ideal)) (ix2 r q) = 0 :=
  Ideal.ofBits_zero_f32

/-- The update: the block found plus, at entry `(r, q)`, the 256-term product of row `r` and column `q`. -/
theorem update_apply (acc : Vec Ideal S1024x1408 .f32) (xl : Vec Ideal S1024x256 .bf16) (xr : Vec Ideal S256x1408 .bf16)
    (r : Fin 1024) (q : Fin 1408) :
    k1_pay2 acc xl xr (ix2 r q) = acc (ix2 r q) + ∑ kk : Fin 256, xl (ix2 r kk) * xr (ix2 kk q) := by
  unfold k1_pay2
  simp only [shapeCast_self]
  exact congrArg (acc (ix2 r q) + ·) (PlainMatmul.matmul_zero_apply 1024 256 1408 none xl xr r q)

/-- The closing step: twice the sum minus the third block, the factor two left as its word. -/
theorem combine_apply (v : Vec Ideal S1024x1408 .f32) (w : Vec Ideal S1024x1408 .f32) (r : Fin 1024) (q : Fin 1408) :
    k1_pay3 v w (ix2 r q) = DiffConv.two * v (ix2 r q) - w (ix2 r q) := by
  unfold k1_pay3
  simp only [shapeCast_self]
  rfl

end Payloads

/-! ## The arrays and blocks by their literal types -/

section Region

variable (V : (c : Dev nD) → (b : Ref sig .tc) → Buf (Elt Ideal) ((c : Thread nD τ).loc b))

/-- the three input arrays as the region finds them, by their literal types -/
abbrev lhs (c : Dev nD) : Vec Ideal S4096x4096 .bf16 := V c (Pipeline.arrRef spec1 0)
abbrev rhs (c : Dev nD) : Vec Ideal S4096x4224 .bf16 := V c (Pipeline.arrRef spec1 1)
abbrev sub (c : Dev nD) : Vec Ideal S4096x4224 .f32 := V c (Pipeline.arrRef spec1 2)

/-- the three input blocks at a point, by their literal types -/
abbrev lblk (c : Dev nD) (t : Fin cfg1.N) : Vec Ideal S1024x256 .bf16 := iblk1 V c 0 t
abbrev rblk (c : Dev nD) (t : Fin cfg1.N) : Vec Ideal S256x1408 .bf16 := iblk1 V c 1 t
abbrev cblk (c : Dev nD) (t : Fin cfg1.N) : Vec Ideal S1024x1408 .f32 := iblk1 V c 2 t

/-- Entry `(a, b)` of each array as a function of ANY two naturals (the coordinates reduced modulo the extents, which
    changes nothing inside the array): sums over runs of coordinates are then sums of one function of ℕ. -/
def lhsAt (c : Dev nD) (a b : ℕ) : EReal :=
  lhs V c (ix2 ⟨a % 4096, Nat.mod_lt _ (by decide)⟩ ⟨b % 4096, Nat.mod_lt _ (by decide)⟩)
def rhsAt (c : Dev nD) (a b : ℕ) : EReal :=
  rhs V c (ix2 ⟨a % 4096, Nat.mod_lt _ (by decide)⟩ ⟨b % 4224, Nat.mod_lt _ (by decide)⟩)
def subAt (c : Dev nD) (a b : ℕ) : EReal :=
  sub V c (ix2 ⟨a % 4096, Nat.mod_lt _ (by decide)⟩ ⟨b % 4224, Nat.mod_lt _ (by decide)⟩)

/-! ## Where a point's blocks sit: the index maps, decided over the grid -/

theorem idx_lhs_row : ∀ t : Fin cfg1.N, win1_0.index t (0 : Fin 2) = t.val / 48 :=
  (by decide +kernel : ∀ t : Fin grid1.N, win1_0.index t (0 : Fin 2) = t.val / 48)
theorem idx_lhs_col : ∀ t : Fin cfg1.N, win1_0.index t (1 : Fin 2) = t.val % 16 :=
  (by decide +kernel : ∀ t : Fin grid1.N, win1_0.index t (1 : Fin 2) = t.val % 16)
theorem idx_rhs_row : ∀ t : Fin cfg1.N, win1_1.index t (0 : Fin 2) = t.val % 16 :=
  (by decide +kernel : ∀ t : Fin grid1.N, win1_1.index t (0 : Fin 2) = t.val % 16)
theorem idx_rhs_col : ∀ t : Fin cfg1.N, win1_1.index t (1 : Fin 2) = t.val / 16 % 3 :=
  (by decide +kernel : ∀ t : Fin grid1.N, win1_1.index t (1 : Fin 2) = t.val / 16 % 3)
theorem idx_sub_row : ∀ t : Fin cfg1.N, win1_2.index t (0 : Fin 2) = t.val / 48 :=
  (by decide +kernel : ∀ t : Fin grid1.N, win1_2.index t (0 : Fin 2) = t.val / 48)
theorem idx_sub_col : ∀ t : Fin cfg1.N, win1_2.index t (1 : Fin 2) = t.val / 16 % 3 :=
  (by decide +kernel : ∀ t : Fin grid1.N, win1_2.index t (1 : Fin 2) = t.val / 16 % 3)
theorem idx_out_row : ∀ t : Fin cfg1.N, win1_3.index t (0 : Fin 2) = t.val / 48 :=
  (by decide +kernel : ∀ t : Fin grid1.N, win1_3.index t (0 : Fin 2) = t.val / 48)
theorem idx_out_col : ∀ t : Fin cfg1.N, win1_3.index t (1 : Fin 2) = t.val / 16 % 3 :=
  (by decide +kernel : ∀ t : Fin grid1.N, win1_3.index t (1 : Fin 2) = t.val / 16 % 3)

/-! ## The blocks read at an entry -/

/-- Entry `(r, kk)` of the left block at point `t` is entry `(1024·(t/48) + r, 256·(t%16) + kk)` of the left array. -/
theorem lblk_apply (c : Dev nD) (t : Fin cfg1.N) (r : Fin 1024) (kk : Fin 256) :
    lblk V c t (ix2 r kk) = lhsAt V c (1024 * (t.val / 48) + r.val) (256 * (t.val % 16) + kk.val) := by
  have hN : t.val < 192 := lt_of_lt_of_eq t.isLt (show cfg1.N = 192 from N_1)
  unfold lhsAt
  show ((cfg1.win 0).blk t).view.read (Elt Ideal) (V c (Pipeline.arrRef spec1 0)) (ix2 r kk) = V c (Pipeline.arrRef spec1 0) _
  rw [View.read_apply]
  refine congrArg (V c (Pipeline.arrRef spec1 0)) (funext fun a => Fin.ext ?_)
  match a with
  | ⟨0, _⟩ =>
    show win1_0.index t (0 : Fin 2) * 1024 + 1 * r.val = (1024 * (t.val / 48) + r.val) % 4096
    rw [idx_lhs_row]; omega
  | ⟨1, _⟩ =>
    show win1_0.index t (1 : Fin 2) * 256 + 1 * kk.val = (256 * (t.val % 16) + kk.val) % 4096
    rw [idx_lhs_col]; omega

/-- Entry `(kk, q)` of the right block at point `t` is entry `(256·(t%16) + kk, 1408·(t/16%3) + q)` of the right array. -/
theorem rblk_apply (c : Dev nD) (t : Fin cfg1.N) (kk : Fin 256) (q : Fin 1408) :
    rblk V c t (ix2 kk q) = rhsAt V c (256 * (t.val % 16) + kk.val) (1408 * (t.val / 16 % 3) + q.val) := by
  have hN : t.val < 192 := lt_of_lt_of_eq t.isLt (show cfg1.N = 192 from N_1)
  unfold rhsAt
  show ((cfg1.win 1).blk t).view.read (Elt Ideal) (V c (Pipeline.arrRef spec1 1)) (ix2 kk q) = V c (Pipeline.arrRef spec1 1) _
  rw [View.read_apply]
  refine congrArg (V c (Pipeline.arrRef spec1 1)) (funext fun a => Fin.ext ?_)
  match a with
  | ⟨0, _⟩ =>
    show win1_1.index t (0 : Fin 2) * 256 + 1 * kk.val = (256 * (t.val % 16) + kk.val) % 4096
    rw [idx_rhs_row]; omega
  | ⟨1, _⟩ =>
    show win1_1.index t (1 : Fin 2) * 1408 + 1 * q.val = (1408 * (t.val / 16 % 3) + q.val) % 4224
    rw [idx_rhs_col]; omega

/-- Entry `(r, q)` of the third block at point `t` is entry `(1024·(t/48) + r, 1408·(t/16%3) + q)` of the third array. -/
theorem cblk_apply (c : Dev nD) (t : Fin cfg1.N) (r : Fin 1024) (q : Fin 1408) :
    cblk V c t (ix2 r q) = subAt V c (1024 * (t.val / 48) + r.val) (1408 * (t.val / 16 % 3) + q.val) := by
  have hN : t.val < 192 := lt_of_lt_of_eq t.isLt (show cfg1.N = 192 from N_1)
  unfold subAt
  show ((cfg1.win 2).blk t).view.read (Elt Ideal) (V c (Pipeline.arrRef spec1 2)) (ix2 r q) = V c (Pipeline.arrRef spec1 2) _
  rw [View.read_apply]
  refine congrArg (V c (Pipeline.arrRef spec1 2)) (funext fun a => Fin.ext ?_)
  match a with
  | ⟨0, _⟩ =>
    show win1_2.index t (0 : Fin 2) * 1024 + 1 * r.val = (1024 * (t.val / 48) + r.val) % 4096
    rw [idx_sub_row]; omega
  | ⟨1, _⟩ =>
    show win1_2.index t (1 : Fin 2) * 1408 + 1 * q.val = (1408 * (t.val / 16 % 3) + q.val) % 4224
    rw [idx_sub_col]; omega

/-! ## The accumulation over a run of sixteen points -/

/-- Run `s` of the contraction at entry `(a, b)`: its 256 terms `256·s … 256·s + 255`. -/
def part (c : Dev nD) (a b s : ℕ) : EReal :=
  ∑ kk : Fin 256, lhsAt V c a (256 * s + kk.val) * rhsAt V c (256 * s + kk.val) b

/-- The update at point `t` adds run `t % 16` of the contraction to what the block held. -/
theorem update_blk (c : Dev nD) (t : Fin cfg1.N) (acc : Vec Ideal S1024x1408 .f32) (r : Fin 1024) (q : Fin 1408) :
    k1_pay2 acc (lblk V c t) (rblk V c t) (ix2 r q)
      = acc (ix2 r q) + part V c (1024 * (t.val / 48) + r.val) (1408 * (t.val / 16 % 3) + q.val) (t.val % 16) := by
  rw [update_apply]
  unfold part
  refine congrArg (acc (ix2 r q) + ·) (Finset.sum_congr rfl fun kk _ => ?_)
  rw [lblk_apply, rblk_apply]

/-- At the first point of a run the block holds run 0 alone. -/
theorem first_apply (c : Dev nD) (t : Fin cfg1.N) (hfirst : t.val % 16 = 0) (r : Fin 1024) (q : Fin 1408) :
    outsAt1 V c t.val t.isLt (ix2 r q)
      = part V c (1024 * (t.val / 48) + r.val) (1408 * (t.val / 16 % 3) + q.val) (t.val % 16) := by
  have hlast : ¬t.val % 16 = 15 := by omega
  rw [outsAt1_A V c t hfirst hlast]
  refine (congrFun (piece_A (F := Ideal) c (grid1.coords t) (ms1_0 t) (hs1_0 t) (ms1_1 t) (hs1_1 t) (ms1_2 t) (hs1_2 t)
    (ms1_3 t) (hs1_3 t) ((hcond1_0 t).mpr hfirst) (fun h => hlast ((hcond1_1 t).mp h)) (lblk V c t) (rblk V c t) (cblk V c t))
    (ix2 r q)).trans ?_
  rw [update_blk, reset_apply, zero_add]

/-- At an inner point the block holds what the point before left plus run `t % 16`. -/
theorem step_apply (c : Dev nD) (t : Fin cfg1.N) (hfirst : ¬t.val % 16 = 0) (hlast : ¬t.val % 16 = 15) (r : Fin 1024) (q : Fin 1408) :
    outsAt1 V c t.val t.isLt (ix2 r q)
      = outsAt1 V c (t.val - 1) (Nat.lt_of_le_of_lt (Nat.sub_le _ _) t.isLt) (ix2 r q)
        + part V c (1024 * (t.val / 48) + r.val) (1408 * (t.val / 16 % 3) + q.val) (t.val % 16) := by
  rw [outsAt1_B V c t hfirst hlast]
  refine (congrFun (piece_B (F := Ideal) c (grid1.coords t) (ms1_0 t) (hs1_0 t) (ms1_1 t) (hs1_1 t) (ms1_2 t) (hs1_2 t)
    (ms1_3 t) (hs1_3 t) (fun h => hfirst ((hcond1_0 t).mp h)) (fun h => hlast ((hcond1_1 t).mp h)) (lblk V c t) (rblk V c t) (cblk V c t)
    (outsAt1 V c (t.val - 1) (Nat.lt_of_le_of_lt (Nat.sub_le _ _) t.isLt))) (ix2 r q)).trans ?_
  rw [update_blk]

/-- At the last point of a run the block holds twice (what the point before left plus run 15) minus the third block. -/
theorem last_apply (c : Dev nD) (t : Fin cfg1.N) (hlast : t.val % 16 = 15) (r : Fin 1024) (q : Fin 1408) :
    outsAt1 V c t.val t.isLt (ix2 r q)
      = DiffConv.two * (outsAt1 V c (t.val - 1) (Nat.lt_of_le_of_lt (Nat.sub_le _ _) t.isLt) (ix2 r q)
          + part V c (1024 * (t.val / 48) + r.val) (1408 * (t.val / 16 % 3) + q.val) (t.val % 16))
        - subAt V c (1024 * (t.val / 48) + r.val) (1408 * (t.val / 16 % 3) + q.val) := by
  have hfirst : ¬t.val % 16 = 0 := by omega
  rw [outsAt1_C V c t hfirst hlast]
  refine (congrFun (piece_C (F := Ideal) c (grid1.coords t) (ms1_0 t) (hs1_0 t) (ms1_1 t) (hs1_1 t) (ms1_2 t) (hs1_2 t)
    (ms1_3 t) (hs1_3 t) (fun h => hfirst ((hcond1_0 t).mp h)) ((hcond1_1 t).mpr hlast) (lblk V c t) (rblk V c t) (cblk V c t)
    (outsAt1 V c (t.val - 1) (Nat.lt_of_le_of_lt (Nat.sub_le _ _) t.isLt))) (ix2 r q)).trans ?_
  rw [combine_apply, update_blk, cblk_apply]

/-- THE RUNNING SUM: at point `n`, not the last of its run, the block holds runs `0 … n % 16` of the contraction of its
    rows and columns — by induction on the point. -/
theorem acc_apply (c : Dev nD) : ∀ (n : ℕ) (h : n < cfg1.N), ¬n % 16 = 15 → ∀ (r : Fin 1024) (q : Fin 1408),
    outsAt1 V c n h (ix2 r q)
      = ∑ s ∈ Finset.range (n % 16 + 1), part V c (1024 * (n / 48) + r.val) (1408 * (n / 16 % 3) + q.val) s := by
  intro n
  induction n with
  | zero =>
    intro h _ r q
    exact (first_apply V c ⟨0, h⟩ rfl r q).trans (Finset.sum_range_one _).symm
  | succ n ih =>
    intro h hlast r q
    by_cases hfirst : (n + 1) % 16 = 0
    · refine (first_apply V c ⟨n + 1, h⟩ hfirst r q).trans ?_
      show part V c _ _ ((n + 1) % 16) = _
      rw [hfirst, Finset.sum_range_one]
    · refine (step_apply V c ⟨n + 1, h⟩ hfirst hlast r q).trans ?_
      show outsAt1 V c n _ (ix2 r q)
          + part V c (1024 * ((n + 1) / 48) + r.val) (1408 * ((n + 1) / 16 % 3) + q.val) ((n + 1) % 16) = _
      have ea : (n + 1) / 48 = n / 48 := by omega
      have eb : (n + 1) / 16 % 3 = n / 16 % 3 := by omega
      have ec : (n + 1) % 16 = n % 16 + 1 := by omega
      rw [ih _ (by omega) r q, ea, eb, ec, Finset.sum_range_succ _ (n % 16 + 1)]

/-! ## What the last point of a run writes back, and the whole array -/

/-- The sixteen runs are the whole contraction. -/
theorem runs_eq (c : Dev nD) (a b : ℕ) :
    ∑ s ∈ Finset.range 16, part V c a b s = ∑ k : Fin 4096, lhsAt V c a k.val * rhsAt V c k.val b :=
  DiffConv.sum_runs 16 256 rfl fun k => lhsAt V c a k * rhsAt V c k b

/-- Entry `(a, b)` of the result: twice the whole contraction minus the third array's entry. -/
def entry (c : Dev nD) (a b : ℕ) : EReal :=
  DiffConv.two * (∑ k : Fin 4096, lhsAt V c a k.val * rhsAt V c k.val b) - subAt V c a b

/-- The result array. -/
abbrev whole (c : Dev nD) : Vec Ideal S4096x4224 .f32 := fun i => entry V c (i 0).val (i 1).val

/-- WHAT THE LAST POINT OF A RUN WRITES BACK is its block of the result array: the fifteen runs the block held, the
    sixteenth added, doubled, the third block subtracted. -/
theorem flushed_out (c : Dev nD) (t : Fin cfg1.N) (hf : (cfg1.win 3).flush t = true) :
    (dat1 (F := Ideal) V c).flushed 3 t = ((cfg1.win 3).blk t).view.read (Elt Ideal) (whole V c) := by
  have hlast : t.val % 16 = 15 := (flush1_3 t).mp hf
  have hN : t.val < 192 := lt_of_lt_of_eq t.isLt (show cfg1.N = 192 from N_1)
  show (cfg1.win 3).cut (grid1.coords t) ((dat1 (F := Ideal) V c).after 3 t) = _
  rw [after1_3]
  funext y
  obtain ⟨r, q, rfl⟩ : ∃ (r : Fin 1024) (q : Fin 1408), y = ix2 r q := ⟨y 0, y 1, eq_ix2 y⟩
  rw [View.read_apply]
  show outsAt1 V c t.val t.isLt (ix2 r q)
    = entry V c (win1_3.index t (0 : Fin 2) * 1024 + 1 * r.val) (win1_3.index t (1 : Fin 2) * 1408 + 1 * q.val)
  rw [idx_out_row, idx_out_col,
    show t.val / 48 * 1024 + 1 * r.val = 1024 * (t.val / 48) + r.val from by omega,
    show t.val / 16 % 3 * 1408 + 1 * q.val = 1408 * (t.val / 16 % 3) + q.val from by omega]
  have ea : (t.val - 1) / 48 = t.val / 48 := by omega
  have eb : (t.val - 1) / 16 % 3 = t.val / 16 % 3 := by omega
  have ec : (t.val - 1) % 16 + 1 = 15 := by omega
  rw [last_apply V c t hlast r q, acc_apply V c (t.val - 1) _ (by omega) r q, ea, eb, ec, hlast,
    ← Finset.sum_range_succ, runs_eq]
  rfl

/-- The blocks of the last points of the twelve runs tile the array: entry `(a, b)` is in the block of the last point
    of run `(a / 1024, b / 1408)`. -/
theorem covered (i : S4096x4224.Idx) :
    ∃ t : Fin cfg1.N, (cfg1.win 3).flush t = true ∧ i ∈ ((cfg1.win 3).blk t).view.set := by
  have hrow : (i 0).val < 4096 := (i 0).isLt
  have hcol : (i 1).val < 4224 := (i 1).isLt
  have hN : cfg1.N = 192 := N_1
  refine ⟨⟨48 * ((i 0).val / 1024) + 16 * ((i 1).val / 1408) + 15, by rw [hN]; omega⟩,
    (flush1_3 _).mpr (by dsimp only; omega), ?_⟩
  rw [View.set_slice_whole, Rect.mem_set_unit]
  intro a
  match a with
  | ⟨0, _⟩ =>
    show win1_3.index _ (0 : Fin 2) * 1024 ≤ (i 0).val ∧ (i 0).val < win1_3.index _ (0 : Fin 2) * 1024 + 1024
    rw [idx_out_row]; dsimp only; omega
  | ⟨1, _⟩ =>
    show win1_3.index _ (1 : Fin 2) * 1408 ≤ (i 1).val ∧ (i 1).val < win1_3.index _ (1 : Fin 2) * 1408 + 1408
    rw [idx_out_col]; dsimp only; omega

/-- So the output array ends at the result array. -/
theorem arr_eq (c : Dev nD) : (dat1 (F := Ideal) V c).arrAt 3 cfg1.N = whole V c :=
  (dat1 (F := Ideal) V c).arrAt_eq_of_cover 3 (whole V c) (flushed_out V c) covered

/-- THE OUTPUT ARRAY AT AN ENTRY: `2 · (∑ k, L n k * R k a) − C n a`. -/
theorem arr3_apply (c : Dev nD) (n : Fin 4096) (a : Fin 4224) :
    ((dat1 (F := Ideal) V c).arrAt 3 cfg1.N : Vec Ideal S4096x4224 .f32) (ix2 n a)
      = DiffConv.two * (∑ k : Fin 4096, lhs V c (ix2 n k) * rhs V c (ix2 k a)) - sub V c (ix2 n a) := by
  rw [arr_eq]
  show entry V c n.val a.val = _
  unfold entry lhsAt rhsAt subAt
  have en : (⟨n.val % 4096, Nat.mod_lt _ (by decide)⟩ : Fin 4096) = n := Fin.ext (Nat.mod_eq_of_lt n.isLt)
  have ea : (⟨a.val % 4224, Nat.mod_lt _ (by decide)⟩ : Fin 4224) = a := Fin.ext (Nat.mod_eq_of_lt a.isLt)
  have ek : ∀ k : Fin 4096, (⟨k.val % 4096, Nat.mod_lt _ (by decide)⟩ : Fin 4096) = k := fun k => Fin.ext (Nat.mod_eq_of_lt k.isLt)
  simp only [en, ea, ek]

end Region

end Cert.KernelIdeal.RegComb1

end
-- ==== Proof.RegPlain2.lean ====
/-
  The matrix product a call of the plain product kernel leaves behind, read off its run.

  Whatever the buffers hold when the call is entered, it leaves in BOTH of its output arrays — the f32 one and the
  bf16 one — at entry `(n, a)` the sum over the 4096 contracted coordinates `k` of `left (n, k) * right (k, a)`,
  over the extended reals (where a change of float format is the identity).

  The call walks a 4 × 3 × 16 grid, point `t = 48·i + 16·j + k`. At a point it reads the 1024 × 256 block `(i, k)` of
  the left array and the 256 × 1408 block `(k, j)` of the right array and adds their product into the 1024 × 1408
  block `(i, j)` of the f32 output, which it first resets to zero when `k = 0`; when `k = 15` it also stores that
  block, format-changed, into the bf16 output, and both blocks are written back to their arrays. So a block's entry
  `(r, q)` gathers sixteen stretches of 256 summands — the whole sum over the contracted coordinate of entry
  `(1024·i + r, 1408·j + q)` of the product —, and the twelve blocks tile the arrays. Only regrouping of a finite sum
  in a commutative monoid is used: no entry is assumed finite.
-/
import proofs.«405468_j48026324304060_3_alg».proof.Proof.Gen.KernelIdeal.Frame
import proofs.«405468_j48026324304060_3_alg».proof.Proof.SumSplit
import proofs.«405468_j48026324304060_3_alg».proof.Proof.LibPlainMatmul
import Idealize.ShloMosaic.Lib.Pipeline.Value
import Idealize.ShloMosaic.PureOps.Ideal.Laws
import Idealize.ShloMosaic.Lib.ValueIdx
import Idealize.ShloMosaic.Lib.Tactic

noncomputable section

namespace Cert.KernelIdeal.RegPlain2

open Cert.KernelIdeal Cert.KernelIdeal.Gen Idealize.ShloMosaic Idealize.ShloMosaic.TcCoe Idealize.ShloMosaic.ValueIdx
open Idealize.ShloMosaic.Pipeline (Dat)

/-! ## What one grid point's body leaves in the two output blocks

At every grid point the body overwrites the whole f32 output block with "block so far + left block · right block";
at the first point of a run of sixteen the block so far is the zero splat it has just stored, and at the last point
the bf16 output block receives the format change of the f32 block just written. -/

section Pieces

variable {F : FTy → Type} [FloatOps F]

/-- The zero offsets of a whole-block access, as a constant function. -/
theorem hz : (![0, 0] : Fin 2 → Nat) = fun _ => 0 := funext fun a => by fin_cases a <;> rfl

/-- First point of a run: the f32 block is reset to the zero splat, read back, and the first product added. -/
theorem piece_A (c : Dev nD) (i : grid2.Coords) (ml : Memref sig .tc .vmem S1024x256 .bf16) (wl : ml.IsWhole)
    (mr : Memref sig .tc .vmem S256x1408 .bf16) (wr : mr.IsWhole) (mo : Memref sig .tc .vmem S1024x1408 .f32) (wo : mo.IsWhole)
    (mb : Memref sig .tc .vmem S1024x1408 .bf16) (wb : mb.IsWhole) (hfst : cond2_0 i) (hlst : ¬cond2_1 i)
    (xl : Vec F S1024x256 .bf16) (xr : Vec F S256x1408 .bf16) :
    out2_A_2 c i ml wl mr wr mo wo mb wb hfst hlst xl xr = k2_pay2 (k2_pay1 (F := F)) xl xr := by
  unfold out2_A_2
  rw [View.read_writes_eq_canon _ _ _ (cover2_A_2 c i ml wl mr wr mo wo mb wb hfst hlst xl xr)]
  unfold kernelRun2_A
  dsimp only
  sl_unfold_words
  rw [View.canon_cons_unit_zero (S := S1024x1408) hz, View.readCov_unit_zero (S := S1024x1408) _ hz]
  simp only [View.readAt_eq_ld, wl.read_unread, wr.read_unread, View.ld_unit_zero (S := S1024x256) hz,
    View.ld_unit_zero (S := S256x1408) hz]

/-- A middle point of a run: the f32 block so far plus this point's product. -/
theorem piece_B (c : Dev nD) (i : grid2.Coords) (ml : Memref sig .tc .vmem S1024x256 .bf16) (wl : ml.IsWhole)
    (mr : Memref sig .tc .vmem S256x1408 .bf16) (wr : mr.IsWhole) (mo : Memref sig .tc .vmem S1024x1408 .f32) (wo : mo.IsWhole)
    (mb : Memref sig .tc .vmem S1024x1408 .bf16) (wb : mb.IsWhole) (hfst : ¬cond2_0 i) (hlst : ¬cond2_1 i)
    (xl : Vec F S1024x256 .bf16) (xr : Vec F S256x1408 .bf16) (xo : Vec F S1024x1408 .f32) :
    out2_B_2 c i ml wl mr wr mo wo mb wb hfst hlst xl xr xo = k2_pay2 xo xl xr := by
  unfold out2_B_2
  rw [View.read_writes_eq_canon _ _ _ (cover2_B_2 c i ml wl mr wr mo wo mb wb hfst hlst xl xr xo)]
  unfold kernelRun2_B
  dsimp only
  sl_unfold_words
  rw [View.canon_unit_zero hz]
  simp only [View.readAt_eq_ld, wl.read_unread, wr.read_unread, wo.read_unread, View.ld_unit_zero (S := S1024x256) hz,
    View.ld_unit_zero (S := S256x1408) hz, View.ld_unit_zero (S := S1024x1408) hz]

/-- The last point of a run, f32 block: as at a middle point. -/
theorem piece_C (c : Dev nD) (i : grid2.Coords) (ml : Memref sig .tc .vmem S1024x256 .bf16) (wl : ml.IsWhole)
    (mr : Memref sig .tc .vmem S256x1408 .bf16) (wr : mr.IsWhole) (mo : Memref sig .tc .vmem S1024x1408 .f32) (wo : mo.IsWhole)
    (mb : Memref sig .tc .vmem S1024x1408 .bf16) (wb : mb.IsWhole) (hfst : ¬cond2_0 i) (hlst : cond2_1 i)
    (xl : Vec F S1024x256 .bf16) (xr : Vec F S256x1408 .bf16) (xo : Vec F S1024x1408 .f32) :
    out2_C_2 c i ml wl mr wr mo wo mb wb hfst hlst xl xr xo = k2_pay2 xo xl xr := by
  unfold out2_C_2
  rw [View.read_writes_eq_canon _ _ _ (cover2_C_2 c i ml wl mr wr mo wo mb wb hfst hlst xl xr xo)]
  unfold kernelRun2_C
  dsimp only
  sl_unfold_words
  rw [View.canon_unit_zero hz]
  simp only [View.readAt_eq_ld, wl.read_unread, wr.read_unread, wo.read_unread, View.ld_unit_zero (S := S1024x256) hz,
    View.ld_unit_zero (S := S256x1408) hz, View.ld_unit_zero (S := S1024x1408) hz]

/-- The last point of a run, bf16 block: the format change of the f32 block just written. -/
theorem piece_C_low (c : Dev nD) (i : grid2.Coords) (ml : Memref sig .tc .vmem S1024x256 .bf16) (wl : ml.IsWhole)
    (mr : Memref sig .tc .vmem S256x1408 .bf16) (wr : mr.IsWhole) (mo : Memref sig .tc .vmem S1024x1408 .f32) (wo : mo.IsWhole)
    (mb : Memref sig .tc .vmem S1024x1408 .bf16) (wb : mb.IsWhole) (hfst : ¬cond2_0 i) (hlst : cond2_1 i)
    (xl : Vec F S1024x256 .bf16) (xr : Vec F S256x1408 .bf16) (xo : Vec F S1024x1408 .f32) :
    out2_C_3 c i ml wl mr wr mo wo mb wb hfst hlst xl xr xo = k2_pay3 (k2_pay2 xo xl xr) := by
  unfold out2_C_3
  rw [View.read_writes_eq_canon _ _ _ (cover2_C_3 c i ml wl mr wr mo wo mb wb hfst hlst xl xr xo)]
  unfold kernelRun2_C
  dsimp only
  sl_unfold_words
  rw [View.canon_unit_zero hz, View.readCov_unit_zero (S := S1024x1408) _ hz]
  simp only [View.readAt_eq_ld, wl.read_unread, wr.read_unread, wo.read_unread, View.ld_unit_zero (S := S1024x256) hz,
    View.ld_unit_zero (S := S256x1408) hz, View.ld_unit_zero (S := S1024x1408) hz]

end Pieces

/-! ## One entry of the payloads, over the extended reals -/

section Entries

/-- The zero splat is `0` at every entry. -/
theorem zero_apply (r : Fin 1024) (q : Fin 1408) :
    (k2_pay1 (F := Ideal) : Vec Ideal S1024x1408 .f32) (ix2 r q) = 0 := by
  unfold k2_pay1
  exact Ideal.ofBits_zero_f32

/-- "Block so far + left block · right block" at entry `(r, q)`: the entry so far plus the sum over the 256
    contracted coordinates of this point. -/
theorem pay_apply (acc : Vec Ideal S1024x1408 .f32) (xl : Vec Ideal S1024x256 .bf16) (xr : Vec Ideal S256x1408 .bf16)
    (r : Fin 1024) (q : Fin 1408) :
    (k2_pay2 acc xl xr : Vec Ideal S1024x1408 .f32) (ix2 r q)
      = acc (ix2 r q) + ∑ kk : Fin 256, xl (ix2 r kk) * xr (ix2 kk q) := by
  unfold k2_pay2
  simp only [shapeCast_self]
  exact congrArg (fun z => acc (ix2 r q) + z) (PlainMatmul.matmul_zero_apply 1024 256 1408 none xl xr r q)

/-- The format change to the narrower float is the identity on extended reals. -/
theorem low_apply (v : Vec Ideal S1024x1408 .f32) (r : Fin 1024) (q : Fin 1408) :
    (k2_pay3 v : Vec Ideal S1024x1408 .bf16) (ix2 r q) = v (ix2 r q) := by
  unfold k2_pay3
  simp only [shapeCast_self]
  rfl

end Entries

/-! ## The blocks of the two input arrays

The grid is 4 × 3 × 16; point `t = 48·i + 16·j + k`. The left array is cut into 1024 × 256 blocks and the point reads
block `(i, k)`; the right array into 256 × 1408 blocks, block `(k, j)`; both outputs into 1024 × 1408 blocks, block
`(i, j)`, written back after `k = 15`. -/

section Blocks

variable (V : (c : Dev nD) → (b : Ref sig .tc) → Buf (Elt Ideal) ((c : Thread nD τ).loc b))

/-- the two input arrays as the region finds them, by their literal types -/
abbrev lhs (c : Dev nD) : Vec Ideal S4096x4096 .bf16 := V c (Pipeline.arrRef spec2 0)
abbrev rhs (c : Dev nD) : Vec Ideal S4096x4224 .bf16 := V c (Pipeline.arrRef spec2 1)

/-- the two input blocks of a point, by their literal types -/
abbrev lblk (c : Dev nD) (t : Fin cfg2.N) : Vec Ideal S1024x256 .bf16 := iblk2 V c 0 t
abbrev rblk (c : Dev nD) (t : Fin cfg2.N) : Vec Ideal S256x1408 .bf16 := iblk2 V c 1 t

/-- An entry of the left array at natural-number coordinates (taken modulo the extents, so that it is total). -/
def lhsAt (c : Dev nD) (R K : ℕ) : EReal :=
  lhs V c (ix2 (⟨R % 4096, Nat.mod_lt _ (by decide)⟩ : Fin 4096) (⟨K % 4096, Nat.mod_lt _ (by decide)⟩ : Fin 4096))
/-- An entry of the right array at natural-number coordinates. -/
def rhsAt (c : Dev nD) (K C : ℕ) : EReal :=
  rhs V c (ix2 (⟨K % 4096, Nat.mod_lt _ (by decide)⟩ : Fin 4096) (⟨C % 4224, Nat.mod_lt _ (by decide)⟩ : Fin 4224))
/-- The summand of the product's entry `(R, C)` at the contracted coordinate `K`. -/
def term (c : Dev nD) (R C K : ℕ) : EReal := lhsAt V c R K * rhsAt V c K C

/-- Inside the arrays the wrapped entries are the entries. -/
theorem term_inside (c : Dev nD) (n : Fin 4096) (a : Fin 4224) (k : Fin 4096) :
    term V c n.val a.val k.val = lhs V c (ix2 n k) * rhs V c (ix2 k a) := by
  unfold term lhsAt rhsAt
  have en : (⟨n.val % 4096, Nat.mod_lt _ (by decide)⟩ : Fin 4096) = n := Fin.ext (Nat.mod_eq_of_lt n.isLt)
  have ek : (⟨k.val % 4096, Nat.mod_lt _ (by decide)⟩ : Fin 4096) = k := Fin.ext (Nat.mod_eq_of_lt k.isLt)
  have ea : (⟨a.val % 4224, Nat.mod_lt _ (by decide)⟩ : Fin 4224) = a := Fin.ext (Nat.mod_eq_of_lt a.isLt)
  rw [en, ek, ea]

/-- The block index of the left window: block row `i`, -/
theorem idx_lhs_row : ∀ t : Fin cfg2.N, win2_0.index t (0 : Fin 2) = t.val / 48 :=
  (by decide +kernel : ∀ t : Fin grid2.N, _)
/-- block column `k`; -/
theorem idx_lhs_col : ∀ t : Fin cfg2.N, win2_0.index t (1 : Fin 2) = t.val % 16 :=
  (by decide +kernel : ∀ t : Fin grid2.N, _)
/-- of the right window: block row `k`, -/
theorem idx_rhs_row : ∀ t : Fin cfg2.N, win2_1.index t (0 : Fin 2) = t.val % 16 :=
  (by decide +kernel : ∀ t : Fin grid2.N, _)
/-- block column `j`. -/
theorem idx_rhs_col : ∀ t : Fin cfg2.N, win2_1.index t (1 : Fin 2) = t.val / 16 % 3 :=
  (by decide +kernel : ∀ t : Fin grid2.N, _)

/-- The left block of point `t` at `(r, kk)` is the left array at row `1024·i + r`, column `256·k + kk`. -/
theorem lblk_apply (c : Dev nD) (t : Fin cfg2.N) (r : Fin 1024) (kk : Fin 256) :
    lblk V c t (ix2 r kk) = lhsAt V c (1024 * (t.val / 48) + r.val) (256 * (t.val % 16) + kk.val) := by
  have hN : t.val < 192 := lt_of_lt_of_eq t.isLt N_2
  unfold lhsAt
  show V c (Pipeline.arrRef spec2 0) (((cfg2.win 0).blk t).view.emb (ix2 r kk)) = V c (Pipeline.arrRef spec2 0) (ix2 _ _)
  refine congrArg _ (funext fun a => Fin.ext ?_)
  match a with
  | ⟨0, _⟩ =>
    show win2_0.index t (0 : Fin 2) * 1024 + 1 * r.val = (1024 * (t.val / 48) + r.val) % 4096
    rw [idx_lhs_row t]; omega
  | ⟨1, _⟩ =>
    show win2_0.index t (1 : Fin 2) * 256 + 1 * kk.val = (256 * (t.val % 16) + kk.val) % 4096
    rw [idx_lhs_col t]; omega

/-- The right block of point `t` at `(kk, q)` is the right array at row `256·k + kk`, column `1408·j + q`. -/
theorem rblk_apply (c : Dev nD) (t : Fin cfg2.N) (kk : Fin 256) (q : Fin 1408) :
    rblk V c t (ix2 kk q) = rhsAt V c (256 * (t.val % 16) + kk.val) (1408 * (t.val / 16 % 3) + q.val) := by
  have hN : t.val < 192 := lt_of_lt_of_eq t.isLt N_2
  unfold rhsAt
  show V c (Pipeline.arrRef spec2 1) (((cfg2.win 1).blk t).view.emb (ix2 kk q)) = V c (Pipeline.arrRef spec2 1) (ix2 _ _)
  refine congrArg _ (funext fun a => Fin.ext ?_)
  match a with
  | ⟨0, _⟩ =>
    show win2_1.index t (0 : Fin 2) * 256 + 1 * kk.val = (256 * (t.val % 16) + kk.val) % 4096
    rw [idx_rhs_row t]; omega
  | ⟨1, _⟩ =>
    show win2_1.index t (1 : Fin 2) * 1408 + 1 * q.val = (1408 * (t.val / 16 % 3) + q.val) % 4224
    rw [idx_rhs_col t]; omega

end Blocks

/-! ## The accumulation over a run of sixteen points

The sixteen points `t = 16·m, …, 16·m + 15` share one output block. After the point at offset `k` in the run the
f32 block holds, at entry `(r, q)`, the sum of the first `k + 1` stretches of 256 summands of the product's entry
`(1024·i + r, 1408·j + q)`. -/

section Accumulate

variable (V : (c : Dev nD) → (b : Ref sig .tc) → Buf (Elt Ideal) ((c : Thread nD τ).loc b))

/-- The sum of the first `j + 1` stretches of 256 summands of the product's entry `(R, C)`. -/
def partialSum (c : Dev nD) (R C j : ℕ) : EReal :=
  ∑ s ∈ Finset.range (j + 1), ∑ kk : Fin 256, term V c R C (256 * s + kk.val)

/-- One point's block product at an entry is one stretch of 256 summands. -/
theorem stretch_apply (c : Dev nD) (t : Fin cfg2.N) (r : Fin 1024) (q : Fin 1408) :
    ∑ kk : Fin 256, lblk V c t (ix2 r kk) * rblk V c t (ix2 kk q)
      = ∑ kk : Fin 256, term V c (1024 * (t.val / 48) + r.val) (1408 * (t.val / 16 % 3) + q.val)
          (256 * (t.val % 16) + kk.val) :=
  Finset.sum_congr rfl fun kk _ => by rw [lblk_apply V c t r kk, rblk_apply V c t kk q]; rfl

/-- At the first point of a run the block holds the first stretch. -/
theorem first_apply (c : Dev nD) (n : ℕ) (hn : n < cfg2.N) (hfst : n % 16 = 0) (r : Fin 1024) (q : Fin 1408) :
    (outsAt2 V c n hn).1 (ix2 r q)
      = partialSum V c (1024 * (n / 48) + r.val) (1408 * (n / 16 % 3) + q.val) 0 := by
  have hlst : ¬n % 16 = 15 := by omega
  rw [outsAt2_A V c ⟨n, hn⟩ hfst hlst]
  dsimp only
  refine (congrFun (piece_A (F := Ideal) c (grid2.coords ⟨n, hn⟩) (ms2_0 ⟨n, hn⟩) (hs2_0 ⟨n, hn⟩) (ms2_1 ⟨n, hn⟩)
    (hs2_1 ⟨n, hn⟩) (ms2_2 ⟨n, hn⟩) (hs2_2 ⟨n, hn⟩) (ms2_3 ⟨n, hn⟩) (hs2_3 ⟨n, hn⟩) ((hcond2_0 ⟨n, hn⟩).mpr hfst)
    (fun h => hlst ((hcond2_1 ⟨n, hn⟩).mp h)) (lblk V c ⟨n, hn⟩) (rblk V c ⟨n, hn⟩)) (ix2 r q)).trans ?_
  rw [pay_apply (k2_pay1 (F := Ideal)) (lblk V c ⟨n, hn⟩) (rblk V c ⟨n, hn⟩) r q, zero_apply, zero_add,
    stretch_apply V c ⟨n, hn⟩ r q]
  unfold partialSum
  rw [Finset.sum_range_succ, Finset.sum_range_zero, zero_add]
  show ∑ kk : Fin 256, term V c _ _ (256 * (n % 16) + kk.val) = _
  rw [hfst]

/-- At every later point of a run the block gains that point's stretch. -/
theorem next_apply (c : Dev nD) (n : ℕ) (hn : n + 1 < cfg2.N) (hfst : ¬(n + 1) % 16 = 0) (r : Fin 1024) (q : Fin 1408) :
    (outsAt2 V c (n + 1) hn).1 (ix2 r q)
      = (outsAt2 V c n (Nat.lt_of_succ_lt hn)).1 (ix2 r q)
        + ∑ kk : Fin 256, term V c (1024 * ((n + 1) / 48) + r.val) (1408 * ((n + 1) / 16 % 3) + q.val)
            (256 * ((n + 1) % 16) + kk.val) := by
  by_cases hlst : (n + 1) % 16 = 15
  · rw [outsAt2_C V c ⟨n + 1, hn⟩ hfst hlst]
    dsimp only
    refine (congrFun (piece_C (F := Ideal) c (grid2.coords ⟨n + 1, hn⟩) (ms2_0 ⟨n + 1, hn⟩) (hs2_0 ⟨n + 1, hn⟩)
      (ms2_1 ⟨n + 1, hn⟩) (hs2_1 ⟨n + 1, hn⟩) (ms2_2 ⟨n + 1, hn⟩) (hs2_2 ⟨n + 1, hn⟩) (ms2_3 ⟨n + 1, hn⟩)
      (hs2_3 ⟨n + 1, hn⟩) (fun h => hfst ((hcond2_0 ⟨n + 1, hn⟩).mp h)) ((hcond2_1 ⟨n + 1, hn⟩).mpr hlst)
      (lblk V c ⟨n + 1, hn⟩) (rblk V c ⟨n + 1, hn⟩) (outsAt2 V c n (Nat.lt_of_succ_lt hn)).1) (ix2 r q)).trans ?_
    rw [pay_apply (outsAt2 V c n (Nat.lt_of_succ_lt hn)).1 (lblk V c ⟨n + 1, hn⟩) (rblk V c ⟨n + 1, hn⟩) r q,
      stretch_apply V c ⟨n + 1, hn⟩ r q]
  · rw [outsAt2_B V c ⟨n + 1, hn⟩ hfst hlst]
    dsimp only
    refine (congrFun (piece_B (F := Ideal) c (grid2.coords ⟨n + 1, hn⟩) (ms2_0 ⟨n + 1, hn⟩) (hs2_0 ⟨n + 1, hn⟩)
      (ms2_1 ⟨n + 1, hn⟩) (hs2_1 ⟨n + 1, hn⟩) (ms2_2 ⟨n + 1, hn⟩) (hs2_2 ⟨n + 1, hn⟩) (ms2_3 ⟨n + 1, hn⟩)
      (hs2_3 ⟨n + 1, hn⟩) (fun h => hfst ((hcond2_0 ⟨n + 1, hn⟩).mp h)) (fun h => hlst ((hcond2_1 ⟨n + 1, hn⟩).mp h))
      (lblk V c ⟨n + 1, hn⟩) (rblk V c ⟨n + 1, hn⟩) (outsAt2 V c n (Nat.lt_of_succ_lt hn)).1) (ix2 r q)).trans ?_
    rw [pay_apply (outsAt2 V c n (Nat.lt_of_succ_lt hn)).1 (lblk V c ⟨n + 1, hn⟩) (rblk V c ⟨n + 1, hn⟩) r q,
      stretch_apply V c ⟨n + 1, hn⟩ r q]

/-- THE RUNNING SUM: after point `n` the f32 block holds the partial sums up to the point's offset in its run. -/
theorem acc_apply (c : Dev nD) : ∀ (n : ℕ) (hn : n < cfg2.N) (r : Fin 1024) (q : Fin 1408),
    (outsAt2 V c n hn).1 (ix2 r q)
      = partialSum V c (1024 * (n / 48) + r.val) (1408 * (n / 16 % 3) + q.val) (n % 16)
  | 0, hn, r, q => first_apply V c 0 hn rfl r q
  | n + 1, hn, r, q => by
    by_cases hfst : (n + 1) % 16 = 0
    · rw [hfst]; exact first_apply V c (n + 1) hn hfst r q
    · have hN : n + 1 < 192 := lt_of_lt_of_eq hn N_2
      have erow : (n + 1) / 48 = n / 48 := by omega
      have ecol : (n + 1) / 16 % 3 = n / 16 % 3 := by omega
      have eoff : (n + 1) % 16 = n % 16 + 1 := by omega
      rw [next_apply V c n hn hfst r q, acc_apply c n (Nat.lt_of_succ_lt hn) r q, erow, ecol, eoff]
      unfold partialSum
      rw [Finset.sum_range_succ _ (n % 16 + 1)]

/-- At the last point of a run the bf16 block holds what the f32 block holds. -/
theorem low_eq (c : Dev nD) (n : ℕ) (hn : n + 1 < cfg2.N) (hlst : (n + 1) % 16 = 15) (r : Fin 1024) (q : Fin 1408) :
    (outsAt2 V c (n + 1) hn).2 (ix2 r q) = (outsAt2 V c (n + 1) hn).1 (ix2 r q) := by
  have hfst : ¬(n + 1) % 16 = 0 := by omega
  rw [outsAt2_C V c ⟨n + 1, hn⟩ hfst hlst]
  dsimp only
  refine (congrFun (piece_C_low (F := Ideal) c (grid2.coords ⟨n + 1, hn⟩) (ms2_0 ⟨n + 1, hn⟩) (hs2_0 ⟨n + 1, hn⟩)
    (ms2_1 ⟨n + 1, hn⟩) (hs2_1 ⟨n + 1, hn⟩) (ms2_2 ⟨n + 1, hn⟩) (hs2_2 ⟨n + 1, hn⟩) (ms2_3 ⟨n + 1, hn⟩)
    (hs2_3 ⟨n + 1, hn⟩) (fun h => hfst ((hcond2_0 ⟨n + 1, hn⟩).mp h)) ((hcond2_1 ⟨n + 1, hn⟩).mpr hlst)
    (lblk V c ⟨n + 1, hn⟩) (rblk V c ⟨n + 1, hn⟩) (outsAt2 V c n (Nat.lt_of_succ_lt hn)).1) (ix2 r q)).trans ?_
  refine (low_apply _ r q).trans ?_
  exact (congrFun (piece_C (F := Ideal) c (grid2.coords ⟨n + 1, hn⟩) (ms2_0 ⟨n + 1, hn⟩) (hs2_0 ⟨n + 1, hn⟩)
    (ms2_1 ⟨n + 1, hn⟩) (hs2_1 ⟨n + 1, hn⟩) (ms2_2 ⟨n + 1, hn⟩) (hs2_2 ⟨n + 1, hn⟩) (ms2_3 ⟨n + 1, hn⟩)
    (hs2_3 ⟨n + 1, hn⟩) (fun h => hfst ((hcond2_0 ⟨n + 1, hn⟩).mp h)) ((hcond2_1 ⟨n + 1, hn⟩).mpr hlst)
    (lblk V c ⟨n + 1, hn⟩) (rblk V c ⟨n + 1, hn⟩) (outsAt2 V c n (Nat.lt_of_succ_lt hn)).1) (ix2 r q)).symm

/-- Sixteen stretches of 256 are the whole sum over the 4096 contracted coordinates. -/
theorem full_sum (c : Dev nD) (R C : ℕ) : partialSum V c R C 15 = ∑ k : Fin 4096, term V c R C k.val := by
  show ∑ s ∈ Finset.range 16, ∑ kk : Fin 256, term V c R C (256 * s + kk.val) = _
  exact DiffConv.sum_runs 16 256 rfl (term V c R C)

end Accumulate

/-! ## From the blocks to the two output arrays

Every output block is written back once, after the last point of its run, holding the full sums; the blocks tile
the arrays, so both arrays end holding the product. -/

section Arrays

variable (V : (c : Dev nD) → (b : Ref sig .tc) → Buf (Elt Ideal) ((c : Thread nD τ).loc b))

/-- The product array: entry `(n, a)` is the sum over all 4096 contracted coordinates. -/
def prodArr (c : Dev nD) : Vec Ideal S4096x4224 .f32 :=
  fun i => ∑ k : Fin 4096, term V c (i 0).val (i 1).val k.val
/-- The same entries, as an array of the narrower float. -/
def prodArrLow (c : Dev nD) : Vec Ideal S4096x4224 .bf16 :=
  fun i => ∑ k : Fin 4096, term V c (i 0).val (i 1).val k.val

/-- The block index of the f32 output window: block row `i`, -/
theorem idx_out_row : ∀ t : Fin cfg2.N, win2_2.index t (0 : Fin 2) = t.val / 48 :=
  (by decide +kernel : ∀ t : Fin grid2.N, _)
/-- block column `j`; -/
theorem idx_out_col : ∀ t : Fin cfg2.N, win2_2.index t (1 : Fin 2) = t.val / 16 % 3 :=
  (by decide +kernel : ∀ t : Fin grid2.N, _)
/-- of the bf16 output window: block row `i`, -/
theorem idx_low_row : ∀ t : Fin cfg2.N, win2_3.index t (0 : Fin 2) = t.val / 48 :=
  (by decide +kernel : ∀ t : Fin grid2.N, _)
/-- block column `j`. -/
theorem idx_low_col : ∀ t : Fin cfg2.N, win2_3.index t (1 : Fin 2) = t.val / 16 % 3 :=
  (by decide +kernel : ∀ t : Fin grid2.N, _)

/-- What a write-back of the f32 window writes is its block of the product array. -/
theorem flushed_f32 (c : Dev nD) (t : Fin cfg2.N) (hf : (cfg2.win 2).flush t = true) :
    (dat2 V c).flushed 2 t = ((cfg2.win 2).blk t).view.read (Elt Ideal) (prodArr V c) := by
  have hlast : t.val % 16 = 15 := (flush2_2 t).mp hf
  have hN : t.val < 192 := lt_of_lt_of_eq t.isLt N_2
  show (cfg2.win 2).cut (grid2.coords t) ((dat2 V c).after 2 t) = _
  rw [after2_2]
  funext j
  obtain ⟨r, q, rfl⟩ : ∃ (r : Fin 1024) (q : Fin 1408), j = ix2 r q := ⟨j 0, j 1, eq_ix2 j⟩
  show (outsAt2 V c t.val t.isLt).1 (ix2 r q) = prodArr V c (((cfg2.win 2).blk t).view.emb (ix2 r q))
  rw [acc_apply V c t.val t.isLt r q, hlast, full_sum]
  have erow : win2_2.index t (0 : Fin 2) * 1024 + 1 * r.val = 1024 * (t.val / 48) + r.val := by
    rw [idx_out_row t]; omega
  have ecol : win2_2.index t (1 : Fin 2) * 1408 + 1 * q.val = 1408 * (t.val / 16 % 3) + q.val := by
    rw [idx_out_col t]; omega
  show _ = ∑ k : Fin 4096, term V c (win2_2.index t (0 : Fin 2) * 1024 + 1 * r.val)
    (win2_2.index t (1 : Fin 2) * 1408 + 1 * q.val) k.val
  rw [erow, ecol]

/-- What a write-back of the bf16 window writes is its block of the product array. -/
theorem flushed_low (c : Dev nD) (t : Fin cfg2.N) (hf : (cfg2.win 3).flush t = true) :
    (dat2 V c).flushed 3 t = ((cfg2.win 3).blk t).view.read (Elt Ideal) (prodArrLow V c) := by
  have hlast : t.val % 16 = 15 := (flush2_3 t).mp hf
  have hN : t.val < 192 := lt_of_lt_of_eq t.isLt N_2
  show (cfg2.win 3).cut (grid2.coords t) ((dat2 V c).after 3 t) = _
  rw [after2_3]
  funext j
  obtain ⟨r, q, rfl⟩ : ∃ (r : Fin 1024) (q : Fin 1408), j = ix2 r q := ⟨j 0, j 1, eq_ix2 j⟩
  show (outsAt2 V c t.val t.isLt).2 (ix2 r q) = prodArrLow V c (((cfg2.win 3).blk t).view.emb (ix2 r q))
  obtain ⟨n, hn⟩ := t
  obtain ⟨n, rfl⟩ : ∃ n', n = n' + 1 := ⟨n - 1, by dsimp only at hlast; omega⟩
  show (outsAt2 V c (n + 1) hn).2 (ix2 r q) = _
  rw [low_eq V c n hn hlast r q, acc_apply V c (n + 1) hn r q, hlast, full_sum]
  have erow : win2_3.index ⟨n + 1, hn⟩ (0 : Fin 2) * 1024 + 1 * r.val = 1024 * ((n + 1) / 48) + r.val := by
    rw [idx_low_row ⟨n + 1, hn⟩]; dsimp only; omega
  have ecol : win2_3.index ⟨n + 1, hn⟩ (1 : Fin 2) * 1408 + 1 * q.val = 1408 * ((n + 1) / 16 % 3) + q.val := by
    rw [idx_low_col ⟨n + 1, hn⟩]; dsimp only; omega
  show _ = ∑ k : Fin 4096, term V c (win2_3.index ⟨n + 1, hn⟩ (0 : Fin 2) * 1024 + 1 * r.val)
    (win2_3.index ⟨n + 1, hn⟩ (1 : Fin 2) * 1408 + 1 * q.val) k.val
  rw [erow, ecol]

/-- An index of the f32 array is in point `t`'s block iff each coordinate is in the block's range on its axis. -/
theorem mem_blk_f32 (t : Fin cfg2.N) (i : S4096x4224.Idx) :
    i ∈ ((cfg2.win 2).blk t).view.set ↔ ∀ a : Fin 2, win2_2.index t a * S1024x1408.size a ≤ (i a).val
      ∧ (i a).val < win2_2.index t a * S1024x1408.size a + S1024x1408.size a := by
  show i ∈ ((View.whole (Pipeline.arrRef spec2 2)).slice (win2_2.rect t)).set ↔ _
  rw [View.set_slice_whole, Rect.mem_set_unit]
  exact Iff.rfl

/-- The same for the bf16 array. -/
theorem mem_blk_low (t : Fin cfg2.N) (i : S4096x4224.Idx) :
    i ∈ ((cfg2.win 3).blk t).view.set ↔ ∀ a : Fin 2, win2_3.index t a * S1024x1408.size a ≤ (i a).val
      ∧ (i a).val < win2_3.index t a * S1024x1408.size a + S1024x1408.size a := by
  show i ∈ ((View.whole (Pipeline.arrRef spec2 3)).slice (win2_3.rect t)).set ↔ _
  rw [View.set_slice_whole, Rect.mem_set_unit]
  exact Iff.rfl

/-- Entry `(n, a)` lies in block `(n / 1024, a / 1408)`, written back after the last point of that block's run. -/
theorem cover_f32 (i : S4096x4224.Idx) :
    ∃ t : Fin cfg2.N, (cfg2.win 2).flush t = true ∧ i ∈ ((cfg2.win 2).blk t).view.set := by
  have hrow : (i 0).val < 4096 := (i 0).isLt
  have hcol : (i 1).val < 4224 := (i 1).isLt
  have hlt : 48 * ((i 0).val / 1024) + 16 * ((i 1).val / 1408) + 15 < cfg2.N := by
    rw [show cfg2.N = 192 from N_2]; omega
  refine ⟨⟨48 * ((i 0).val / 1024) + 16 * ((i 1).val / 1408) + 15, hlt⟩, (flush2_2 _).mpr (by dsimp only; omega), ?_⟩
  rw [mem_blk_f32]
  intro a
  match a with
  | ⟨0, _⟩ =>
    show win2_2.index ⟨_, hlt⟩ (0 : Fin 2) * 1024 ≤ (i 0).val ∧ (i 0).val < win2_2.index ⟨_, hlt⟩ (0 : Fin 2) * 1024 + 1024
    rw [idx_out_row ⟨_, hlt⟩]; dsimp only; omega
  | ⟨1, _⟩ =>
    show win2_2.index ⟨_, hlt⟩ (1 : Fin 2) * 1408 ≤ (i 1).val ∧ (i 1).val < win2_2.index ⟨_, hlt⟩ (1 : Fin 2) * 1408 + 1408
    rw [idx_out_col ⟨_, hlt⟩]; dsimp only; omega

/-- The same for the bf16 array. -/
theorem cover_low (i : S4096x4224.Idx) :
    ∃ t : Fin cfg2.N, (cfg2.win 3).flush t = true ∧ i ∈ ((cfg2.win 3).blk t).view.set := by
  have hrow : (i 0).val < 4096 := (i 0).isLt
  have hcol : (i 1).val < 4224 := (i 1).isLt
  have hlt : 48 * ((i 0).val / 1024) + 16 * ((i 1).val / 1408) + 15 < cfg2.N := by
    rw [show cfg2.N = 192 from N_2]; omega
  refine ⟨⟨48 * ((i 0).val / 1024) + 16 * ((i 1).val / 1408) + 15, hlt⟩, (flush2_3 _).mpr (by dsimp only; omega), ?_⟩
  rw [mem_blk_low]
  intro a
  match a with
  | ⟨0, _⟩ =>
    show win2_3.index ⟨_, hlt⟩ (0 : Fin 2) * 1024 ≤ (i 0).val ∧ (i 0).val < win2_3.index ⟨_, hlt⟩ (0 : Fin 2) * 1024 + 1024
    rw [idx_low_row ⟨_, hlt⟩]; dsimp only; omega
  | ⟨1, _⟩ =>
    show win2_3.index ⟨_, hlt⟩ (1 : Fin 2) * 1408 ≤ (i 1).val ∧ (i 1).val < win2_3.index ⟨_, hlt⟩ (1 : Fin 2) * 1408 + 1408
    rw [idx_low_col ⟨_, hlt⟩]; dsimp only; omega

/-- The f32 output array ends holding the product array, -/
theorem arr_f32 (c : Dev nD) : (dat2 V c).arrAt 2 cfg2.N = prodArr V c :=
  (dat2 V c).arrAt_eq_of_cover 2 (prodArr V c) (flushed_f32 V c) cover_f32
/-- and so does the bf16 one. -/
theorem arr_low (c : Dev nD) : (dat2 V c).arrAt 3 cfg2.N = prodArrLow V c :=
  (dat2 V c).arrAt_eq_of_cover 3 (prodArrLow V c) (flushed_low V c) cover_low

/-- THE f32 OUTPUT ARRAY after the region, entry by entry: the matrix product of the two input arrays. -/
theorem arr2_apply (c : Dev nD) (n : Fin 4096) (a : Fin 4224) :
    ((dat2 (F := Ideal) V c).arrAt 2 cfg2.N : Vec Ideal S4096x4224 .f32) (ix2 n a)
      = ∑ k : Fin 4096, lhs V c (ix2 n k) * rhs V c (ix2 k a) := by
  rw [arr_f32]
  show ∑ k : Fin 4096, term V c n.val a.val k.val = _
  exact Finset.sum_congr rfl fun k _ => term_inside V c n a k

/-- THE bf16 OUTPUT ARRAY after the region, entry by entry: the same product. -/
theorem arr3_apply (c : Dev nD) (n : Fin 4096) (a : Fin 4224) :
    ((dat2 (F := Ideal) V c).arrAt 3 cfg2.N : Vec Ideal S4096x4224 .bf16) (ix2 n a)
      = ∑ k : Fin 4096, lhs V c (ix2 n k) * rhs V c (ix2 k a) := by
  rw [arr_low]
  show ∑ k : Fin 4096, term V c n.val a.val k.val = _
  exact Finset.sum_congr rfl fun k _ => term_inside V c n a k

end Arrays

end Cert.KernelIdeal.RegPlain2

end
-- ==== Proof.RegComb3.lean ====
/-
  What one accumulate-and-combine call of the program leaves in its output array, entry by entry over the extended reals.

  The call walks a 4 × 3 × 16 grid of points; point `t` is block row `t / 48`, block column `t / 16 % 3`, reduction
  step `t % 16`. At each point the body adds to the output block the product of a 1024 × 256 block of the left array
  and a 256 × 1408 block of the right array; at step 0 the output block is first set to zero; at step 15 the block is
  replaced by `2 · block − C block` and written back. So entry `(n, a)` of the output array ends at
  `2 · (∑ k, L n k * R k a) − C n a`: the sixteen partial products are the sixteen runs of length 256 of the whole sum.
-/
import proofs.«405468_j48026324304060_3_alg».proof.Proof.Gen.KernelIdeal.Frame
import proofs.«405468_j48026324304060_3_alg».proof.Proof.DiffSpec
import proofs.«405468_j48026324304060_3_alg».proof.Proof.SumSplit
import proofs.«405468_j48026324304060_3_alg».proof.Proof.LibPlainMatmul
import Idealize.ShloMosaic.Lib.Pipeline.Value
import Idealize.ShloMosaic.PureOps.Ideal.Laws
import Idealize.ShloMosaic.Lib.ValueIdx
import Idealize.ShloMosaic.Lib.Tactic

set_option maxRecDepth 16384

noncomputable section

namespace Cert.KernelIdeal.RegComb3

open Cert.KernelIdeal Cert.KernelIdeal.Gen Idealize.ShloMosaic Idealize.ShloMosaic.TcCoe Idealize.ShloMosaic.ValueIdx
open Idealize.ShloMosaic.Tactic
open Idealize.ShloMosaic.Pipeline (Dat)

section Pieces

variable {F : FTy → Type} [FloatOps F]

/-- The zero offsets of a whole-block access, however spelt. -/
theorem offs_zero : (![0, 0] : Fin 2 → Nat) = fun _ => 0 := funext fun a => by fin_cases a <;> rfl

/-- An inner reduction step (neither the first nor the last): the one store leaves the block it found plus the
    product of the two input blocks. -/
theorem piece_B (c : Dev nD) (i : grid3.Coords) (ml : Memref sig .tc .vmem S1024x256 .bf16) (wl : ml.IsWhole)
    (mr : Memref sig .tc .vmem S256x1408 .bf16) (wr : mr.IsWhole) (mc : Memref sig .tc .vmem S1024x1408 .f32) (wc : mc.IsWhole)
    (mo : Memref sig .tc .vmem S1024x1408 .f32) (wo : mo.IsWhole) (hca : ¬cond3_0 i) (hcb : ¬cond3_1 i)
    (xl : Vec F S1024x256 .bf16) (xr : Vec F S256x1408 .bf16) (xc : Vec F S1024x1408 .f32) (xo : Vec F S1024x1408 .f32) :
    out3_B_3 c i ml wl mr wr mc wc mo wo hca hcb xl xr xc xo = k3_pay2 xo xl xr := by
  unfold out3_B_3
  rw [View.read_writes_eq_canon _ _ _ (cover3_B_3 c i ml wl mr wr mc wc mo wo hca hcb xl xr xc xo)]
  unfold kernelRun3_B
  dsimp only
  sl_unfold_words
  rw [View.canon_unit_zero offs_zero]
  simp only [View.readAt_eq_ld, wl.read_unread, wr.read_unread, wo.read_unread, View.ld_unit_zero (S := S1024x1408) offs_zero,
    View.ld_unit_zero (S := S1024x256) offs_zero, View.ld_unit_zero (S := S256x1408) offs_zero]

/-- The first reduction step: the block is set to zero, read back, and the product of the two input blocks added. -/
theorem piece_A (c : Dev nD) (i : grid3.Coords) (ml : Memref sig .tc .vmem S1024x256 .bf16) (wl : ml.IsWhole)
    (mr : Memref sig .tc .vmem S256x1408 .bf16) (wr : mr.IsWhole) (mc : Memref sig .tc .vmem S1024x1408 .f32) (wc : mc.IsWhole)
    (mo : Memref sig .tc .vmem S1024x1408 .f32) (wo : mo.IsWhole) (hca : cond3_0 i) (hcb : ¬cond3_1 i)
    (xl : Vec F S1024x256 .bf16) (xr : Vec F S256x1408 .bf16) (xc : Vec F S1024x1408 .f32) :
    out3_A_3 c i ml wl mr wr mc wc mo wo hca hcb xl xr xc = k3_pay2 k3_pay1 xl xr := by
  unfold out3_A_3
  rw [View.read_writes_eq_canon _ _ _ (cover3_A_3 c i ml wl mr wr mc wc mo wo hca hcb xl xr xc)]
  unfold kernelRun3_A
  dsimp only
  sl_unfold_words
  rw [View.canon_cons_unit_zero (S := S1024x1408) offs_zero, View.readCov_unit_zero (S := S1024x1408) _ offs_zero]
  simp only [View.readAt_eq_ld, wl.read_unread, wr.read_unread, View.ld_unit_zero (S := S1024x256) offs_zero,
    View.ld_unit_zero (S := S256x1408) offs_zero]

/-- The last reduction step: the product is added as before, the sum read back, and the block replaced by twice
    the sum minus the third input block. -/
theorem piece_C (c : Dev nD) (i : grid3.Coords) (ml : Memref sig .tc .vmem S1024x256 .bf16) (wl : ml.IsWhole)
    (mr : Memref sig .tc .vmem S256x1408 .bf16) (wr : mr.IsWhole) (mc : Memref sig .tc .vmem S1024x1408 .f32) (wc : mc.IsWhole)
    (mo : Memref sig .tc .vmem S1024x1408 .f32) (wo : mo.IsWhole) (hca : ¬cond3_0 i) (hcb : cond3_1 i)
    (xl : Vec F S1024x256 .bf16) (xr : Vec F S256x1408 .bf16) (xc : Vec F S1024x1408 .f32) (xo : Vec F S1024x1408 .f32) :
    out3_C_3 c i ml wl mr wr mc wc mo wo hca hcb xl xr xc xo = k3_pay3 (k3_pay2 xo xl xr) xc := by
  unfold out3_C_3
  rw [View.read_writes_eq_canon _ _ _ (cover3_C_3 c i ml wl mr wr mc wc mo wo hca hcb xl xr xc xo)]
  unfold kernelRun3_C
  dsimp only
  sl_unfold_words
  rw [View.canon_cons_unit_zero (S := S1024x1408) offs_zero, View.readCov_unit_zero (S := S1024x1408) _ offs_zero]
  simp only [View.readAt_eq_ld, wl.read_unread, wr.read_unread, wc.read_unread, wo.read_unread,
    View.ld_unit_zero (S := S1024x1408) offs_zero, View.ld_unit_zero (S := S1024x256) offs_zero,
    View.ld_unit_zero (S := S256x1408) offs_zero]

end Pieces

/-! ## The three payloads at an entry, over the extended reals -/

section Payloads

/-- The reset block is zero everywhere. -/
theorem reset_apply (r : Fin 1024) (q : Fin 1408) : (k3_pay1 (F := Ideal)) (ix2 r q) = 0 :=
  Ideal.ofBits_zero_f32

/-- The update: the block found plus, at entry `(r, q)`, the 256-term product of row `r` and column `q`. -/
theorem update_apply (acc : Vec Ideal S1024x1408 .f32) (xl : Vec Ideal S1024x256 .bf16) (xr : Vec Ideal S256x1408 .bf16)
    (r : Fin 1024) (q : Fin 1408) :
    k3_pay2 acc xl xr (ix2 r q) = acc (ix2 r q) + ∑ kk : Fin 256, xl (ix2 r kk) * xr (ix2 kk q) := by
  unfold k3_pay2
  simp only [shapeCast_self]
  exact congrArg (acc (ix2 r q) + ·) (PlainMatmul.matmul_zero_apply 1024 256 1408 none xl xr r q)

/-- The closing step: twice the sum minus the third block, the factor two left as its word. -/
theorem combine_apply (v : Vec Ideal S1024x1408 .f32) (w : Vec Ideal S1024x1408 .f32) (r : Fin 1024) (q : Fin 1408) :
    k3_pay3 v w (ix2 r q) = DiffConv.two * v (ix2 r q) - w (ix2 r q) := by
  unfold k3_pay3
  simp only [shapeCast_self]
  rfl

end Payloads

/-! ## The arrays and blocks by their literal types -/

section Region

variable (V : (c : Dev nD) → (b : Ref sig .tc) → Buf (Elt Ideal) ((c : Thread nD τ).loc b))

/-- the three input arrays as the region finds them, by their literal types -/
abbrev lhs (c : Dev nD) : Vec Ideal S4096x4096 .bf16 := V c (Pipeline.arrRef spec3 0)
abbrev rhs (c : Dev nD) : Vec Ideal S4096x4224 .bf16 := V c (Pipeline.arrRef spec3 1)
abbrev sub (c : Dev nD) : Vec Ideal S4096x4224 .f32 := V c (Pipeline.arrRef spec3 2)

/-- the three input blocks at a point, by their literal types -/
abbrev lblk (c : Dev nD) (t : Fin cfg3.N) : Vec Ideal S1024x256 .bf16 := iblk3 V c 0 t
abbrev rblk (c : Dev nD) (t : Fin cfg3.N) : Vec Ideal S256x1408 .bf16 := iblk3 V c 1 t
abbrev cblk (c : Dev nD) (t : Fin cfg3.N) : Vec Ideal S1024x1408 .f32 := iblk3 V c 2 t

/-- Entry `(a, b)` of each array as a function of ANY two naturals (the coordinates reduced modulo the extents, which
    changes nothing inside the array): sums over runs of coordinates are then sums of one function of ℕ. -/
def lhsAt (c : Dev nD) (a b : ℕ) : EReal :=
  lhs V c (ix2 ⟨a % 4096, Nat.mod_lt _ (by decide)⟩ ⟨b % 4096, Nat.mod_lt _ (by decide)⟩)
def rhsAt (c : Dev nD) (a b : ℕ) : EReal :=
  rhs V c (ix2 ⟨a % 4096, Nat.mod_lt _ (by decide)⟩ ⟨b % 4224, Nat.mod_lt _ (by decide)⟩)
def subAt (c : Dev nD) (a b : ℕ) : EReal :=
  sub V c (ix2 ⟨a % 4096, Nat.mod_lt _ (by decide)⟩ ⟨b % 4224, Nat.mod_lt _ (by decide)⟩)

/-! ## Where a point's blocks sit: the index maps, decided over the grid -/

theorem idx_lhs_row : ∀ t : Fin cfg3.N, win3_0.index t (0 : Fin 2) = t.val / 48 :=
  (by decide +kernel : ∀ t : Fin grid3.N, win3_0.index t (0 : Fin 2) = t.val / 48)
theorem idx_lhs_col : ∀ t : Fin cfg3.N, win3_0.index t (1 : Fin 2) = t.val % 16 :=
  (by decide +kernel : ∀ t : Fin grid3.N, win3_0.index t (1 : Fin 2) = t.val % 16)
theorem idx_rhs_row : ∀ t : Fin cfg3.N, win3_1.index t (0 : Fin 2) = t.val % 16 :=
  (by decide +kernel : ∀ t : Fin grid3.N, win3_1.index t (0 : Fin 2) = t.val % 16)
theorem idx_rhs_col : ∀ t : Fin cfg3.N, win3_1.index t (1 : Fin 2) = t.val / 16 % 3 :=
  (by decide +kernel : ∀ t : Fin grid3.N, win3_1.index t (1 : Fin 2) = t.val / 16 % 3)
theorem idx_sub_row : ∀ t : Fin cfg3.N, win3_2.index t (0 : Fin 2) = t.val / 48 :=
  (by decide +kernel : ∀ t : Fin grid3.N, win3_2.index t (0 : Fin 2) = t.val / 48)
theorem idx_sub_col : ∀ t : Fin cfg3.N, win3_2.index t (1 : Fin 2) = t.val / 16 % 3 :=
  (by decide +kernel : ∀ t : Fin grid3.N, win3_2.index t (1 : Fin 2) = t.val / 16 % 3)
theorem idx_out_row : ∀ t : Fin cfg3.N, win3_3.index t (0 : Fin 2) = t.val / 48 :=
  (by decide +kernel : ∀ t : Fin grid3.N, win3_3.index t (0 : Fin 2) = t.val / 48)
theorem idx_out_col : ∀ t : Fin cfg3.N, win3_3.index t (1 : Fin 2) = t.val / 16 % 3 :=
  (by decide +kernel : ∀ t : Fin grid3.N, win3_3.index t (1 : Fin 2) = t.val / 16 % 3)

/-! ## The blocks read at an entry -/

/-- Entry `(r, kk)` of the left block at point `t` is entry `(1024·(t/48) + r, 256·(t%16) + kk)` of the left array. -/
theorem lblk_apply (c : Dev nD) (t : Fin cfg3.N) (r : Fin 1024) (kk : Fin 256) :
    lblk V c t (ix2 r kk) = lhsAt V c (1024 * (t.val / 48) + r.val) (256 * (t.val % 16) + kk.val) := by
  have hN : t.val < 192 := lt_of_lt_of_eq t.isLt (show cfg3.N = 192 from N_3)
  unfold lhsAt
  show ((cfg3.win 0).blk t).view.read (Elt Ideal) (V c (Pipeline.arrRef spec3 0)) (ix2 r kk) = V c (Pipeline.arrRef spec3 0) _
  rw [View.read_apply]
  refine congrArg (V c (Pipeline.arrRef spec3 0)) (funext fun a => Fin.ext ?_)
  match a with
  | ⟨0, _⟩ =>
    show win3_0.index t (0 : Fin 2) * 1024 + 1 * r.val = (1024 * (t.val / 48) + r.val) % 4096
    rw [idx_lhs_row]; omega
  | ⟨1, _⟩ =>
    show win3_0.index t (1 : Fin 2) * 256 + 1 * kk.val = (256 * (t.val % 16) + kk.val) % 4096
    rw [idx_lhs_col]; omega

/-- Entry `(kk, q)` of the right block at point `t` is entry `(256·(t%16) + kk, 1408·(t/16%3) + q)` of the right array. -/
theorem rblk_apply (c : Dev nD) (t : Fin cfg3.N) (kk : Fin 256) (q : Fin 1408) :
    rblk V c t (ix2 kk q) = rhsAt V c (256 * (t.val % 16) + kk.val) (1408 * (t.val / 16 % 3) + q.val) := by
  have hN : t.val < 192 := lt_of_lt_of_eq t.isLt (show cfg3.N = 192 from N_3)
  unfold rhsAt
  show ((cfg3.win 1).blk t).view.read (Elt Ideal) (V c (Pipeline.arrRef spec3 1)) (ix2 kk q) = V c (Pipeline.arrRef spec3 1) _
  rw [View.read_apply]
  refine congrArg (V c (Pipeline.arrRef spec3 1)) (funext fun a => Fin.ext ?_)
  match a with
  | ⟨0, _⟩ =>
    show win3_1.index t (0 : Fin 2) * 256 + 1 * kk.val = (256 * (t.val % 16) + kk.val) % 4096
    rw [idx_rhs_row]; omega
  | ⟨1, _⟩ =>
    show win3_1.index t (1 : Fin 2) * 1408 + 1 * q.val = (1408 * (t.val / 16 % 3) + q.val) % 4224
    rw [idx_rhs_col]; omega

/-- Entry `(r, q)` of the third block at point `t` is entry `(1024·(t/48) + r, 1408·(t/16%3) + q)` of the third array. -/
theorem cblk_apply (c : Dev nD) (t : Fin cfg3.N) (r : Fin 1024) (q : Fin 1408) :
    cblk V c t (ix2 r q) = subAt V c (1024 * (t.val / 48) + r.val) (1408 * (t.val / 16 % 3) + q.val) := by
  have hN : t.val < 192 := lt_of_lt_of_eq t.isLt (show cfg3.N = 192 from N_3)
  unfold subAt
  show ((cfg3.win 2).blk t).view.read (Elt Ideal) (V c (Pipeline.arrRef spec3 2)) (ix2 r q) = V c (Pipeline.arrRef spec3 2) _
  rw [View.read_apply]
  refine congrArg (V c (Pipeline.arrRef spec3 2)) (funext fun a => Fin.ext ?_)
  match a with
  | ⟨0, _⟩ =>
    show win3_2.index t (0 : Fin 2) * 1024 + 1 * r.val = (1024 * (t.val / 48) + r.val) % 4096
    rw [idx_sub_row]; omega
  | ⟨1, _⟩ =>
    show win3_2.index t (1 : Fin 2) * 1408 + 1 * q.val = (1408 * (t.val / 16 % 3) + q.val) % 4224
    rw [idx_sub_col]; omega

/-! ## The accumulation over a run of sixteen points -/

/-- Run `s` of the contraction at entry `(a, b)`: its 256 terms `256·s … 256·s + 255`. -/
def part (c : Dev nD) (a b s : ℕ) : EReal :=
  ∑ kk : Fin 256, lhsAt V c a (256 * s + kk.val) * rhsAt V c (256 * s + kk.val) b

/-- The update at point `t` adds run `t % 16` of the contraction to what the block held. -/
theorem update_blk (c : Dev nD) (t : Fin cfg3.N) (acc : Vec Ideal S1024x1408 .f32) (r : Fin 1024) (q : Fin 1408) :
    k3_pay2 acc (lblk V c t) (rblk V c t) (ix2 r q)
      = acc (ix2 r q) + part V c (1024 * (t.val / 48) + r.val) (1408 * (t.val / 16 % 3) + q.val) (t.val % 16) := by
  rw [update_apply]
  unfold part
  refine congrArg (acc (ix2 r q) + ·) (Finset.sum_congr rfl fun kk _ => ?_)
  rw [lblk_apply, rblk_apply]

/-- At the first point of a run the block holds run 0 alone. -/
theorem first_apply (c : Dev nD) (t : Fin cfg3.N) (hfirst : t.val % 16 = 0) (r : Fin 1024) (q : Fin 1408) :
    outsAt3 V c t.val t.isLt (ix2 r q)
      = part V c (1024 * (t.val / 48) + r.val) (1408 * (t.val / 16 % 3) + q.val) (t.val % 16) := by
  have hlast : ¬t.val % 16 = 15 := by omega
  rw [outsAt3_A V c t hfirst hlast]
  refine (congrFun (piece_A (F := Ideal) c (grid3.coords t) (ms3_0 t) (hs3_0 t) (ms3_1 t) (hs3_1 t) (ms3_2 t) (hs3_2 t)
    (ms3_3 t) (hs3_3 t) ((hcond3_0 t).mpr hfirst) (fun h => hlast ((hcond3_1 t).mp h)) (lblk V c t) (rblk V c t) (cblk V c t))
    (ix2 r q)).trans ?_
  rw [update_blk, reset_apply, zero_add]

/-- At an inner point the block holds what the point before left plus run `t % 16`. -/
theorem step_apply (c : Dev nD) (t : Fin cfg3.N) (hfirst : ¬t.val % 16 = 0) (hlast : ¬t.val % 16 = 15) (r : Fin 1024) (q : Fin 1408) :
    outsAt3 V c t.val t.isLt (ix2 r q)
      = outsAt3 V c (t.val - 1) (Nat.lt_of_le_of_lt (Nat.sub_le _ _) t.isLt) (ix2 r q)
        + part V c (1024 * (t.val / 48) + r.val) (1408 * (t.val / 16 % 3) + q.val) (t.val % 16) := by
  rw [outsAt3_B V c t hfirst hlast]
  refine (congrFun (piece_B (F := Ideal) c (grid3.coords t) (ms3_0 t) (hs3_0 t) (ms3_1 t) (hs3_1 t) (ms3_2 t) (hs3_2 t)
    (ms3_3 t) (hs3_3 t) (fun h => hfirst ((hcond3_0 t).mp h)) (fun h => hlast ((hcond3_1 t).mp h)) (lblk V c t) (rblk V c t) (cblk V c t)
    (outsAt3 V c (t.val - 1) (Nat.lt_of_le_of_lt (Nat.sub_le _ _) t.isLt))) (ix2 r q)).trans ?_
  rw [update_blk]

/-- At the last point of a run the block holds twice (what the point before left plus run 15) minus the third block. -/
theorem last_apply (c : Dev nD) (t : Fin cfg3.N) (hlast : t.val % 16 = 15) (r : Fin 1024) (q : Fin 1408) :
    outsAt3 V c t.val t.isLt (ix2 r q)
      = DiffConv.two * (outsAt3 V c (t.val - 1) (Nat.lt_of_le_of_lt (Nat.sub_le _ _) t.isLt) (ix2 r q)
          + part V c (1024 * (t.val / 48) + r.val) (1408 * (t.val / 16 % 3) + q.val) (t.val % 16))
        - subAt V c (1024 * (t.val / 48) + r.val) (1408 * (t.val / 16 % 3) + q.val) := by
  have hfirst : ¬t.val % 16 = 0 := by omega
  rw [outsAt3_C V c t hfirst hlast]
  refine (congrFun (piece_C (F := Ideal) c (grid3.coords t) (ms3_0 t) (hs3_0 t) (ms3_1 t) (hs3_1 t) (ms3_2 t) (hs3_2 t)
    (ms3_3 t) (hs3_3 t) (fun h => hfirst ((hcond3_0 t).mp h)) ((hcond3_1 t).mpr hlast) (lblk V c t) (rblk V c t) (cblk V c t)
    (outsAt3 V c (t.val - 1) (Nat.lt_of_le_of_lt (Nat.sub_le _ _) t.isLt))) (ix2 r q)).trans ?_
  rw [combine_apply, update_blk, cblk_apply]

/-- THE RUNNING SUM: at point `n`, not the last of its run, the block holds runs `0 … n % 16` of the contraction of its
    rows and columns — by induction on the point. -/
theorem acc_apply (c : Dev nD) : ∀ (n : ℕ) (h : n < cfg3.N), ¬n % 16 = 15 → ∀ (r : Fin 1024) (q : Fin 1408),
    outsAt3 V c n h (ix2 r q)
      = ∑ s ∈ Finset.range (n % 16 + 1), part V c (1024 * (n / 48) + r.val) (1408 * (n / 16 % 3) + q.val) s := by
  intro n
  induction n with
  | zero =>
    intro h _ r q
    exact (first_apply V c ⟨0, h⟩ rfl r q).trans (Finset.sum_range_one _).symm
  | succ n ih =>
    intro h hlast r q
    by_cases hfirst : (n + 1) % 16 = 0
    · refine (first_apply V c ⟨n + 1, h⟩ hfirst r q).trans ?_
      show part V c _ _ ((n + 1) % 16) = _
      rw [hfirst, Finset.sum_range_one]
    · refine (step_apply V c ⟨n + 1, h⟩ hfirst hlast r q).trans ?_
      show outsAt3 V c n _ (ix2 r q)
          + part V c (1024 * ((n + 1) / 48) + r.val) (1408 * ((n + 1) / 16 % 3) + q.val) ((n + 1) % 16) = _
      have ea : (n + 1) / 48 = n / 48 := by omega
      have eb : (n + 1) / 16 % 3 = n / 16 % 3 := by omega
      have ec : (n + 1) % 16 = n % 16 + 1 := by omega
      rw [ih _ (by omega) r q, ea, eb, ec, Finset.sum_range_succ _ (n % 16 + 1)]

/-! ## What the last point of a run writes back, and the whole array -/

/-- The sixteen runs are the whole contraction. -/
theorem runs_eq (c : Dev nD) (a b : ℕ) :
    ∑ s ∈ Finset.range 16, part V c a b s = ∑ k : Fin 4096, lhsAt V c a k.val * rhsAt V c k.val b :=
  DiffConv.sum_runs 16 256 rfl fun k => lhsAt V c a k * rhsAt V c k b

/-- Entry `(a, b)` of the result: twice the whole contraction minus the third array's entry. -/
def entry (c : Dev nD) (a b : ℕ) : EReal :=
  DiffConv.two * (∑ k : Fin 4096, lhsAt V c a k.val * rhsAt V c k.val b) - subAt V c a b

/-- The result array. -/
abbrev whole (c : Dev nD) : Vec Ideal S4096x4224 .f32 := fun i => entry V c (i 0).val (i 1).val

/-- WHAT THE LAST POINT OF A RUN WRITES BACK is its block of the result array: the fifteen runs the block held, the
    sixteenth added, doubled, the third block subtracted. -/
theorem flushed_out (c : Dev nD) (t : Fin cfg3.N) (hf : (cfg3.win 3).flush t = true) :
    (dat3 (F := Ideal) V c).flushed 3 t = ((cfg3.win 3).blk t).view.read (Elt Ideal) (whole V c) := by
  have hlast : t.val % 16 = 15 := (flush3_3 t).mp hf
  have hN : t.val < 192 := lt_of_lt_of_eq t.isLt (show cfg3.N = 192 from N_3)
  show (cfg3.win 3).cut (grid3.coords t) ((dat3 (F := Ideal) V c).after 3 t) = _
  rw [after3_3]
  funext y
  obtain ⟨r, q, rfl⟩ : ∃ (r : Fin 1024) (q : Fin 1408), y = ix2 r q := ⟨y 0, y 1, eq_ix2 y⟩
  rw [View.read_apply]
  show outsAt3 V c t.val t.isLt (ix2 r q)
    = entry V c (win3_3.index t (0 : Fin 2) * 1024 + 1 * r.val) (win3_3.index t (1 : Fin 2) * 1408 + 1 * q.val)
  rw [idx_out_row, idx_out_col,
    show t.val / 48 * 1024 + 1 * r.val = 1024 * (t.val / 48) + r.val from by omega,
    show t.val / 16 % 3 * 1408 + 1 * q.val = 1408 * (t.val / 16 % 3) + q.val from by omega]
  have ea : (t.val - 1) / 48 = t.val / 48 := by omega
  have eb : (t.val - 1) / 16 % 3 = t.val / 16 % 3 := by omega
  have ec : (t.val - 1) % 16 + 1 = 15 := by omega
  rw [last_apply V c t hlast r q, acc_apply V c (t.val - 1) _ (by omega) r q, ea, eb, ec, hlast,
    ← Finset.sum_range_succ, runs_eq]
  rfl

/-- The blocks of the last points of the twelve runs tile the array: entry `(a, b)` is in the block of the last point
    of run `(a / 1024, b / 1408)`. -/
theorem covered (i : S4096x4224.Idx) :
    ∃ t : Fin cfg3.N, (cfg3.win 3).flush t = true ∧ i ∈ ((cfg3.win 3).blk t).view.set := by
  have hrow : (i 0).val < 4096 := (i 0).isLt
  have hcol : (i 1).val < 4224 := (i 1).isLt
  have hN : cfg3.N = 192 := N_3
  refine ⟨⟨48 * ((i 0).val / 1024) + 16 * ((i 1).val / 1408) + 15, by rw [hN]; omega⟩,
    (flush3_3 _).mpr (by dsimp only; omega), ?_⟩
  rw [View.set_slice_whole, Rect.mem_set_unit]
  intro a
  match a with
  | ⟨0, _⟩ =>
    show win3_3.index _ (0 : Fin 2) * 1024 ≤ (i 0).val ∧ (i 0).val < win3_3.index _ (0 : Fin 2) * 1024 + 1024
    rw [idx_out_row]; dsimp only; omega
  | ⟨1, _⟩ =>
    show win3_3.index _ (1 : Fin 2) * 1408 ≤ (i 1).val ∧ (i 1).val < win3_3.index _ (1 : Fin 2) * 1408 + 1408
    rw [idx_out_col]; dsimp only; omega

/-- So the output array ends at the result array. -/
theorem arr_eq (c : Dev nD) : (dat3 (F := Ideal) V c).arrAt 3 cfg3.N = whole V c :=
  (dat3 (F := Ideal) V c).arrAt_eq_of_cover 3 (whole V c) (flushed_out V c) covered

/-- THE OUTPUT ARRAY AT AN ENTRY: `2 · (∑ k, L n k * R k a) − C n a`. -/
theorem arr3_apply (c : Dev nD) (n : Fin 4096) (a : Fin 4224) :
    ((dat3 (F := Ideal) V c).arrAt 3 cfg3.N : Vec Ideal S4096x4224 .f32) (ix2 n a)
      = DiffConv.two * (∑ k : Fin 4096, lhs V c (ix2 n k) * rhs V c (ix2 k a)) - sub V c (ix2 n a) := by
  rw [arr_eq]
  show entry V c n.val a.val = _
  unfold entry lhsAt rhsAt subAt
  have en : (⟨n.val % 4096, Nat.mod_lt _ (by decide)⟩ : Fin 4096) = n := Fin.ext (Nat.mod_eq_of_lt n.isLt)
  have ea : (⟨a.val % 4224, Nat.mod_lt _ (by decide)⟩ : Fin 4224) = a := Fin.ext (Nat.mod_eq_of_lt a.isLt)
  have ek : ∀ k : Fin 4096, (⟨k.val % 4096, Nat.mod_lt _ (by decide)⟩ : Fin 4096) = k := fun k => Fin.ext (Nat.mod_eq_of_lt k.isLt)
  simp only [en, ea, ek]

end Region

end Cert.KernelIdeal.RegComb3

end
-- ==== Proof.RegPlain4.lean ====
/-
  The matrix product a call of the plain product kernel leaves behind, read off its run.

  Whatever the buffers hold when the call is entered, it leaves in BOTH of its output arrays — the f32 one and the
  bf16 one — at entry `(n, a)` the sum over the 4096 contracted coordinates `k` of `left (n, k) * right (k, a)`,
  over the extended reals (where a change of float format is the identity).

  The call walks a 4 × 3 × 16 grid, point `t = 48·i + 16·j + k`. At a point it reads the 1024 × 256 block `(i, k)` of
  the left array and the 256 × 1408 block `(k, j)` of the right array and adds their product into the 1024 × 1408
  block `(i, j)` of the f32 output, which it first resets to zero when `k = 0`; when `k = 15` it also stores that
  block, format-changed, into the bf16 output, and both blocks are written back to their arrays. So a block's entry
  `(r, q)` gathers sixteen stretches of 256 summands — the whole sum over the contracted coordinate of entry
  `(1024·i + r, 1408·j + q)` of the product —, and the twelve blocks tile the arrays. Only regrouping of a finite sum
  in a commutative monoid is used: no entry is assumed finite.
-/
import proofs.«405468_j48026324304060_3_alg».proof.Proof.Gen.KernelIdeal.Frame
import proofs.«405468_j48026324304060_3_alg».proof.Proof.SumSplit
import proofs.«405468_j48026324304060_3_alg».proof.Proof.LibPlainMatmul
import Idealize.ShloMosaic.Lib.Pipeline.Value
import Idealize.ShloMosaic.PureOps.Ideal.Laws
import Idealize.ShloMosaic.Lib.ValueIdx
import Idealize.ShloMosaic.Lib.Tactic

noncomputable section

namespace Cert.KernelIdeal.RegPlain4

open Cert.KernelIdeal Cert.KernelIdeal.Gen Idealize.ShloMosaic Idealize.ShloMosaic.TcCoe Idealize.ShloMosaic.ValueIdx
open Idealize.ShloMosaic.Pipeline (Dat)

/-! ## What one grid point's body leaves in the two output blocks

At every grid point the body overwrites the whole f32 output block with "block so far + left block · right block";
at the first point of a run of sixteen the block so far is the zero splat it has just stored, and at the last point
the bf16 output block receives the format change of the f32 block just written. -/

section Pieces

variable {F : FTy → Type} [FloatOps F]

/-- The zero offsets of a whole-block access, as a constant function. -/
theorem hz : (![0, 0] : Fin 2 → Nat) = fun _ => 0 := funext fun a => by fin_cases a <;> rfl

/-- First point of a run: the f32 block is reset to the zero splat, read back, and the first product added. -/
theorem piece_A (c : Dev nD) (i : grid4.Coords) (ml : Memref sig .tc .vmem S1024x256 .bf16) (wl : ml.IsWhole)
    (mr : Memref sig .tc .vmem S256x1408 .bf16) (wr : mr.IsWhole) (mo : Memref sig .tc .vmem S1024x1408 .f32) (wo : mo.IsWhole)
    (mb : Memref sig .tc .vmem S1024x1408 .bf16) (wb : mb.IsWhole) (hfst : cond4_0 i) (hlst : ¬cond4_1 i)
    (xl : Vec F S1024x256 .bf16) (xr : Vec F S256x1408 .bf16) :
    out4_A_2 c i ml wl mr wr mo wo mb wb hfst hlst xl xr = k4_pay2 (k4_pay1 (F := F)) xl xr := by
  unfold out4_A_2
  rw [View.read_writes_eq_canon _ _ _ (cover4_A_2 c i ml wl mr wr mo wo mb wb hfst hlst xl xr)]
  unfold kernelRun4_A
  dsimp only
  sl_unfold_words
  rw [View.canon_cons_unit_zero (S := S1024x1408) hz, View.readCov_unit_zero (S := S1024x1408) _ hz]
  simp only [View.readAt_eq_ld, wl.read_unread, wr.read_unread, View.ld_unit_zero (S := S1024x256) hz,
    View.ld_unit_zero (S := S256x1408) hz]

/-- A middle point of a run: the f32 block so far plus this point's product. -/
theorem piece_B (c : Dev nD) (i : grid4.Coords) (ml : Memref sig .tc .vmem S1024x256 .bf16) (wl : ml.IsWhole)
    (mr : Memref sig .tc .vmem S256x1408 .bf16) (wr : mr.IsWhole) (mo : Memref sig .tc .vmem S1024x1408 .f32) (wo : mo.IsWhole)
    (mb : Memref sig .tc .vmem S1024x1408 .bf16) (wb : mb.IsWhole) (hfst : ¬cond4_0 i) (hlst : ¬cond4_1 i)
    (xl : Vec F S1024x256 .bf16) (xr : Vec F S256x1408 .bf16) (xo : Vec F S1024x1408 .f32) :
    out4_B_2 c i ml wl mr wr mo wo mb wb hfst hlst xl xr xo = k4_pay2 xo xl xr := by
  unfold out4_B_2
  rw [View.read_writes_eq_canon _ _ _ (cover4_B_2 c i ml wl mr wr mo wo mb wb hfst hlst xl xr xo)]
  unfold kernelRun4_B
  dsimp only
  sl_unfold_words
  rw [View.canon_unit_zero hz]
  simp only [View.readAt_eq_ld, wl.read_unread, wr.read_unread, wo.read_unread, View.ld_unit_zero (S := S1024x256) hz,
    View.ld_unit_zero (S := S256x1408) hz, View.ld_unit_zero (S := S1024x1408) hz]

/-- The last point of a run, f32 block: as at a middle point. -/
theorem piece_C (c : Dev nD) (i : grid4.Coords) (ml : Memref sig .tc .vmem S1024x256 .bf16) (wl : ml.IsWhole)
    (mr : Memref sig .tc .vmem S256x1408 .bf16) (wr : mr.IsWhole) (mo : Memref sig .tc .vmem S1024x1408 .f32) (wo : mo.IsWhole)
    (mb : Memref sig .tc .vmem S1024x1408 .bf16) (wb : mb.IsWhole) (hfst : ¬cond4_0 i) (hlst : cond4_1 i)
    (xl : Vec F S1024x256 .bf16) (xr : Vec F S256x1408 .bf16) (xo : Vec F S1024x1408 .f32) :
    out4_C_2 c i ml wl mr wr mo wo mb wb hfst hlst xl xr xo = k4_pay2 xo xl xr := by
  unfold out4_C_2
  rw [View.read_writes_eq_canon _ _ _ (cover4_C_2 c i ml wl mr wr mo wo mb wb hfst hlst xl xr xo)]
  unfold kernelRun4_C
  dsimp only
  sl_unfold_words
  rw [View.canon_unit_zero hz]
  simp only [View.readAt_eq_ld, wl.read_unread, wr.read_unread, wo.read_unread, View.ld_unit_zero (S := S1024x256) hz,
    View.ld_unit_zero (S := S256x1408) hz, View.ld_unit_zero (S := S1024x1408) hz]

/-- The last point of a run, bf16 block: the format change of the f32 block just written. -/
theorem piece_C_low (c : Dev nD) (i : grid4.Coords) (ml : Memref sig .tc .vmem S1024x256 .bf16) (wl : ml.IsWhole)
    (mr : Memref sig .tc .vmem S256x1408 .bf16) (wr : mr.IsWhole) (mo : Memref sig .tc .vmem S1024x1408 .f32) (wo : mo.IsWhole)
    (mb : Memref sig .tc .vmem S1024x1408 .bf16) (wb : mb.IsWhole) (hfst : ¬cond4_0 i) (hlst : cond4_1 i)
    (xl : Vec F S1024x256 .bf16) (xr : Vec F S256x1408 .bf16) (xo : Vec F S1024x1408 .f32) :
    out4_C_3 c i ml wl mr wr mo wo mb wb hfst hlst xl xr xo = k4_pay3 (k4_pay2 xo xl xr) := by
  unfold out4_C_3
  rw [View.read_writes_eq_canon _ _ _ (cover4_C_3 c i ml wl mr wr mo wo mb wb hfst hlst xl xr xo)]
  unfold kernelRun4_C
  dsimp only
  sl_unfold_words
  rw [View.canon_unit_zero hz, View.readCov_unit_zero (S := S1024x1408) _ hz]
  simp only [View.readAt_eq_ld, wl.read_unread, wr.read_unread, wo.read_unread, View.ld_unit_zero (S := S1024x256) hz,
    View.ld_unit_zero (S := S256x1408) hz, View.ld_unit_zero (S := S1024x1408) hz]

end Pieces

/-! ## One entry of the payloads, over the extended reals -/

section Entries

/-- The zero splat is `0` at every entry. -/
theorem zero_apply (r : Fin 1024) (q : Fin 1408) :
    (k4_pay1 (F := Ideal) : Vec Ideal S1024x1408 .f32) (ix2 r q) = 0 := by
  unfold k4_pay1
  exact Ideal.ofBits_zero_f32

/-- "Block so far + left block · right block" at entry `(r, q)`: the entry so far plus the sum over the 256
    contracted coordinates of this point. -/
theorem pay_apply (acc : Vec Ideal S1024x1408 .f32) (xl : Vec Ideal S1024x256 .bf16) (xr : Vec Ideal S256x1408 .bf16)
    (r : Fin 1024) (q : Fin 1408) :
    (k4_pay2 acc xl xr : Vec Ideal S1024x1408 .f32) (ix2 r q)
      = acc (ix2 r q) + ∑ kk : Fin 256, xl (ix2 r kk) * xr (ix2 kk q) := by
  unfold k4_pay2
  simp only [shapeCast_self]
  exact congrArg (fun z => acc (ix2 r q) + z) (PlainMatmul.matmul_zero_apply 1024 256 1408 none xl xr r q)

/-- The format change to the narrower float is the identity on extended reals. -/
theorem low_apply (v : Vec Ideal S1024x1408 .f32) (r : Fin 1024) (q : Fin 1408) :
    (k4_pay3 v : Vec Ideal S1024x1408 .bf16) (ix2 r q) = v (ix2 r q) := by
  unfold k4_pay3
  simp only [shapeCast_self]
  rfl

end Entries

/-! ## The blocks of the two input arrays

The grid is 4 × 3 × 16; point `t = 48·i + 16·j + k`. The left array is cut into 1024 × 256 blocks and the point reads
block `(i, k)`; the right array into 256 × 1408 blocks, block `(k, j)`; both outputs into 1024 × 1408 blocks, block
`(i, j)`, written back after `k = 15`. -/

section Blocks

variable (V : (c : Dev nD) → (b : Ref sig .tc) → Buf (Elt Ideal) ((c : Thread nD τ).loc b))

/-- the two input arrays as the region finds them, by their literal types -/
abbrev lhs (c : Dev nD) : Vec Ideal S4096x4096 .bf16 := V c (Pipeline.arrRef spec4 0)
abbrev rhs (c : Dev nD) : Vec Ideal S4096x4224 .bf16 := V c (Pipeline.arrRef spec4 1)

/-- the two input blocks of a point, by their literal types -/
abbrev lblk (c : Dev nD) (t : Fin cfg4.N) : Vec Ideal S1024x256 .bf16 := iblk4 V c 0 t
abbrev rblk (c : Dev nD) (t : Fin cfg4.N) : Vec Ideal S256x1408 .bf16 := iblk4 V c 1 t

/-- An entry of the left array at natural-number coordinates (taken modulo the extents, so that it is total). -/
def lhsAt (c : Dev nD) (R K : ℕ) : EReal :=
  lhs V c (ix2 (⟨R % 4096, Nat.mod_lt _ (by decide)⟩ : Fin 4096) (⟨K % 4096, Nat.mod_lt _ (by decide)⟩ : Fin 4096))
/-- An entry of the right array at natural-number coordinates. -/
def rhsAt (c : Dev nD) (K C : ℕ) : EReal :=
  rhs V c (ix2 (⟨K % 4096, Nat.mod_lt _ (by decide)⟩ : Fin 4096) (⟨C % 4224, Nat.mod_lt _ (by decide)⟩ : Fin 4224))
/-- The summand of the product's entry `(R, C)` at the contracted coordinate `K`. -/
def term (c : Dev nD) (R C K : ℕ) : EReal := lhsAt V c R K * rhsAt V c K C

/-- Inside the arrays the wrapped entries are the entries. -/
theorem term_inside (c : Dev nD) (n : Fin 4096) (a : Fin 4224) (k : Fin 4096) :
    term V c n.val a.val k.val = lhs V c (ix2 n k) * rhs V c (ix2 k a) := by
  unfold term lhsAt rhsAt
  have en : (⟨n.val % 4096, Nat.mod_lt _ (by decide)⟩ : Fin 4096) = n := Fin.ext (Nat.mod_eq_of_lt n.isLt)
  have ek : (⟨k.val % 4096, Nat.mod_lt _ (by decide)⟩ : Fin 4096) = k := Fin.ext (Nat.mod_eq_of_lt k.isLt)
  have ea : (⟨a.val % 4224, Nat.mod_lt _ (by decide)⟩ : Fin 4224) = a := Fin.ext (Nat.mod_eq_of_lt a.isLt)
  rw [en, ek, ea]

/-- The block index of the left window: block row `i`, -/
theorem idx_lhs_row : ∀ t : Fin cfg4.N, win4_0.index t (0 : Fin 2) = t.val / 48 :=
  (by decide +kernel : ∀ t : Fin grid4.N, _)
/-- block column `k`; -/
theorem idx_lhs_col : ∀ t : Fin cfg4.N, win4_0.index t (1 : Fin 2) = t.val % 16 :=
  (by decide +kernel : ∀ t : Fin grid4.N, _)
/-- of the right window: block row `k`, -/
theorem idx_rhs_row : ∀ t : Fin cfg4.N, win4_1.index t (0 : Fin 2) = t.val % 16 :=
  (by decide +kernel : ∀ t : Fin grid4.N, _)
/-- block column `j`. -/
theorem idx_rhs_col : ∀ t : Fin cfg4.N, win4_1.index t (1 : Fin 2) = t.val / 16 % 3 :=
  (by decide +kernel : ∀ t : Fin grid4.N, _)

/-- The left block of point `t` at `(r, kk)` is the left array at row `1024·i + r`, column `256·k + kk`. -/
theorem lblk_apply (c : Dev nD) (t : Fin cfg4.N) (r : Fin 1024) (kk : Fin 256) :
    lblk V c t (ix2 r kk) = lhsAt V c (1024 * (t.val / 48) + r.val) (256 * (t.val % 16) + kk.val) := by
  have hN : t.val < 192 := lt_of_lt_of_eq t.isLt N_4
  unfold lhsAt
  show V c (Pipeline.arrRef spec4 0) (((cfg4.win 0).blk t).view.emb (ix2 r kk)) = V c (Pipeline.arrRef spec4 0) (ix2 _ _)
  refine congrArg _ (funext fun a => Fin.ext ?_)
  match a with
  | ⟨0, _⟩ =>
    show win4_0.index t (0 : Fin 2) * 1024 + 1 * r.val = (1024 * (t.val / 48) + r.val) % 4096
    rw [idx_lhs_row t]; omega
  | ⟨1, _⟩ =>
    show win4_0.index t (1 : Fin 2) * 256 + 1 * kk.val = (256 * (t.val % 16) + kk.val) % 4096
    rw [idx_lhs_col t]; omega

/-- The right block of point `t` at `(kk, q)` is the right array at row `256·k + kk`, column `1408·j + q`. -/
theorem rblk_apply (c : Dev nD) (t : Fin cfg4.N) (kk : Fin 256) (q : Fin 1408) :
    rblk V c t (ix2 kk q) = rhsAt V c (256 * (t.val % 16) + kk.val) (1408 * (t.val / 16 % 3) + q.val) := by
  have hN : t.val < 192 := lt_of_lt_of_eq t.isLt N_4
  unfold rhsAt
  show V c (Pipeline.arrRef spec4 1) (((cfg4.win 1).blk t).view.emb (ix2 kk q)) = V c (Pipeline.arrRef spec4 1) (ix2 _ _)
  refine congrArg _ (funext fun a => Fin.ext ?_)
  match a with
  | ⟨0, _⟩ =>
    show win4_1.index t (0 : Fin 2) * 256 + 1 * kk.val = (256 * (t.val % 16) + kk.val) % 4096
    rw [idx_rhs_row t]; omega
  | ⟨1, _⟩ =>
    show win4_1.index t (1 : Fin 2) * 1408 + 1 * q.val = (1408 * (t.val / 16 % 3) + q.val) % 4224
    rw [idx_rhs_col t]; omega

end Blocks

/-! ## The accumulation over a run of sixteen points

The sixteen points `t = 16·m, …, 16·m + 15` share one output block. After the point at offset `k` in the run the
f32 block holds, at entry `(r, q)`, the sum of the first `k + 1` stretches of 256 summands of the product's entry
`(1024·i + r, 1408·j + q)`. -/

section Accumulate

variable (V : (c : Dev nD) → (b : Ref sig .tc) → Buf (Elt Ideal) ((c : Thread nD τ).loc b))

/-- The sum of the first `j + 1` stretches of 256 summands of the product's entry `(R, C)`. -/
def partialSum (c : Dev nD) (R C j : ℕ) : EReal :=
  ∑ s ∈ Finset.range (j + 1), ∑ kk : Fin 256, term V c R C (256 * s + kk.val)

/-- One point's block product at an entry is one stretch of 256 summands. -/
theorem stretch_apply (c : Dev nD) (t : Fin cfg4.N) (r : Fin 1024) (q : Fin 1408) :
    ∑ kk : Fin 256, lblk V c t (ix2 r kk) * rblk V c t (ix2 kk q)
      = ∑ kk : Fin 256, term V c (1024 * (t.val / 48) + r.val) (1408 * (t.val / 16 % 3) + q.val)
          (256 * (t.val % 16) + kk.val) :=
  Finset.sum_congr rfl fun kk _ => by rw [lblk_apply V c t r kk, rblk_apply V c t kk q]; rfl

/-- At the first point of a run the block holds the first stretch. -/
theorem first_apply (c : Dev nD) (n : ℕ) (hn : n < cfg4.N) (hfst : n % 16 = 0) (r : Fin 1024) (q : Fin 1408) :
    (outsAt4 V c n hn).1 (ix2 r q)
      = partialSum V c (1024 * (n / 48) + r.val) (1408 * (n / 16 % 3) + q.val) 0 := by
  have hlst : ¬n % 16 = 15 := by omega
  rw [outsAt4_A V c ⟨n, hn⟩ hfst hlst]
  dsimp only
  refine (congrFun (piece_A (F := Ideal) c (grid4.coords ⟨n, hn⟩) (ms4_0 ⟨n, hn⟩) (hs4_0 ⟨n, hn⟩) (ms4_1 ⟨n, hn⟩)
    (hs4_1 ⟨n, hn⟩) (ms4_2 ⟨n, hn⟩) (hs4_2 ⟨n, hn⟩) (ms4_3 ⟨n, hn⟩) (hs4_3 ⟨n, hn⟩) ((hcond4_0 ⟨n, hn⟩).mpr hfst)
    (fun h => hlst ((hcond4_1 ⟨n, hn⟩).mp h)) (lblk V c ⟨n, hn⟩) (rblk V c ⟨n, hn⟩)) (ix2 r q)).trans ?_
  rw [pay_apply (k4_pay1 (F := Ideal)) (lblk V c ⟨n, hn⟩) (rblk V c ⟨n, hn⟩) r q, zero_apply, zero_add,
    stretch_apply V c ⟨n, hn⟩ r q]
  unfold partialSum
  rw [Finset.sum_range_succ, Finset.sum_range_zero, zero_add]
  show ∑ kk : Fin 256, term V c _ _ (256 * (n % 16) + kk.val) = _
  rw [hfst]

/-- At every later point of a run the block gains that point's stretch. -/
theorem next_apply (c : Dev nD) (n : ℕ) (hn : n + 1 < cfg4.N) (hfst : ¬(n + 1) % 16 = 0) (r : Fin 1024) (q : Fin 1408) :
    (outsAt4 V c (n + 1) hn).1 (ix2 r q)
      = (outsAt4 V c n (Nat.lt_of_succ_lt hn)).1 (ix2 r q)
        + ∑ kk : Fin 256, term V c (1024 * ((n + 1) / 48) + r.val) (1408 * ((n + 1) / 16 % 3) + q.val)
            (256 * ((n + 1) % 16) + kk.val) := by
  by_cases hlst : (n + 1) % 16 = 15
  · rw [outsAt4_C V c ⟨n + 1, hn⟩ hfst hlst]
    dsimp only
    refine (congrFun (piece_C (F := Ideal) c (grid4.coords ⟨n + 1, hn⟩) (ms4_0 ⟨n + 1, hn⟩) (hs4_0 ⟨n + 1, hn⟩)
      (ms4_1 ⟨n + 1, hn⟩) (hs4_1 ⟨n + 1, hn⟩) (ms4_2 ⟨n + 1, hn⟩) (hs4_2 ⟨n + 1, hn⟩) (ms4_3 ⟨n + 1, hn⟩)
      (hs4_3 ⟨n + 1, hn⟩) (fun h => hfst ((hcond4_0 ⟨n + 1, hn⟩).mp h)) ((hcond4_1 ⟨n + 1, hn⟩).mpr hlst)
      (lblk V c ⟨n + 1, hn⟩) (rblk V c ⟨n + 1, hn⟩) (outsAt4 V c n (Nat.lt_of_succ_lt hn)).1) (ix2 r q)).trans ?_
    rw [pay_apply (outsAt4 V c n (Nat.lt_of_succ_lt hn)).1 (lblk V c ⟨n + 1, hn⟩) (rblk V c ⟨n + 1, hn⟩) r q,
      stretch_apply V c ⟨n + 1, hn⟩ r q]
  · rw [outsAt4_B V c ⟨n + 1, hn⟩ hfst hlst]
    dsimp only
    refine (congrFun (piece_B (F := Ideal) c (grid4.coords ⟨n + 1, hn⟩) (ms4_0 ⟨n + 1, hn⟩) (hs4_0 ⟨n + 1, hn⟩)
      (ms4_1 ⟨n + 1, hn⟩) (hs4_1 ⟨n + 1, hn⟩) (ms4_2 ⟨n + 1, hn⟩) (hs4_2 ⟨n + 1, hn⟩) (ms4_3 ⟨n + 1, hn⟩)
      (hs4_3 ⟨n + 1, hn⟩) (fun h => hfst ((hcond4_0 ⟨n + 1, hn⟩).mp h)) (fun h => hlst ((hcond4_1 ⟨n + 1, hn⟩).mp h))
      (lblk V c ⟨n + 1, hn⟩) (rblk V c ⟨n + 1, hn⟩) (outsAt4 V c n (Nat.lt_of_succ_lt hn)).1) (ix2 r q)).trans ?_
    rw [pay_apply (outsAt4 V c n (Nat.lt_of_succ_lt hn)).1 (lblk V c ⟨n + 1, hn⟩) (rblk V c ⟨n + 1, hn⟩) r q,
      stretch_apply V c ⟨n + 1, hn⟩ r q]

/-- THE RUNNING SUM: after point `n` the f32 block holds the partial sums up to the point's offset in its run. -/
theorem acc_apply (c : Dev nD) : ∀ (n : ℕ) (hn : n < cfg4.N) (r : Fin 1024) (q : Fin 1408),
    (outsAt4 V c n hn).1 (ix2 r q)
      = partialSum V c (1024 * (n / 48) + r.val) (1408 * (n / 16 % 3) + q.val) (n % 16)
  | 0, hn, r, q => first_apply V c 0 hn rfl r q
  | n + 1, hn, r, q => by
    by_cases hfst : (n + 1) % 16 = 0
    · rw [hfst]; exact first_apply V c (n + 1) hn hfst r q
    · have hN : n + 1 < 192 := lt_of_lt_of_eq hn N_4
      have erow : (n + 1) / 48 = n / 48 := by omega
      have ecol : (n + 1) / 16 % 3 = n / 16 % 3 := by omega
      have eoff : (n + 1) % 16 = n % 16 + 1 := by omega
      rw [next_apply V c n hn hfst r q, acc_apply c n (Nat.lt_of_succ_lt hn) r q, erow, ecol, eoff]
      unfold partialSum
      rw [Finset.sum_range_succ _ (n % 16 + 1)]

/-- At the last point of a run the bf16 block holds what the f32 block holds. -/
theorem low_eq (c : Dev nD) (n : ℕ) (hn : n + 1 < cfg4.N) (hlst : (n + 1) % 16 = 15) (r : Fin 1024) (q : Fin 1408) :
    (outsAt4 V c (n + 1) hn).2 (ix2 r q) = (outsAt4 V c (n + 1) hn).1 (ix2 r q) := by
  have hfst : ¬(n + 1) % 16 = 0 := by omega
  rw [outsAt4_C V c ⟨n + 1, hn⟩ hfst hlst]
  dsimp only
  refine (congrFun (piece_C_low (F := Ideal) c (grid4.coords ⟨n + 1, hn⟩) (ms4_0 ⟨n + 1, hn⟩) (hs4_0 ⟨n + 1, hn⟩)
    (ms4_1 ⟨n + 1, hn⟩) (hs4_1 ⟨n + 1, hn⟩) (ms4_2 ⟨n + 1, hn⟩) (hs4_2 ⟨n + 1, hn⟩) (ms4_3 ⟨n + 1, hn⟩)
    (hs4_3 ⟨n + 1, hn⟩) (fun h => hfst ((hcond4_0 ⟨n + 1, hn⟩).mp h)) ((hcond4_1 ⟨n + 1, hn⟩).mpr hlst)
    (lblk V c ⟨n + 1, hn⟩) (rblk V c ⟨n + 1, hn⟩) (outsAt4 V c n (Nat.lt_of_succ_lt hn)).1) (ix2 r q)).trans ?_
  refine (low_apply _ r q).trans ?_
  exact (congrFun (piece_C (F := Ideal) c (grid4.coords ⟨n + 1, hn⟩) (ms4_0 ⟨n + 1, hn⟩) (hs4_0 ⟨n + 1, hn⟩)
    (ms4_1 ⟨n + 1, hn⟩) (hs4_1 ⟨n + 1, hn⟩) (ms4_2 ⟨n + 1, hn⟩) (hs4_2 ⟨n + 1, hn⟩) (ms4_3 ⟨n + 1, hn⟩)
    (hs4_3 ⟨n + 1, hn⟩) (fun h => hfst ((hcond4_0 ⟨n + 1, hn⟩).mp h)) ((hcond4_1 ⟨n + 1, hn⟩).mpr hlst)
    (lblk V c ⟨n + 1, hn⟩) (rblk V c ⟨n + 1, hn⟩) (outsAt4 V c n (Nat.lt_of_succ_lt hn)).1) (ix2 r q)).symm

/-- Sixteen stretches of 256 are the whole sum over the 4096 contracted coordinates. -/
theorem full_sum (c : Dev nD) (R C : ℕ) : partialSum V c R C 15 = ∑ k : Fin 4096, term V c R C k.val := by
  show ∑ s ∈ Finset.range 16, ∑ kk : Fin 256, term V c R C (256 * s + kk.val) = _
  exact DiffConv.sum_runs 16 256 rfl (term V c R C)

end Accumulate

/-! ## From the blocks to the two output arrays

Every output block is written back once, after the last point of its run, holding the full sums; the blocks tile
the arrays, so both arrays end holding the product. -/

section Arrays

variable (V : (c : Dev nD) → (b : Ref sig .tc) → Buf (Elt Ideal) ((c : Thread nD τ).loc b))

/-- The product array: entry `(n, a)` is the sum over all 4096 contracted coordinates. -/
def prodArr (c : Dev nD) : Vec Ideal S4096x4224 .f32 :=
  fun i => ∑ k : Fin 4096, term V c (i 0).val (i 1).val k.val
/-- The same entries, as an array of the narrower float. -/
def prodArrLow (c : Dev nD) : Vec Ideal S4096x4224 .bf16 :=
  fun i => ∑ k : Fin 4096, term V c (i 0).val (i 1).val k.val

/-- The block index of the f32 output window: block row `i`, -/
theorem idx_out_row : ∀ t : Fin cfg4.N, win4_2.index t (0 : Fin 2) = t.val / 48 :=
  (by decide +kernel : ∀ t : Fin grid4.N, _)
/-- block column `j`; -/
theorem idx_out_col : ∀ t : Fin cfg4.N, win4_2.index t (1 : Fin 2) = t.val / 16 % 3 :=
  (by decide +kernel : ∀ t : Fin grid4.N, _)
/-- of the bf16 output window: block row `i`, -/
theorem idx_low_row : ∀ t : Fin cfg4.N, win4_3.index t (0 : Fin 2) = t.val / 48 :=
  (by decide +kernel : ∀ t : Fin grid4.N, _)
/-- block column `j`. -/
theorem idx_low_col : ∀ t : Fin cfg4.N, win4_3.index t (1 : Fin 2) = t.val / 16 % 3 :=
  (by decide +kernel : ∀ t : Fin grid4.N, _)

/-- What a write-back of the f32 window writes is its block of the product array. -/
theorem flushed_f32 (c : Dev nD) (t : Fin cfg4.N) (hf : (cfg4.win 2).flush t = true) :
    (dat4 V c).flushed 2 t = ((cfg4.win 2).blk t).view.read (Elt Ideal) (prodArr V c) := by
  have hlast : t.val % 16 = 15 := (flush4_2 t).mp hf
  have hN : t.val < 192 := lt_of_lt_of_eq t.isLt N_4
  show (cfg4.win 2).cut (grid4.coords t) ((dat4 V c).after 2 t) = _
  rw [after4_2]
  funext j
  obtain ⟨r, q, rfl⟩ : ∃ (r : Fin 1024) (q : Fin 1408), j = ix2 r q := ⟨j 0, j 1, eq_ix2 j⟩
  show (outsAt4 V c t.val t.isLt).1 (ix2 r q) = prodArr V c (((cfg4.win 2).blk t).view.emb (ix2 r q))
  rw [acc_apply V c t.val t.isLt r q, hlast, full_sum]
  have erow : win4_2.index t (0 : Fin 2) * 1024 + 1 * r.val = 1024 * (t.val / 48) + r.val := by
    rw [idx_out_row t]; omega
  have ecol : win4_2.index t (1 : Fin 2) * 1408 + 1 * q.val = 1408 * (t.val / 16 % 3) + q.val := by
    rw [idx_out_col t]; omega
  show _ = ∑ k : Fin 4096, term V c (win4_2.index t (0 : Fin 2) * 1024 + 1 * r.val)
    (win4_2.index t (1 : Fin 2) * 1408 + 1 * q.val) k.val
  rw [erow, ecol]

/-- What a write-back of the bf16 window writes is its block of the product array. -/
theorem flushed_low (c : Dev nD) (t : Fin cfg4.N) (hf : (cfg4.win 3).flush t = true) :
    (dat4 V c).flushed 3 t = ((cfg4.win 3).blk t).view.read (Elt Ideal) (prodArrLow V c) := by
  have hlast : t.val % 16 = 15 := (flush4_3 t).mp hf
  have hN : t.val < 192 := lt_of_lt_of_eq t.isLt N_4
  show (cfg4.win 3).cut (grid4.coords t) ((dat4 V c).after 3 t) = _
  rw [after4_3]
  funext j
  obtain ⟨r, q, rfl⟩ : ∃ (r : Fin 1024) (q : Fin 1408), j = ix2 r q := ⟨j 0, j 1, eq_ix2 j⟩
  show (outsAt4 V c t.val t.isLt).2 (ix2 r q) = prodArrLow V c (((cfg4.win 3).blk t).view.emb (ix2 r q))
  obtain ⟨n, hn⟩ := t
  obtain ⟨n, rfl⟩ : ∃ n', n = n' + 1 := ⟨n - 1, by dsimp only at hlast; omega⟩
  show (outsAt4 V c (n + 1) hn).2 (ix2 r q) = _
  rw [low_eq V c n hn hlast r q, acc_apply V c (n + 1) hn r q, hlast, full_sum]
  have erow : win4_3.index ⟨n + 1, hn⟩ (0 : Fin 2) * 1024 + 1 * r.val = 1024 * ((n + 1) / 48) + r.val := by
    rw [idx_low_row ⟨n + 1, hn⟩]; dsimp only; omega
  have ecol : win4_3.index ⟨n + 1, hn⟩ (1 : Fin 2) * 1408 + 1 * q.val = 1408 * ((n + 1) / 16 % 3) + q.val := by
    rw [idx_low_col ⟨n + 1, hn⟩]; dsimp only; omega
  show _ = ∑ k : Fin 4096, term V c (win4_3.index ⟨n + 1, hn⟩ (0 : Fin 2) * 1024 + 1 * r.val)
    (win4_3.index ⟨n + 1, hn⟩ (1 : Fin 2) * 1408 + 1 * q.val) k.val
  rw [erow, ecol]

/-- An index of the f32 array is in point `t`'s block iff each coordinate is in the block's range on its axis. -/
theorem mem_blk_f32 (t : Fin cfg4.N) (i : S4096x4224.Idx) :
    i ∈ ((cfg4.win 2).blk t).view.set ↔ ∀ a : Fin 2, win4_2.index t a * S1024x1408.size a ≤ (i a).val
      ∧ (i a).val < win4_2.index t a * S1024x1408.size a + S1024x1408.size a := by
  show i ∈ ((View.whole (Pipeline.arrRef spec4 2)).slice (win4_2.rect t)).set ↔ _
  rw [View.set_slice_whole, Rect.mem_set_unit]
  exact Iff.rfl

/-- The same for the bf16 array. -/
theorem mem_blk_low (t : Fin cfg4.N) (i : S4096x4224.Idx) :
    i ∈ ((cfg4.win 3).blk t).view.set ↔ ∀ a : Fin 2, win4_3.index t a * S1024x1408.size a ≤ (i a).val
      ∧ (i a).val < win4_3.index t a * S1024x1408.size a + S1024x1408.size a := by
  show i ∈ ((View.whole (Pipeline.arrRef spec4 3)).slice (win4_3.rect t)).set ↔ _
  rw [View.set_slice_whole, Rect.mem_set_unit]
  exact Iff.rfl

/-- Entry `(n, a)` lies in block `(n / 1024, a / 1408)`, written back after the last point of that block's run. -/
theorem cover_f32 (i : S4096x4224.Idx) :
    ∃ t : Fin cfg4.N, (cfg4.win 2).flush t = true ∧ i ∈ ((cfg4.win 2).blk t).view.set := by
  have hrow : (i 0).val < 4096 := (i 0).isLt
  have hcol : (i 1).val < 4224 := (i 1).isLt
  have hlt : 48 * ((i 0).val / 1024) + 16 * ((i 1).val / 1408) + 15 < cfg4.N := by
    rw [show cfg4.N = 192 from N_4]; omega
  refine ⟨⟨48 * ((i 0).val / 1024) + 16 * ((i 1).val / 1408) + 15, hlt⟩, (flush4_2 _).mpr (by dsimp only; omega), ?_⟩
  rw [mem_blk_f32]
  intro a
  match a with
  | ⟨0, _⟩ =>
    show win4_2.index ⟨_, hlt⟩ (0 : Fin 2) * 1024 ≤ (i 0).val ∧ (i 0).val < win4_2.index ⟨_, hlt⟩ (0 : Fin 2) * 1024 + 1024
    rw [idx_out_row ⟨_, hlt⟩]; dsimp only; omega
  | ⟨1, _⟩ =>
    show win4_2.index ⟨_, hlt⟩ (1 : Fin 2) * 1408 ≤ (i 1).val ∧ (i 1).val < win4_2.index ⟨_, hlt⟩ (1 : Fin 2) * 1408 + 1408
    rw [idx_out_col ⟨_, hlt⟩]; dsimp only; omega

/-- The same for the bf16 array. -/
theorem cover_low (i : S4096x4224.Idx) :
    ∃ t : Fin cfg4.N, (cfg4.win 3).flush t = true ∧ i ∈ ((cfg4.win 3).blk t).view.set := by
  have hrow : (i 0).val < 4096 := (i 0).isLt
  have hcol : (i 1).val < 4224 := (i 1).isLt
  have hlt : 48 * ((i 0).val / 1024) + 16 * ((i 1).val / 1408) + 15 < cfg4.N := by
    rw [show cfg4.N = 192 from N_4]; omega
  refine ⟨⟨48 * ((i 0).val / 1024) + 16 * ((i 1).val / 1408) + 15, hlt⟩, (flush4_3 _).mpr (by dsimp only; omega), ?_⟩
  rw [mem_blk_low]
  intro a
  match a with
  | ⟨0, _⟩ =>
    show win4_3.index ⟨_, hlt⟩ (0 : Fin 2) * 1024 ≤ (i 0).val ∧ (i 0).val < win4_3.index ⟨_, hlt⟩ (0 : Fin 2) * 1024 + 1024
    rw [idx_low_row ⟨_, hlt⟩]; dsimp only; omega
  | ⟨1, _⟩ =>
    show win4_3.index ⟨_, hlt⟩ (1 : Fin 2) * 1408 ≤ (i 1).val ∧ (i 1).val < win4_3.index ⟨_, hlt⟩ (1 : Fin 2) * 1408 + 1408
    rw [idx_low_col ⟨_, hlt⟩]; dsimp only; omega

/-- The f32 output array ends holding the product array, -/
theorem arr_f32 (c : Dev nD) : (dat4 V c).arrAt 2 cfg4.N = prodArr V c :=
  (dat4 V c).arrAt_eq_of_cover 2 (prodArr V c) (flushed_f32 V c) cover_f32
/-- and so does the bf16 one. -/
theorem arr_low (c : Dev nD) : (dat4 V c).arrAt 3 cfg4.N = prodArrLow V c :=
  (dat4 V c).arrAt_eq_of_cover 3 (prodArrLow V c) (flushed_low V c) cover_low

/-- THE f32 OUTPUT ARRAY after the region, entry by entry: the matrix product of the two input arrays. -/
theorem arr2_apply (c : Dev nD) (n : Fin 4096) (a : Fin 4224) :
    ((dat4 (F := Ideal) V c).arrAt 2 cfg4.N : Vec Ideal S4096x4224 .f32) (ix2 n a)
      = ∑ k : Fin 4096, lhs V c (ix2 n k) * rhs V c (ix2 k a) := by
  rw [arr_f32]
  show ∑ k : Fin 4096, term V c n.val a.val k.val = _
  exact Finset.sum_congr rfl fun k _ => term_inside V c n a k

/-- THE bf16 OUTPUT ARRAY after the region, entry by entry: the same product. -/
theorem arr3_apply (c : Dev nD) (n : Fin 4096) (a : Fin 4224) :
    ((dat4 (F := Ideal) V c).arrAt 3 cfg4.N : Vec Ideal S4096x4224 .bf16) (ix2 n a)
      = ∑ k : Fin 4096, lhs V c (ix2 n k) * rhs V c (ix2 k a) := by
  rw [arr_low]
  show ∑ k : Fin 4096, term V c n.val a.val k.val = _
  exact Finset.sum_congr rfl fun k _ => term_inside V c n a k

end Arrays

end Cert.KernelIdeal.RegPlain4

end
-- ==== Proof.RegComb5.lean ====
/-
  What one accumulate-and-combine call of the program leaves in its output array, entry by entry over the extended reals.

  The call walks a 4 × 3 × 16 grid of points; point `t` is block row `t / 48`, block column `t / 16 % 3`, reduction
  step `t % 16`. At each point the body adds to the output block the product of a 1024 × 256 block of the left array
  and a 256 × 1408 block of the right array; at step 0 the output block is first set to zero; at step 15 the block is
  replaced by `2 · block − C block` and written back. So entry `(n, a)` of the output array ends at
  `2 · (∑ k, L n k * R k a) − C n a`: the sixteen partial products are the sixteen runs of length 256 of the whole sum.
-/
import proofs.«405468_j48026324304060_3_alg».proof.Proof.Gen.KernelIdeal.Frame
import proofs.«405468_j48026324304060_3_alg».proof.Proof.DiffSpec
import proofs.«405468_j48026324304060_3_alg».proof.Proof.SumSplit
import proofs.«405468_j48026324304060_3_alg».proof.Proof.LibPlainMatmul
import Idealize.ShloMosaic.Lib.Pipeline.Value
import Idealize.ShloMosaic.PureOps.Ideal.Laws
import Idealize.ShloMosaic.Lib.ValueIdx
import Idealize.ShloMosaic.Lib.Tactic

set_option maxRecDepth 16384

noncomputable section

namespace Cert.KernelIdeal.RegComb5

open Cert.KernelIdeal Cert.KernelIdeal.Gen Idealize.ShloMosaic Idealize.ShloMosaic.TcCoe Idealize.ShloMosaic.ValueIdx
open Idealize.ShloMosaic.Tactic
open Idealize.ShloMosaic.Pipeline (Dat)

section Pieces

variable {F : FTy → Type} [FloatOps F]

/-- The zero offsets of a whole-block access, however spelt. -/
theorem offs_zero : (![0, 0] : Fin 2 → Nat) = fun _ => 0 := funext fun a => by fin_cases a <;> rfl

/-- An inner reduction step (neither the first nor the last): the one store leaves the block it found plus the
    product of the two input blocks. -/
theorem piece_B (c : Dev nD) (i : grid5.Coords) (ml : Memref sig .tc .vmem S1024x256 .bf16) (wl : ml.IsWhole)
    (mr : Memref sig .tc .vmem S256x1408 .bf16) (wr : mr.IsWhole) (mc : Memref sig .tc .vmem S1024x1408 .f32) (wc : mc.IsWhole)
    (mo : Memref sig .tc .vmem S1024x1408 .f32) (wo : mo.IsWhole) (hca : ¬cond5_0 i) (hcb : ¬cond5_1 i)
    (xl : Vec F S1024x256 .bf16) (xr : Vec F S256x1408 .bf16) (xc : Vec F S1024x1408 .f32) (xo : Vec F S1024x1408 .f32) :
    out5_B_3 c i ml wl mr wr mc wc mo wo hca hcb xl xr xc xo = k5_pay2 xo xl xr := by
  unfold out5_B_3
  rw [View.read_writes_eq_canon _ _ _ (cover5_B_3 c i ml wl mr wr mc wc mo wo hca hcb xl xr xc xo)]
  unfold kernelRun5_B
  dsimp only
  sl_unfold_words
  rw [View.canon_unit_zero offs_zero]
  simp only [View.readAt_eq_ld, wl.read_unread, wr.read_unread, wo.read_unread, View.ld_unit_zero (S := S1024x1408) offs_zero,
    View.ld_unit_zero (S := S1024x256) offs_zero, View.ld_unit_zero (S := S256x1408) offs_zero]

/-- The first reduction step: the block is set to zero, read back, and the product of the two input blocks added. -/
theorem piece_A (c : Dev nD) (i : grid5.Coords) (ml : Memref sig .tc .vmem S1024x256 .bf16) (wl : ml.IsWhole)
    (mr : Memref sig .tc .vmem S256x1408 .bf16) (wr : mr.IsWhole) (mc : Memref sig .tc .vmem S1024x1408 .f32) (wc : mc.IsWhole)
    (mo : Memref sig .tc .vmem S1024x1408 .f32) (wo : mo.IsWhole) (hca : cond5_0 i) (hcb : ¬cond5_1 i)
    (xl : Vec F S1024x256 .bf16) (xr : Vec F S256x1408 .bf16) (xc : Vec F S1024x1408 .f32) :
    out5_A_3 c i ml wl mr wr mc wc mo wo hca hcb xl xr xc = k5_pay2 k5_pay1 xl xr := by
  unfold out5_A_3
  rw [View.read_writes_eq_canon _ _ _ (cover5_A_3 c i ml wl mr wr mc wc mo wo hca hcb xl xr xc)]
  unfold kernelRun5_A
  dsimp only
  sl_unfold_words
  rw [View.canon_cons_unit_zero (S := S1024x1408) offs_zero, View.readCov_unit_zero (S := S1024x1408) _ offs_zero]
  simp only [View.readAt_eq_ld, wl.read_unread, wr.read_unread, View.ld_unit_zero (S := S1024x256) offs_zero,
    View.ld_unit_zero (S := S256x1408) offs_zero]

/-- The last reduction step: the product is added as before, the sum read back, and the block replaced by twice
    the sum minus the third input block. -/
theorem piece_C (c : Dev nD) (i : grid5.Coords) (ml : Memref sig .tc .vmem S1024x256 .bf16) (wl : ml.IsWhole)
    (mr : Memref sig .tc .vmem S256x1408 .bf16) (wr : mr.IsWhole) (mc : Memref sig .tc .vmem S1024x1408 .f32) (wc : mc.IsWhole)
    (mo : Memref sig .tc .vmem S1024x1408 .f32) (wo : mo.IsWhole) (hca : ¬cond5_0 i) (hcb : cond5_1 i)
    (xl : Vec F S1024x256 .bf16) (xr : Vec F S256x1408 .bf16) (xc : Vec F S1024x1408 .f32) (xo : Vec F S1024x1408 .f32) :
    out5_C_3 c i ml wl mr wr mc wc mo wo hca hcb xl xr xc xo = k5_pay3 (k5_pay2 xo xl xr) xc := by
  unfold out5_C_3
  rw [View.read_writes_eq_canon _ _ _ (cover5_C_3 c i ml wl mr wr mc wc mo wo hca hcb xl xr xc xo)]
  unfold kernelRun5_C
  dsimp only
  sl_unfold_words
  rw [View.canon_cons_unit_zero (S := S1024x1408) offs_zero, View.readCov_unit_zero (S := S1024x1408) _ offs_zero]
  simp only [View.readAt_eq_ld, wl.read_unread, wr.read_unread, wc.read_unread, wo.read_unread,
    View.ld_unit_zero (S := S1024x1408) offs_zero, View.ld_unit_zero (S := S1024x256) offs_zero,
    View.ld_unit_zero (S := S256x1408) offs_zero]

end Pieces

/-! ## The three payloads at an entry, over the extended reals -/

section Payloads

/-- The reset block is zero everywhere. -/
theorem reset_apply (r : Fin 1024) (q : Fin 1408) : (k5_pay1 (F := Ideal)) (ix2 r q) = 0 :=
  Ideal.ofBits_zero_f32

/-- The update: the block found plus, at entry `(r, q)`, the 256-term product of row `r` and column `q`. -/
theorem update_apply (acc : Vec Ideal S1024x1408 .f32) (xl : Vec Ideal S1024x256 .bf16) (xr : Vec Ideal S256x1408 .bf16)
    (r : Fin 1024) (q : Fin 1408) :
    k5_pay2 acc xl xr (ix2 r q) = acc (ix2 r q) + ∑ kk : Fin 256, xl (ix2 r kk) * xr (ix2 kk q) := by
  unfold k5_pay2
  simp only [shapeCast_self]
  exact congrArg (acc (ix2 r q) + ·) (PlainMatmul.matmul_zero_apply 1024 256 1408 none xl xr r q)

/-- The closing step: twice the sum minus the third block, the factor two left as its word. -/
theorem combine_apply (v : Vec Ideal S1024x1408 .f32) (w : Vec Ideal S1024x1408 .f32) (r : Fin 1024) (q : Fin 1408) :
    k5_pay3 v w (ix2 r q) = DiffConv.two * v (ix2 r q) - w (ix2 r q) := by
  unfold k5_pay3
  simp only [shapeCast_self]
  rfl

end Payloads

/-! ## The arrays and blocks by their literal types -/

section Region

variable (V : (c : Dev nD) → (b : Ref sig .tc) → Buf (Elt Ideal) ((c : Thread nD τ).loc b))

/-- the three input arrays as the region finds them, by their literal types -/
abbrev lhs (c : Dev nD) : Vec Ideal S4096x4096 .bf16 := V c (Pipeline.arrRef spec5 0)
abbrev rhs (c : Dev nD) : Vec Ideal S4096x4224 .bf16 := V c (Pipeline.arrRef spec5 1)
abbrev sub (c : Dev nD) : Vec Ideal S4096x4224 .f32 := V c (Pipeline.arrRef spec5 2)

/-- the three input blocks at a point, by their literal types -/
abbrev lblk (c : Dev nD) (t : Fin cfg5.N) : Vec Ideal S1024x256 .bf16 := iblk5 V c 0 t
abbrev rblk (c : Dev nD) (t : Fin cfg5.N) : Vec Ideal S256x1408 .bf16 := iblk5 V c 1 t
abbrev cblk (c : Dev nD) (t : Fin cfg5.N) : Vec Ideal S1024x1408 .f32 := iblk5 V c 2 t

/-- Entry `(a, b)` of each array as a function of ANY two naturals (the coordinates reduced modulo the extents, which
    changes nothing inside the array): sums over runs of coordinates are then sums of one function of ℕ. -/
def lhsAt (c : Dev nD) (a b : ℕ) : EReal :=
  lhs V c (ix2 ⟨a % 4096, Nat.mod_lt _ (by decide)⟩ ⟨b % 4096, Nat.mod_lt _ (by decide)⟩)
def rhsAt (c : Dev nD) (a b : ℕ) : EReal :=
  rhs V c (ix2 ⟨a % 4096, Nat.mod_lt _ (by decide)⟩ ⟨b % 4224, Nat.mod_lt _ (by decide)⟩)
def subAt (c : Dev nD) (a b : ℕ) : EReal :=
  sub V c (ix2 ⟨a % 4096, Nat.mod_lt _ (by decide)⟩ ⟨b % 4224, Nat.mod_lt _ (by decide)⟩)

/-! ## Where a point's blocks sit: the index maps, decided over the grid -/

theorem idx_lhs_row : ∀ t : Fin cfg5.N, win5_0.index t (0 : Fin 2) = t.val / 48 :=
  (by decide +kernel : ∀ t : Fin grid5.N, win5_0.index t (0 : Fin 2) = t.val / 48)
theorem idx_lhs_col : ∀ t : Fin cfg5.N, win5_0.index t (1 : Fin 2) = t.val % 16 :=
  (by decide +kernel : ∀ t : Fin grid5.N, win5_0.index t (1 : Fin 2) = t.val % 16)
theorem idx_rhs_row : ∀ t : Fin cfg5.N, win5_1.index t (0 : Fin 2) = t.val % 16 :=
  (by decide +kernel : ∀ t : Fin grid5.N, win5_1.index t (0 : Fin 2) = t.val % 16)
theorem idx_rhs_col : ∀ t : Fin cfg5.N, win5_1.index t (1 : Fin 2) = t.val / 16 % 3 :=
  (by decide +kernel : ∀ t : Fin grid5.N, win5_1.index t (1 : Fin 2) = t.val / 16 % 3)
theorem idx_sub_row : ∀ t : Fin cfg5.N, win5_2.index t (0 : Fin 2) = t.val / 48 :=
  (by decide +kernel : ∀ t : Fin grid5.N, win5_2.index t (0 : Fin 2) = t.val / 48)
theorem idx_sub_col : ∀ t : Fin cfg5.N, win5_2.index t (1 : Fin 2) = t.val / 16 % 3 :=
  (by decide +kernel : ∀ t : Fin grid5.N, win5_2.index t (1 : Fin 2) = t.val / 16 % 3)
theorem idx_out_row : ∀ t : Fin cfg5.N, win5_3.index t (0 : Fin 2) = t.val / 48 :=
  (by decide +kernel : ∀ t : Fin grid5.N, win5_3.index t (0 : Fin 2) = t.val / 48)
theorem idx_out_col : ∀ t : Fin cfg5.N, win5_3.index t (1 : Fin 2) = t.val / 16 % 3 :=
  (by decide +kernel : ∀ t : Fin grid5.N, win5_3.index t (1 : Fin 2) = t.val / 16 % 3)

/-! ## The blocks read at an entry -/

/-- Entry `(r, kk)` of the left block at point `t` is entry `(1024·(t/48) + r, 256·(t%16) + kk)` of the left array. -/
theorem lblk_apply (c : Dev nD) (t : Fin cfg5.N) (r : Fin 1024) (kk : Fin 256) :
    lblk V c t (ix2 r kk) = lhsAt V c (1024 * (t.val / 48) + r.val) (256 * (t.val % 16) + kk.val) := by
  have hN : t.val < 192 := lt_of_lt_of_eq t.isLt (show cfg5.N = 192 from N_5)
  unfold lhsAt
  show ((cfg5.win 0).blk t).view.read (Elt Ideal) (V c (Pipeline.arrRef spec5 0)) (ix2 r kk) = V c (Pipeline.arrRef spec5 0) _
  rw [View.read_apply]
  refine congrArg (V c (Pipeline.arrRef spec5 0)) (funext fun a => Fin.ext ?_)
  match a with
  | ⟨0, _⟩ =>
    show win5_0.index t (0 : Fin 2) * 1024 + 1 * r.val = (1024 * (t.val / 48) + r.val) % 4096
    rw [idx_lhs_row]; omega
  | ⟨1, _⟩ =>
    show win5_0.index t (1 : Fin 2) * 256 + 1 * kk.val = (256 * (t.val % 16) + kk.val) % 4096
    rw [idx_lhs_col]; omega

/-- Entry `(kk, q)` of the right block at point `t` is entry `(256·(t%16) + kk, 1408·(t/16%3) + q)` of the right array. -/
theorem rblk_apply (c : Dev nD) (t : Fin cfg5.N) (kk : Fin 256) (q : Fin 1408) :
    rblk V c t (ix2 kk q) = rhsAt V c (256 * (t.val % 16) + kk.val) (1408 * (t.val / 16 % 3) + q.val) := by
  have hN : t.val < 192 := lt_of_lt_of_eq t.isLt (show cfg5.N = 192 from N_5)
  unfold rhsAt
  show ((cfg5.win 1).blk t).view.read (Elt Ideal) (V c (Pipeline.arrRef spec5 1)) (ix2 kk q) = V c (Pipeline.arrRef spec5 1) _
  rw [View.read_apply]
  refine congrArg (V c (Pipeline.arrRef spec5 1)) (funext fun a => Fin.ext ?_)
  match a with
  | ⟨0, _⟩ =>
    show win5_1.index t (0 : Fin 2) * 256 + 1 * kk.val = (256 * (t.val % 16) + kk.val) % 4096
    rw [idx_rhs_row]; omega
  | ⟨1, _⟩ =>
    show win5_1.index t (1 : Fin 2) * 1408 + 1 * q.val = (1408 * (t.val / 16 % 3) + q.val) % 4224
    rw [idx_rhs_col]; omega

/-- Entry `(r, q)` of the third block at point `t` is entry `(1024·(t/48) + r, 1408·(t/16%3) + q)` of the third array. -/
theorem cblk_apply (c : Dev nD) (t : Fin cfg5.N) (r : Fin 1024) (q : Fin 1408) :
    cblk V c t (ix2 r q) = subAt V c (1024 * (t.val / 48) + r.val) (1408 * (t.val / 16 % 3) + q.val) := by
  have hN : t.val < 192 := lt_of_lt_of_eq t.isLt (show cfg5.N = 192 from N_5)
  unfold subAt
  show ((cfg5.win 2).blk t).view.read (Elt Ideal) (V c (Pipeline.arrRef spec5 2)) (ix2 r q) = V c (Pipeline.arrRef spec5 2) _
  rw [View.read_apply]
  refine congrArg (V c (Pipeline.arrRef spec5 2)) (funext fun a => Fin.ext ?_)
  match a with
  | ⟨0, _⟩ =>
    show win5_2.index t (0 : Fin 2) * 1024 + 1 * r.val = (1024 * (t.val / 48) + r.val) % 4096
    rw [idx_sub_row]; omega
  | ⟨1, _⟩ =>
    show win5_2.index t (1 : Fin 2) * 1408 + 1 * q.val = (1408 * (t.val / 16 % 3) + q.val) % 4224
    rw [idx_sub_col]; omega

/-! ## The accumulation over a run of sixteen points -/

/-- Run `s` of the contraction at entry `(a, b)`: its 256 terms `256·s … 256·s + 255`. -/
def part (c : Dev nD) (a b s : ℕ) : EReal :=
  ∑ kk : Fin 256, lhsAt V c a (256 * s + kk.val) * rhsAt V c (256 * s + kk.val) b

/-- The update at point `t` adds run `t % 16` of the contraction to what the block held. -/
theorem update_blk (c : Dev nD) (t : Fin cfg5.N) (acc : Vec Ideal S1024x1408 .f32) (r : Fin 1024) (q : Fin 1408) :
    k5_pay2 acc (lblk V c t) (rblk V c t) (ix2 r q)
      = acc (ix2 r q) + part V c (1024 * (t.val / 48) + r.val) (1408 * (t.val / 16 % 3) + q.val) (t.val % 16) := by
  rw [update_apply]
  unfold part
  refine congrArg (acc (ix2 r q) + ·) (Finset.sum_congr rfl fun kk _ => ?_)
  rw [lblk_apply, rblk_apply]

/-- At the first point of a run the block holds run 0 alone. -/
theorem first_apply (c : Dev nD) (t : Fin cfg5.N) (hfirst : t.val % 16 = 0) (r : Fin 1024) (q : Fin 1408) :
    outsAt5 V c t.val t.isLt (ix2 r q)
      = part V c (1024 * (t.val / 48) + r.val) (1408 * (t.val / 16 % 3) + q.val) (t.val % 16) := by
  have hlast : ¬t.val % 16 = 15 := by omega
  rw [outsAt5_A V c t hfirst hlast]
  refine (congrFun (piece_A (F := Ideal) c (grid5.coords t) (ms5_0 t) (hs5_0 t) (ms5_1 t) (hs5_1 t) (ms5_2 t) (hs5_2 t)
    (ms5_3 t) (hs5_3 t) ((hcond5_0 t).mpr hfirst) (fun h => hlast ((hcond5_1 t).mp h)) (lblk V c t) (rblk V c t) (cblk V c t))
    (ix2 r q)).trans ?_
  rw [update_blk, reset_apply, zero_add]

/-- At an inner point the block holds what the point before left plus run `t % 16`. -/
theorem step_apply (c : Dev nD) (t : Fin cfg5.N) (hfirst : ¬t.val % 16 = 0) (hlast : ¬t.val % 16 = 15) (r : Fin 1024) (q : Fin 1408) :
    outsAt5 V c t.val t.isLt (ix2 r q)
      = outsAt5 V c (t.val - 1) (Nat.lt_of_le_of_lt (Nat.sub_le _ _) t.isLt) (ix2 r q)
        + part V c (1024 * (t.val / 48) + r.val) (1408 * (t.val / 16 % 3) + q.val) (t.val % 16) := by
  rw [outsAt5_B V c t hfirst hlast]
  refine (congrFun (piece_B (F := Ideal) c (grid5.coords t) (ms5_0 t) (hs5_0 t) (ms5_1 t) (hs5_1 t) (ms5_2 t) (hs5_2 t)
    (ms5_3 t) (hs5_3 t) (fun h => hfirst ((hcond5_0 t).mp h)) (fun h => hlast ((hcond5_1 t).mp h)) (lblk V c t) (rblk V c t) (cblk V c t)
    (outsAt5 V c (t.val - 1) (Nat.lt_of_le_of_lt (Nat.sub_le _ _) t.isLt))) (ix2 r q)).trans ?_
  rw [update_blk]

/-- At the last point of a run the block holds twice (what the point before left plus run 15) minus the third block. -/
theorem last_apply (c : Dev nD) (t : Fin cfg5.N) (hlast : t.val % 16 = 15) (r : Fin 1024) (q : Fin 1408) :
    outsAt5 V c t.val t.isLt (ix2 r q)
      = DiffConv.two * (outsAt5 V c (t.val - 1) (Nat.lt_of_le_of_lt (Nat.sub_le _ _) t.isLt) (ix2 r q)
          + part V c (1024 * (t.val / 48) + r.val) (1408 * (t.val / 16 % 3) + q.val) (t.val % 16))
        - subAt V c (1024 * (t.val / 48) + r.val) (1408 * (t.val / 16 % 3) + q.val) := by
  have hfirst : ¬t.val % 16 = 0 := by omega
  rw [outsAt5_C V c t hfirst hlast]
  refine (congrFun (piece_C (F := Ideal) c (grid5.coords t) (ms5_0 t) (hs5_0 t) (ms5_1 t) (hs5_1 t) (ms5_2 t) (hs5_2 t)
    (ms5_3 t) (hs5_3 t) (fun h => hfirst ((hcond5_0 t).mp h)) ((hcond5_1 t).mpr hlast) (lblk V c t) (rblk V c t) (cblk V c t)
    (outsAt5 V c (t.val - 1) (Nat.lt_of_le_of_lt (Nat.sub_le _ _) t.isLt))) (ix2 r q)).trans ?_
  rw [combine_apply, update_blk, cblk_apply]

/-- THE RUNNING SUM: at point `n`, not the last of its run, the block holds runs `0 … n % 16` of the contraction of its
    rows and columns — by induction on the point. -/
theorem acc_apply (c : Dev nD) : ∀ (n : ℕ) (h : n < cfg5.N), ¬n % 16 = 15 → ∀ (r : Fin 1024) (q : Fin 1408),
    outsAt5 V c n h (ix2 r q)
      = ∑ s ∈ Finset.range (n % 16 + 1), part V c (1024 * (n / 48) + r.val) (1408 * (n / 16 % 3) + q.val) s := by
  intro n
  induction n with
  | zero =>
    intro h _ r q
    exact (first_apply V c ⟨0, h⟩ rfl r q).trans (Finset.sum_range_one _).symm
  | succ n ih =>
    intro h hlast r q
    by_cases hfirst : (n + 1) % 16 = 0
    · refine (first_apply V c ⟨n + 1, h⟩ hfirst r q).trans ?_
      show part V c _ _ ((n + 1) % 16) = _
      rw [hfirst, Finset.sum_range_one]
    · refine (step_apply V c ⟨n + 1, h⟩ hfirst hlast r q).trans ?_
      show outsAt5 V c n _ (ix2 r q)
          + part V c (1024 * ((n + 1) / 48) + r.val) (1408 * ((n + 1) / 16 % 3) + q.val) ((n + 1) % 16) = _
      have ea : (n + 1) / 48 = n / 48 := by omega
      have eb : (n + 1) / 16 % 3 = n / 16 % 3 := by omega
      have ec : (n + 1) % 16 = n % 16 + 1 := by omega
      rw [ih _ (by omega) r q, ea, eb, ec, Finset.sum_range_succ _ (n % 16 + 1)]

/-! ## What the last point of a run writes back, and the whole array -/

/-- The sixteen runs are the whole contraction. -/
theorem runs_eq (c : Dev nD) (a b : ℕ) :
    ∑ s ∈ Finset.range 16, part V c a b s = ∑ k : Fin 4096, lhsAt V c a k.val * rhsAt V c k.val b :=
  DiffConv.sum_runs 16 256 rfl fun k => lhsAt V c a k * rhsAt V c k b

/-- Entry `(a, b)` of the result: twice the whole contraction minus the third array's entry. -/
def entry (c : Dev nD) (a b : ℕ) : EReal :=
  DiffConv.two * (∑ k : Fin 4096, lhsAt V c a k.val * rhsAt V c k.val b) - subAt V c a b

/-- The result array. -/
abbrev whole (c : Dev nD) : Vec Ideal S4096x4224 .f32 := fun i => entry V c (i 0).val (i 1).val

/-- WHAT THE LAST POINT OF A RUN WRITES BACK is its block of the result array: the fifteen runs the block held, the
    sixteenth added, doubled, the third block subtracted. -/
theorem flushed_out (c : Dev nD) (t : Fin cfg5.N) (hf : (cfg5.win 3).flush t = true) :
    (dat5 (F := Ideal) V c).flushed 3 t = ((cfg5.win 3).blk t).view.read (Elt Ideal) (whole V c) := by
  have hlast : t.val % 16 = 15 := (flush5_3 t).mp hf
  have hN : t.val < 192 := lt_of_lt_of_eq t.isLt (show cfg5.N = 192 from N_5)
  show (cfg5.win 3).cut (grid5.coords t) ((dat5 (F := Ideal) V c).after 3 t) = _
  rw [after5_3]
  funext y
  obtain ⟨r, q, rfl⟩ : ∃ (r : Fin 1024) (q : Fin 1408), y = ix2 r q := ⟨y 0, y 1, eq_ix2 y⟩
  rw [View.read_apply]
  show outsAt5 V c t.val t.isLt (ix2 r q)
    = entry V c (win5_3.index t (0 : Fin 2) * 1024 + 1 * r.val) (win5_3.index t (1 : Fin 2) * 1408 + 1 * q.val)
  rw [idx_out_row, idx_out_col,
    show t.val / 48 * 1024 + 1 * r.val = 1024 * (t.val / 48) + r.val from by omega,
    show t.val / 16 % 3 * 1408 + 1 * q.val = 1408 * (t.val / 16 % 3) + q.val from by omega]
  have ea : (t.val - 1) / 48 = t.val / 48 := by omega
  have eb : (t.val - 1) / 16 % 3 = t.val / 16 % 3 := by omega
  have ec : (t.val - 1) % 16 + 1 = 15 := by omega
  rw [last_apply V c t hlast r q, acc_apply V c (t.val - 1) _ (by omega) r q, ea, eb, ec, hlast,
    ← Finset.sum_range_succ, runs_eq]
  rfl

/-- The blocks of the last points of the twelve runs tile the array: entry `(a, b)` is in the block of the last point
    of run `(a / 1024, b / 1408)`. -/
theorem covered (i : S4096x4224.Idx) :
    ∃ t : Fin cfg5.N, (cfg5.win 3).flush t = true ∧ i ∈ ((cfg5.win 3).blk t).view.set := by
  have hrow : (i 0).val < 4096 := (i 0).isLt
  have hcol : (i 1).val < 4224 := (i 1).isLt
  have hN : cfg5.N = 192 := N_5
  refine ⟨⟨48 * ((i 0).val / 1024) + 16 * ((i 1).val / 1408) + 15, by rw [hN]; omega⟩,
    (flush5_3 _).mpr (by dsimp only; omega), ?_⟩
  rw [View.set_slice_whole, Rect.mem_set_unit]
  intro a
  match a with
  | ⟨0, _⟩ =>
    show win5_3.index _ (0 : Fin 2) * 1024 ≤ (i 0).val ∧ (i 0).val < win5_3.index _ (0 : Fin 2) * 1024 + 1024
    rw [idx_out_row]; dsimp only; omega
  | ⟨1, _⟩ =>
    show win5_3.index _ (1 : Fin 2) * 1408 ≤ (i 1).val ∧ (i 1).val < win5_3.index _ (1 : Fin 2) * 1408 + 1408
    rw [idx_out_col]; dsimp only; omega

/-- So the output array ends at the result array. -/
theorem arr_eq (c : Dev nD) : (dat5 (F := Ideal) V c).arrAt 3 cfg5.N = whole V c :=
  (dat5 (F := Ideal) V c).arrAt_eq_of_cover 3 (whole V c) (flushed_out V c) covered

/-- THE OUTPUT ARRAY AT AN ENTRY: `2 · (∑ k, L n k * R k a) − C n a`. -/
theorem arr3_apply (c : Dev nD) (n : Fin 4096) (a : Fin 4224) :
    ((dat5 (F := Ideal) V c).arrAt 3 cfg5.N : Vec Ideal S4096x4224 .f32) (ix2 n a)
      = DiffConv.two * (∑ k : Fin 4096, lhs V c (ix2 n k) * rhs V c (ix2 k a)) - sub V c (ix2 n a) := by
  rw [arr_eq]
  show entry V c n.val a.val = _
  unfold entry lhsAt rhsAt subAt
  have en : (⟨n.val % 4096, Nat.mod_lt _ (by decide)⟩ : Fin 4096) = n := Fin.ext (Nat.mod_eq_of_lt n.isLt)
  have ea : (⟨a.val % 4224, Nat.mod_lt _ (by decide)⟩ : Fin 4224) = a := Fin.ext (Nat.mod_eq_of_lt a.isLt)
  have ek : ∀ k : Fin 4096, (⟨k.val % 4096, Nat.mod_lt _ (by decide)⟩ : Fin 4096) = k := fun k => Fin.ext (Nat.mod_eq_of_lt k.isLt)
  simp only [en, ea, ek]

end Region

end Cert.KernelIdeal.RegComb5

end
-- ==== Proof.RegPlain6.lean ====
/-
  The matrix product a call of the plain product kernel leaves behind, read off its run.

  Whatever the buffers hold when the call is entered, it leaves in BOTH of its output arrays — the f32 one and the
  bf16 one — at entry `(n, a)` the sum over the 4096 contracted coordinates `k` of `left (n, k) * right (k, a)`,
  over the extended reals (where a change of float format is the identity).

  The call walks a 4 × 3 × 16 grid, point `t = 48·i + 16·j + k`. At a point it reads the 1024 × 256 block `(i, k)` of
  the left array and the 256 × 1408 block `(k, j)` of the right array and adds their product into the 1024 × 1408
  block `(i, j)` of the f32 output, which it first resets to zero when `k = 0`; when `k = 15` it also stores that
  block, format-changed, into the bf16 output, and both blocks are written back to their arrays. So a block's entry
  `(r, q)` gathers sixteen stretches of 256 summands — the whole sum over the contracted coordinate of entry
  `(1024·i + r, 1408·j + q)` of the product —, and the twelve blocks tile the arrays. Only regrouping of a finite sum
  in a commutative monoid is used: no entry is assumed finite.
-/
import proofs.«405468_j48026324304060_3_alg».proof.Proof.Gen.KernelIdeal.Frame
import proofs.«405468_j48026324304060_3_alg».proof.Proof.SumSplit
import proofs.«405468_j48026324304060_3_alg».proof.Proof.LibPlainMatmul
import Idealize.ShloMosaic.Lib.Pipeline.Value
import Idealize.ShloMosaic.PureOps.Ideal.Laws
import Idealize.ShloMosaic.Lib.ValueIdx
import Idealize.ShloMosaic.Lib.Tactic

noncomputable section

namespace Cert.KernelIdeal.RegPlain6

open Cert.KernelIdeal Cert.KernelIdeal.Gen Idealize.ShloMosaic Idealize.ShloMosaic.TcCoe Idealize.ShloMosaic.ValueIdx
open Idealize.ShloMosaic.Pipeline (Dat)

/-! ## What one grid point's body leaves in the two output blocks

At every grid point the body overwrites the whole f32 output block with "block so far + left block · right block";
at the first point of a run of sixteen the block so far is the zero splat it has just stored, and at the last point
the bf16 output block receives the format change of the f32 block just written. -/

section Pieces

variable {F : FTy → Type} [FloatOps F]

/-- The zero offsets of a whole-block access, as a constant function. -/
theorem hz : (![0, 0] : Fin 2 → Nat) = fun _ => 0 := funext fun a => by fin_cases a <;> rfl

/-- First point of a run: the f32 block is reset to the zero splat, read back, and the first product added. -/
theorem piece_A (c : Dev nD) (i : grid6.Coords) (ml : Memref sig .tc .vmem S1024x256 .bf16) (wl : ml.IsWhole)
    (mr : Memref sig .tc .vmem S256x1408 .bf16) (wr : mr.IsWhole) (mo : Memref sig .tc .vmem S1024x1408 .f32) (wo : mo.IsWhole)
    (mb : Memref sig .tc .vmem S1024x1408 .bf16) (wb : mb.IsWhole) (hfst : cond6_0 i) (hlst : ¬cond6_1 i)
    (xl : Vec F S1024x256 .bf16) (xr : Vec F S256x1408 .bf16) :
    out6_A_2 c i ml wl mr wr mo wo mb wb hfst hlst xl xr = k6_pay2 (k6_pay1 (F := F)) xl xr := by
  unfold out6_A_2
  rw [View.read_writes_eq_canon _ _ _ (cover6_A_2 c i ml wl mr wr mo wo mb wb hfst hlst xl xr)]
  unfold kernelRun6_A
  dsimp only
  sl_unfold_words
  rw [View.canon_cons_unit_zero (S := S1024x1408) hz, View.readCov_unit_zero (S := S1024x1408) _ hz]
  simp only [View.readAt_eq_ld, wl.read_unread, wr.read_unread, View.ld_unit_zero (S := S1024x256) hz,
    View.ld_unit_zero (S := S256x1408) hz]

/-- A middle point of a run: the f32 block so far plus this point's product. -/
theorem piece_B (c : Dev nD) (i : grid6.Coords) (ml : Memref sig .tc .vmem S1024x256 .bf16) (wl : ml.IsWhole)
    (mr : Memref sig .tc .vmem S256x1408 .bf16) (wr : mr.IsWhole) (mo : Memref sig .tc .vmem S1024x1408 .f32) (wo : mo.IsWhole)
    (mb : Memref sig .tc .vmem S1024x1408 .bf16) (wb : mb.IsWhole) (hfst : ¬cond6_0 i) (hlst : ¬cond6_1 i)
    (xl : Vec F S1024x256 .bf16) (xr : Vec F S256x1408 .bf16) (xo : Vec F S1024x1408 .f32) :
    out6_B_2 c i ml wl mr wr mo wo mb wb hfst hlst xl xr xo = k6_pay2 xo xl xr := by
  unfold out6_B_2
  rw [View.read_writes_eq_canon _ _ _ (cover6_B_2 c i ml wl mr wr mo wo mb wb hfst hlst xl xr xo)]
  unfold kernelRun6_B
  dsimp only
  sl_unfold_words
  rw [View.canon_unit_zero hz]
  simp only [View.readAt_eq_ld, wl.read_unread, wr.read_unread, wo.read_unread, View.ld_unit_zero (S := S1024x256) hz,
    View.ld_unit_zero (S := S256x1408) hz, View.ld_unit_zero (S := S1024x1408) hz]

/-- The last point of a run, f32 block: as at a middle point. -/
theorem piece_C (c : Dev nD) (i : grid6.Coords) (ml : Memref sig .tc .vmem S1024x256 .bf16) (wl : ml.IsWhole)
    (mr : Memref sig .tc .vmem S256x1408 .bf16) (wr : mr.IsWhole) (mo : Memref sig .tc .vmem S1024x1408 .f32) (wo : mo.IsWhole)
    (mb : Memref sig .tc .vmem S1024x1408 .bf16) (wb : mb.IsWhole) (hfst : ¬cond6_0 i) (hlst : cond6_1 i)
    (xl : Vec F S1024x256 .bf16) (xr : Vec F S256x1408 .bf16) (xo : Vec F S1024x1408 .f32) :
    out6_C_2 c i ml wl mr wr mo wo mb wb hfst hlst xl xr xo = k6_pay2 xo xl xr := by
  unfold out6_C_2
  rw [View.read_writes_eq_canon _ _ _ (cover6_C_2 c i ml wl mr wr mo wo mb wb hfst hlst xl xr xo)]
  unfold kernelRun6_C
  dsimp only
  sl_unfold_words
  rw [View.canon_unit_zero hz]
  simp only [View.readAt_eq_ld, wl.read_unread, wr.read_unread, wo.read_unread, View.ld_unit_zero (S := S1024x256) hz,
    View.ld_unit_zero (S := S256x1408) hz, View.ld_unit_zero (S := S1024x1408) hz]

/-- The last point of a run, bf16 block: the format change of the f32 block just written. -/
theorem piece_C_low (c : Dev nD) (i : grid6.Coords) (ml : Memref sig .tc .vmem S1024x256 .bf16) (wl : ml.IsWhole)
    (mr : Memref sig .tc .vmem S256x1408 .bf16) (wr : mr.IsWhole) (mo : Memref sig .tc .vmem S1024x1408 .f32) (wo : mo.IsWhole)
    (mb : Memref sig .tc .vmem S1024x1408 .bf16) (wb : mb.IsWhole) (hfst : ¬cond6_0 i) (hlst : cond6_1 i)
    (xl : Vec F S1024x256 .bf16) (xr : Vec F S256x1408 .bf16) (xo : Vec F S1024x1408 .f32) :
    out6_C_3 c i ml wl mr wr mo wo mb wb hfst hlst xl xr xo = k6_pay3 (k6_pay2 xo xl xr) := by
  unfold out6_C_3
  rw [View.read_writes_eq_canon _ _ _ (cover6_C_3 c i ml wl mr wr mo wo mb wb hfst hlst xl xr xo)]
  unfold kernelRun6_C
  dsimp only
  sl_unfold_words
  rw [View.canon_unit_zero hz, View.readCov_unit_zero (S := S1024x1408) _ hz]
  simp only [View.readAt_eq_ld, wl.read_unread, wr.read_unread, wo.read_unread, View.ld_unit_zero (S := S1024x256) hz,
    View.ld_unit_zero (S := S256x1408) hz, View.ld_unit_zero (S := S1024x1408) hz]

end Pieces

/-! ## One entry of the payloads, over the extended reals -/

section Entries

/-- The zero splat is `0` at every entry. -/
theorem zero_apply (r : Fin 1024) (q : Fin 1408) :
    (k6_pay1 (F := Ideal) : Vec Ideal S1024x1408 .f32) (ix2 r q) = 0 := by
  unfold k6_pay1
  exact Ideal.ofBits_zero_f32

/-- "Block so far + left block · right block" at entry `(r, q)`: the entry so far plus the sum over the 256
    contracted coordinates of this point. -/
theorem pay_apply (acc : Vec Ideal S1024x1408 .f32) (xl : Vec Ideal S1024x256 .bf16) (xr : Vec Ideal S256x1408 .bf16)
    (r : Fin 1024) (q : Fin 1408) :
    (k6_pay2 acc xl xr : Vec Ideal S1024x1408 .f32) (ix2 r q)
      = acc (ix2 r q) + ∑ kk : Fin 256, xl (ix2 r kk) * xr (ix2 kk q) := by
  unfold k6_pay2
  simp only [shapeCast_self]
  exact congrArg (fun z => acc (ix2 r q) + z) (PlainMatmul.matmul_zero_apply 1024 256 1408 none xl xr r q)

/-- The format change to the narrower float is the identity on extended reals. -/
theorem low_apply (v : Vec Ideal S1024x1408 .f32) (r : Fin 1024) (q : Fin 1408) :
    (k6_pay3 v : Vec Ideal S1024x1408 .bf16) (ix2 r q) = v (ix2 r q) := by
  unfold k6_pay3
  simp only [shapeCast_self]
  rfl

end Entries

/-! ## The blocks of the two input arrays

The grid is 4 × 3 × 16; point `t = 48·i + 16·j + k`. The left array is cut into 1024 × 256 blocks and the point reads
block `(i, k)`; the right array into 256 × 1408 blocks, block `(k, j)`; both outputs into 1024 × 1408 blocks, block
`(i, j)`, written back after `k = 15`. -/

section Blocks

variable (V : (c : Dev nD) → (b : Ref sig .tc) → Buf (Elt Ideal) ((c : Thread nD τ).loc b))

/-- the two input arrays as the region finds them, by their literal types -/
abbrev lhs (c : Dev nD) : Vec Ideal S4096x4096 .bf16 := V c (Pipeline.arrRef spec6 0)
abbrev rhs (c : Dev nD) : Vec Ideal S4096x4224 .bf16 := V c (Pipeline.arrRef spec6 1)

/-- the two input blocks of a point, by their literal types -/
abbrev lblk (c : Dev nD) (t : Fin cfg6.N) : Vec Ideal S1024x256 .bf16 := iblk6 V c 0 t
abbrev rblk (c : Dev nD) (t : Fin cfg6.N) : Vec Ideal S256x1408 .bf16 := iblk6 V c 1 t

/-- An entry of the left array at natural-number coordinates (taken modulo the extents, so that it is total). -/
def lhsAt (c : Dev nD) (R K : ℕ) : EReal :=
  lhs V c (ix2 (⟨R % 4096, Nat.mod_lt _ (by decide)⟩ : Fin 4096) (⟨K % 4096, Nat.mod_lt _ (by decide)⟩ : Fin 4096))
/-- An entry of the right array at natural-number coordinates. -/
def rhsAt (c : Dev nD) (K C : ℕ) : EReal :=
  rhs V c (ix2 (⟨K % 4096, Nat.mod_lt _ (by decide)⟩ : Fin 4096) (⟨C % 4224, Nat.mod_lt _ (by decide)⟩ : Fin 4224))
/-- The summand of the product's entry `(R, C)` at the contracted coordinate `K`. -/
def term (c : Dev nD) (R C K : ℕ) : EReal := lhsAt V c R K * rhsAt V c K C

/-- Inside the arrays the wrapped entries are the entries. -/
theorem term_inside (c : Dev nD) (n : Fin 4096) (a : Fin 4224) (k : Fin 4096) :
    term V c n.val a.val k.val = lhs V c (ix2 n k) * rhs V c (ix2 k a) := by
  unfold term lhsAt rhsAt
  have en : (⟨n.val % 4096, Nat.mod_lt _ (by decide)⟩ : Fin 4096) = n := Fin.ext (Nat.mod_eq_of_lt n.isLt)
  have ek : (⟨k.val % 4096, Nat.mod_lt _ (by decide)⟩ : Fin 4096) = k := Fin.ext (Nat.mod_eq_of_lt k.isLt)
  have ea : (⟨a.val % 4224, Nat.mod_lt _ (by decide)⟩ : Fin 4224) = a := Fin.ext (Nat.mod_eq_of_lt a.isLt)
  rw [en, ek, ea]

/-- The block index of the left window: block row `i`, -/
theorem idx_lhs_row : ∀ t : Fin cfg6.N, win6_0.index t (0 : Fin 2) = t.val / 48 :=
  (by decide +kernel : ∀ t : Fin grid6.N, _)
/-- block column `k`; -/
theorem idx_lhs_col : ∀ t : Fin cfg6.N, win6_0.index t (1 : Fin 2) = t.val % 16 :=
  (by decide +kernel : ∀ t : Fin grid6.N, _)
/-- of the right window: block row `k`, -/
theorem idx_rhs_row : ∀ t : Fin cfg6.N, win6_1.index t (0 : Fin 2) = t.val % 16 :=
  (by decide +kernel : ∀ t : Fin grid6.N, _)
/-- block column `j`. -/
theorem idx_rhs_col : ∀ t : Fin cfg6.N, win6_1.index t (1 : Fin 2) = t.val / 16 % 3 :=
  (by decide +kernel : ∀ t : Fin grid6.N, _)

/-- The left block of point `t` at `(r, kk)` is the left array at row `1024·i + r`, column `256·k + kk`. -/
theorem lblk_apply (c : Dev nD) (t : Fin cfg6.N) (r : Fin 1024) (kk : Fin 256) :
    lblk V c t (ix2 r kk) = lhsAt V c (1024 * (t.val / 48) + r.val) (256 * (t.val % 16) + kk.val) := by
  have hN : t.val < 192 := lt_of_lt_of_eq t.isLt N_6
  unfold lhsAt
  show V c (Pipeline.arrRef spec6 0) (((cfg6.win 0).blk t).view.emb (ix2 r kk)) = V c (Pipeline.arrRef spec6 0) (ix2 _ _)
  refine congrArg _ (funext fun a => Fin.ext ?_)
  match a with
  | ⟨0, _⟩ =>
    show win6_0.index t (0 : Fin 2) * 1024 + 1 * r.val = (1024 * (t.val / 48) + r.val) % 4096
    rw [idx_lhs_row t]; omega
  | ⟨1, _⟩ =>
    show win6_0.index t (1 : Fin 2) * 256 + 1 * kk.val = (256 * (t.val % 16) + kk.val) % 4096
    rw [idx_lhs_col t]; omega

/-- The right block of point `t` at `(kk, q)` is the right array at row `256·k + kk`, column `1408·j + q`. -/
theorem rblk_apply (c : Dev nD) (t : Fin cfg6.N) (kk : Fin 256) (q : Fin 1408) :
    rblk V c t (ix2 kk q) = rhsAt V c (256 * (t.val % 16) + kk.val) (1408 * (t.val / 16 % 3) + q.val) := by
  have hN : t.val < 192 := lt_of_lt_of_eq t.isLt N_6
  unfold rhsAt
  show V c (Pipeline.arrRef spec6 1) (((cfg6.win 1).blk t).view.emb (ix2 kk q)) = V c (Pipeline.arrRef spec6 1) (ix2 _ _)
  refine congrArg _ (funext fun a => Fin.ext ?_)
  match a with
  | ⟨0, _⟩ =>
    show win6_1.index t (0 : Fin 2) * 256 + 1 * kk.val = (256 * (t.val % 16) + kk.val) % 4096
    rw [idx_rhs_row t]; omega
  | ⟨1, _⟩ =>
    show win6_1.index t (1 : Fin 2) * 1408 + 1 * q.val = (1408 * (t.val / 16 % 3) + q.val) % 4224
    rw [idx_rhs_col t]; omega

end Blocks

/-! ## The accumulation over a run of sixteen points

The sixteen points `t = 16·m, …, 16·m + 15` share one output block. After the point at offset `k` in the run the
f32 block holds, at entry `(r, q)`, the sum of the first `k + 1` stretches of 256 summands of the product's entry
`(1024·i + r, 1408·j + q)`. -/

section Accumulate

variable (V : (c : Dev nD) → (b : Ref sig .tc) → Buf (Elt Ideal) ((c : Thread nD τ).loc b))

/-- The sum of the first `j + 1` stretches of 256 summands of the product's entry `(R, C)`. -/
def partialSum (c : Dev nD) (R C j : ℕ) : EReal :=
  ∑ s ∈ Finset.range (j + 1), ∑ kk : Fin 256, term V c R C (256 * s + kk.val)

/-- One point's block product at an entry is one stretch of 256 summands. -/
theorem stretch_apply (c : Dev nD) (t : Fin cfg6.N) (r : Fin 1024) (q : Fin 1408) :
    ∑ kk : Fin 256, lblk V c t (ix2 r kk) * rblk V c t (ix2 kk q)
      = ∑ kk : Fin 256, term V c (1024 * (t.val / 48) + r.val) (1408 * (t.val / 16 % 3) + q.val)
          (256 * (t.val % 16) + kk.val) :=
  Finset.sum_congr rfl fun kk _ => by rw [lblk_apply V c t r kk, rblk_apply V c t kk q]; rfl

/-- At the first point of a run the block holds the first stretch. -/
theorem first_apply (c : Dev nD) (n : ℕ) (hn : n < cfg6.N) (hfst : n % 16 = 0) (r : Fin 1024) (q : Fin 1408) :
    (outsAt6 V c n hn).1 (ix2 r q)
      = partialSum V c (1024 * (n / 48) + r.val) (1408 * (n / 16 % 3) + q.val) 0 := by
  have hlst : ¬n % 16 = 15 := by omega
  rw [outsAt6_A V c ⟨n, hn⟩ hfst hlst]
  dsimp only
  refine (congrFun (piece_A (F := Ideal) c (grid6.coords ⟨n, hn⟩) (ms6_0 ⟨n, hn⟩) (hs6_0 ⟨n, hn⟩) (ms6_1 ⟨n, hn⟩)
    (hs6_1 ⟨n, hn⟩) (ms6_2 ⟨n, hn⟩) (hs6_2 ⟨n, hn⟩) (ms6_3 ⟨n, hn⟩) (hs6_3 ⟨n, hn⟩) ((hcond6_0 ⟨n, hn⟩).mpr hfst)
    (fun h => hlst ((hcond6_1 ⟨n, hn⟩).mp h)) (lblk V c ⟨n, hn⟩) (rblk V c ⟨n, hn⟩)) (ix2 r q)).trans ?_
  rw [pay_apply (k6_pay1 (F := Ideal)) (lblk V c ⟨n, hn⟩) (rblk V c ⟨n, hn⟩) r q, zero_apply, zero_add,
    stretch_apply V c ⟨n, hn⟩ r q]
  unfold partialSum
  rw [Finset.sum_range_succ, Finset.sum_range_zero, zero_add]
  show ∑ kk : Fin 256, term V c _ _ (256 * (n % 16) + kk.val) = _
  rw [hfst]

/-- At every later point of a run the block gains that point's stretch. -/
theorem next_apply (c : Dev nD) (n : ℕ) (hn : n + 1 < cfg6.N) (hfst : ¬(n + 1) % 16 = 0) (r : Fin 1024) (q : Fin 1408) :
    (outsAt6 V c (n + 1) hn).1 (ix2 r q)
      = (outsAt6 V c n (Nat.lt_of_succ_lt hn)).1 (ix2 r q)
        + ∑ kk : Fin 256, term V c (1024 * ((n + 1) / 48) + r.val) (1408 * ((n + 1) / 16 % 3) + q.val)
            (256 * ((n + 1) % 16) + kk.val) := by
  by_cases hlst : (n + 1) % 16 = 15
  · rw [outsAt6_C V c ⟨n + 1, hn⟩ hfst hlst]
    dsimp only
    refine (congrFun (piece_C (F := Ideal) c (grid6.coords ⟨n + 1, hn⟩) (ms6_0 ⟨n + 1, hn⟩) (hs6_0 ⟨n + 1, hn⟩)
      (ms6_1 ⟨n + 1, hn⟩) (hs6_1 ⟨n + 1, hn⟩) (ms6_2 ⟨n + 1, hn⟩) (hs6_2 ⟨n + 1, hn⟩) (ms6_3 ⟨n + 1, hn⟩)
      (hs6_3 ⟨n + 1, hn⟩) (fun h => hfst ((hcond6_0 ⟨n + 1, hn⟩).mp h)) ((hcond6_1 ⟨n + 1, hn⟩).mpr hlst)
      (lblk V c ⟨n + 1, hn⟩) (rblk V c ⟨n + 1, hn⟩) (outsAt6 V c n (Nat.lt_of_succ_lt hn)).1) (ix2 r q)).trans ?_
    rw [pay_apply (outsAt6 V c n (Nat.lt_of_succ_lt hn)).1 (lblk V c ⟨n + 1, hn⟩) (rblk V c ⟨n + 1, hn⟩) r q,
      stretch_apply V c ⟨n + 1, hn⟩ r q]
  · rw [outsAt6_B V c ⟨n + 1, hn⟩ hfst hlst]
    dsimp only
    refine (congrFun (piece_B (F := Ideal) c (grid6.coords ⟨n + 1, hn⟩) (ms6_0 ⟨n + 1, hn⟩) (hs6_0 ⟨n + 1, hn⟩)
      (ms6_1 ⟨n + 1, hn⟩) (hs6_1 ⟨n + 1, hn⟩) (ms6_2 ⟨n + 1, hn⟩) (hs6_2 ⟨n + 1, hn⟩) (ms6_3 ⟨n + 1, hn⟩)
      (hs6_3 ⟨n + 1, hn⟩) (fun h => hfst ((hcond6_0 ⟨n + 1, hn⟩).mp h)) (fun h => hlst ((hcond6_1 ⟨n + 1, hn⟩).mp h))
      (lblk V c ⟨n + 1, hn⟩) (rblk V c ⟨n + 1, hn⟩) (outsAt6 V c n (Nat.lt_of_succ_lt hn)).1) (ix2 r q)).trans ?_
    rw [pay_apply (outsAt6 V c n (Nat.lt_of_succ_lt hn)).1 (lblk V c ⟨n + 1, hn⟩) (rblk V c ⟨n + 1, hn⟩) r q,
      stretch_apply V c ⟨n + 1, hn⟩ r q]

/-- THE RUNNING SUM: after point `n` the f32 block holds the partial sums up to the point's offset in its run. -/
theorem acc_apply (c : Dev nD) : ∀ (n : ℕ) (hn : n < cfg6.N) (r : Fin 1024) (q : Fin 1408),
    (outsAt6 V c n hn).1 (ix2 r q)
      = partialSum V c (1024 * (n / 48) + r.val) (1408 * (n / 16 % 3) + q.val) (n % 16)
  | 0, hn, r, q => first_apply V c 0 hn rfl r q
  | n + 1, hn, r, q => by
    by_cases hfst : (n + 1) % 16 = 0
    · rw [hfst]; exact first_apply V c (n + 1) hn hfst r q
    · have hN : n + 1 < 192 := lt_of_lt_of_eq hn N_6
      have erow : (n + 1) / 48 = n / 48 := by omega
      have ecol : (n + 1) / 16 % 3 = n / 16 % 3 := by omega
      have eoff : (n + 1) % 16 = n % 16 + 1 := by omega
      rw [next_apply V c n hn hfst r q, acc_apply c n (Nat.lt_of_succ_lt hn) r q, erow, ecol, eoff]
      unfold partialSum
      rw [Finset.sum_range_succ _ (n % 16 + 1)]

/-- At the last point of a run the bf16 block holds what the f32 block holds. -/
theorem low_eq (c : Dev nD) (n : ℕ) (hn : n + 1 < cfg6.N) (hlst : (n + 1) % 16 = 15) (r : Fin 1024) (q : Fin 1408) :
    (outsAt6 V c (n + 1) hn).2 (ix2 r q) = (outsAt6 V c (n + 1) hn).1 (ix2 r q) := by
  have hfst : ¬(n + 1) % 16 = 0 := by omega
  rw [outsAt6_C V c ⟨n + 1, hn⟩ hfst hlst]
  dsimp only
  refine (congrFun (piece_C_low (F := Ideal) c (grid6.coords ⟨n + 1, hn⟩) (ms6_0 ⟨n + 1, hn⟩) (hs6_0 ⟨n + 1, hn⟩)
    (ms6_1 ⟨n + 1, hn⟩) (hs6_1 ⟨n + 1, hn⟩) (ms6_2 ⟨n + 1, hn⟩) (hs6_2 ⟨n + 1, hn⟩) (ms6_3 ⟨n + 1, hn⟩)
    (hs6_3 ⟨n + 1, hn⟩) (fun h => hfst ((hcond6_0 ⟨n + 1, hn⟩).mp h)) ((hcond6_1 ⟨n + 1, hn⟩).mpr hlst)
    (lblk V c ⟨n + 1, hn⟩) (rblk V c ⟨n + 1, hn⟩) (outsAt6 V c n (Nat.lt_of_succ_lt hn)).1) (ix2 r q)).trans ?_
  refine (low_apply _ r q).trans ?_
  exact (congrFun (piece_C (F := Ideal) c (grid6.coords ⟨n + 1, hn⟩) (ms6_0 ⟨n + 1, hn⟩) (hs6_0 ⟨n + 1, hn⟩)
    (ms6_1 ⟨n + 1, hn⟩) (hs6_1 ⟨n + 1, hn⟩) (ms6_2 ⟨n + 1, hn⟩) (hs6_2 ⟨n + 1, hn⟩) (ms6_3 ⟨n + 1, hn⟩)
    (hs6_3 ⟨n + 1, hn⟩) (fun h => hfst ((hcond6_0 ⟨n + 1, hn⟩).mp h)) ((hcond6_1 ⟨n + 1, hn⟩).mpr hlst)
    (lblk V c ⟨n + 1, hn⟩) (rblk V c ⟨n + 1, hn⟩) (outsAt6 V c n (Nat.lt_of_succ_lt hn)).1) (ix2 r q)).symm

/-- Sixteen stretches of 256 are the whole sum over the 4096 contracted coordinates. -/
theorem full_sum (c : Dev nD) (R C : ℕ) : partialSum V c R C 15 = ∑ k : Fin 4096, term V c R C k.val := by
  show ∑ s ∈ Finset.range 16, ∑ kk : Fin 256, term V c R C (256 * s + kk.val) = _
  exact DiffConv.sum_runs 16 256 rfl (term V c R C)

end Accumulate

/-! ## From the blocks to the two output arrays

Every output block is written back once, after the last point of its run, holding the full sums; the blocks tile
the arrays, so both arrays end holding the product. -/

section Arrays

variable (V : (c : Dev nD) → (b : Ref sig .tc) → Buf (Elt Ideal) ((c : Thread nD τ).loc b))

/-- The product array: entry `(n, a)` is the sum over all 4096 contracted coordinates. -/
def prodArr (c : Dev nD) : Vec Ideal S4096x4224 .f32 :=
  fun i => ∑ k : Fin 4096, term V c (i 0).val (i 1).val k.val
/-- The same entries, as an array of the narrower float. -/
def prodArrLow (c : Dev nD) : Vec Ideal S4096x4224 .bf16 :=
  fun i => ∑ k : Fin 4096, term V c (i 0).val (i 1).val k.val

/-- The block index of the f32 output window: block row `i`, -/
theorem idx_out_row : ∀ t : Fin cfg6.N, win6_2.index t (0 : Fin 2) = t.val / 48 :=
  (by decide +kernel : ∀ t : Fin grid6.N, _)
/-- block column `j`; -/
theorem idx_out_col : ∀ t : Fin cfg6.N, win6_2.index t (1 : Fin 2) = t.val / 16 % 3 :=
  (by decide +kernel : ∀ t : Fin grid6.N, _)
/-- of the bf16 output window: block row `i`, -/
theorem idx_low_row : ∀ t : Fin cfg6.N, win6_3.index t (0 : Fin 2) = t.val / 48 :=
  (by decide +kernel : ∀ t : Fin grid6.N, _)
/-- block column `j`. -/
theorem idx_low_col : ∀ t : Fin cfg6.N, win6_3.index t (1 : Fin 2) = t.val / 16 % 3 :=
  (by decide +kernel : ∀ t : Fin grid6.N, _)

/-- What a write-back of the f32 window writes is its block of the product array. -/
theorem flushed_f32 (c : Dev nD) (t : Fin cfg6.N) (hf : (cfg6.win 2).flush t = true) :
    (dat6 V c).flushed 2 t = ((cfg6.win 2).blk t).view.read (Elt Ideal) (prodArr V c) := by
  have hlast : t.val % 16 = 15 := (flush6_2 t).mp hf
  have hN : t.val < 192 := lt_of_lt_of_eq t.isLt N_6
  show (cfg6.win 2).cut (grid6.coords t) ((dat6 V c).after 2 t) = _
  rw [after6_2]
  funext j
  obtain ⟨r, q, rfl⟩ : ∃ (r : Fin 1024) (q : Fin 1408), j = ix2 r q := ⟨j 0, j 1, eq_ix2 j⟩
  show (outsAt6 V c t.val t.isLt).1 (ix2 r q) = prodArr V c (((cfg6.win 2).blk t).view.emb (ix2 r q))
  rw [acc_apply V c t.val t.isLt r q, hlast, full_sum]
  have erow : win6_2.index t (0 : Fin 2) * 1024 + 1 * r.val = 1024 * (t.val / 48) + r.val := by
    rw [idx_out_row t]; omega
  have ecol : win6_2.index t (1 : Fin 2) * 1408 + 1 * q.val = 1408 * (t.val / 16 % 3) + q.val := by
    rw [idx_out_col t]; omega
  show _ = ∑ k : Fin 4096, term V c (win6_2.index t (0 : Fin 2) * 1024 + 1 * r.val)
    (win6_2.index t (1 : Fin 2) * 1408 + 1 * q.val) k.val
  rw [erow, ecol]

/-- What a write-back of the bf16 window writes is its block of the product array. -/
theorem flushed_low (c : Dev nD) (t : Fin cfg6.N) (hf : (cfg6.win 3).flush t = true) :
    (dat6 V c).flushed 3 t = ((cfg6.win 3).blk t).view.read (Elt Ideal) (prodArrLow V c) := by
  have hlast : t.val % 16 = 15 := (flush6_3 t).mp hf
  have hN : t.val < 192 := lt_of_lt_of_eq t.isLt N_6
  show (cfg6.win 3).cut (grid6.coords t) ((dat6 V c).after 3 t) = _
  rw [after6_3]
  funext j
  obtain ⟨r, q, rfl⟩ : ∃ (r : Fin 1024) (q : Fin 1408), j = ix2 r q := ⟨j 0, j 1, eq_ix2 j⟩
  show (outsAt6 V c t.val t.isLt).2 (ix2 r q) = prodArrLow V c (((cfg6.win 3).blk t).view.emb (ix2 r q))
  obtain ⟨n, hn⟩ := t
  obtain ⟨n, rfl⟩ : ∃ n', n = n' + 1 := ⟨n - 1, by dsimp only at hlast; omega⟩
  show (outsAt6 V c (n + 1) hn).2 (ix2 r q) = _
  rw [low_eq V c n hn hlast r q, acc_apply V c (n + 1) hn r q, hlast, full_sum]
  have erow : win6_3.index ⟨n + 1, hn⟩ (0 : Fin 2) * 1024 + 1 * r.val = 1024 * ((n + 1) / 48) + r.val := by
    rw [idx_low_row ⟨n + 1, hn⟩]; dsimp only; omega
  have ecol : win6_3.index ⟨n + 1, hn⟩ (1 : Fin 2) * 1408 + 1 * q.val = 1408 * ((n + 1) / 16 % 3) + q.val := by
    rw [idx_low_col ⟨n + 1, hn⟩]; dsimp only; omega
  show _ = ∑ k : Fin 4096, term V c (win6_3.index ⟨n + 1, hn⟩ (0 : Fin 2) * 1024 + 1 * r.val)
    (win6_3.index ⟨n + 1, hn⟩ (1 : Fin 2) * 1408 + 1 * q.val) k.val
  rw [erow, ecol]

/-- An index of the f32 array is in point `t`'s block iff each coordinate is in the block's range on its axis. -/
theorem mem_blk_f32 (t : Fin cfg6.N) (i : S4096x4224.Idx) :
    i ∈ ((cfg6.win 2).blk t).view.set ↔ ∀ a : Fin 2, win6_2.index t a * S1024x1408.size a ≤ (i a).val
      ∧ (i a).val < win6_2.index t a * S1024x1408.size a + S1024x1408.size a := by
  show i ∈ ((View.whole (Pipeline.arrRef spec6 2)).slice (win6_2.rect t)).set ↔ _
  rw [View.set_slice_whole, Rect.mem_set_unit]
  exact Iff.rfl

/-- The same for the bf16 array. -/
theorem mem_blk_low (t : Fin cfg6.N) (i : S4096x4224.Idx) :
    i ∈ ((cfg6.win 3).blk t).view.set ↔ ∀ a : Fin 2, win6_3.index t a * S1024x1408.size a ≤ (i a).val
      ∧ (i a).val < win6_3.index t a * S1024x1408.size a + S1024x1408.size a := by
  show i ∈ ((View.whole (Pipeline.arrRef spec6 3)).slice (win6_3.rect t)).set ↔ _
  rw [View.set_slice_whole, Rect.mem_set_unit]
  exact Iff.rfl

/-- Entry `(n, a)` lies in block `(n / 1024, a / 1408)`, written back after the last point of that block's run. -/
theorem cover_f32 (i : S4096x4224.Idx) :
    ∃ t : Fin cfg6.N, (cfg6.win 2).flush t = true ∧ i ∈ ((cfg6.win 2).blk t).view.set := by
  have hrow : (i 0).val < 4096 := (i 0).isLt
  have hcol : (i 1).val < 4224 := (i 1).isLt
  have hlt : 48 * ((i 0).val / 1024) + 16 * ((i 1).val / 1408) + 15 < cfg6.N := by
    rw [show cfg6.N = 192 from N_6]; omega
  refine ⟨⟨48 * ((i 0).val / 1024) + 16 * ((i 1).val / 1408) + 15, hlt⟩, (flush6_2 _).mpr (by dsimp only; omega), ?_⟩
  rw [mem_blk_f32]
  intro a
  match a with
  | ⟨0, _⟩ =>
    show win6_2.index ⟨_, hlt⟩ (0 : Fin 2) * 1024 ≤ (i 0).val ∧ (i 0).val < win6_2.index ⟨_, hlt⟩ (0 : Fin 2) * 1024 + 1024
    rw [idx_out_row ⟨_, hlt⟩]; dsimp only; omega
  | ⟨1, _⟩ =>
    show win6_2.index ⟨_, hlt⟩ (1 : Fin 2) * 1408 ≤ (i 1).val ∧ (i 1).val < win6_2.index ⟨_, hlt⟩ (1 : Fin 2) * 1408 + 1408
    rw [idx_out_col ⟨_, hlt⟩]; dsimp only; omega

/-- The same for the bf16 array. -/
theorem cover_low (i : S4096x4224.Idx) :
    ∃ t : Fin cfg6.N, (cfg6.win 3).flush t = true ∧ i ∈ ((cfg6.win 3).blk t).view.set := by
  have hrow : (i 0).val < 4096 := (i 0).isLt
  have hcol : (i 1).val < 4224 := (i 1).isLt
  have hlt : 48 * ((i 0).val / 1024) + 16 * ((i 1).val / 1408) + 15 < cfg6.N := by
    rw [show cfg6.N = 192 from N_6]; omega
  refine ⟨⟨48 * ((i 0).val / 1024) + 16 * ((i 1).val / 1408) + 15, hlt⟩, (flush6_3 _).mpr (by dsimp only; omega), ?_⟩
  rw [mem_blk_low]
  intro a
  match a with
  | ⟨0, _⟩ =>
    show win6_3.index ⟨_, hlt⟩ (0 : Fin 2) * 1024 ≤ (i 0).val ∧ (i 0).val < win6_3.index ⟨_, hlt⟩ (0 : Fin 2) * 1024 + 1024
    rw [idx_low_row ⟨_, hlt⟩]; dsimp only; omega
  | ⟨1, _⟩ =>
    show win6_3.index ⟨_, hlt⟩ (1 : Fin 2) * 1408 ≤ (i 1).val ∧ (i 1).val < win6_3.index ⟨_, hlt⟩ (1 : Fin 2) * 1408 + 1408
    rw [idx_low_col ⟨_, hlt⟩]; dsimp only; omega

/-- The f32 output array ends holding the product array, -/
theorem arr_f32 (c : Dev nD) : (dat6 V c).arrAt 2 cfg6.N = prodArr V c :=
  (dat6 V c).arrAt_eq_of_cover 2 (prodArr V c) (flushed_f32 V c) cover_f32
/-- and so does the bf16 one. -/
theorem arr_low (c : Dev nD) : (dat6 V c).arrAt 3 cfg6.N = prodArrLow V c :=
  (dat6 V c).arrAt_eq_of_cover 3 (prodArrLow V c) (flushed_low V c) cover_low

/-- THE f32 OUTPUT ARRAY after the region, entry by entry: the matrix product of the two input arrays. -/
theorem arr2_apply (c : Dev nD) (n : Fin 4096) (a : Fin 4224) :
    ((dat6 (F := Ideal) V c).arrAt 2 cfg6.N : Vec Ideal S4096x4224 .f32) (ix2 n a)
      = ∑ k : Fin 4096, lhs V c (ix2 n k) * rhs V c (ix2 k a) := by
  rw [arr_f32]
  show ∑ k : Fin 4096, term V c n.val a.val k.val = _
  exact Finset.sum_congr rfl fun k _ => term_inside V c n a k

/-- THE bf16 OUTPUT ARRAY after the region, entry by entry: the same product. -/
theorem arr3_apply (c : Dev nD) (n : Fin 4096) (a : Fin 4224) :
    ((dat6 (F := Ideal) V c).arrAt 3 cfg6.N : Vec Ideal S4096x4224 .bf16) (ix2 n a)
      = ∑ k : Fin 4096, lhs V c (ix2 n k) * rhs V c (ix2 k a) := by
  rw [arr_low]
  show ∑ k : Fin 4096, term V c n.val a.val k.val = _
  exact Finset.sum_congr rfl fun k _ => term_inside V c n a k

end Arrays

end Cert.KernelIdeal.RegPlain6

end
-- ==== Proof.RegComb7.lean ====
/-
  What one accumulate-and-combine call of the program leaves in its output array, entry by entry over the extended reals.

  The call walks a 4 × 3 × 16 grid of points; point `t` is block row `t / 48`, block column `t / 16 % 3`, reduction
  step `t % 16`. At each point the body adds to the output block the product of a 1024 × 256 block of the left array
  and a 256 × 1408 block of the right array; at step 0 the output block is first set to zero; at step 15 the block is
  replaced by `2 · block − C block` and written back. So entry `(n, a)` of the output array ends at
  `2 · (∑ k, L n k * R k a) − C n a`: the sixteen partial products are the sixteen runs of length 256 of the whole sum.
-/
import proofs.«405468_j48026324304060_3_alg».proof.Proof.Gen.KernelIdeal.Frame
import proofs.«405468_j48026324304060_3_alg».proof.Proof.DiffSpec
import proofs.«405468_j48026324304060_3_alg».proof.Proof.SumSplit
import proofs.«405468_j48026324304060_3_alg».proof.Proof.LibPlainMatmul
import Idealize.ShloMosaic.Lib.Pipeline.Value
import Idealize.ShloMosaic.PureOps.Ideal.Laws
import Idealize.ShloMosaic.Lib.ValueIdx
import Idealize.ShloMosaic.Lib.Tactic

set_option maxRecDepth 16384

noncomputable section

namespace Cert.KernelIdeal.RegComb7

open Cert.KernelIdeal Cert.KernelIdeal.Gen Idealize.ShloMosaic Idealize.ShloMosaic.TcCoe Idealize.ShloMosaic.ValueIdx
open Idealize.ShloMosaic.Tactic
open Idealize.ShloMosaic.Pipeline (Dat)

section Pieces

variable {F : FTy → Type} [FloatOps F]

/-- The zero offsets of a whole-block access, however spelt. -/
theorem offs_zero : (![0, 0] : Fin 2 → Nat) = fun _ => 0 := funext fun a => by fin_cases a <;> rfl

/-- An inner reduction step (neither the first nor the last): the one store leaves the block it found plus the
    product of the two input blocks. -/
theorem piece_B (c : Dev nD) (i : grid7.Coords) (ml : Memref sig .tc .vmem S1024x256 .bf16) (wl : ml.IsWhole)
    (mr : Memref sig .tc .vmem S256x1408 .bf16) (wr : mr.IsWhole) (mc : Memref sig .tc .vmem S1024x1408 .f32) (wc : mc.IsWhole)
    (mo : Memref sig .tc .vmem S1024x1408 .f32) (wo : mo.IsWhole) (hca : ¬cond7_0 i) (hcb : ¬cond7_1 i)
    (xl : Vec F S1024x256 .bf16) (xr : Vec F S256x1408 .bf16) (xc : Vec F S1024x1408 .f32) (xo : Vec F S1024x1408 .f32) :
    out7_B_3 c i ml wl mr wr mc wc mo wo hca hcb xl xr xc xo = k7_pay2 xo xl xr := by
  unfold out7_B_3
  rw [View.read_writes_eq_canon _ _ _ (cover7_B_3 c i ml wl mr wr mc wc mo wo hca hcb xl xr xc xo)]
  unfold kernelRun7_B
  dsimp only
  sl_unfold_words
  rw [View.canon_unit_zero offs_zero]
  simp only [View.readAt_eq_ld, wl.read_unread, wr.read_unread, wo.read_unread, View.ld_unit_zero (S := S1024x1408) offs_zero,
    View.ld_unit_zero (S := S1024x256) offs_zero, View.ld_unit_zero (S := S256x1408) offs_zero]

/-- The first reduction step: the block is set to zero, read back, and the product of the two input blocks added. -/
theorem piece_A (c : Dev nD) (i : grid7.Coords) (ml : Memref sig .tc .vmem S1024x256 .bf16) (wl : ml.IsWhole)
    (mr : Memref sig .tc .vmem S256x1408 .bf16) (wr : mr.IsWhole) (mc : Memref sig .tc .vmem S1024x1408 .f32) (wc : mc.IsWhole)
    (mo : Memref sig .tc .vmem S1024x1408 .f32) (wo : mo.IsWhole) (hca : cond7_0 i) (hcb : ¬cond7_1 i)
    (xl : Vec F S1024x256 .bf16) (xr : Vec F S256x1408 .bf16) (xc : Vec F S1024x1408 .f32) :
    out7_A_3 c i ml wl mr wr mc wc mo wo hca hcb xl xr xc = k7_pay2 k7_pay1 xl xr := by
  unfold out7_A_3
  rw [View.read_writes_eq_canon _ _ _ (cover7_A_3 c i ml wl mr wr mc wc mo wo hca hcb xl xr xc)]
  unfold kernelRun7_A
  dsimp only
  sl_unfold_words
  rw [View.canon_cons_unit_zero (S := S1024x1408) offs_zero, View.readCov_unit_zero (S := S1024x1408) _ offs_zero]
  simp only [View.readAt_eq_ld, wl.read_unread, wr.read_unread, View.ld_unit_zero (S := S1024x256) offs_zero,
    View.ld_unit_zero (S := S256x1408) offs_zero]

/-- The last reduction step: the product is added as before, the sum read back, and the block replaced by twice
    the sum minus the third input block. -/
theorem piece_C (c : Dev nD) (i : grid7.Coords) (ml : Memref sig .tc .vmem S1024x256 .bf16) (wl : ml.IsWhole)
    (mr : Memref sig .tc .vmem S256x1408 .bf16) (wr : mr.IsWhole) (mc : Memref sig .tc .vmem S1024x1408 .f32) (wc : mc.IsWhole)
    (mo : Memref sig .tc .vmem S1024x1408 .f32) (wo : mo.IsWhole) (hca : ¬cond7_0 i) (hcb : cond7_1 i)
    (xl : Vec F S1024x256 .bf16) (xr : Vec F S256x1408 .bf16) (xc : Vec F S1024x1408 .f32) (xo : Vec F S1024x1408 .f32) :
    out7_C_3 c i ml wl mr wr mc wc mo wo hca hcb xl xr xc xo = k7_pay3 (k7_pay2 xo xl xr) xc := by
  unfold out7_C_3
  rw [View.read_writes_eq_canon _ _ _ (cover7_C_3 c i ml wl mr wr mc wc mo wo hca hcb xl xr xc xo)]
  unfold kernelRun7_C
  dsimp only
  sl_unfold_words
  rw [View.canon_cons_unit_zero (S := S1024x1408) offs_zero, View.readCov_unit_zero (S := S1024x1408) _ offs_zero]
  simp only [View.readAt_eq_ld, wl.read_unread, wr.read_unread, wc.read_unread, wo.read_unread,
    View.ld_unit_zero (S := S1024x1408) offs_zero, View.ld_unit_zero (S := S1024x256) offs_zero,
    View.ld_unit_zero (S := S256x1408) offs_zero]

end Pieces

/-! ## The three payloads at an entry, over the extended reals -/

section Payloads

/-- The reset block is zero everywhere. -/
theorem reset_apply (r : Fin 1024) (q : Fin 1408) : (k7_pay1 (F := Ideal)) (ix2 r q) = 0 :=
  Ideal.ofBits_zero_f32

/-- The update: the block found plus, at entry `(r, q)`, the 256-term product of row `r` and column `q`. -/
theorem update_apply (acc : Vec Ideal S1024x1408 .f32) (xl : Vec Ideal S1024x256 .bf16) (xr : Vec Ideal S256x1408 .bf16)
    (r : Fin 1024) (q : Fin 1408) :
    k7_pay2 acc xl xr (ix2 r q) = acc (ix2 r q) + ∑ kk : Fin 256, xl (ix2 r kk) * xr (ix2 kk q) := by
  unfold k7_pay2
  simp only [shapeCast_self]
  exact congrArg (acc (ix2 r q) + ·) (PlainMatmul.matmul_zero_apply 1024 256 1408 none xl xr r q)

/-- The closing step: twice the sum minus the third block, the factor two left as its word. -/
theorem combine_apply (v : Vec Ideal S1024x1408 .f32) (w : Vec Ideal S1024x1408 .f32) (r : Fin 1024) (q : Fin 1408) :
    k7_pay3 v w (ix2 r q) = DiffConv.two * v (ix2 r q) - w (ix2 r q) := by
  unfold k7_pay3
  simp only [shapeCast_self]
  rfl

end Payloads

/-! ## The arrays and blocks by their literal types -/

section Region

variable (V : (c : Dev nD) → (b : Ref sig .tc) → Buf (Elt Ideal) ((c : Thread nD τ).loc b))

/-- the three input arrays as the region finds them, by their literal types -/
abbrev lhs (c : Dev nD) : Vec Ideal S4096x4096 .bf16 := V c (Pipeline.arrRef spec7 0)
abbrev rhs (c : Dev nD) : Vec Ideal S4096x4224 .bf16 := V c (Pipeline.arrRef spec7 1)
abbrev sub (c : Dev nD) : Vec Ideal S4096x4224 .f32 := V c (Pipeline.arrRef spec7 2)

/-- the three input blocks at a point, by their literal types -/
abbrev lblk (c : Dev nD) (t : Fin cfg7.N) : Vec Ideal S1024x256 .bf16 := iblk7 V c 0 t
abbrev rblk (c : Dev nD) (t : Fin cfg7.N) : Vec Ideal S256x1408 .bf16 := iblk7 V c 1 t
abbrev cblk (c : Dev nD) (t : Fin cfg7.N) : Vec Ideal S1024x1408 .f32 := iblk7 V c 2 t

/-- Entry `(a, b)` of each array as a function of ANY two naturals (the coordinates reduced modulo the extents, which
    changes nothing inside the array): sums over runs of coordinates are then sums of one function of ℕ. -/
def lhsAt (c : Dev nD) (a b : ℕ) : EReal :=
  lhs V c (ix2 ⟨a % 4096, Nat.mod_lt _ (by decide)⟩ ⟨b % 4096, Nat.mod_lt _ (by decide)⟩)
def rhsAt (c : Dev nD) (a b : ℕ) : EReal :=
  rhs V c (ix2 ⟨a % 4096, Nat.mod_lt _ (by decide)⟩ ⟨b % 4224, Nat.mod_lt _ (by decide)⟩)
def subAt (c : Dev nD) (a b : ℕ) : EReal :=
  sub V c (ix2 ⟨a % 4096, Nat.mod_lt _ (by decide)⟩ ⟨b % 4224, Nat.mod_lt _ (by decide)⟩)

/-! ## Where a point's blocks sit: the index maps, decided over the grid -/

theorem idx_lhs_row : ∀ t : Fin cfg7.N, win7_0.index t (0 : Fin 2) = t.val / 48 :=
  (by decide +kernel : ∀ t : Fin grid7.N, win7_0.index t (0 : Fin 2) = t.val / 48)
theorem idx_lhs_col : ∀ t : Fin cfg7.N, win7_0.index t (1 : Fin 2) = t.val % 16 :=
  (by decide +kernel : ∀ t : Fin grid7.N, win7_0.index t (1 : Fin 2) = t.val % 16)
theorem idx_rhs_row : ∀ t : Fin cfg7.N, win7_1.index t (0 : Fin 2) = t.val % 16 :=
  (by decide +kernel : ∀ t : Fin grid7.N, win7_1.index t (0 : Fin 2) = t.val % 16)
theorem idx_rhs_col : ∀ t : Fin cfg7.N, win7_1.index t (1 : Fin 2) = t.val / 16 % 3 :=
  (by decide +kernel : ∀ t : Fin grid7.N, win7_1.index t (1 : Fin 2) = t.val / 16 % 3)
theorem idx_sub_row : ∀ t : Fin cfg7.N, win7_2.index t (0 : Fin 2) = t.val / 48 :=
  (by decide +kernel : ∀ t : Fin grid7.N, win7_2.index t (0 : Fin 2) = t.val / 48)
theorem idx_sub_col : ∀ t : Fin cfg7.N, win7_2.index t (1 : Fin 2) = t.val / 16 % 3 :=
  (by decide +kernel : ∀ t : Fin grid7.N, win7_2.index t (1 : Fin 2) = t.val / 16 % 3)
theorem idx_out_row : ∀ t : Fin cfg7.N, win7_3.index t (0 : Fin 2) = t.val / 48 :=
  (by decide +kernel : ∀ t : Fin grid7.N, win7_3.index t (0 : Fin 2) = t.val / 48)
theorem idx_out_col : ∀ t : Fin cfg7.N, win7_3.index t (1 : Fin 2) = t.val / 16 % 3 :=
  (by decide +kernel : ∀ t : Fin grid7.N, win7_3.index t (1 : Fin 2) = t.val / 16 % 3)

/-! ## The blocks read at an entry -/

/-- Entry `(r, kk)` of the left block at point `t` is entry `(1024·(t/48) + r, 256·(t%16) + kk)` of the left array. -/
theorem lblk_apply (c : Dev nD) (t : Fin cfg7.N) (r : Fin 1024) (kk : Fin 256) :
    lblk V c t (ix2 r kk) = lhsAt V c (1024 * (t.val / 48) + r.val) (256 * (t.val % 16) + kk.val) := by
  have hN : t.val < 192 := lt_of_lt_of_eq t.isLt (show cfg7.N = 192 from N_7)
  unfold lhsAt
  show ((cfg7.win 0).blk t).view.read (Elt Ideal) (V c (Pipeline.arrRef spec7 0)) (ix2 r kk) = V c (Pipeline.arrRef spec7 0) _
  rw [View.read_apply]
  refine congrArg (V c (Pipeline.arrRef spec7 0)) (funext fun a => Fin.ext ?_)
  match a with
  | ⟨0, _⟩ =>
    show win7_0.index t (0 : Fin 2) * 1024 + 1 * r.val = (1024 * (t.val / 48) + r.val) % 4096
    rw [idx_lhs_row]; omega
  | ⟨1, _⟩ =>
    show win7_0.index t (1 : Fin 2) * 256 + 1 * kk.val = (256 * (t.val % 16) + kk.val) % 4096
    rw [idx_lhs_col]; omega

/-- Entry `(kk, q)` of the right block at point `t` is entry `(256·(t%16) + kk, 1408·(t/16%3) + q)` of the right array. -/
theorem rblk_apply (c : Dev nD) (t : Fin cfg7.N) (kk : Fin 256) (q : Fin 1408) :
    rblk V c t (ix2 kk q) = rhsAt V c (256 * (t.val % 16) + kk.val) (1408 * (t.val / 16 % 3) + q.val) := by
  have hN : t.val < 192 := lt_of_lt_of_eq t.isLt (show cfg7.N = 192 from N_7)
  unfold rhsAt
  show ((cfg7.win 1).blk t).view.read (Elt Ideal) (V c (Pipeline.arrRef spec7 1)) (ix2 kk q) = V c (Pipeline.arrRef spec7 1) _
  rw [View.read_apply]
  refine congrArg (V c (Pipeline.arrRef spec7 1)) (funext fun a => Fin.ext ?_)
  match a with
  | ⟨0, _⟩ =>
    show win7_1.index t (0 : Fin 2) * 256 + 1 * kk.val = (256 * (t.val % 16) + kk.val) % 4096
    rw [idx_rhs_row]; omega
  | ⟨1, _⟩ =>
    show win7_1.index t (1 : Fin 2) * 1408 + 1 * q.val = (1408 * (t.val / 16 % 3) + q.val) % 4224
    rw [idx_rhs_col]; omega

/-- Entry `(r, q)` of the third block at point `t` is entry `(1024·(t/48) + r, 1408·(t/16%3) + q)` of the third array. -/
theorem cblk_apply (c : Dev nD) (t : Fin cfg7.N) (r : Fin 1024) (q : Fin 1408) :
    cblk V c t (ix2 r q) = subAt V c (1024 * (t.val / 48) + r.val) (1408 * (t.val / 16 % 3) + q.val) := by
  have hN : t.val < 192 := lt_of_lt_of_eq t.isLt (show cfg7.N = 192 from N_7)
  unfold subAt
  show ((cfg7.win 2).blk t).view.read (Elt Ideal) (V c (Pipeline.arrRef spec7 2)) (ix2 r q) = V c (Pipeline.arrRef spec7 2) _
  rw [View.read_apply]
  refine congrArg (V c (Pipeline.arrRef spec7 2)) (funext fun a => Fin.ext ?_)
  match a with
  | ⟨0, _⟩ =>
    show win7_2.index t (0 : Fin 2) * 1024 + 1 * r.val = (1024 * (t.val / 48) + r.val) % 4096
    rw [idx_sub_row]; omega
  | ⟨1, _⟩ =>
    show win7_2.index t (1 : Fin 2) * 1408 + 1 * q.val = (1408 * (t.val / 16 % 3) + q.val) % 4224
    rw [idx_sub_col]; omega

/-! ## The accumulation over a run of sixteen points -/

/-- Run `s` of the contraction at entry `(a, b)`: its 256 terms `256·s … 256·s + 255`. -/
def part (c : Dev nD) (a b s : ℕ) : EReal :=
  ∑ kk : Fin 256, lhsAt V c a (256 * s + kk.val) * rhsAt V c (256 * s + kk.val) b

/-- The update at point `t` adds run `t % 16` of the contraction to what the block held. -/
theorem update_blk (c : Dev nD) (t : Fin cfg7.N) (acc : Vec Ideal S1024x1408 .f32) (r : Fin 1024) (q : Fin 1408) :
    k7_pay2 acc (lblk V c t) (rblk V c t) (ix2 r q)
      = acc (ix2 r q) + part V c (1024 * (t.val / 48) + r.val) (1408 * (t.val / 16 % 3) + q.val) (t.val % 16) := by
  rw [update_apply]
  unfold part
  refine congrArg (acc (ix2 r q) + ·) (Finset.sum_congr rfl fun kk _ => ?_)
  rw [lblk_apply, rblk_apply]

/-- At the first point of a run the block holds run 0 alone. -/
theorem first_apply (c : Dev nD) (t : Fin cfg7.N) (hfirst : t.val % 16 = 0) (r : Fin 1024) (q : Fin 1408) :
    outsAt7 V c t.val t.isLt (ix2 r q)
      = part V c (1024 * (t.val / 48) + r.val) (1408 * (t.val / 16 % 3) + q.val) (t.val % 16) := by
  have hlast : ¬t.val % 16 = 15 := by omega
  rw [outsAt7_A V c t hfirst hlast]
  refine (congrFun (piece_A (F := Ideal) c (grid7.coords t) (ms7_0 t) (hs7_0 t) (ms7_1 t) (hs7_1 t) (ms7_2 t) (hs7_2 t)
    (ms7_3 t) (hs7_3 t) ((hcond7_0 t).mpr hfirst) (fun h => hlast ((hcond7_1 t).mp h)) (lblk V c t) (rblk V c t) (cblk V c t))
    (ix2 r q)).trans ?_
  rw [update_blk, reset_apply, zero_add]

/-- At an inner point the block holds what the point before left plus run `t % 16`. -/
theorem step_apply (c : Dev nD) (t : Fin cfg7.N) (hfirst : ¬t.val % 16 = 0) (hlast : ¬t.val % 16 = 15) (r : Fin 1024) (q : Fin 1408) :
    outsAt7 V c t.val t.isLt (ix2 r q)
      = outsAt7 V c (t.val - 1) (Nat.lt_of_le_of_lt (Nat.sub_le _ _) t.isLt) (ix2 r q)
        + part V c (1024 * (t.val / 48) + r.val) (1408 * (t.val / 16 % 3) + q.val) (t.val % 16) := by
  rw [outsAt7_B V c t hfirst hlast]
  refine (congrFun (piece_B (F := Ideal) c (grid7.coords t) (ms7_0 t) (hs7_0 t) (ms7_1 t) (hs7_1 t) (ms7_2 t) (hs7_2 t)
    (ms7_3 t) (hs7_3 t) (fun h => hfirst ((hcond7_0 t).mp h)) (fun h => hlast ((hcond7_1 t).mp h)) (lblk V c t) (rblk V c t) (cblk V c t)
    (outsAt7 V c (t.val - 1) (Nat.lt_of_le_of_lt (Nat.sub_le _ _) t.isLt))) (ix2 r q)).trans ?_
  rw [update_blk]

/-- At the last point of a run the block holds twice (what the point before left plus run 15) minus the third block. -/
theorem last_apply (c : Dev nD) (t : Fin cfg7.N) (hlast : t.val % 16 = 15) (r : Fin 1024) (q : Fin 1408) :
    outsAt7 V c t.val t.isLt (ix2 r q)
      = DiffConv.two * (outsAt7 V c (t.val - 1) (Nat.lt_of_le_of_lt (Nat.sub_le _ _) t.isLt) (ix2 r q)
          + part V c (1024 * (t.val / 48) + r.val) (1408 * (t.val / 16 % 3) + q.val) (t.val % 16))
        - subAt V c (1024 * (t.val / 48) + r.val) (1408 * (t.val / 16 % 3) + q.val) := by
  have hfirst : ¬t.val % 16 = 0 := by omega
  rw [outsAt7_C V c t hfirst hlast]
  refine (congrFun (piece_C (F := Ideal) c (grid7.coords t) (ms7_0 t) (hs7_0 t) (ms7_1 t) (hs7_1 t) (ms7_2 t) (hs7_2 t)
    (ms7_3 t) (hs7_3 t) (fun h => hfirst ((hcond7_0 t).mp h)) ((hcond7_1 t).mpr hlast) (lblk V c t) (rblk V c t) (cblk V c t)
    (outsAt7 V c (t.val - 1) (Nat.lt_of_le_of_lt (Nat.sub_le _ _) t.isLt))) (ix2 r q)).trans ?_
  rw [combine_apply, update_blk, cblk_apply]

/-- THE RUNNING SUM: at point `n`, not the last of its run, the block holds runs `0 … n % 16` of the contraction of its
    rows and columns — by induction on the point. -/
theorem acc_apply (c : Dev nD) : ∀ (n : ℕ) (h : n < cfg7.N), ¬n % 16 = 15 → ∀ (r : Fin 1024) (q : Fin 1408),
    outsAt7 V c n h (ix2 r q)
      = ∑ s ∈ Finset.range (n % 16 + 1), part V c (1024 * (n / 48) + r.val) (1408 * (n / 16 % 3) + q.val) s := by
  intro n
  induction n with
  | zero =>
    intro h _ r q
    exact (first_apply V c ⟨0, h⟩ rfl r q).trans (Finset.sum_range_one _).symm
  | succ n ih =>
    intro h hlast r q
    by_cases hfirst : (n + 1) % 16 = 0
    · refine (first_apply V c ⟨n + 1, h⟩ hfirst r q).trans ?_
      show part V c _ _ ((n + 1) % 16) = _
      rw [hfirst, Finset.sum_range_one]
    · refine (step_apply V c ⟨n + 1, h⟩ hfirst hlast r q).trans ?_
      show outsAt7 V c n _ (ix2 r q)
          + part V c (1024 * ((n + 1) / 48) + r.val) (1408 * ((n + 1) / 16 % 3) + q.val) ((n + 1) % 16) = _
      have ea : (n + 1) / 48 = n / 48 := by omega
      have eb : (n + 1) / 16 % 3 = n / 16 % 3 := by omega
      have ec : (n + 1) % 16 = n % 16 + 1 := by omega
      rw [ih _ (by omega) r q, ea, eb, ec, Finset.sum_range_succ _ (n % 16 + 1)]

/-! ## What the last point of a run writes back, and the whole array -/

/-- The sixteen runs are the whole contraction. -/
theorem runs_eq (c : Dev nD) (a b : ℕ) :
    ∑ s ∈ Finset.range 16, part V c a b s = ∑ k : Fin 4096, lhsAt V c a k.val * rhsAt V c k.val b :=
  DiffConv.sum_runs 16 256 rfl fun k => lhsAt V c a k * rhsAt V c k b

/-- Entry `(a, b)` of the result: twice the whole contraction minus the third array's entry. -/
def entry (c : Dev nD) (a b : ℕ) : EReal :=
  DiffConv.two * (∑ k : Fin 4096, lhsAt V c a k.val * rhsAt V c k.val b) - subAt V c a b

/-- The result array. -/
abbrev whole (c : Dev nD) : Vec Ideal S4096x4224 .f32 := fun i => entry V c (i 0).val (i 1).val

/-- WHAT THE LAST POINT OF A RUN WRITES BACK is its block of the result array: the fifteen runs the block held, the
    sixteenth added, doubled, the third block subtracted. -/
theorem flushed_out (c : Dev nD) (t : Fin cfg7.N) (hf : (cfg7.win 3).flush t = true) :
    (dat7 (F := Ideal) V c).flushed 3 t = ((cfg7.win 3).blk t).view.read (Elt Ideal) (whole V c) := by
  have hlast : t.val % 16 = 15 := (flush7_3 t).mp hf
  have hN : t.val < 192 := lt_of_lt_of_eq t.isLt (show cfg7.N = 192 from N_7)
  show (cfg7.win 3).cut (grid7.coords t) ((dat7 (F := Ideal) V c).after 3 t) = _
  rw [after7_3]
  funext y
  obtain ⟨r, q, rfl⟩ : ∃ (r : Fin 1024) (q : Fin 1408), y = ix2 r q := ⟨y 0, y 1, eq_ix2 y⟩
  rw [View.read_apply]
  show outsAt7 V c t.val t.isLt (ix2 r q)
    = entry V c (win7_3.index t (0 : Fin 2) * 1024 + 1 * r.val) (win7_3.index t (1 : Fin 2) * 1408 + 1 * q.val)
  rw [idx_out_row, idx_out_col,
    show t.val / 48 * 1024 + 1 * r.val = 1024 * (t.val / 48) + r.val from by omega,
    show t.val / 16 % 3 * 1408 + 1 * q.val = 1408 * (t.val / 16 % 3) + q.val from by omega]
  have ea : (t.val - 1) / 48 = t.val / 48 := by omega
  have eb : (t.val - 1) / 16 % 3 = t.val / 16 % 3 := by omega
  have ec : (t.val - 1) % 16 + 1 = 15 := by omega
  rw [last_apply V c t hlast r q, acc_apply V c (t.val - 1) _ (by omega) r q, ea, eb, ec, hlast,
    ← Finset.sum_range_succ, runs_eq]
  rfl

/-- The blocks of the last points of the twelve runs tile the array: entry `(a, b)` is in the block of the last point
    of run `(a / 1024, b / 1408)`. -/
theorem covered (i : S4096x4224.Idx) :
    ∃ t : Fin cfg7.N, (cfg7.win 3).flush t = true ∧ i ∈ ((cfg7.win 3).blk t).view.set := by
  have hrow : (i 0).val < 4096 := (i 0).isLt
  have hcol : (i 1).val < 4224 := (i 1).isLt
  have hN : cfg7.N = 192 := N_7
  refine ⟨⟨48 * ((i 0).val / 1024) + 16 * ((i 1).val / 1408) + 15, by rw [hN]; omega⟩,
    (flush7_3 _).mpr (by dsimp only; omega), ?_⟩
  rw [View.set_slice_whole, Rect.mem_set_unit]
  intro a
  match a with
  | ⟨0, _⟩ =>
    show win7_3.index _ (0 : Fin 2) * 1024 ≤ (i 0).val ∧ (i 0).val < win7_3.index _ (0 : Fin 2) * 1024 + 1024
    rw [idx_out_row]; dsimp only; omega
  | ⟨1, _⟩ =>
    show win7_3.index _ (1 : Fin 2) * 1408 ≤ (i 1).val ∧ (i 1).val < win7_3.index _ (1 : Fin 2) * 1408 + 1408
    rw [idx_out_col]; dsimp only; omega

/-- So the output array ends at the result array. -/
theorem arr_eq (c : Dev nD) : (dat7 (F := Ideal) V c).arrAt 3 cfg7.N = whole V c :=
  (dat7 (F := Ideal) V c).arrAt_eq_of_cover 3 (whole V c) (flushed_out V c) covered

/-- THE OUTPUT ARRAY AT AN ENTRY: `2 · (∑ k, L n k * R k a) − C n a`. -/
theorem arr3_apply (c : Dev nD) (n : Fin 4096) (a : Fin 4224) :
    ((dat7 (F := Ideal) V c).arrAt 3 cfg7.N : Vec Ideal S4096x4224 .f32) (ix2 n a)
      = DiffConv.two * (∑ k : Fin 4096, lhs V c (ix2 n k) * rhs V c (ix2 k a)) - sub V c (ix2 n a) := by
  rw [arr_eq]
  show entry V c n.val a.val = _
  unfold entry lhsAt rhsAt subAt
  have en : (⟨n.val % 4096, Nat.mod_lt _ (by decide)⟩ : Fin 4096) = n := Fin.ext (Nat.mod_eq_of_lt n.isLt)
  have ea : (⟨a.val % 4224, Nat.mod_lt _ (by decide)⟩ : Fin 4224) = a := Fin.ext (Nat.mod_eq_of_lt a.isLt)
  have ek : ∀ k : Fin 4096, (⟨k.val % 4096, Nat.mod_lt _ (by decide)⟩ : Fin 4096) = k := fun k => Fin.ext (Nat.mod_eq_of_lt k.isLt)
  simp only [en, ea, ek]

end Region

end Cert.KernelIdeal.RegComb7

end
-- ==== Proof.KHost0.lean ====
/-
  The first host stretch of the recurrent cell, read entry by entry over the extended reals.

  The stack of two support matrices is narrowed in format (the identity on extended reals) and cut into its two
  4096 × 4096 members. Each node's features (two input features, then 64 state features) are gathered per batch member,
  the batch and node axes are exchanged, and each node's 64·66 entries are flattened into one row: entry
  `(n, 66·b + i)` of the result is feature `i` of node `n` in batch member `b`. Its narrowed copy holds the same
  extended reals. All for any contents of the buffers at the stretch's start.
-/
import proofs.«405468_j48026324304060_3_alg».proof.Proof.Gen.KernelIdeal.Launch
import proofs.«405468_j48026324304060_3_alg».proof.Proof.Tails
import proofs.«405468_j48026324304060_3_alg».proof.Proof.LibAfterFrame
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.KHost0

open Cert.KernelIdeal Cert.KernelIdeal.Gen Idealize.ShloMosaic Idealize.ShloMosaic.TcCoe Idealize.ShloMosaic.ValueIdx

abbrev col (b : Fin 64) (i : Fin 66) : Fin 4224 := ⟨b.val * 66 + i.val, by have := b.isLt; have := i.isLt; omega⟩

/-- Member `g` of a stack of two 4096 × 4096 matrices, cut out as a one-member stack and read as a matrix. -/
theorem member_apply {α : Type} (g : ℕ) (hg : g < 2) (h : S2x4096x4096.Slices ![g, 0, 0] S1x4096x4096)
    (S : S2x4096x4096.Idx → α) (n k : Fin 4096) :
    shapeCast S4096x4096 (extractStridedSlice S1x4096x4096 ![g, 0, 0] S h) shapeCasts_S1x4096x4096_S4096x4096 (ix2 n k)
      = S (ix3 (⟨g, hg⟩ : Fin 2) n k) := by
  refine (shapeCast_apply _ shapeCasts_S1x4096x4096_S4096x4096 (ix2 n k) (ix3 (0 : Fin 1) n k) ?_).trans ?_
  · rw [Shape.rowMajor_val_three, Shape.rowMajor_val_two]
    show (0 * 4096 + n.val) * 4096 + k.val = n.val * 4096 + k.val
    omega
  refine extractStridedSlice_apply ![g, 0, 0] S h (ix3 (0 : Fin 1) n k) (ix3 (⟨g, hg⟩ : Fin 2) n k) ?_
  intro a
  match a with
  | ⟨0, _⟩ => show g = g + 0; omega
  | ⟨1, _⟩ => show n.val = 0 + n.val; omega
  | ⟨2, _⟩ => show k.val = 0 + k.val; omega

/-- Features laid [64, 4096, 66], with the batch and node axes exchanged and each node's 64·66 entries flattened:
    column `66·b + i` of row `n` is batch member `b`, node `n`, feature `i`. -/
theorem flat_apply {α : Type} (Y : S64x4096x66.Idx → α) (n : Fin 4096) (b : Fin 64) (i : Fin 66) :
    shapeCast S4096x4224 (transpose S4096x64x66 [1, 0, 2] Y transposes_S64x4096x66_S4096x64x66_1_0_2)
        shapeCasts_S4096x64x66_S4096x4224 (ix2 n (col b i))
      = Y (ix3 b n i) := by
  refine (shapeCast_apply _ shapeCasts_S4096x64x66_S4096x4224 (ix2 n (col b i)) (ix3 n b i) ?_).trans ?_
  · rw [Shape.rowMajor_val_three, Shape.rowMajor_val_two]
    show (n.val * 64 + b.val) * 66 + i.val = n.val * 4224 + (b.val * 66 + i.val)
    omega
  refine transpose_apply [1, 0, 2] Y transposes_S64x4096x66_S4096x64x66_1_0_2 (ix3 n b i) (ix3 b n i) ?_
  intro a
  match a with
  | ⟨0, _⟩ => rfl
  | ⟨1, _⟩ => rfl
  | ⟨2, _⟩ => rfl

variable (W : Valuation τ sig (Elt Ideal))

abbrev A : Valuation τ sig (Elt Ideal) := StableHlo.after (hostOps0 (F := Ideal)) W

/-- The first support matrix: member 0 of the stack (the narrowing of the format is the identity on extended reals). -/
theorem v2_apply (n k : Fin 4096) :
    (A W (Proc.devRef .tc main_v2) : Vec Ideal S4096x4096 .bf16) (ix2 n k)
      = (W (Proc.devRef .tc main_arg2) : Vec Ideal S2x4096x4096 .f32) (ix3 (0 : Fin 2) n k) := by
  have e : (A W (Proc.devRef .tc main_v2) : Vec Ideal S4096x4096 .bf16)
      = shapeCast S4096x4096 (extractStridedSlice S1x4096x4096 ![0, 0, 0]
          (truncf (F := Ideal) .bf16 (W (Proc.devRef .tc main_arg2) : FVec Ideal S2x4096x4096 .f32) bitsLt_bf16_f32)
          slices_S2x4096x4096_S1x4096x4096_0_0_0) shapeCasts_S1x4096x4096_S4096x4096 := by
    show StableHlo.after (hostOps0 (F := Ideal)) W (Proc.devRef .tc main_v2) = _
    first
      | (after_results_simp
         first | rfl | fail "rfl after simp (v2)")
      | fail "after_results_simp (v2)"
  rw [e]
  exact member_apply 0 (by decide) slices_S2x4096x4096_S1x4096x4096_0_0_0 _ n k

/-- The second support matrix: member 1 of the stack. -/
theorem v4_apply (n k : Fin 4096) :
    (A W (Proc.devRef .tc main_v4) : Vec Ideal S4096x4096 .bf16) (ix2 n k)
      = (W (Proc.devRef .tc main_arg2) : Vec Ideal S2x4096x4096 .f32) (ix3 (1 : Fin 2) n k) := by
  have e : (A W (Proc.devRef .tc main_v4) : Vec Ideal S4096x4096 .bf16)
      = shapeCast S4096x4096 (extractStridedSlice S1x4096x4096 ![1, 0, 0]
          (truncf (F := Ideal) .bf16 (W (Proc.devRef .tc main_arg2) : FVec Ideal S2x4096x4096 .f32) bitsLt_bf16_f32)
          slices_S2x4096x4096_S1x4096x4096_1_0_0) shapeCasts_S1x4096x4096_S4096x4096 := by
    show StableHlo.after (hostOps0 (F := Ideal)) W (Proc.devRef .tc main_v4) = _
    first
      | (after_results_simp
         first | rfl | fail "rfl after simp (v4)")
      | fail "after_results_simp (v4)"
  rw [e]
  exact member_apply 1 (by decide) slices_S2x4096x4096_S1x4096x4096_1_0_0 _ n k

/-- The first convolution's input: the nodes' features, node-major, each row the 64 batch members' 66 features. -/
theorem v9_eq : (A W (Proc.devRef .tc main_v9) : Vec Ideal S4096x4224 .f32)
    = shapeCast S4096x4224 (transpose S4096x64x66 [1, 0, 2]
        (Tails.feat (W (Proc.devRef .tc main_arg0)) (W (Proc.devRef .tc main_arg1)))
        transposes_S64x4096x66_S4096x64x66_1_0_2) shapeCasts_S4096x64x66_S4096x4224 := by
  show StableHlo.after (hostOps0 (F := Ideal)) W (Proc.devRef .tc main_v9) = _
  first
    | (after_results_simp
       first | rfl | (unfold Tails.feat; rfl) | fail "rfl after simp (v9)")
    | fail "after_results_simp (v9)"

theorem v9_apply (n : Fin 4096) (b : Fin 64) (i : Fin 66) :
    (A W (Proc.devRef .tc main_v9) : Vec Ideal S4096x4224 .f32) (ix2 n (col b i))
      = Tails.feat (W (Proc.devRef .tc main_arg0)) (W (Proc.devRef .tc main_arg1)) (ix3 b n i) := by
  rw [v9_eq]
  exact flat_apply _ n b i

/-- Its narrowed copy holds the same extended reals. -/
theorem v10_eq : (A W (Proc.devRef .tc main_v10) : S4096x4224.Idx → EReal) = A W (Proc.devRef .tc main_v9) := by
  show StableHlo.after (hostOps0 (F := Ideal)) W (Proc.devRef .tc main_v10)
    = StableHlo.after (hostOps0 (F := Ideal)) W (Proc.devRef .tc main_v9)
  first
    | (after_results_simp
       first | rfl | fail "rfl after simp (v10)")
    | fail "after_results_simp (v10)"

end Cert.KernelIdeal.KHost0

end
-- ==== Proof.LibHostContract.lean ====
/-
  A host contraction, and two broadcasts, read at one entry over the extended reals.

  For `A : [M, K]` and `B : [K, N]` under the dimension numbers "contract the left operand's axis 1 with the right
  operand's axis 0, no batch axis", the host's product is, at entry `(i, l)`, the sum over the contracted coordinate `k`
  of `A (i, k) * B (k, l)`. For two stacks `A, B : [G, m, K]` under "batch axis 0 of both, contract the last axis of
  both", member `g` of the product is the table of inner products of the rows of the two members `g`: entry `(g, i, l)`
  is the sum over `d` of `A (g, i, d) * B (g, l, d)`. In both, the contraction index has one axis of extent `K`, so the
  sum over it is re-indexed by its one coordinate. The dimension numbers are taken with their conditions as a
  hypothesis, so the lemmas apply to a record whatever proof of its conditions it carries. Nothing is assumed of the
  entries (they may be infinite).

  A vector of `K` entries laid as one row and copied down `M` rows reads its entry `k` at `(b, k)`; a `G × n` array given
  a middle axis of extent one reads its entry `(g, d)` at `(g, 0, d)`. Both for any element type.
-/
import Idealize.ShloMosaic.PureOps.Ideal.Laws
import Idealize.ShloMosaic.Lib.ValueIdx
import Idealize.ShloMosaic.Lib.Pipeline.Value

noncomputable section

namespace Idealize.ShloMosaic.HostContract

open Idealize.ShloMosaic Idealize.ShloMosaic.ValueIdx

/-! ## A contraction of two matrices, and of two stacks of matrices row against row, read at one entry -/

section Contractions
variable {M K N : Nat}

/-- The dimension numbers "contract the left operand's axis 1 with the right operand's axis 0, no batch axis" for an
    `M × K` by `K × N` product, under conditions `w` stated elsewhere. -/
abbrev plainDims (w : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], w⟩

variable (w : DotDims.WF ⟨2, ![M, K]⟩ ⟨2, ![K, N]⟩ ⟨2, ![M, N]⟩ [1] [0] [0] [1] [] [])

/-- The left operand is read on the row of the output entry, -/
theorem plain_lhs_row (j : (⟨2, ![M, N]⟩ : Shape).Idx) (q : (plainDims w).contr.Idx) :
    ((plainDims w).lhsIdx j q 0).val = (j 0).val := rfl
/-- at the contracted coordinate; -/
theorem plain_lhs_col (j : (⟨2, ![M, N]⟩ : Shape).Idx) (q : (plainDims w).contr.Idx) :
    ((plainDims w).lhsIdx j q 1).val = (q ⟨0, Nat.one_pos⟩).val :=
  (plainDims w).lhsIdx_val_of_single rfl j q
/-- the right operand at the contracted coordinate, -/
theorem plain_rhs_row (j : (⟨2, ![M, N]⟩ : Shape).Idx) (q : (plainDims w).contr.Idx) :
    ((plainDims w).rhsIdx j q 0).val = (q ⟨0, Nat.one_pos⟩).val :=
  (plainDims w).rhsIdx_val_of_single rfl j q
/-- on the column of the output entry. -/
theorem plain_rhs_col (j : (⟨2, ![M, N]⟩ : Shape).Idx) (q : (plainDims w).contr.Idx) :
    ((plainDims w).rhsIdx j q 1).val = (j 1).val := rfl

/-- The product at an entry: `(A · B) (i, l) = ∑ k, A (i, k) * B (k, l)`. -/
theorem plain_dot_apply {φ₁ φ₂ : FTy} (prec : Option ContractPrecision)
    (A : FVec Ideal ⟨2, ![M, K]⟩ φ₁) (B : FVec Ideal ⟨2, ![K, N]⟩ φ₂) (i : Fin M) (l : Fin N) :
    Host.dotGeneral (plainDims w) prec A B (ix2 i l) = ∑ k : Fin K, A (ix2 i k) * B (ix2 k l) := by
  show FloatOps.dotGeneral _ prec _ A B (ix2 i l) = _
  rw [Ideal.dotGeneral_apply, ← Equiv.sum_comp (contrEquiv1 (plainDims w) K rfl rfl).symm]
  refine Finset.sum_congr rfl fun k _ => ?_
  have hk := contrEquiv1_symm_val (plainDims w) K rfl rfl k
  have el : (plainDims w).lhsIdx (ix2 i l) ((contrEquiv1 (plainDims w) K rfl rfl).symm k) = ix2 i k :=
    funext fun c => Fin.ext (by
      match c with
      | ⟨0, _⟩ => exact plain_lhs_row w _ _
      | ⟨1, _⟩ => exact (plain_lhs_col w _ _).trans hk)
  have er : (plainDims w).rhsIdx (ix2 i l) ((contrEquiv1 (plainDims w) K rfl rfl).symm k) = ix2 k l :=
    funext fun c => Fin.ext (by
      match c with
      | ⟨0, _⟩ => exact (plain_rhs_row w _ _).trans hk
      | ⟨1, _⟩ => exact plain_rhs_col w _ _)
  rw [el, er]

end Contractions

section Gram
variable {G m K : Nat}

/-- The dimension numbers "batch axis 0 of both operands, contract the last axis of both" for two stacks of `m × K`
    matrices: member `g` of the result is the table of inner products of the rows of the two members `g`. -/
abbrev gramDims (w : DotDims.WF ⟨3, ![G, m, K]⟩ ⟨3, ![G, m, K]⟩ ⟨3, ![G, m, m]⟩ [2] [2] [1] [1] [0] [0]) :
    DotDims ⟨3, ![G, m, K]⟩ ⟨3, ![G, m, K]⟩ ⟨3, ![G, m, m]⟩ := ⟨[2], [2], [1], [1], [0], [0], w⟩

variable (w : DotDims.WF ⟨3, ![G, m, K]⟩ ⟨3, ![G, m, K]⟩ ⟨3, ![G, m, m]⟩ [2] [2] [1] [1] [0] [0])

/-- The left operand is read in the member of the output entry, -/
theorem gram_lhs_batch (j : (⟨3, ![G, m, m]⟩ : Shape).Idx) (q : (gramDims w).contr.Idx) :
    ((gramDims w).lhsIdx j q 0).val = (j 0).val := rfl
/-- on the row the entry's middle coordinate names, -/
theorem gram_lhs_row (j : (⟨3, ![G, m, m]⟩ : Shape).Idx) (q : (gramDims w).contr.Idx) :
    ((gramDims w).lhsIdx j q 1).val = (j 1).val := rfl
/-- at the contracted coordinate; -/
theorem gram_lhs_col (j : (⟨3, ![G, m, m]⟩ : Shape).Idx) (q : (gramDims w).contr.Idx) :
    ((gramDims w).lhsIdx j q 2).val = (q ⟨0, Nat.one_pos⟩).val :=
  (gramDims w).lhsIdx_val_of_single rfl j q
/-- the right operand in the same member, -/
theorem gram_rhs_batch (j : (⟨3, ![G, m, m]⟩ : Shape).Idx) (q : (gramDims w).contr.Idx) :
    ((gramDims w).rhsIdx j q 0).val = (j 0).val := rfl
/-- on the row the entry's last coordinate names, -/
theorem gram_rhs_row (j : (⟨3, ![G, m, m]⟩ : Shape).Idx) (q : (gramDims w).contr.Idx) :
    ((gramDims w).rhsIdx j q 1).val = (j 2).val := rfl
/-- at the contracted coordinate. -/
theorem gram_rhs_col (j : (⟨3, ![G, m, m]⟩ : Shape).Idx) (q : (gramDims w).contr.Idx) :
    ((gramDims w).rhsIdx j q 2).val = (q ⟨0, Nat.one_pos⟩).val :=
  (gramDims w).rhsIdx_val_of_single rfl j q

/-- The table at an entry: `gram (g, i, l) = ∑ d, A (g, i, d) * B (g, l, d)`. -/
theorem gram_dot_apply {φ₁ φ₂ : FTy} (prec : Option ContractPrecision)
    (A : FVec Ideal ⟨3, ![G, m, K]⟩ φ₁) (B : FVec Ideal ⟨3, ![G, m, K]⟩ φ₂) (g : Fin G) (i l : Fin m) :
    Host.dotGeneral (gramDims w) prec A B (ix3 g i l) = ∑ d : Fin K, A (ix3 g i d) * B (ix3 g l d) := by
  show FloatOps.dotGeneral _ prec _ A B (ix3 g i l) = _
  rw [Ideal.dotGeneral_apply, ← Equiv.sum_comp (contrEquiv1 (gramDims w) K rfl rfl).symm]
  refine Finset.sum_congr rfl fun k _ => ?_
  have hk := contrEquiv1_symm_val (gramDims w) K rfl rfl k
  have el : (gramDims w).lhsIdx (ix3 g i l) ((contrEquiv1 (gramDims w) K rfl rfl).symm k) = ix3 g i k :=
    funext fun c => Fin.ext (by
      match c with
      | ⟨0, _⟩ => exact gram_lhs_batch w _ _
      | ⟨1, _⟩ => exact gram_lhs_row w _ _
      | ⟨2, _⟩ => exact (gram_lhs_col w _ _).trans hk)
  have er : (gramDims w).rhsIdx (ix3 g i l) ((contrEquiv1 (gramDims w) K rfl rfl).symm k) = ix3 g l k :=
    funext fun c => Fin.ext (by
      match c with
      | ⟨0, _⟩ => exact gram_rhs_batch w _ _
      | ⟨1, _⟩ => exact gram_rhs_row w _ _
      | ⟨2, _⟩ => exact (gram_rhs_col w _ _).trans hk)
  rw [el, er]

end Gram

/-! ## Broadcasts read at an index -/

section Broadcasts
variable {α : Type}

/-- A vector of `K` entries laid as one row and copied down `M` rows reads, at `(b, k)`, its entry `k`. -/
theorem bias_apply {M K : Nat} (h1 : (⟨1, ![K]⟩ : Shape).BroadcastsInDim ⟨2, ![1, K]⟩ ![1])
    (h2 : (⟨2, ![1, K]⟩ : Shape).BroadcastsInDim ⟨2, ![M, K]⟩ ![0, 1]) (x : (⟨1, ![K]⟩ : Shape).Idx → α)
    (b : Fin M) (k : Fin K) :
    broadcastInDim ⟨2, ![M, K]⟩ ![0, 1] h2 (broadcastInDim ⟨2, ![1, K]⟩ ![1] h1 x) (ix2 b k) = x (ix1 k) := by
  have hk : k.val < K := k.isLt
  refine (broadcastInDim_apply ![0, 1] h2 _ (ix2 b k) (ix2 (0 : Fin 1) k) ?_).trans
    (broadcastInDim_apply ![1] h1 x (ix2 (0 : Fin 1) k) (ix1 k) ?_)
  · intro a
    match a with
    | ⟨0, _⟩ => show (0 : ℕ) = if (1 : ℕ) = 1 then 0 else _; rw [if_pos rfl]
    | ⟨1, _⟩ =>
      show k.val = if K = 1 then 0 else k.val
      split
      · omega
      · rfl
  · intro a
    match a with
    | ⟨0, _⟩ =>
      show k.val = if K = 1 then 0 else k.val
      split
      · omega
      · rfl

/-- A `G × n` array given a middle axis of extent one reads, at `(g, 0, d)`, its entry `(g, d)`. -/
theorem unit_axis_apply {G n : Nat} (h : (⟨2, ![G, n]⟩ : Shape).BroadcastsInDim ⟨3, ![G, 1, n]⟩ ![0, 2])
    (x : (⟨2, ![G, n]⟩ : Shape).Idx → α) (g : Fin G) (z : Fin 1) (d : Fin n) :
    broadcastInDim ⟨3, ![G, 1, n]⟩ ![0, 2] h x (ix3 g z d) = x (ix2 g d) := by
  have hg : g.val < G := g.isLt
  have hd : d.val < n := d.isLt
  refine broadcastInDim_apply ![0, 2] h x (ix3 g z d) (ix2 g d) ?_
  intro a
  match a with
  | ⟨0, _⟩ =>
    show g.val = if G = 1 then 0 else g.val
    split
    · omega
    · rfl
  | ⟨1, _⟩ =>
    show d.val = if n = 1 then 0 else d.val
    split
    · omega
    · rfl

end Broadcasts

end Idealize.ShloMosaic.HostContract

end
-- ==== Proof.KHost4.lean ====
/-
  The middle host stretch of the recurrent cell, read entry by entry over the extended reals.

  The stretch starts from the five diffusion orders `X0 … X4 : [4096, 4224]` of the features (row `n` is a node, column
  `66·b + i` is feature `i` of batch member `b`), the weight matrix `Wt : [330, 128]` (row `5·i + m` belongs to feature
  `i` and order `m`) and the bias. It forms the first convolution's output order by order: each order's array, laid out
  [4096·64, 66] (row `64·n + b`), is multiplied by its own 66 × 128 block of the weights — the weights laid out
  [66, 5, 128] with order `m` cut out —; the five products are added, in order, to an accumulator of zeros; the bias is
  added to every row; and the [4096·64, 128] result is laid out again as [64, 4096·128]. Hence the entry at batch member
  `b`, node `n`, output feature `o` is
    `(((((0 + ∑ i, X0 n (b, i) * Wt (5·i + 0) o) + ∑ i, X1 n (b, i) * Wt (5·i + 1) o) + …) + ∑ i, X4 n (b, i) * Wt (5·i + 4) o) + bias o`,
  the five sums standing in the order in which the stretch adds them: nothing is regrouped, and nothing is assumed finite.

  The rest of the stretch applies the logistic function to that output, cuts the reset and the update gate out of it,
  scales the state by the reset gate and joins it to the input features: the very operations `Tails` names, so those
  arrays are equal to `Tails`' terms as they stand. The second convolution's features are then laid out for the
  diffusion, nodes down the rows, and a narrowed copy is taken, which denotes the same extended reals.
-/
import proofs.«405468_j48026324304060_3_alg».proof.Proof.Gen.KernelIdeal.Launch
import proofs.«405468_j48026324304060_3_alg».proof.Proof.Tails
import proofs.«405468_j48026324304060_3_alg».proof.Proof.DiffSpec
import proofs.«405468_j48026324304060_3_alg».proof.Proof.LibHostContract
import proofs.«405468_j48026324304060_3_alg».proof.Proof.LibAfterFrame
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.KHost4

open Cert.KernelIdeal Cert.KernelIdeal.Gen Idealize.ShloMosaic Idealize.ShloMosaic.TcCoe Idealize.ShloMosaic.ValueIdx

variable (W : Valuation τ sig (Elt Ideal))

/-- What the buffers hold after the stretch. -/
abbrev A : Valuation τ sig (Elt Ideal) := StableHlo.after (hostOps4 (F := Ideal)) W
/-- The five diffusion orders, the weights and the bias as the stretch finds them, by their literal types. -/
abbrev X0 : Vec Ideal S4096x4224 .f32 := W (Proc.devRef .tc main_v9)
abbrev X1 : Vec Ideal S4096x4224 .f32 := W (Proc.devRef .tc main_v11_0)
abbrev X2 : Vec Ideal S4096x4224 .f32 := W (Proc.devRef .tc main_v12)
abbrev X3 : Vec Ideal S4096x4224 .f32 := W (Proc.devRef .tc main_v13_0)
abbrev X4 : Vec Ideal S4096x4224 .f32 := W (Proc.devRef .tc main_v14)
abbrev Wt : Vec Ideal S330x128 .f32 := W (Proc.devRef .tc main_arg3)
abbrev Bs : Vec Ideal S128 .f32 := W (Proc.devRef .tc main_arg4)
/-- The column of batch member `b`, feature `i`. -/
abbrev col (b : Fin 64) (i : Fin 66) : Fin 4224 := ⟨b.val * 66 + i.val, by have := b.isLt; have := i.isLt; omega⟩
/-- The first convolution's output, [64, 4096·128]. -/
abbrev Z : Vec Ideal S64x524288 .f32 := A W (Proc.devRef .tc main_v47)

/-! ## The first convolution's output as one term over the stretch's inputs -/

/-- Rows `5·i + m` of the weights, as a 66 × 128 matrix: the weights laid out [66, 5, 128], order `m` cut out. -/
def wOrd (w : Vec Ideal S330x128 .f32) (m : Fin 5) (h : S66x5x128.Slices ![0, m.val, 0] S66x1x128) : Vec Ideal S66x128 .f32 :=
  shapeCast S66x128 (extractStridedSlice S66x1x128 ![0, m.val, 0] (shapeCast S66x5x128 w shapeCasts_S330x128_S66x5x128) h) shapeCasts_S66x1x128_S66x128

/-- One diffusion order's contribution: the order's array laid out [4096·64, 66], times the order's weights. -/
def proj (x : Vec Ideal S4096x4224 .f32) (w : Vec Ideal S66x128 .f32) : Vec Ideal S262144x128 .f32 :=
  Host.dotGeneral (F := Ideal) (φ₁ := .f32) (φ₂ := .f32) dot_S262144x66_S66x128_S262144x128_1_0_0_1_n_n none (shapeCast S262144x66 x shapeCasts_S4096x4224_S262144x66) w

/-- The accumulator the five contributions are added to. -/
def acc0 : Vec Ideal S262144x128 .f32 :=
  broadcastInDim S262144x128 ![] bcast_S_S262144x128 (constant (F := Ideal) S_ .f32 0x00000000#32)

/-- The five contributions added in order, then the bias copied down the rows: [4096·64, 128]. -/
def pre (x0 x1 x2 x3 x4 : Vec Ideal S4096x4224 .f32) (w : Vec Ideal S330x128 .f32) (bs : Vec Ideal S128 .f32) : Vec Ideal S262144x128 .f32 :=
  addf (F := Ideal) (φ := .f32)
    (addf (F := Ideal) (φ := .f32) (addf (F := Ideal) (φ := .f32) (addf (F := Ideal) (φ := .f32) (addf (F := Ideal) (φ := .f32)
      (addf (F := Ideal) (φ := .f32) acc0 (proj x0 (wOrd w 0 slices_S66x5x128_S66x1x128_0_0_0)))
      (proj x1 (wOrd w 1 slices_S66x5x128_S66x1x128_0_1_0)))
      (proj x2 (wOrd w 2 slices_S66x5x128_S66x1x128_0_2_0)))
      (proj x3 (wOrd w 3 slices_S66x5x128_S66x1x128_0_3_0)))
      (proj x4 (wOrd w 4 slices_S66x5x128_S66x1x128_0_4_0)))
    (broadcastInDim S262144x128 ![0, 1] bcast_S1x128_S262144x128_0_1 (broadcastInDim S1x128 ![1] bcast_S128_S1x128_1 bs))

/-- Rows (node, batch member) re-laid as [64, 4096·128]. -/
def relay (y : Vec Ideal S262144x128 .f32) : Vec Ideal S64x524288 .f32 :=
  shapeCast S64x524288 (transpose S64x4096x128 [1, 0, 2] (shapeCast S4096x64x128 y shapeCasts_S262144x128_S4096x64x128)
    transposes_S4096x64x128_S64x4096x128_1_0_2) shapeCasts_S64x4096x128_S64x524288

/-- The stretch's first 34 operations, composed: the output is the re-laid sum of the five contributions and the bias. -/
theorem Z_eq : Z W = relay (pre (X0 W) (X1 W) (X2 W) (X3 W) (X4 W) (Wt W) (Bs W)) := by
  dsimp only [Z, A, hostOps4]
  after_results_simp
  rfl

/-! ## Each piece read at an entry -/

/-- The accumulator is zero everywhere. -/
theorem acc0_apply (r : Fin 262144) (o : Fin 128) : acc0 (ix2 r o) = 0 := by
  unfold acc0
  refine (broadcastInDim_apply ![] bcast_S_S262144x128 _ (ix2 r o) ix0 (fun a => a.elim0)).trans ?_
  exact Ideal.ofBits_zero_f32

/-- Order `m`'s weights: entry `(i, o)` is row `5·i + m` of the weight matrix, since [330, 128] is laid out
    [66, 5, 128] row-major. -/
theorem wOrd_apply (w : Vec Ideal S330x128 .f32) (m : Fin 5) (h : S66x5x128.Slices ![0, m.val, 0] S66x1x128)
    (i : Fin 66) (o : Fin 128) :
    wOrd w m h (ix2 i o) = w (ix2 (DiffConv.wrow i m) o) := by
  have hi := i.isLt
  have ho := o.isLt
  have hm := m.isLt
  unfold wOrd
  refine (shapeCast_apply _ shapeCasts_S66x1x128_S66x128 (ix2 i o) (ix3 i (0 : Fin 1) o) ?_).trans ?_
  · rw [Shape.rowMajor_val_three, Shape.rowMajor_val_two]
    show (i.val * 1 + 0) * 128 + o.val = i.val * 128 + o.val
    omega
  refine (extractStridedSlice_apply ![0, m.val, 0] _ h (ix3 i (0 : Fin 1) o) (ix3 i m o) ?_).trans ?_
  · intro a
    match a with
    | ⟨0, _⟩ => show i.val = 0 + i.val; omega
    | ⟨1, _⟩ => show m.val = m.val + 0; omega
    | ⟨2, _⟩ => show o.val = 0 + o.val; omega
  refine shapeCast_apply w shapeCasts_S330x128_S66x5x128 (ix3 i m o) _ ?_
  rw [Shape.rowMajor_val_two, Shape.rowMajor_val_three]
  show (5 * i.val + m.val) * 128 + o.val = (i.val * 5 + m.val) * 128 + o.val
  omega

/-- Row `64·n + b` of an order's array laid out [4096·64, 66] is node `n`'s features of batch member `b`; the
    contraction sums over the 66 features. -/
theorem proj_apply (x : Vec Ideal S4096x4224 .f32) (w : Vec Ideal S66x128 .f32) (n : Fin 4096) (b : Fin 64) (o : Fin 128) :
    proj x w (ix2 (⟨n.val * 64 + b.val, by have := n.isLt; have := b.isLt; omega⟩ : Fin 262144) o)
      = ∑ i : Fin 66, x (ix2 n (col b i)) * w (ix2 i o) := by
  have hn := n.isLt
  have hb := b.isLt
  unfold proj
  refine (HostContract.plain_dot_apply dot_S262144x66_S66x128_S262144x128_1_0_0_1_n_n_wf none _ w _ o).trans ?_
  refine Finset.sum_congr rfl fun i _ => ?_
  have hi := i.isLt
  congr 1
  refine shapeCast_apply x shapeCasts_S4096x4224_S262144x66 _ (ix2 n (col b i)) ?_
  rw [Shape.rowMajor_val_two, Shape.rowMajor_val_two]
  show n.val * 4224 + (b.val * 66 + i.val) = (n.val * 64 + b.val) * 66 + i.val
  omega

/-- The re-layout: entry `(b, 128·n + o)` is row `64·n + b`, column `o`. -/
theorem relay_apply (y : Vec Ideal S262144x128 .f32) (b : Fin 64) (n : Fin 4096) (o : Fin 128) :
    relay y (ix2 b (⟨n.val * 128 + o.val, by have := n.isLt; have := o.isLt; omega⟩ : Fin 524288))
      = y (ix2 (⟨n.val * 64 + b.val, by have := n.isLt; have := b.isLt; omega⟩ : Fin 262144) o) := by
  have hn := n.isLt
  have hb := b.isLt
  have ho := o.isLt
  unfold relay
  refine (shapeCast_apply _ shapeCasts_S64x4096x128_S64x524288 _ (ix3 b n o) ?_).trans ?_
  · rw [Shape.rowMajor_val_three, Shape.rowMajor_val_two]
    show (b.val * 4096 + n.val) * 128 + o.val = b.val * 524288 + (n.val * 128 + o.val)
    omega
  refine (transpose_apply [1, 0, 2] _ transposes_S4096x64x128_S64x4096x128_1_0_2 (ix3 b n o) (ix3 n b o) ?_).trans ?_
  · intro c
    match c with
    | ⟨0, _⟩ => rfl
    | ⟨1, _⟩ => rfl
    | ⟨2, _⟩ => rfl
  refine shapeCast_apply y shapeCasts_S262144x128_S4096x64x128 (ix3 n b o) _ ?_
  rw [Shape.rowMajor_val_two, Shape.rowMajor_val_three]
  show (n.val * 64 + b.val) * 128 + o.val = (n.val * 64 + b.val) * 128 + o.val
  rfl

/-- The first convolution's output at batch member `b`, node `n`, output feature `o`: the five orders' sums over the
    66 features, added in order to zero, then the bias. -/
theorem Z_apply (b : Fin 64) (n : Fin 4096) (o : Fin 128) :
    Z W (ix2 b ⟨n.val * 128 + o.val, by have := n.isLt; have := o.isLt; omega⟩)
      = (((((0 + ∑ i : Fin 66, X0 W (ix2 n (col b i)) * Wt W (ix2 (DiffConv.wrow i 0) o))
            + ∑ i : Fin 66, X1 W (ix2 n (col b i)) * Wt W (ix2 (DiffConv.wrow i 1) o))
            + ∑ i : Fin 66, X2 W (ix2 n (col b i)) * Wt W (ix2 (DiffConv.wrow i 2) o))
            + ∑ i : Fin 66, X3 W (ix2 n (col b i)) * Wt W (ix2 (DiffConv.wrow i 3) o))
            + ∑ i : Fin 66, X4 W (ix2 n (col b i)) * Wt W (ix2 (DiffConv.wrow i 4) o))
          + Bs W (ix1 o) := by
  rw [Z_eq, relay_apply]
  unfold pre
  simp only [addf_apply, acc0_apply, proj_apply, wOrd_apply]
  rw [HostContract.bias_apply]

/-! ## The gates and the second convolution's features -/

/-- The features re-laid for the diffusion: nodes down the rows, (batch member, feature) along the columns. -/
def lay (y : Vec Ideal S64x4096x66 .f32) : Vec Ideal S4096x4224 .f32 :=
  shapeCast S4096x4224 (transpose S4096x64x66 [1, 0, 2] y transposes_S64x4096x66_S4096x64x66_1_0_2) shapeCasts_S4096x64x66_S4096x4224

/-- Entry `(n, 66·b + i)` of the re-laid array is feature `i` of node `n` of batch member `b`. -/
theorem lay_apply (y : Vec Ideal S64x4096x66 .f32) (n : Fin 4096) (b : Fin 64) (i : Fin 66) :
    lay y (ix2 n (col b i)) = y (ix3 b n i) := by
  have hn := n.isLt
  have hb := b.isLt
  have hi := i.isLt
  unfold lay
  refine (shapeCast_apply _ shapeCasts_S4096x64x66_S4096x4224 _ (ix3 n b i) ?_).trans ?_
  · rw [Shape.rowMajor_val_three, Shape.rowMajor_val_two]
    show (n.val * 64 + b.val) * 66 + i.val = n.val * 4224 + (b.val * 66 + i.val)
    omega
  refine transpose_apply [1, 0, 2] y transposes_S64x4096x66_S4096x64x66_1_0_2 (ix3 n b i) (ix3 b n i) ?_
  intro c
  match c with
  | ⟨0, _⟩ => rfl
  | ⟨1, _⟩ => rfl
  | ⟨2, _⟩ => rfl

/-- The update gate, as the stretch computes it from the first convolution's output. -/
theorem v58_eq : (A W (Proc.devRef .tc main_v58) : Vec Ideal S64x262144 .f32) = Tails.uOf (Z W) := by
  dsimp only [Z, A, hostOps4]
  after_results_simp
  rfl

/-- The second convolution's features, re-laid for the diffusion. -/
theorem v64_eq : (A W (Proc.devRef .tc main_v64) : Vec Ideal S4096x4224 .f32)
    = lay (Tails.feat2 (W (Proc.devRef .tc main_arg0)) (W (Proc.devRef .tc main_arg1)) (Z W)) := by
  dsimp only [Z, A, hostOps4]
  after_results_simp
  rfl

/-- Entry `(n, 66·b + i)` of the re-laid features is feature `i` of node `n` of batch member `b`: an input feature
    for `i < 2`, else a state feature scaled by the reset gate. -/
theorem v64_apply (n : Fin 4096) (b : Fin 64) (i : Fin 66) :
    (A W (Proc.devRef .tc main_v64) : Vec Ideal S4096x4224 .f32) (ix2 n (col b i))
      = Tails.feat2 (W (Proc.devRef .tc main_arg0)) (W (Proc.devRef .tc main_arg1)) (Z W) (ix3 b n i) := by
  rw [v64_eq, lay_apply]

/-- The narrowed copy of the second convolution's features holds the same extended reals: narrowing a float is the
    identity on the extended real it denotes. -/
theorem v65_eq : (A W (Proc.devRef .tc main_v65) : S4096x4224.Idx → EReal) = A W (Proc.devRef .tc main_v64) := by
  dsimp only [A, hostOps4]
  after_results_simp
  rfl

end Cert.KernelIdeal.KHost4

end
-- ==== Proof.KHost8.lean ====
/-
  The last host stretch of the recurrent cell, read entry by entry over the extended reals.

  The five diffusion orders arrive as [4096, 4224] arrays: column `66·b + i` of row `n` is feature `i` of node `n` in
  batch member `b`. Each is read as a [4096·64, 66] matrix (row `64·n + b`) and multiplied by the 66 × 64 block of the
  weight matrix that belongs to its order — the weight matrix's 330 rows are laid feature-major, order-minor, so order
  `m` owns rows `5·i + m` —; the five products are added in order to a zero accumulator, the bias row is added, and the
  [4096·64, 64] result is re-laid batch-major as [64, 4096·64]. So the entry of batch member `b`, node `n`, output
  feature `o` is zero plus, order by order, the sum over the features `i` of the order's entry times weight row
  `5·i + m`, plus the bias of `o`. The cell's new state is then formed from the update gate, the old state and the
  hyperbolic tangent of that array. All for any contents of the buffers at the stretch's start.
-/
import proofs.«405468_j48026324304060_3_alg».proof.Proof.Gen.KernelIdeal.Launch
import proofs.«405468_j48026324304060_3_alg».proof.Proof.Tails
import proofs.«405468_j48026324304060_3_alg».proof.Proof.DiffSpec
import proofs.«405468_j48026324304060_3_alg».proof.Proof.LibHostContract
import proofs.«405468_j48026324304060_3_alg».proof.Proof.LibAfterFrame
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.KHost8

open Cert.KernelIdeal Cert.KernelIdeal.Gen Idealize.ShloMosaic Idealize.ShloMosaic.TcCoe Idealize.ShloMosaic.ValueIdx

/-- Column `66·b + i`: batch member `b`, feature `i`. -/
abbrev col (b : Fin 64) (i : Fin 66) : Fin 4224 := ⟨b.val * 66 + i.val, by have := b.isLt; have := i.isLt; omega⟩
/-- Row `64·n + b`: node `n`, batch member `b`. -/
abbrev row (n : Fin 4096) (b : Fin 64) : Fin 262144 := ⟨n.val * 64 + b.val, by have := n.isLt; have := b.isLt; omega⟩
/-- Position `64·n + o`: node `n`, output feature `o`. -/
abbrev cell (n : Fin 4096) (o : Fin 64) : Fin 262144 := ⟨n.val * 64 + o.val, by have := n.isLt; have := o.isLt; omega⟩

/-- A [4096, 4224] array read as [4096·64, 66]: both positions are `4224·n + 66·b + i` in row-major order. -/
theorem rows_apply (X : FVec Ideal S4096x4224 .f32) (n : Fin 4096) (b : Fin 64) (i : Fin 66) :
    shapeCast S262144x66 X shapeCasts_S4096x4224_S262144x66 (ix2 (row n b) i) = X (ix2 n (col b i)) := by
  refine shapeCast_apply X shapeCasts_S4096x4224_S262144x66 _ _ ?_
  rw [Shape.rowMajor_val_two, Shape.rowMajor_val_two]
  show n.val * 4224 + (b.val * 66 + i.val) = (n.val * 64 + b.val) * 66 + i.val
  omega

/-- Order `k`'s 66 × 64 block of the weight matrix: the matrix read as [66, 5, 64], cut at order `k`, the unit axis
    dropped; its row `i` is row `5·i + k` of the matrix. -/
theorem w_apply (k : ℕ) (hk : k < 5) (h : S66x5x64.Slices ![0, k, 0] S66x1x64) (Wt : FVec Ideal S330x64 .f32)
    (i : Fin 66) (o : Fin 64) :
    shapeCast S66x64 (extractStridedSlice S66x1x64 ![0, k, 0] (shapeCast S66x5x64 Wt shapeCasts_S330x64_S66x5x64) h)
        shapeCasts_S66x1x64_S66x64 (ix2 i o)
      = Wt (ix2 (DiffConv.wrow i ⟨k, hk⟩) o) := by
  refine (shapeCast_apply _ shapeCasts_S66x1x64_S66x64 (ix2 i o) (ix3 i (0 : Fin 1) o) ?_).trans ?_
  · rw [Shape.rowMajor_val_three, Shape.rowMajor_val_two]
    show (i.val * 1 + 0) * 64 + o.val = i.val * 64 + o.val
    omega
  refine (extractStridedSlice_apply ![0, k, 0] _ h (ix3 i (0 : Fin 1) o) (ix3 i (⟨k, hk⟩ : Fin 5) o) ?_).trans ?_
  · intro a
    match a with
    | ⟨0, _⟩ => show i.val = 0 + i.val; omega
    | ⟨1, _⟩ => show k = k + 0; omega
    | ⟨2, _⟩ => show o.val = 0 + o.val; omega
  refine shapeCast_apply Wt shapeCasts_S330x64_S66x5x64 (ix3 i (⟨k, hk⟩ : Fin 5) o) (ix2 (DiffConv.wrow i ⟨k, hk⟩) o) ?_
  rw [Shape.rowMajor_val_two, Shape.rowMajor_val_three]
  show (5 * i.val + k) * 64 + o.val = (i.val * 5 + k) * 64 + o.val
  omega

/-- One order's product at an entry: the sum over the 66 features. -/
theorem term_apply (X : FVec Ideal S4096x4224 .f32) (Wm : FVec Ideal S66x64 .f32) (n : Fin 4096) (b : Fin 64) (o : Fin 64) :
    Host.dotGeneral (F := Ideal) (φ₁ := .f32) (φ₂ := .f32) dot_S262144x66_S66x64_S262144x64_1_0_0_1_n_n none
        (shapeCast S262144x66 X shapeCasts_S4096x4224_S262144x66) Wm (ix2 (row n b) o)
      = ∑ i : Fin 66, X (ix2 n (col b i)) * Wm (ix2 i o) := by
  refine (HostContract.plain_dot_apply dot_S262144x66_S66x64_S262144x64_1_0_0_1_n_n_wf none _ Wm (row n b) o).trans ?_
  exact Finset.sum_congr rfl fun i _ => by rw [rows_apply]

/-- The re-layout [4096·64, 64] → [4096, 64, 64] → [64, 4096, 64] → [64, 4096·64] at an entry. -/
theorem relay_apply (Y : FVec Ideal S262144x64 .f32) (b : Fin 64) (n : Fin 4096) (o : Fin 64) :
    shapeCast S64x262144
        (transpose S64x4096x64 [1, 0, 2] (shapeCast S4096x64x64 Y shapeCasts_S262144x64_S4096x64x64)
          transposes_S4096x64x64_S64x4096x64_1_0_2)
        shapeCasts_S64x4096x64_S64x262144 (ix2 b (cell n o))
      = Y (ix2 (row n b) o) := by
  refine (shapeCast_apply _ shapeCasts_S64x4096x64_S64x262144 (ix2 b (cell n o)) (ix3 b n o) ?_).trans ?_
  · rw [Shape.rowMajor_val_three, Shape.rowMajor_val_two]
    show (b.val * 4096 + n.val) * 64 + o.val = b.val * 262144 + (n.val * 64 + o.val)
    omega
  refine (transpose_apply [1, 0, 2] _ transposes_S4096x64x64_S64x4096x64_1_0_2 (ix3 b n o) (ix3 n b o) ?_).trans ?_
  · intro a
    match a with
    | ⟨0, _⟩ => rfl
    | ⟨1, _⟩ => rfl
    | ⟨2, _⟩ => rfl
  refine shapeCast_apply Y shapeCasts_S262144x64_S4096x64x64 (ix3 n b o) (ix2 (row n b) o) ?_
  rw [Shape.rowMajor_val_two, Shape.rowMajor_val_three]
  show (n.val * 64 + b.val) * 64 + o.val = (n.val * 64 + b.val) * 64 + o.val
  rfl

/-- One diffusion order's contribution: the order's features as a [4096·64, 66] matrix times rows `5·i + k` of the
    weight matrix. -/
def term (k : ℕ) (h : S66x5x64.Slices ![0, k, 0] S66x1x64) (X : FVec Ideal S4096x4224 .f32) (Wt : FVec Ideal S330x64 .f32) :
    FVec Ideal S262144x64 .f32 :=
  Host.dotGeneral (F := Ideal) (φ₁ := .f32) (φ₂ := .f32) dot_S262144x66_S66x64_S262144x64_1_0_0_1_n_n none
    (shapeCast S262144x66 X shapeCasts_S4096x4224_S262144x66)
    (shapeCast S66x64 (extractStridedSlice S66x1x64 ![0, k, 0] (shapeCast S66x5x64 Wt shapeCasts_S330x64_S66x5x64) h)
      shapeCasts_S66x1x64_S66x64)

/-- That contribution at an entry, in the weight matrix's own rows. -/
theorem term_apply' (k : ℕ) (hk : k < 5) (h : S66x5x64.Slices ![0, k, 0] S66x1x64) (X : FVec Ideal S4096x4224 .f32)
    (Wt : FVec Ideal S330x64 .f32) (n : Fin 4096) (b : Fin 64) (o : Fin 64) :
    term k h X Wt (ix2 (row n b) o) = ∑ i : Fin 66, X (ix2 n (col b i)) * Wt (ix2 (DiffConv.wrow i ⟨k, hk⟩) o) := by
  unfold term
  refine (term_apply X _ n b o).trans ?_
  exact Finset.sum_congr rfl fun i _ => by rw [w_apply k hk h]

/-- The accumulator before the re-layout: zero, plus the five orders' contributions in order, plus the bias row. -/
def pre (X0 X1 X2 X3 X4 : FVec Ideal S4096x4224 .f32) (Wt : FVec Ideal S330x64 .f32) (Bs : FVec Ideal S64 .f32) :
    FVec Ideal S262144x64 .f32 :=
  addf (F := Ideal)
    (addf (F := Ideal)
      (addf (F := Ideal)
        (addf (F := Ideal)
          (addf (F := Ideal)
            (addf (F := Ideal)
              (broadcastInDim S262144x64 ![] bcast_S_S262144x64 (constant (F := Ideal) S_ .f32 0x00000000#32))
              (term 0 slices_S66x5x64_S66x1x64_0_0_0 X0 Wt))
            (term 1 slices_S66x5x64_S66x1x64_0_1_0 X1 Wt))
          (term 2 slices_S66x5x64_S66x1x64_0_2_0 X2 Wt))
        (term 3 slices_S66x5x64_S66x1x64_0_3_0 X3 Wt))
      (term 4 slices_S66x5x64_S66x1x64_0_4_0 X4 Wt))
    (broadcastInDim S262144x64 ![0, 1] bcast_S1x64_S262144x64_0_1 (broadcastInDim S1x64 ![1] bcast_S64_S1x64_1 Bs))

/-- The accumulator at an entry: the zero word is the extended real zero, each contribution its sum over the features,
    the bias row copied down the rows its entry `o`. -/
theorem pre_apply (X0 X1 X2 X3 X4 : FVec Ideal S4096x4224 .f32) (Wt : FVec Ideal S330x64 .f32) (Bs : FVec Ideal S64 .f32)
    (n : Fin 4096) (b : Fin 64) (o : Fin 64) :
    pre X0 X1 X2 X3 X4 Wt Bs (ix2 (row n b) o)
      = (((((0 + ∑ i : Fin 66, X0 (ix2 n (col b i)) * Wt (ix2 (DiffConv.wrow i 0) o))
            + ∑ i : Fin 66, X1 (ix2 n (col b i)) * Wt (ix2 (DiffConv.wrow i 1) o))
            + ∑ i : Fin 66, X2 (ix2 n (col b i)) * Wt (ix2 (DiffConv.wrow i 2) o))
            + ∑ i : Fin 66, X3 (ix2 n (col b i)) * Wt (ix2 (DiffConv.wrow i 3) o))
            + ∑ i : Fin 66, X4 (ix2 n (col b i)) * Wt (ix2 (DiffConv.wrow i 4) o))
          + Bs (ix1 o) := by
  unfold pre
  rw [addf_apply, addf_apply, addf_apply, addf_apply, addf_apply, addf_apply,
    HostContract.bias_apply bcast_S64_S1x64_1 bcast_S1x64_S262144x64_0_1 Bs (row n b) o,
    term_apply' 0 (by decide), term_apply' 1 (by decide), term_apply' 2 (by decide), term_apply' 3 (by decide),
    term_apply' 4 (by decide)]
  rw [show broadcastInDim S262144x64 ![] bcast_S_S262144x64 (constant (F := Ideal) S_ .f32 0x00000000#32) (ix2 (row n b) o)
      = (0 : EReal) from Ideal.ofBits_zero_f32]
  rfl

/-- The accumulator re-laid batch-major: [4096·64, 64] as [64, 4096·64]. -/
def relay (Y : FVec Ideal S262144x64 .f32) : FVec Ideal S64x262144 .f32 :=
  shapeCast S64x262144
    (transpose S64x4096x64 [1, 0, 2] (shapeCast S4096x64x64 Y shapeCasts_S262144x64_S4096x64x64)
      transposes_S4096x64x64_S64x4096x64_1_0_2)
    shapeCasts_S64x4096x64_S64x262144

variable (W : Valuation τ sig (Elt Ideal))

abbrev A : Valuation τ sig (Elt Ideal) := StableHlo.after (hostOps8 (F := Ideal)) W
abbrev X0 : Vec Ideal S4096x4224 .f32 := W (Proc.devRef .tc main_v64)
abbrev X1 : Vec Ideal S4096x4224 .f32 := W (Proc.devRef .tc main_v66_0)
abbrev X2 : Vec Ideal S4096x4224 .f32 := W (Proc.devRef .tc main_v67)
abbrev X3 : Vec Ideal S4096x4224 .f32 := W (Proc.devRef .tc main_v68_0)
abbrev X4 : Vec Ideal S4096x4224 .f32 := W (Proc.devRef .tc main_v69)
abbrev Wt : Vec Ideal S330x64 .f32 := W (Proc.devRef .tc main_arg5)
abbrev Bs : Vec Ideal S64 .f32 := W (Proc.devRef .tc main_arg6)
/-- the second convolution's output, [64, 4096·64] -/
abbrev Z : Vec Ideal S64x262144 .f32 := A W (Proc.devRef .tc main_v102)

/-- What the stretch leaves in that buffer, as one composed term of the contents at its start. -/
theorem Z_eq : Z W = relay (pre (X0 W) (X1 W) (X2 W) (X3 W) (X4 W) (Wt W) (Bs W)) := by
  show StableHlo.after (hostOps8 (F := Ideal)) W (Proc.devRef .tc main_v102) = _
  first
    | (after_results_simp
       first | rfl | fail "rfl after simp")
    | fail "after_results_simp"

/-- The second convolution's output at batch member `b`, node `n`, output feature `o`. -/
theorem Z_apply (b : Fin 64) (n : Fin 4096) (o : Fin 64) :
    Z W (ix2 b ⟨n.val * 64 + o.val, by have := n.isLt; have := o.isLt; omega⟩)
      = (((((0 + ∑ i : Fin 66, X0 W (ix2 n (col b i)) * Wt W (ix2 (DiffConv.wrow i 0) o))
            + ∑ i : Fin 66, X1 W (ix2 n (col b i)) * Wt W (ix2 (DiffConv.wrow i 1) o))
            + ∑ i : Fin 66, X2 W (ix2 n (col b i)) * Wt W (ix2 (DiffConv.wrow i 2) o))
            + ∑ i : Fin 66, X3 W (ix2 n (col b i)) * Wt W (ix2 (DiffConv.wrow i 3) o))
            + ∑ i : Fin 66, X4 W (ix2 n (col b i)) * Wt W (ix2 (DiffConv.wrow i 4) o))
          + Bs W (ix1 o) := by
  rw [Z_eq]
  exact (relay_apply _ b n o).trans (pre_apply (X0 W) (X1 W) (X2 W) (X3 W) (X4 W) (Wt W) (Bs W) n b o)

/-- The new state: `u * hx + (1 − u) * tanh` of the second convolution's output. -/
theorem v108_eq : (A W (Proc.devRef .tc main_v108) : Vec Ideal S64x262144 .f32)
    = Tails.out (W (Proc.devRef .tc main_v58)) (W (Proc.devRef .tc main_arg1)) (Z W) := by
  show StableHlo.after (hostOps8 (F := Ideal)) W (Proc.devRef .tc main_v108)
    = Tails.out (W (Proc.devRef .tc main_v58)) (W (Proc.devRef .tc main_arg1))
        (StableHlo.after (hostOps8 (F := Ideal)) W (Proc.devRef .tc main_v102))
  first
    | (after_results_simp
       first | rfl | (unfold Tails.out; rfl) | fail "rfl after simp")
    | fail "after_results_simp"

end Cert.KernelIdeal.KHost8

end
-- ==== Proof.KChain.lean ====
/-
  The kernel program's two diffusion convolutions, entry by entry.

  The first stretch of host operations lays the features out batch-major and cuts the two support matrices; four
  kernel calls compute the four matrix products and the two recurrence steps, so the five arrays the middle stretch
  finds hold the five diffusion orders at the batch-major columns; the middle stretch multiplies each by its rows of
  the weight matrix, adds the products and the bias: the convolution. It then forms the gates and the second
  convolution's features, and the same happens once more through four calls and the last stretch.
-/
import proofs.«405468_j48026324304060_3_alg».proof.Proof.KAccess
import proofs.«405468_j48026324304060_3_alg».proof.Proof.Tails
import proofs.«405468_j48026324304060_3_alg».proof.Proof.DiffAlg
import proofs.«405468_j48026324304060_3_alg».proof.Proof.RegPlain0
import proofs.«405468_j48026324304060_3_alg».proof.Proof.RegComb1
import proofs.«405468_j48026324304060_3_alg».proof.Proof.RegPlain2
import proofs.«405468_j48026324304060_3_alg».proof.Proof.RegComb3
import proofs.«405468_j48026324304060_3_alg».proof.Proof.RegPlain4
import proofs.«405468_j48026324304060_3_alg».proof.Proof.RegComb5
import proofs.«405468_j48026324304060_3_alg».proof.Proof.RegPlain6
import proofs.«405468_j48026324304060_3_alg».proof.Proof.RegComb7
import proofs.«405468_j48026324304060_3_alg».proof.Proof.KHost0
import proofs.«405468_j48026324304060_3_alg».proof.Proof.KHost4
import proofs.«405468_j48026324304060_3_alg».proof.Proof.KHost8

set_option maxRecDepth 16384

noncomputable section

namespace Cert.KernelIdeal.Chain

open Cert.KernelIdeal Cert.KernelIdeal.Gen Cert.KernelIdeal.Access
open Idealize.ShloMosaic Idealize.ShloMosaic.TcCoe Idealize.ShloMosaic.ValueIdx
open DiffConv (Mat Arr col two)

variable (m : (ℓ : Loc nD τ sig) → Buf (Elt Ideal) ℓ) (ρ : Dev nD → PrngReg) (c : Dev nD)

/-! ## The arguments, by their literal types -/

abbrev inp : Vec Ideal S64x8192 .f32 := m ((c : Thread nD τ).loc main_arg0)
abbrev hx : Vec Ideal S64x262144 .f32 := m ((c : Thread nD τ).loc main_arg1)
abbrev sup : Vec Ideal S2x4096x4096 .f32 := m ((c : Thread nD τ).loc main_arg2)
abbrev wfn : Vec Ideal S330x128 .f32 := m ((c : Thread nD τ).loc main_arg3)
abbrev bfn : Vec Ideal S128 .f32 := m ((c : Thread nD τ).loc main_arg4)
abbrev wg : Vec Ideal S330x64 .f32 := m ((c : Thread nD τ).loc main_arg5)
abbrev bg : Vec Ideal S64 .f32 := m ((c : Thread nD τ).loc main_arg6)

/-- The two support matrices, entry by entry. -/
abbrev S0 : Fin 4096 → Fin 4096 → EReal := fun n k => sup m c (ix3 (0 : Fin 2) n k)
abbrev S1 : Fin 4096 → Fin 4096 → EReal := fun n k => sup m c (ix3 (1 : Fin 2) n k)

/-- The first convolution's features, entry by entry. -/
abbrev xA : Fin 64 → Fin 4096 → Fin 66 → EReal := fun b n i => Tails.feat (inp m c) (hx m c) (ix3 b n i)

/-! ## The first convolution -/

/-- The five arrays the middle stretch finds hold the five diffusion orders of the features. -/
theorem ordersA :
    (∀ n b i, (W1 m ρ c (Proc.devRef .tc main_v9) : Arr) (ix2 n (col b i)) = DiffConv.T (xA m c) (S0 m c) (S1 m c) 0 n b i)
      ∧ (∀ n b i, (W2 m ρ c (Proc.devRef .tc main_v11_0) : Arr) (ix2 n (col b i)) = DiffConv.T (xA m c) (S0 m c) (S1 m c) 1 n b i)
      ∧ (∀ n b i, (W3 m ρ c (Proc.devRef .tc main_v12) : Arr) (ix2 n (col b i)) = DiffConv.T (xA m c) (S0 m c) (S1 m c) 2 n b i)
      ∧ (∀ n b i, (W4 m ρ c (Proc.devRef .tc main_v13_0) : Arr) (ix2 n (col b i)) = DiffConv.T (xA m c) (S0 m c) (S1 m c) 3 n b i)
      ∧ (∀ n b i, (W5 m ρ c (Proc.devRef .tc main_v14) : Arr) (ix2 n (col b i)) = DiffConv.T (xA m c) (S0 m c) (S1 m c) 4 n b i) :=
  DiffConv.orders (xA m c) (S0 m c) (S1 m c)
    (W1 m ρ c (Proc.devRef .tc main_v2)) (W1 m ρ c (Proc.devRef .tc main_v4))
    (W1 m ρ c (Proc.devRef .tc main_v9)) (W1 m ρ c (Proc.devRef .tc main_v10))
    (W2 m ρ c (Proc.devRef .tc main_v11_0)) (W2 m ρ c (Proc.devRef .tc main_v11_1)) (W3 m ρ c (Proc.devRef .tc main_v12))
    (W4 m ρ c (Proc.devRef .tc main_v13_0)) (W4 m ρ c (Proc.devRef .tc main_v13_1)) (W5 m ρ c (Proc.devRef .tc main_v14))
    (fun n k => KHost0.v2_apply (W0 m ρ c) n k)
    (fun n k => KHost0.v4_apply (W0 m ρ c) n k)
    (fun n b i => KHost0.v9_apply (W0 m ρ c) n b i)
    (KHost0.v10_eq (W0 m ρ c))
    (fun n a => (congrFun (W2_arr m ρ c 2) (ix2 n a)).trans (RegPlain0.arr2_apply (V1 m ρ) c n a))
    (fun n a => (congrFun (W2_arr m ρ c 3) (ix2 n a)).trans (RegPlain0.arr3_apply (V1 m ρ) c n a))
    (fun n a => by
      have h := (congrFun (W3_arr m ρ c 3) (ix2 n a)).trans (RegComb1.arr3_apply (V2 m ρ) c n a)
      have e1 : RegComb1.lhs (V2 m ρ) c = W1 m ρ c (Proc.devRef .tc main_v2) := sup0_at2 m ρ c
      have e3 : RegComb1.sub (V2 m ρ) c = W1 m ρ c (Proc.devRef .tc main_v9) := feat_at2 m ρ c
      rw [e1, e3] at h
      exact h)
    (fun n a => by
      have h := (congrFun (W4_arr m ρ c 2) (ix2 n a)).trans (RegPlain2.arr2_apply (V3 m ρ) c n a)
      have e1 : RegPlain2.lhs (V3 m ρ) c = W1 m ρ c (Proc.devRef .tc main_v4) := sup1_at3 m ρ c
      have e2 : RegPlain2.rhs (V3 m ρ) c = W2 m ρ c (Proc.devRef .tc main_v11_1) := ord1_at3 m ρ c
      rw [e1, e2] at h
      exact h)
    (fun n a => by
      have h := (congrFun (W4_arr m ρ c 3) (ix2 n a)).trans (RegPlain2.arr3_apply (V3 m ρ) c n a)
      have e1 : RegPlain2.lhs (V3 m ρ) c = W1 m ρ c (Proc.devRef .tc main_v4) := sup1_at3 m ρ c
      have e2 : RegPlain2.rhs (V3 m ρ) c = W2 m ρ c (Proc.devRef .tc main_v11_1) := ord1_at3 m ρ c
      rw [e1, e2] at h
      exact h)
    (fun n a => by
      have h := (congrFun (W5_arr m ρ c 3) (ix2 n a)).trans (RegComb3.arr3_apply (V4 m ρ) c n a)
      have e1 : RegComb3.lhs (V4 m ρ) c = W1 m ρ c (Proc.devRef .tc main_v4) := sup1_at4 m ρ c
      have e3 : RegComb3.sub (V4 m ρ) c = W2 m ρ c (Proc.devRef .tc main_v11_0) := ord1_at4 m ρ c
      rw [e1, e3] at h
      exact h)

/-- The first convolution's output, [64, 4096·128]. -/
abbrev ZA : Vec Ideal S64x524288 .f32 := KHost4.Z (W5 m ρ c)

/-- It is the convolution of the features with the first weights and bias. -/
theorem ZA_apply (b : Fin 64) (n : Fin 4096) (o : Fin 128) :
    ZA m ρ c (ix2 b ⟨n.val * 128 + o.val, by have := n.isLt; have := o.isLt; omega⟩)
      = DiffConv.conv (xA m c) (S0 m c) (S1 m c) (fun q o => wfn m c (ix2 q o)) (fun o => bfn m c (ix1 o)) b n o := by
  obtain ⟨h0, h1, h2, h3, h4⟩ := ordersA m ρ c
  have hw : KHost4.Wt (W5 m ρ c) = wfn m c :=
    arg_at5 m ρ c main_arg3 (by decide) (by decide) (by decide) (by decide) (by decide)
  have hb : KHost4.Bs (W5 m ρ c) = bfn m c :=
    arg_at5 m ρ c main_arg4 (by decide) (by decide) (by decide) (by decide) (by decide)
  refine (KHost4.Z_apply (W5 m ρ c) b n o).trans ?_
  rw [hw, hb]
  exact DiffConv.proj (xA m c) (S0 m c) (S1 m c) (fun q o => wfn m c (ix2 q o)) (fun o => bfn m c (ix1 o))
    (KHost4.X0 (W5 m ρ c)) (KHost4.X1 (W5 m ρ c)) (KHost4.X2 (W5 m ρ c)) (KHost4.X3 (W5 m ρ c)) (KHost4.X4 (W5 m ρ c))
    (fun n b i => (congrFun (ord0_at5 m ρ c) _).trans (h0 n b i))
    (fun n b i => (congrFun (ord1_at5 m ρ c) _).trans (h1 n b i))
    (fun n b i => (congrFun (ord2_at5 m ρ c) _).trans (h2 n b i))
    (fun n b i => (congrFun (ord3_at5 m ρ c) _).trans (h3 n b i))
    h4 b n o

/-! ## The second convolution -/

/-- The second convolution's features, entry by entry: the state scaled by the reset gate of the first output. -/
abbrev xB : Fin 64 → Fin 4096 → Fin 66 → EReal := fun b n i => Tails.feat2 (inp m c) (hx m c) (ZA m ρ c) (ix3 b n i)

theorem inp_at5 : W5 m ρ c (Proc.devRef .tc main_arg0) = inp m c :=
  arg_at5 m ρ c main_arg0 (by decide) (by decide) (by decide) (by decide) (by decide)
theorem hx_at5 : W5 m ρ c (Proc.devRef .tc main_arg1) = hx m c :=
  arg_at5 m ρ c main_arg1 (by decide) (by decide) (by decide) (by decide) (by decide)

/-- The five arrays the last stretch finds hold the five diffusion orders of the second features. -/
theorem ordersB :
    (∀ n b i, (W6 m ρ c (Proc.devRef .tc main_v64) : Arr) (ix2 n (col b i)) = DiffConv.T (xB m ρ c) (S0 m c) (S1 m c) 0 n b i)
      ∧ (∀ n b i, (W7 m ρ c (Proc.devRef .tc main_v66_0) : Arr) (ix2 n (col b i)) = DiffConv.T (xB m ρ c) (S0 m c) (S1 m c) 1 n b i)
      ∧ (∀ n b i, (W8 m ρ c (Proc.devRef .tc main_v67) : Arr) (ix2 n (col b i)) = DiffConv.T (xB m ρ c) (S0 m c) (S1 m c) 2 n b i)
      ∧ (∀ n b i, (W9 m ρ c (Proc.devRef .tc main_v68_0) : Arr) (ix2 n (col b i)) = DiffConv.T (xB m ρ c) (S0 m c) (S1 m c) 3 n b i)
      ∧ (∀ n b i, (W10 m ρ c (Proc.devRef .tc main_v69) : Arr) (ix2 n (col b i)) = DiffConv.T (xB m ρ c) (S0 m c) (S1 m c) 4 n b i) :=
  DiffConv.orders (xB m ρ c) (S0 m c) (S1 m c)
    (W1 m ρ c (Proc.devRef .tc main_v2)) (W1 m ρ c (Proc.devRef .tc main_v4))
    (W6 m ρ c (Proc.devRef .tc main_v64)) (W6 m ρ c (Proc.devRef .tc main_v65))
    (W7 m ρ c (Proc.devRef .tc main_v66_0)) (W7 m ρ c (Proc.devRef .tc main_v66_1)) (W8 m ρ c (Proc.devRef .tc main_v67))
    (W9 m ρ c (Proc.devRef .tc main_v68_0)) (W9 m ρ c (Proc.devRef .tc main_v68_1)) (W10 m ρ c (Proc.devRef .tc main_v69))
    (fun n k => KHost0.v2_apply (W0 m ρ c) n k)
    (fun n k => KHost0.v4_apply (W0 m ρ c) n k)
    (fun n b i => by
      refine (KHost4.v64_apply (W5 m ρ c) n b i).trans ?_
      rw [inp_at5 m ρ c, hx_at5 m ρ c])
    (KHost4.v65_eq (W5 m ρ c))
    (fun n a => by
      have h := (congrFun (W7_arr m ρ c 2) (ix2 n a)).trans (RegPlain4.arr2_apply (V6 m ρ) c n a)
      have e1 : RegPlain4.lhs (V6 m ρ) c = W1 m ρ c (Proc.devRef .tc main_v2) := sup0_at6 m ρ c
      rw [e1] at h
      exact h)
    (fun n a => by
      have h := (congrFun (W7_arr m ρ c 3) (ix2 n a)).trans (RegPlain4.arr3_apply (V6 m ρ) c n a)
      have e1 : RegPlain4.lhs (V6 m ρ) c = W1 m ρ c (Proc.devRef .tc main_v2) := sup0_at6 m ρ c
      rw [e1] at h
      exact h)
    (fun n a => by
      have h := (congrFun (W8_arr m ρ c 3) (ix2 n a)).trans (RegComb5.arr3_apply (V7 m ρ) c n a)
      have e1 : RegComb5.lhs (V7 m ρ) c = W1 m ρ c (Proc.devRef .tc main_v2) := sup0_at7 m ρ c
      have e3 : RegComb5.sub (V7 m ρ) c = W6 m ρ c (Proc.devRef .tc main_v64) := feat_at7 m ρ c
      rw [e1, e3] at h
      exact h)
    (fun n a => by
      have h := (congrFun (W9_arr m ρ c 2) (ix2 n a)).trans (RegPlain6.arr2_apply (V8 m ρ) c n a)
      have e1 : RegPlain6.lhs (V8 m ρ) c = W1 m ρ c (Proc.devRef .tc main_v4) := sup1_at8 m ρ c
      have e2 : RegPlain6.rhs (V8 m ρ) c = W7 m ρ c (Proc.devRef .tc main_v66_1) := ord1_at8 m ρ c
      rw [e1, e2] at h
      exact h)
    (fun n a => by
      have h := (congrFun (W9_arr m ρ c 3) (ix2 n a)).trans (RegPlain6.arr3_apply (V8 m ρ) c n a)
      have e1 : RegPlain6.lhs (V8 m ρ) c = W1 m ρ c (Proc.devRef .tc main_v4) := sup1_at8 m ρ c
      have e2 : RegPlain6.rhs (V8 m ρ) c = W7 m ρ c (Proc.devRef .tc main_v66_1) := ord1_at8 m ρ c
      rw [e1, e2] at h
      exact h)
    (fun n a => by
      have h := (congrFun (W10_arr m ρ c 3) (ix2 n a)).trans (RegComb7.arr3_apply (V9 m ρ) c n a)
      have e1 : RegComb7.lhs (V9 m ρ) c = W1 m ρ c (Proc.devRef .tc main_v4) := sup1_at9 m ρ c
      have e3 : RegComb7.sub (V9 m ρ) c = W7 m ρ c (Proc.devRef .tc main_v66_0) := ord1_at9 m ρ c
      rw [e1, e3] at h
      exact h)

/-- The second convolution's output, [64, 4096·64]. -/
abbrev ZB : Vec Ideal S64x262144 .f32 := KHost8.Z (W10 m ρ c)

theorem wg_at10 : W10 m ρ c (Proc.devRef .tc main_arg5) = wg m c :=
  (pass_at10 m ρ c main_arg5 (by decide) (by decide) (by decide) (by decide)).trans
    ((middle_keeps m ρ c main_arg5 (by decide)).trans (arg_at5 m ρ c main_arg5 (by decide) (by decide) (by decide) (by decide) (by decide)))
theorem bg_at10 : W10 m ρ c (Proc.devRef .tc main_arg6) = bg m c :=
  (pass_at10 m ρ c main_arg6 (by decide) (by decide) (by decide) (by decide)).trans
    ((middle_keeps m ρ c main_arg6 (by decide)).trans (arg_at5 m ρ c main_arg6 (by decide) (by decide) (by decide) (by decide) (by decide)))
theorem hx_at10 : W10 m ρ c (Proc.devRef .tc main_arg1) = hx m c :=
  (pass_at10 m ρ c main_arg1 (by decide) (by decide) (by decide) (by decide)).trans
    ((middle_keeps m ρ c main_arg1 (by decide)).trans (hx_at5 m ρ c))
/-- The update gate when the last stretch starts is the middle stretch's. -/
theorem gate_at10 : W10 m ρ c (Proc.devRef .tc main_v58) = Tails.uOf (ZA m ρ c) :=
  (pass_at10 m ρ c main_v58 (by decide) (by decide) (by decide) (by decide)).trans (KHost4.v58_eq (W5 m ρ c))

/-- It is the convolution of the second features with the second weights and bias. -/
theorem ZB_apply (b : Fin 64) (n : Fin 4096) (o : Fin 64) :
    ZB m ρ c (ix2 b ⟨n.val * 64 + o.val, by have := n.isLt; have := o.isLt; omega⟩)
      = DiffConv.conv (xB m ρ c) (S0 m c) (S1 m c) (fun q o => wg m c (ix2 q o)) (fun o => bg m c (ix1 o)) b n o := by
  obtain ⟨h0, h1, h2, h3, h4⟩ := ordersB m ρ c
  have hw : KHost8.Wt (W10 m ρ c) = wg m c := wg_at10 m ρ c
  have hb : KHost8.Bs (W10 m ρ c) = bg m c := bg_at10 m ρ c
  refine (KHost8.Z_apply (W10 m ρ c) b n o).trans ?_
  rw [hw, hb]
  exact DiffConv.proj (xB m ρ c) (S0 m c) (S1 m c) (fun q o => wg m c (ix2 q o)) (fun o => bg m c (ix1 o))
    (KHost8.X0 (W10 m ρ c)) (KHost8.X1 (W10 m ρ c)) (KHost8.X2 (W10 m ρ c)) (KHost8.X3 (W10 m ρ c)) (KHost8.X4 (W10 m ρ c))
    (fun n b i => (congrFun (ord0_at10 m ρ c) _).trans (h0 n b i))
    (fun n b i => (congrFun (ord1_at10 m ρ c) _).trans (h1 n b i))
    (fun n b i => (congrFun (ord2_at10 m ρ c) _).trans (h2 n b i))
    (fun n b i => (congrFun (ord3_at10 m ρ c) _).trans (h3 n b i))
    h4 b n o

/-! ## The result -/

/-- The result buffer at the return: the new state from the update gate, the old state and the second output. -/
theorem result_eq : (W11 m ρ c (Proc.devRef .tc main_v108) : Vec Ideal S64x262144 .f32)
    = Tails.out (Tails.uOf (ZA m ρ c)) (hx m c) (ZB m ρ c) := by
  refine (KHost8.v108_eq (W10 m ρ c)).trans ?_
  rw [gate_at10 m ρ c, hx_at10 m ρ c]

end Cert.KernelIdeal.Chain

end
-- ==== Proof.RefGconv.lean ====
/-
  The reference program's two diffusion convolutions read entry by entry over the extended reals.

  The reference lays the features out as a [4096, 66·64] matrix (column `64·i + b`: feature slot `i` of batch member
  `b`), multiplies it by the two support matrices to get the five diffusion orders, stacks the five matrices, and
  re-lays the stack out as a [64·4096, 66·5] matrix (row `4096·b + n`, column `5·i + m`) that meets the 330-row weight
  matrix in one product; the bias row is added and the result is laid out as [64, 4096·D]. Read at one entry this is
  the specification's sum over the feature slots and the orders: each layout step only renames an index, each product
  with a support matrix is one diffusion, and the one sum over the 330 weight rows is the double sum over slots and
  orders. The operations around the two convolutions (the node features, the two gates, the new state) are, as
  functions of whole arrays, the shared ones.
-/
import proofs.«405468_j48026324304060_3_alg».proof.Proof.RefReadP
import proofs.«405468_j48026324304060_3_alg».proof.Proof.DiffSpec
import proofs.«405468_j48026324304060_3_alg».proof.Proof.SumSplit
import proofs.«405468_j48026324304060_3_alg».proof.Proof.Tails
import Idealize.ShloMosaic.Lib.Pipeline.Value
import Idealize.ShloMosaic.Lib.ValueIdx
import Idealize.ShloMosaic.PureOps.Ideal.Laws
import Mathlib.Algebra.BigOperators.Fin
import Mathlib.Data.Fintype.BigOperators
import Mathlib.Logic.Equiv.Fin.Basic

noncomputable section

namespace Cert.ReferenceIdeal.RefVal

open Cert.ReferenceIdeal Cert.ReferenceIdeal.Gen Cert.ReferenceIdeal.ReadP Idealize.ShloMosaic Idealize.ShloMosaic.TcCoe Idealize.ShloMosaic.ValueIdx

/-! ## Two facts that mention no program -/

/-- A sum over the 330 weight rows is the double sum over the 66 feature slots and, within a slot, the five orders:
    row `5·i + m` is order `m` of slot `i`. -/
theorem sum_rows {β : Type*} [AddCommMonoid β] (f : Fin 330 → β) :
    ∑ q : Fin 330, f q = ∑ i : Fin 66, ∑ m : Fin 5, f (DiffConv.wrow i m) := by
  rw [← Fintype.sum_prod_type' (fun (i : Fin 66) (m : Fin 5) => f (DiffConv.wrow i m))]
  symm
  refine Fintype.sum_equiv (finProdFinEquiv (m := 66) (n := 5)) _ _ ?_
  rintro ⟨i, m⟩
  show f (DiffConv.wrow i m) = f (finProdFinEquiv (i, m))
  congr 1
  apply Fin.ext
  rw [finProdFinEquiv_apply_val]
  show 5 * i.val + m.val = m.val + 5 * i.val
  omega

/-- Five [1, 4096, 4224] slabs stacked on the leading axis: the stack at leading coordinate `m` is slab `m`. -/
theorem stack5_apply {α : Type} (y0 y1 y2 y3 y4 : S1x4096x4224.Idx → α) (m : Fin 5) (n : Fin 4096) (c : Fin 4224) :
    concatenate S5x4096x4224 0 [⟨S1x4096x4224, y0⟩, ⟨S1x4096x4224, y1⟩, ⟨S1x4096x4224, y2⟩, ⟨S1x4096x4224, y3⟩, ⟨S1x4096x4224, y4⟩]
        concatenates_S1x4096x4224_S1x4096x4224_S1x4096x4224_S1x4096x4224_S1x4096x4224_S5x4096x4224_d0 (ix3 m n c)
      = (![y0, y1, y2, y3, y4] m) (ix3 (0 : Fin 1) n c) := by
  have key : ∀ (k : Nat) (hk : k < 5) (y : S1x4096x4224.Idx → α),
      ([⟨S1x4096x4224, y0⟩, ⟨S1x4096x4224, y1⟩, ⟨S1x4096x4224, y2⟩, ⟨S1x4096x4224, y3⟩, ⟨S1x4096x4224, y4⟩] :
          List ((s : Shape) × (s.Idx → α)))[k]'(by simpa using hk) = ⟨S1x4096x4224, y⟩ →
      m.val = k →
      concatenate S5x4096x4224 0 [⟨S1x4096x4224, y0⟩, ⟨S1x4096x4224, y1⟩, ⟨S1x4096x4224, y2⟩, ⟨S1x4096x4224, y3⟩, ⟨S1x4096x4224, y4⟩]
        concatenates_S1x4096x4224_S1x4096x4224_S1x4096x4224_S1x4096x4224_S1x4096x4224_S5x4096x4224_d0 (ix3 m n c)
        = y (ix3 (0 : Fin 1) n c) := by
    intro k hk y hy hm
    -- slab `k` starts after `k` slabs of extent one; off the stacked axis the coordinates are kept
    refine concatenate_apply_piece (0 : Fin 3) _ _ (ix3 m n c) k (by simpa using hk) S1x4096x4224 y hy rfl k ?_
      (ix3 (0 : Fin 1) n c) ?_ ?_
    · interval_cases k <;> rfl
    · intro b hb
      match b with
      | ⟨0, _⟩ => exact absurd rfl hb
      | ⟨1, _⟩ => rfl
      | ⟨2, _⟩ => rfl
    · show k + 0 = m.val
      omega
  match m with
  | ⟨0, _⟩ => exact key 0 (by omega) y0 rfl rfl
  | ⟨1, _⟩ => exact key 1 (by omega) y1 rfl rfl
  | ⟨2, _⟩ => exact key 2 (by omega) y2 rfl rfl
  | ⟨3, _⟩ => exact key 3 (by omega) y3 rfl rfl
  | ⟨4, _⟩ => exact key 4 (by omega) y4 rfl rfl

/-! ## Names for the two flattened axes -/

/-- Column `64·i + b` of a [4096, 4224] matrix: feature slot `i` of batch member `b`. -/
abbrev col (i : Fin 66) (b : Fin 64) : Fin 4224 := ⟨i.val * 64 + b.val, by have := i.isLt; have := b.isLt; omega⟩

/-- Row `4096·b + n` of a [262144, ·] matrix: node `n` of batch member `b`. -/
abbrev row (b : Fin 64) (n : Fin 4096) : Fin 262144 := ⟨b.val * 4096 + n.val, by have := b.isLt; have := n.isLt; omega⟩

variable (x0 : Vec Ideal S64x8192 .f32) (x1 : Vec Ideal S64x262144 .f32) (x2 : Vec Ideal S2x4096x4096 .f32)
  (x3 : Vec Ideal S330x128 .f32) (x4 : Vec Ideal S128 .f32) (x5 : Vec Ideal S330x64 .f32) (x6 : Vec Ideal S64 .f32)

/-- the two support matrices, entry by entry -/
abbrev sup0 : Fin 4096 → Fin 4096 → EReal := fun n k => x2 (ix3 (0 : Fin 2) n k)
abbrev sup1 : Fin 4096 → Fin 4096 → EReal := fun n k => x2 (ix3 (1 : Fin 2) n k)

/-- The first convolution's features: batch member, node, slot. -/
abbrev X1 : Fin 64 → Fin 4096 → Fin 66 → EReal := fun b n i => val_main_v2 (F := Ideal) x0 x1 (ix3 b n i)

/-- The second convolution's features. -/
abbrev X2 : Fin 64 → Fin 4096 → Fin 66 → EReal := fun b n i => val_main_v47 (F := Ideal) x0 x1 x2 x3 x4 (ix3 b n i)

/-! ## The first convolution (operations %2 … %32) -/

section ConvFirst

/-! ### Each layout step renames an index -/

theorem e3 (n : Fin 4096) (i : Fin 66) (b : Fin 64) : idx_main_v3 (ix3 n i b) = ix3 b n i := by
  funext a; match a with | ⟨0, _⟩ => rfl | ⟨1, _⟩ => rfl | ⟨2, _⟩ => rfl

theorem e4 (n : Fin 4096) (i : Fin 66) (b : Fin 64) : idx_main_v4 (ix2 n (col i b)) = ix3 n i b := by
  have hn := n.isLt; have hi := i.isLt; have hb := b.isLt
  funext a; apply Fin.ext
  match a with
  | ⟨0, _⟩ => show (n.val * 4224 + (i.val * 64 + b.val)) / 4224 = n.val; omega
  | ⟨1, _⟩ => show (n.val * 4224 + (i.val * 64 + b.val)) / 64 % 66 = i.val; omega
  | ⟨2, _⟩ => show (n.val * 4224 + (i.val * 64 + b.val)) % 64 = b.val; omega

theorem e5 (n k : Fin 4096) : idx_main_v5 (ix3 (0 : Fin 1) n k) = ix3 (0 : Fin 2) n k := by
  funext a; match a with | ⟨0, _⟩ => rfl | ⟨1, _⟩ => rfl | ⟨2, _⟩ => rfl

theorem e6 (n k : Fin 4096) : idx_main_v6 (ix2 n k) = ix3 (0 : Fin 1) n k := by
  have hn := n.isLt; have hk := k.isLt
  funext a; apply Fin.ext
  match a with
  | ⟨0, _⟩ => rfl
  | ⟨1, _⟩ => show (n.val * 4096 + k.val) / 4096 % 4096 = n.val; omega
  | ⟨2, _⟩ => show (n.val * 4096 + k.val) % 4096 = k.val; omega

theorem e12 (n k : Fin 4096) : idx_main_v12 (ix3 (0 : Fin 1) n k) = ix3 (1 : Fin 2) n k := by
  funext a; match a with | ⟨0, _⟩ => rfl | ⟨1, _⟩ => rfl | ⟨2, _⟩ => rfl

theorem e13 (n k : Fin 4096) : idx_main_v13 (ix2 n k) = ix3 (0 : Fin 1) n k := by
  have hn := n.isLt; have hk := k.isLt
  funext a; apply Fin.ext
  match a with
  | ⟨0, _⟩ => rfl
  | ⟨1, _⟩ => show (n.val * 4096 + k.val) / 4096 % 4096 = n.val; omega
  | ⟨2, _⟩ => show (n.val * 4096 + k.val) % 4096 = k.val; omega

theorem el7 (n : Fin 4096) (c : Fin 4224) (k : Fin 4096) : lidx_main_v7 (ix2 n c) k = ix2 n k := by
  funext a; match a with | ⟨0, _⟩ => rfl | ⟨1, _⟩ => rfl
theorem er7 (n : Fin 4096) (c : Fin 4224) (k : Fin 4096) : ridx_main_v7 (ix2 n c) k = ix2 k c := by
  funext a; match a with | ⟨0, _⟩ => rfl | ⟨1, _⟩ => rfl
theorem el8 (n : Fin 4096) (c : Fin 4224) (k : Fin 4096) : lidx_main_v8 (ix2 n c) k = ix2 n k := by
  funext a; match a with | ⟨0, _⟩ => rfl | ⟨1, _⟩ => rfl
theorem er8 (n : Fin 4096) (c : Fin 4224) (k : Fin 4096) : ridx_main_v8 (ix2 n c) k = ix2 k c := by
  funext a; match a with | ⟨0, _⟩ => rfl | ⟨1, _⟩ => rfl
theorem el14 (n : Fin 4096) (c : Fin 4224) (k : Fin 4096) : lidx_main_v14 (ix2 n c) k = ix2 n k := by
  funext a; match a with | ⟨0, _⟩ => rfl | ⟨1, _⟩ => rfl
theorem er14 (n : Fin 4096) (c : Fin 4224) (k : Fin 4096) : ridx_main_v14 (ix2 n c) k = ix2 k c := by
  funext a; match a with | ⟨0, _⟩ => rfl | ⟨1, _⟩ => rfl
theorem el15 (n : Fin 4096) (c : Fin 4224) (k : Fin 4096) : lidx_main_v15 (ix2 n c) k = ix2 n k := by
  funext a; match a with | ⟨0, _⟩ => rfl | ⟨1, _⟩ => rfl
theorem er15 (n : Fin 4096) (c : Fin 4224) (k : Fin 4096) : ridx_main_v15 (ix2 n c) k = ix2 k c := by
  funext a; match a with | ⟨0, _⟩ => rfl | ⟨1, _⟩ => rfl

theorem e19 (z : Fin 1) (n : Fin 4096) (c : Fin 4224) : idx_main_v19 (ix3 z n c) = ix2 n c := by
  funext a; match a with | ⟨0, _⟩ => rfl | ⟨1, _⟩ => rfl
theorem e20 (z : Fin 1) (n : Fin 4096) (c : Fin 4224) : idx_main_v20 (ix3 z n c) = ix2 n c := by
  funext a; match a with | ⟨0, _⟩ => rfl | ⟨1, _⟩ => rfl
theorem e21 (z : Fin 1) (n : Fin 4096) (c : Fin 4224) : idx_main_v21 (ix3 z n c) = ix2 n c := by
  funext a; match a with | ⟨0, _⟩ => rfl | ⟨1, _⟩ => rfl
theorem e22 (z : Fin 1) (n : Fin 4096) (c : Fin 4224) : idx_main_v22 (ix3 z n c) = ix2 n c := by
  funext a; match a with | ⟨0, _⟩ => rfl | ⟨1, _⟩ => rfl
theorem e23 (z : Fin 1) (n : Fin 4096) (c : Fin 4224) : idx_main_v23 (ix3 z n c) = ix2 n c := by
  funext a; match a with | ⟨0, _⟩ => rfl | ⟨1, _⟩ => rfl

theorem e25 (m : Fin 5) (n : Fin 4096) (i : Fin 66) (b : Fin 64) : idx_main_v25 (ix4 m n i b) = ix3 m n (col i b) := by
  have hm := m.isLt; have hn := n.isLt; have hi := i.isLt; have hb := b.isLt
  funext a; apply Fin.ext
  match a with
  | ⟨0, _⟩ => show (((m.val * 4096 + n.val) * 66 + i.val) * 64 + b.val) / 17301504 = m.val; omega
  | ⟨1, _⟩ => show (((m.val * 4096 + n.val) * 66 + i.val) * 64 + b.val) / 4224 % 4096 = n.val; omega
  | ⟨2, _⟩ => show (((m.val * 4096 + n.val) * 66 + i.val) * 64 + b.val) % 4224 = i.val * 64 + b.val; omega

theorem e26 (b : Fin 64) (n : Fin 4096) (i : Fin 66) (m : Fin 5) : idx_main_v26 (ix4 b n i m) = ix4 m n i b := by
  funext a; match a with | ⟨0, _⟩ => rfl | ⟨1, _⟩ => rfl | ⟨2, _⟩ => rfl | ⟨3, _⟩ => rfl

theorem e27 (b : Fin 64) (n : Fin 4096) (i : Fin 66) (m : Fin 5) :
    idx_main_v27 (ix2 (row b n) (DiffConv.wrow i m)) = ix4 b n i m := by
  have hb := b.isLt; have hn := n.isLt; have hi := i.isLt; have hm := m.isLt
  funext a; apply Fin.ext
  match a with
  | ⟨0, _⟩ => show ((b.val * 4096 + n.val) * 330 + (5 * i.val + m.val)) / 1351680 = b.val; omega
  | ⟨1, _⟩ => show ((b.val * 4096 + n.val) * 330 + (5 * i.val + m.val)) / 330 % 4096 = n.val; omega
  | ⟨2, _⟩ => show ((b.val * 4096 + n.val) * 330 + (5 * i.val + m.val)) / 5 % 66 = i.val; omega
  | ⟨3, _⟩ => show ((b.val * 4096 + n.val) * 330 + (5 * i.val + m.val)) % 5 = m.val; omega

theorem el28 (r : Fin 262144) (o : Fin 128) (q : Fin 330) : lidx_main_v28 (ix2 r o) q = ix2 r q := by
  funext a; match a with | ⟨0, _⟩ => rfl | ⟨1, _⟩ => rfl
theorem er28 (r : Fin 262144) (o : Fin 128) (q : Fin 330) : ridx_main_v28 (ix2 r o) q = ix2 q o := by
  funext a; match a with | ⟨0, _⟩ => rfl | ⟨1, _⟩ => rfl

theorem e29 (z : Fin 1) (o : Fin 128) : idx_main_v29 (ix2 z o) = ix1 o := by
  funext a; match a with | ⟨0, _⟩ => rfl

theorem e30 (r : Fin 262144) (o : Fin 128) : idx_main_v30 (ix2 r o) = ix2 (0 : Fin 1) o := by
  funext a; match a with | ⟨0, _⟩ => rfl | ⟨1, _⟩ => rfl

theorem e32 (b : Fin 64) (n : Fin 4096) (o : Fin 128) (h : n.val * 128 + o.val < 524288) :
    idx_main_v32 (ix2 b ⟨n.val * 128 + o.val, h⟩) = ix2 (row b n) o := by
  have hb := b.isLt; have hn := n.isLt; have ho := o.isLt
  funext a; apply Fin.ext
  match a with
  | ⟨0, _⟩ => show (b.val * 524288 + (n.val * 128 + o.val)) / 128 = b.val * 4096 + n.val; omega
  | ⟨1, _⟩ => show (b.val * 524288 + (n.val * 128 + o.val)) % 128 = o.val; omega

/-! ### The support matrices and the factor two -/

/-- The first support matrix: the leading slab of the supports, its unit axis dropped. -/
theorem v6_at (n k : Fin 4096) : val_main_v6 (F := Ideal) x2 (ix2 n k) = sup0 x2 n k := by
  rw [val_main_v6_apply, e6, val_main_v5_apply, e5]

/-- The second support matrix: the other slab. -/
theorem v13_at (n k : Fin 4096) : val_main_v13 (F := Ideal) x2 (ix2 n k) = sup1 x2 n k := by
  rw [val_main_v13_apply, e13, val_main_v12_apply, e12]

/-- The factor of the recurrence is the word of `2.0` at every entry. -/
theorem v9_at (j : S4096x4224.Idx) : val_main_v9 (F := Ideal) j = DiffConv.two := (val_main_v9_apply j).trans rfl

theorem v16_at (j : S4096x4224.Idx) : val_main_v16 (F := Ideal) j = DiffConv.two := (val_main_v16_apply j).trans rfl

/-! ### The five diffusion orders, as the [4096, 4224] matrices the reference computes -/

/-- Order 0: the features, column `64·i + b` holding slot `i` of batch member `b`. -/
theorem v4_at (n : Fin 4096) (i : Fin 66) (b : Fin 64) :
    val_main_v4 (F := Ideal) x0 x1 (ix2 n (col i b)) = DiffConv.T0 (X1 x0 x1) n b i := by
  rw [val_main_v4_apply, e4, val_main_v3_apply, e3]
  rfl

/-- Order 1: one product with the first support matrix is one diffusion. -/
theorem v7_at (n : Fin 4096) (i : Fin 66) (b : Fin 64) :
    val_main_v7 (F := Ideal) x0 x1 x2 (ix2 n (col i b)) = DiffConv.T1 (X1 x0 x1) (sup0 x2) n b i := by
  rw [val_main_v7_apply]
  show _ = ∑ k : Fin 4096, sup0 x2 n k * DiffConv.T0 (X1 x0 x1) k b i
  refine Finset.sum_congr rfl fun k _ => ?_
  rw [el7, er7, v6_at, v4_at]

/-- The first support matrix applied once more. -/
theorem v8_at (n : Fin 4096) (i : Fin 66) (b : Fin 64) :
    val_main_v8 (F := Ideal) x0 x1 x2 (ix2 n (col i b)) = DiffConv.diffuse (sup0 x2) (DiffConv.T1 (X1 x0 x1) (sup0 x2)) n b i := by
  rw [val_main_v8_apply]
  show _ = ∑ k : Fin 4096, sup0 x2 n k * DiffConv.T1 (X1 x0 x1) (sup0 x2) k b i
  refine Finset.sum_congr rfl fun k _ => ?_
  rw [el8, er8, v6_at, v7_at]

/-- Order 2: twice that, less order 0. -/
theorem v11_at (n : Fin 4096) (i : Fin 66) (b : Fin 64) :
    val_main_v11 (F := Ideal) x0 x1 x2 (ix2 n (col i b)) = DiffConv.T2 (X1 x0 x1) (sup0 x2) n b i := by
  rw [val_main_v11_apply, val_main_v10_apply, v9_at, v8_at, v4_at]
  rfl

/-- Order 3: the second support matrix applied to order 1. -/
theorem v14_at (n : Fin 4096) (i : Fin 66) (b : Fin 64) :
    val_main_v14 (F := Ideal) x0 x1 x2 (ix2 n (col i b)) = DiffConv.T3 (X1 x0 x1) (sup0 x2) (sup1 x2) n b i := by
  rw [val_main_v14_apply]
  show _ = ∑ k : Fin 4096, sup1 x2 n k * DiffConv.T1 (X1 x0 x1) (sup0 x2) k b i
  refine Finset.sum_congr rfl fun k _ => ?_
  rw [el14, er14, v13_at, v7_at]

/-- The second support matrix applied once more. -/
theorem v15_at (n : Fin 4096) (i : Fin 66) (b : Fin 64) :
    val_main_v15 (F := Ideal) x0 x1 x2 (ix2 n (col i b))
      = DiffConv.diffuse (sup1 x2) (DiffConv.T3 (X1 x0 x1) (sup0 x2) (sup1 x2)) n b i := by
  rw [val_main_v15_apply]
  show _ = ∑ k : Fin 4096, sup1 x2 n k * DiffConv.T3 (X1 x0 x1) (sup0 x2) (sup1 x2) k b i
  refine Finset.sum_congr rfl fun k _ => ?_
  rw [el15, er15, v13_at, v14_at]

/-- Order 4: twice that, less order 1. -/
theorem v18_at (n : Fin 4096) (i : Fin 66) (b : Fin 64) :
    val_main_v18 (F := Ideal) x0 x1 x2 (ix2 n (col i b)) = DiffConv.T4 (X1 x0 x1) (sup0 x2) (sup1 x2) n b i := by
  rw [val_main_v18_apply, val_main_v17_apply, v16_at, v15_at, v7_at]
  rfl

/-! ### The stack of the five orders and its second layout -/

/-- The stack of the five matrices at leading coordinate `m` is order `m`. -/
theorem v24_at (m : Fin 5) (n : Fin 4096) (i : Fin 66) (b : Fin 64) :
    val_main_v24 (F := Ideal) x0 x1 x2 (ix3 m n (col i b)) = DiffConv.T (X1 x0 x1) (sup0 x2) (sup1 x2) m n b i := by
  unfold val_main_v24
  rw [stack5_apply]
  match m with
  | ⟨0, _⟩ =>
    show val_main_v19 (F := Ideal) x0 x1 (ix3 (0 : Fin 1) n (col i b)) = DiffConv.T0 (X1 x0 x1) n b i
    rw [val_main_v19_apply, e19, v4_at]
  | ⟨1, _⟩ =>
    show val_main_v20 (F := Ideal) x0 x1 x2 (ix3 (0 : Fin 1) n (col i b)) = DiffConv.T1 (X1 x0 x1) (sup0 x2) n b i
    rw [val_main_v20_apply, e20, v7_at]
  | ⟨2, _⟩ =>
    show val_main_v21 (F := Ideal) x0 x1 x2 (ix3 (0 : Fin 1) n (col i b)) = DiffConv.T2 (X1 x0 x1) (sup0 x2) n b i
    rw [val_main_v21_apply, e21, v11_at]
  | ⟨3, _⟩ =>
    show val_main_v22 (F := Ideal) x0 x1 x2 (ix3 (0 : Fin 1) n (col i b)) = DiffConv.T3 (X1 x0 x1) (sup0 x2) (sup1 x2) n b i
    rw [val_main_v22_apply, e22, v14_at]
  | ⟨4, _⟩ =>
    show val_main_v23 (F := Ideal) x0 x1 x2 (ix3 (0 : Fin 1) n (col i b)) = DiffConv.T4 (X1 x0 x1) (sup0 x2) (sup1 x2) n b i
    rw [val_main_v23_apply, e23, v18_at]

/-- The stack laid out as a [262144, 330] matrix: row `4096·b + n`, column `5·i + m` holds order `m` of slot `i`. -/
theorem v27_at (b : Fin 64) (n : Fin 4096) (i : Fin 66) (m : Fin 5) :
    val_main_v27 (F := Ideal) x0 x1 x2 (ix2 (row b n) (DiffConv.wrow i m)) = DiffConv.T (X1 x0 x1) (sup0 x2) (sup1 x2) m n b i := by
  rw [val_main_v27_apply, e27, val_main_v26_apply, e26, val_main_v25_apply, e25, v24_at]

end ConvFirst

/-- The first convolution's output entry: the one sum over the 330 weight rows is the specification's double sum
    over feature slots and orders, and the bias row is added. -/
theorem v32_apply (b : Fin 64) (n : Fin 4096) (o : Fin 128) :
    val_main_v32 (F := Ideal) x0 x1 x2 x3 x4 (ix2 b ⟨n.val * 128 + o.val, by have := n.isLt; have := o.isLt; omega⟩)
      = DiffConv.conv (fun b n i => val_main_v2 (F := Ideal) x0 x1 (ix3 b n i)) (sup0 x2) (sup1 x2)
          (fun q o => x3 (ix2 q o)) (fun o => x4 (ix1 o)) b n o := by
  rw [val_main_v32_apply, e32, val_main_v31_apply, val_main_v28_apply, val_main_v30_apply, e30, val_main_v29_apply, e29, sum_rows]
  unfold DiffConv.conv
  show (∑ i : Fin 66, ∑ m : Fin 5, _) + x4 (ix1 o) = (∑ i : Fin 66, ∑ m : Fin 5, _) + x4 (ix1 o)
  congr 1
  refine Finset.sum_congr rfl fun i _ => Finset.sum_congr rfl fun m _ => ?_
  rw [el28, er28, v27_at]

/-! ## The second convolution (operations %47 … %77) -/

section ConvSecond

/-! ### Each layout step renames an index -/

theorem e48 (n : Fin 4096) (i : Fin 66) (b : Fin 64) : idx_main_v48 (ix3 n i b) = ix3 b n i := by
  funext a; match a with | ⟨0, _⟩ => rfl | ⟨1, _⟩ => rfl | ⟨2, _⟩ => rfl

theorem e49 (n : Fin 4096) (i : Fin 66) (b : Fin 64) : idx_main_v49 (ix2 n (col i b)) = ix3 n i b := by
  have hn := n.isLt; have hi := i.isLt; have hb := b.isLt
  funext a; apply Fin.ext
  match a with
  | ⟨0, _⟩ => show (n.val * 4224 + (i.val * 64 + b.val)) / 4224 = n.val; omega
  | ⟨1, _⟩ => show (n.val * 4224 + (i.val * 64 + b.val)) / 64 % 66 = i.val; omega
  | ⟨2, _⟩ => show (n.val * 4224 + (i.val * 64 + b.val)) % 64 = b.val; omega

theorem e50 (n k : Fin 4096) : idx_main_v50 (ix3 (0 : Fin 1) n k) = ix3 (0 : Fin 2) n k := by
  funext a; match a with | ⟨0, _⟩ => rfl | ⟨1, _⟩ => rfl | ⟨2, _⟩ => rfl

theorem e51 (n k : Fin 4096) : idx_main_v51 (ix2 n k) = ix3 (0 : Fin 1) n k := by
  have hn := n.isLt; have hk := k.isLt
  funext a; apply Fin.ext
  match a with
  | ⟨0, _⟩ => rfl
  | ⟨1, _⟩ => show (n.val * 4096 + k.val) / 4096 % 4096 = n.val; omega
  | ⟨2, _⟩ => show (n.val * 4096 + k.val) % 4096 = k.val; omega

theorem e57 (n k : Fin 4096) : idx_main_v57 (ix3 (0 : Fin 1) n k) = ix3 (1 : Fin 2) n k := by
  funext a; match a with | ⟨0, _⟩ => rfl | ⟨1, _⟩ => rfl | ⟨2, _⟩ => rfl

theorem e58 (n k : Fin 4096) : idx_main_v58 (ix2 n k) = ix3 (0 : Fin 1) n k := by
  have hn := n.isLt; have hk := k.isLt
  funext a; apply Fin.ext
  match a with
  | ⟨0, _⟩ => rfl
  | ⟨1, _⟩ => show (n.val * 4096 + k.val) / 4096 % 4096 = n.val; omega
  | ⟨2, _⟩ => show (n.val * 4096 + k.val) % 4096 = k.val; omega

theorem el52 (n : Fin 4096) (c : Fin 4224) (k : Fin 4096) : lidx_main_v52 (ix2 n c) k = ix2 n k := by
  funext a; match a with | ⟨0, _⟩ => rfl | ⟨1, _⟩ => rfl
theorem er52 (n : Fin 4096) (c : Fin 4224) (k : Fin 4096) : ridx_main_v52 (ix2 n c) k = ix2 k c := by
  funext a; match a with | ⟨0, _⟩ => rfl | ⟨1, _⟩ => rfl
theorem el53 (n : Fin 4096) (c : Fin 4224) (k : Fin 4096) : lidx_main_v53 (ix2 n c) k = ix2 n k := by
  funext a; match a with | ⟨0, _⟩ => rfl | ⟨1, _⟩ => rfl
theorem er53 (n : Fin 4096) (c : Fin 4224) (k : Fin 4096) : ridx_main_v53 (ix2 n c) k = ix2 k c := by
  funext a; match a with | ⟨0, _⟩ => rfl | ⟨1, _⟩ => rfl
theorem el59 (n : Fin 4096) (c : Fin 4224) (k : Fin 4096) : lidx_main_v59 (ix2 n c) k = ix2 n k := by
  funext a; match a with | ⟨0, _⟩ => rfl | ⟨1, _⟩ => rfl
theorem er59 (n : Fin 4096) (c : Fin 4224) (k : Fin 4096) : ridx_main_v59 (ix2 n c) k = ix2 k c := by
  funext a; match a with | ⟨0, _⟩ => rfl | ⟨1, _⟩ => rfl
theorem el60 (n : Fin 4096) (c : Fin 4224) (k : Fin 4096) : lidx_main_v60 (ix2 n c) k = ix2 n k := by
  funext a; match a with | ⟨0, _⟩ => rfl | ⟨1, _⟩ => rfl
theorem er60 (n : Fin 4096) (c : Fin 4224) (k : Fin 4096) : ridx_main_v60 (ix2 n c) k = ix2 k c := by
  funext a; match a with | ⟨0, _⟩ => rfl | ⟨1, _⟩ => rfl

theorem e64 (z : Fin 1) (n : Fin 4096) (c : Fin 4224) : idx_main_v64 (ix3 z n c) = ix2 n c := by
  funext a; match a with | ⟨0, _⟩ => rfl | ⟨1, _⟩ => rfl
theorem e65 (z : Fin 1) (n : Fin 4096) (c : Fin 4224) : idx_main_v65 (ix3 z n c) = ix2 n c := by
  funext a; match a with | ⟨0, _⟩ => rfl | ⟨1, _⟩ => rfl
theorem e66 (z : Fin 1) (n : Fin 4096) (c : Fin 4224) : idx_main_v66 (ix3 z n c) = ix2 n c := by
  funext a; match a with | ⟨0, _⟩ => rfl | ⟨1, _⟩ => rfl
theorem e67 (z : Fin 1) (n : Fin 4096) (c : Fin 4224) : idx_main_v67 (ix3 z n c) = ix2 n c := by
  funext a; match a with | ⟨0, _⟩ => rfl | ⟨1, _⟩ => rfl
theorem e68 (z : Fin 1) (n : Fin 4096) (c : Fin 4224) : idx_main_v68 (ix3 z n c) = ix2 n c := by
  funext a; match a with | ⟨0, _⟩ => rfl | ⟨1, _⟩ => rfl

theorem e70 (m : Fin 5) (n : Fin 4096) (i : Fin 66) (b : Fin 64) : idx_main_v70 (ix4 m n i b) = ix3 m n (col i b) := by
  have hm := m.isLt; have hn := n.isLt; have hi := i.isLt; have hb := b.isLt
  funext a; apply Fin.ext
  match a with
  | ⟨0, _⟩ => show (((m.val * 4096 + n.val) * 66 + i.val) * 64 + b.val) / 17301504 = m.val; omega
  | ⟨1, _⟩ => show (((m.val * 4096 + n.val) * 66 + i.val) * 64 + b.val) / 4224 % 4096 = n.val; omega
  | ⟨2, _⟩ => show (((m.val * 4096 + n.val) * 66 + i.val) * 64 + b.val) % 4224 = i.val * 64 + b.val; omega

theorem e71 (b : Fin 64) (n : Fin 4096) (i : Fin 66) (m : Fin 5) : idx_main_v71 (ix4 b n i m) = ix4 m n i b := by
  funext a; match a with | ⟨0, _⟩ => rfl | ⟨1, _⟩ => rfl | ⟨2, _⟩ => rfl | ⟨3, _⟩ => rfl

theorem e72 (b : Fin 64) (n : Fin 4096) (i : Fin 66) (m : Fin 5) :
    idx_main_v72 (ix2 (row b n) (DiffConv.wrow i m)) = ix4 b n i m := by
  have hb := b.isLt; have hn := n.isLt; have hi := i.isLt; have hm := m.isLt
  funext a; apply Fin.ext
  match a with
  | ⟨0, _⟩ => show ((b.val * 4096 + n.val) * 330 + (5 * i.val + m.val)) / 1351680 = b.val; omega
  | ⟨1, _⟩ => show ((b.val * 4096 + n.val) * 330 + (5 * i.val + m.val)) / 330 % 4096 = n.val; omega
  | ⟨2, _⟩ => show ((b.val * 4096 + n.val) * 330 + (5 * i.val + m.val)) / 5 % 66 = i.val; omega
  | ⟨3, _⟩ => show ((b.val * 4096 + n.val) * 330 + (5 * i.val + m.val)) % 5 = m.val; omega

theorem el73 (r : Fin 262144) (o : Fin 64) (q : Fin 330) : lidx_main_v73 (ix2 r o) q = ix2 r q := by
  funext a; match a with | ⟨0, _⟩ => rfl | ⟨1, _⟩ => rfl
theorem er73 (r : Fin 262144) (o : Fin 64) (q : Fin 330) : ridx_main_v73 (ix2 r o) q = ix2 q o := by
  funext a; match a with | ⟨0, _⟩ => rfl | ⟨1, _⟩ => rfl

theorem e74 (z : Fin 1) (o : Fin 64) : idx_main_v74 (ix2 z o) = ix1 o := by
  funext a; match a with | ⟨0, _⟩ => rfl

theorem e75 (r : Fin 262144) (o : Fin 64) : idx_main_v75 (ix2 r o) = ix2 (0 : Fin 1) o := by
  funext a; match a with | ⟨0, _⟩ => rfl | ⟨1, _⟩ => rfl

theorem e77 (b : Fin 64) (n : Fin 4096) (o : Fin 64) (h : n.val * 64 + o.val < 262144) :
    idx_main_v77 (ix2 b ⟨n.val * 64 + o.val, h⟩) = ix2 (row b n) o := by
  have hb := b.isLt; have hn := n.isLt; have ho := o.isLt
  funext a; apply Fin.ext
  match a with
  | ⟨0, _⟩ => show (b.val * 262144 + (n.val * 64 + o.val)) / 64 = b.val * 4096 + n.val; omega
  | ⟨1, _⟩ => show (b.val * 262144 + (n.val * 64 + o.val)) % 64 = o.val; omega

/-! ### The support matrices and the factor two -/

/-- The first support matrix: the leading slab of the supports, its unit axis dropped. -/
theorem v51_at (n k : Fin 4096) : val_main_v51 (F := Ideal) x2 (ix2 n k) = sup0 x2 n k := by
  rw [val_main_v51_apply, e51, val_main_v50_apply, e50]

/-- The second support matrix: the other slab. -/
theorem v58_at (n k : Fin 4096) : val_main_v58 (F := Ideal) x2 (ix2 n k) = sup1 x2 n k := by
  rw [val_main_v58_apply, e58, val_main_v57_apply, e57]

/-- The factor of the recurrence is the word of `2.0` at every entry. -/
theorem v54_at (j : S4096x4224.Idx) : val_main_v54 (F := Ideal) j = DiffConv.two := (val_main_v54_apply j).trans rfl

theorem v61_at (j : S4096x4224.Idx) : val_main_v61 (F := Ideal) j = DiffConv.two := (val_main_v61_apply j).trans rfl

/-! ### The five diffusion orders, as the [4096, 4224] matrices the reference computes -/

/-- Order 0: the features, column `64·i + b` holding slot `i` of batch member `b`. -/
theorem v49_at (n : Fin 4096) (i : Fin 66) (b : Fin 64) :
    val_main_v49 (F := Ideal) x0 x1 x2 x3 x4 (ix2 n (col i b)) = DiffConv.T0 (X2 x0 x1 x2 x3 x4) n b i := by
  rw [val_main_v49_apply, e49, val_main_v48_apply, e48]
  rfl

/-- Order 1: one product with the first support matrix is one diffusion. -/
theorem v52_at (n : Fin 4096) (i : Fin 66) (b : Fin 64) :
    val_main_v52 (F := Ideal) x0 x1 x2 x3 x4 (ix2 n (col i b)) = DiffConv.T1 (X2 x0 x1 x2 x3 x4) (sup0 x2) n b i := by
  rw [val_main_v52_apply]
  show _ = ∑ k : Fin 4096, sup0 x2 n k * DiffConv.T0 (X2 x0 x1 x2 x3 x4) k b i
  refine Finset.sum_congr rfl fun k _ => ?_
  rw [el52, er52, v51_at, v49_at]

/-- The first support matrix applied once more. -/
theorem v53_at (n : Fin 4096) (i : Fin 66) (b : Fin 64) :
    val_main_v53 (F := Ideal) x0 x1 x2 x3 x4 (ix2 n (col i b)) = DiffConv.diffuse (sup0 x2) (DiffConv.T1 (X2 x0 x1 x2 x3 x4) (sup0 x2)) n b i := by
  rw [val_main_v53_apply]
  show _ = ∑ k : Fin 4096, sup0 x2 n k * DiffConv.T1 (X2 x0 x1 x2 x3 x4) (sup0 x2) k b i
  refine Finset.sum_congr rfl fun k _ => ?_
  rw [el53, er53, v51_at, v52_at]

/-- Order 2: twice that, less order 0. -/
theorem v56_at (n : Fin 4096) (i : Fin 66) (b : Fin 64) :
    val_main_v56 (F := Ideal) x0 x1 x2 x3 x4 (ix2 n (col i b)) = DiffConv.T2 (X2 x0 x1 x2 x3 x4) (sup0 x2) n b i := by
  rw [val_main_v56_apply, val_main_v55_apply, v54_at, v53_at, v49_at]
  rfl

/-- Order 3: the second support matrix applied to order 1. -/
theorem v59_at (n : Fin 4096) (i : Fin 66) (b : Fin 64) :
    val_main_v59 (F := Ideal) x0 x1 x2 x3 x4 (ix2 n (col i b)) = DiffConv.T3 (X2 x0 x1 x2 x3 x4) (sup0 x2) (sup1 x2) n b i := by
  rw [val_main_v59_apply]
  show _ = ∑ k : Fin 4096, sup1 x2 n k * DiffConv.T1 (X2 x0 x1 x2 x3 x4) (sup0 x2) k b i
  refine Finset.sum_congr rfl fun k _ => ?_
  rw [el59, er59, v58_at, v52_at]

/-- The second support matrix applied once more. -/
theorem v60_at (n : Fin 4096) (i : Fin 66) (b : Fin 64) :
    val_main_v60 (F := Ideal) x0 x1 x2 x3 x4 (ix2 n (col i b))
      = DiffConv.diffuse (sup1 x2) (DiffConv.T3 (X2 x0 x1 x2 x3 x4) (sup0 x2) (sup1 x2)) n b i := by
  rw [val_main_v60_apply]
  show _ = ∑ k : Fin 4096, sup1 x2 n k * DiffConv.T3 (X2 x0 x1 x2 x3 x4) (sup0 x2) (sup1 x2) k b i
  refine Finset.sum_congr rfl fun k _ => ?_
  rw [el60, er60, v58_at, v59_at]

/-- Order 4: twice that, less order 1. -/
theorem v63_at (n : Fin 4096) (i : Fin 66) (b : Fin 64) :
    val_main_v63 (F := Ideal) x0 x1 x2 x3 x4 (ix2 n (col i b)) = DiffConv.T4 (X2 x0 x1 x2 x3 x4) (sup0 x2) (sup1 x2) n b i := by
  rw [val_main_v63_apply, val_main_v62_apply, v61_at, v60_at, v52_at]
  rfl

/-! ### The stack of the five orders and its second layout -/

/-- The stack of the five matrices at leading coordinate `m` is order `m`. -/
theorem v69_at (m : Fin 5) (n : Fin 4096) (i : Fin 66) (b : Fin 64) :
    val_main_v69 (F := Ideal) x0 x1 x2 x3 x4 (ix3 m n (col i b)) = DiffConv.T (X2 x0 x1 x2 x3 x4) (sup0 x2) (sup1 x2) m n b i := by
  unfold val_main_v69
  rw [stack5_apply]
  match m with
  | ⟨0, _⟩ =>
    show val_main_v64 (F := Ideal) x0 x1 x2 x3 x4 (ix3 (0 : Fin 1) n (col i b)) = DiffConv.T0 (X2 x0 x1 x2 x3 x4) n b i
    rw [val_main_v64_apply, e64, v49_at]
  | ⟨1, _⟩ =>
    show val_main_v65 (F := Ideal) x0 x1 x2 x3 x4 (ix3 (0 : Fin 1) n (col i b)) = DiffConv.T1 (X2 x0 x1 x2 x3 x4) (sup0 x2) n b i
    rw [val_main_v65_apply, e65, v52_at]
  | ⟨2, _⟩ =>
    show val_main_v66 (F := Ideal) x0 x1 x2 x3 x4 (ix3 (0 : Fin 1) n (col i b)) = DiffConv.T2 (X2 x0 x1 x2 x3 x4) (sup0 x2) n b i
    rw [val_main_v66_apply, e66, v56_at]
  | ⟨3, _⟩ =>
    show val_main_v67 (F := Ideal) x0 x1 x2 x3 x4 (ix3 (0 : Fin 1) n (col i b)) = DiffConv.T3 (X2 x0 x1 x2 x3 x4) (sup0 x2) (sup1 x2) n b i
    rw [val_main_v67_apply, e67, v59_at]
  | ⟨4, _⟩ =>
    show val_main_v68 (F := Ideal) x0 x1 x2 x3 x4 (ix3 (0 : Fin 1) n (col i b)) = DiffConv.T4 (X2 x0 x1 x2 x3 x4) (sup0 x2) (sup1 x2) n b i
    rw [val_main_v68_apply, e68, v63_at]

/-- The stack laid out as a [262144, 330] matrix: row `4096·b + n`, column `5·i + m` holds order `m` of slot `i`. -/
theorem v72_at (b : Fin 64) (n : Fin 4096) (i : Fin 66) (m : Fin 5) :
    val_main_v72 (F := Ideal) x0 x1 x2 x3 x4 (ix2 (row b n) (DiffConv.wrow i m)) = DiffConv.T (X2 x0 x1 x2 x3 x4) (sup0 x2) (sup1 x2) m n b i := by
  rw [val_main_v72_apply, e72, val_main_v71_apply, e71, val_main_v70_apply, e70, v69_at]

end ConvSecond

/-- The second convolution's output entry: the one sum over the 330 weight rows is the specification's double sum
    over feature slots and orders, and the bias row is added. -/
theorem v77_apply (b : Fin 64) (n : Fin 4096) (o : Fin 64) :
    val_main_v77 (F := Ideal) x0 x1 x2 x3 x4 x5 x6 (ix2 b ⟨n.val * 64 + o.val, by have := n.isLt; have := o.isLt; omega⟩)
      = DiffConv.conv (fun b n i => val_main_v47 (F := Ideal) x0 x1 x2 x3 x4 (ix3 b n i)) (sup0 x2) (sup1 x2)
          (fun q o => x5 (ix2 q o)) (fun o => x6 (ix1 o)) b n o := by
  rw [val_main_v77_apply, e77, val_main_v76_apply, val_main_v73_apply, val_main_v75_apply, e75, val_main_v74_apply, e74, sum_rows]
  unfold DiffConv.conv
  show (∑ i : Fin 66, ∑ m : Fin 5, _) + x6 (ix1 o) = (∑ i : Fin 66, ∑ m : Fin 5, _) + x6 (ix1 o)
  congr 1
  refine Finset.sum_congr rfl fun i _ => Finset.sum_congr rfl fun m _ => ?_
  rw [el73, er73, v72_at]

/-! ## The operations around the convolutions are the shared ones -/

/-- the operations around the convolutions are the shared ones -/
theorem v2_eq : val_main_v2 (F := Ideal) x0 x1 = Cert.KernelIdeal.Tails.feat x0 x1 := by
  unfold val_main_v2 val_main_v0 val_main_v1 Cert.KernelIdeal.Tails.feat
  rfl

theorem v47_eq : val_main_v47 (F := Ideal) x0 x1 x2 x3 x4
    = Cert.KernelIdeal.Tails.feat2 x0 x1 (val_main_v32 (F := Ideal) x0 x1 x2 x3 x4) := by
  unfold val_main_v47 val_main_v45 val_main_v46 val_main_v44 val_main_v41 val_main_v40 val_main_v39 val_main_v38
    val_main_v37 val_main_v36 val_main_v35 val_main_v34 val_main_v33 val_main_cst_1 val_main_cst_2
    Cert.KernelIdeal.Tails.feat2 Cert.KernelIdeal.Tails.feat Cert.KernelIdeal.Tails.rOf Cert.KernelIdeal.Tails.gate
  rfl

theorem v43_eq : val_main_v43 (F := Ideal) x0 x1 x2 x3 x4
    = Cert.KernelIdeal.Tails.uOf (val_main_v32 (F := Ideal) x0 x1 x2 x3 x4) := by
  unfold val_main_v43 val_main_v42 val_main_v39 val_main_v38 val_main_v37 val_main_v36 val_main_v35 val_main_v34
    val_main_v33 val_main_cst_1 val_main_cst_2 Cert.KernelIdeal.Tails.uOf Cert.KernelIdeal.Tails.gate
  rfl

theorem v83_eq : val_main_v83 (F := Ideal) x0 x1 x2 x3 x4 x5 x6
    = Cert.KernelIdeal.Tails.out (val_main_v43 (F := Ideal) x0 x1 x2 x3 x4) x1
        (val_main_v77 (F := Ideal) x0 x1 x2 x3 x4 x5 x6) := by
  unfold val_main_v83 val_main_v79 val_main_v82 val_main_v81 val_main_v80 val_main_v78 val_main_cst_5
    Cert.KernelIdeal.Tails.out
  rfl

end Cert.ReferenceIdeal.RefVal

end
-- ==== Proof.Bridge.lean ====
/-
  The two programs end with the same array.

  Both end with `u * hx + (1 − u) * tanh z2`, `u` the update gate of the first convolution's output `z1`, `z2` the second
  convolution's output on the features built from the reset gate of `z1`. Entry by entry each program's `z1` is the
  convolution `DiffConv.conv` of the same features, supports, weights and bias, so the two `z1` are one array; the
  second features are then the same, and so are the two `z2`, and the results.
-/
import proofs.«405468_j48026324304060_3_alg».proof.Proof.KChain
import proofs.«405468_j48026324304060_3_alg».proof.Proof.RefGconv

set_option maxRecDepth 16384

noncomputable section

namespace Cert.KernelIdeal.Bridge

open Cert.KernelIdeal Cert.KernelIdeal.Gen Cert.KernelIdeal.Chain
open Idealize.ShloMosaic Idealize.ShloMosaic.TcCoe Idealize.ShloMosaic.ValueIdx
open Cert.ReferenceIdeal.ReadP Cert.ReferenceIdeal.RefVal

variable (m : (ℓ : Loc nD τ sig) → Buf (Elt Ideal) ℓ) (ρ : Dev nD → PrngReg) (c : Dev nD)

/-- The first convolution's output is the reference's. -/
theorem first_eq : ZA m ρ c = val_main_v32 (F := Ideal) (inp m c) (hx m c) (sup m c) (wfn m c) (bfn m c) := by
  funext j
  obtain ⟨b, q, rfl⟩ : ∃ (b : Fin 64) (q : Fin 524288), j = ix2 b q := ⟨j 0, j 1, eq_ix2 j⟩
  have hq : q = ⟨(⟨q.val / 128, by have := q.isLt; omega⟩ : Fin 4096).val * 128 + (⟨q.val % 128, Nat.mod_lt _ (by decide)⟩ : Fin 128).val,
      by have := q.isLt; show q.val / 128 * 128 + q.val % 128 < 524288; omega⟩ :=
    Fin.ext (by show q.val = q.val / 128 * 128 + q.val % 128; omega)
  rw [hq, ZA_apply m ρ c b ⟨q.val / 128, by have := q.isLt; omega⟩ ⟨q.val % 128, Nat.mod_lt _ (by decide)⟩,
    v32_apply (inp m c) (hx m c) (sup m c) (wfn m c) (bfn m c) b ⟨q.val / 128, by have := q.isLt; omega⟩ ⟨q.val % 128, Nat.mod_lt _ (by decide)⟩,
    v2_eq]

/-- The second convolution's output is the reference's. -/
theorem second_eq : ZB m ρ c
    = val_main_v77 (F := Ideal) (inp m c) (hx m c) (sup m c) (wfn m c) (bfn m c) (wg m c) (bg m c) := by
  funext j
  obtain ⟨b, q, rfl⟩ : ∃ (b : Fin 64) (q : Fin 262144), j = ix2 b q := ⟨j 0, j 1, eq_ix2 j⟩
  have hq : q = ⟨(⟨q.val / 64, by have := q.isLt; omega⟩ : Fin 4096).val * 64 + (⟨q.val % 64, Nat.mod_lt _ (by decide)⟩ : Fin 64).val,
      by have := q.isLt; show q.val / 64 * 64 + q.val % 64 < 262144; omega⟩ :=
    Fin.ext (by show q.val = q.val / 64 * 64 + q.val % 64; omega)
  rw [hq, ZB_apply m ρ c b ⟨q.val / 64, by have := q.isLt; omega⟩ ⟨q.val % 64, Nat.mod_lt _ (by decide)⟩,
    v77_apply (inp m c) (hx m c) (sup m c) (wfn m c) (bfn m c) (wg m c) (bg m c) b ⟨q.val / 64, by have := q.isLt; omega⟩ ⟨q.val % 64, Nat.mod_lt _ (by decide)⟩,
    v47_eq, ← first_eq m ρ c]

/-- The kernel program's result buffer at the return is the reference's last stage on the same arguments. -/
theorem result_eq : (W11 m ρ c (Proc.devRef .tc main_v108) : Vec Ideal S64x262144 .f32)
    = val_main_v83 (F := Ideal) (inp m c) (hx m c) (sup m c) (wfn m c) (bfn m c) (wg m c) (bg m c) := by
  rw [Chain.result_eq m ρ c, v83_eq, v43_eq, ← first_eq m ρ c, ← second_eq m ρ c]

end Cert.KernelIdeal.Bridge

end
-- ==== Proof.lean ====
/-
  The certificate of a diffusion-convolution recurrent cell: a kernel program of eight matrix-product calls among
  three stretches of host operations against a plain array program.

  The three frames are the programs' runs. Nothing was rewritten by the idealization. For the equivalence over the
  extended reals: the kernel program's run ends with its result buffer at the last boundary's contents, which is
  the reference's last stage on the same arguments (`Bridge.result_eq`): both are `u * hx + (1 − u) * tanh z2` around
  two diffusion convolutions that agree entry by entry, the kernel's matrix products accumulated block by block and
  its projection one diffusion order at a time where the reference contracts once.
-/
import proofs.«405468_j48026324304060_3_alg».proof.Defs
import proofs.«405468_j48026324304060_3_alg».proof.Proof.Gen.Kernel
import proofs.«405468_j48026324304060_3_alg».proof.Proof.Gen.Kernel.Frame
import proofs.«405468_j48026324304060_3_alg».proof.Proof.Gen.KernelIdeal
import proofs.«405468_j48026324304060_3_alg».proof.Proof.Gen.KernelIdeal.Frame
import proofs.«405468_j48026324304060_3_alg».proof.Proof.Gen.ReferenceIdeal
import proofs.«405468_j48026324304060_3_alg».proof.Proof.RefRun
import proofs.«405468_j48026324304060_3_alg».proof.Proof.Gen.Pre_finite_inputs
import proofs.«405468_j48026324304060_3_alg».proof.Proof.KRun
import proofs.«405468_j48026324304060_3_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RunP.run m ρ)

/-- Both programs end, from memories agreeing on the arguments, with the same result array. -/
theorem algebraic : Cert.algebraic_KernelIdeal_ReferenceIdeal := by
  intro m ρ m' ρ' _ hagree
  refine ⟨fun c => Cert.KernelIdeal.Gen.W11 m ρ c (Proc.devRef .tc Cert.KernelIdeal.main_v108),
    Cert.KernelIdeal.GenRun.run_result m ρ, ?_⟩
  refine (θ_run Cert.ReferenceIdeal.defs _ _).mono (fun _ h c => ⟨(h c).1.trans ?_, (h c).2⟩)
    (Cert.ReferenceIdeal.RunP.run m' ρ')
  rw [(hagree c).1, (hagree c).2.1, (hagree c).2.2.1, (hagree c).2.2.2.1,
    (hagree c).2.2.2.2.1, (hagree c).2.2.2.2.2.1, (hagree c).2.2.2.2.2.2]
  exact (Cert.KernelIdeal.Bridge.result_eq m ρ c).symm

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, trivial, algebraic⟩

end Cert.Proof

end
